-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v141)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v141) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S256x8192 : Shape := ⟨2, ![256, 8192]⟩
abbrev S256x8 : Shape := ⟨2, ![256, 8]⟩
abbrev S_ : Shape := ⟨0, ![]⟩

class Facts : Prop where
  bcast_S_S256x8192 : S_.BroadcastsInDim S256x8192 (![] : Fin 0 → Fin S256x8192.rank)
  reducesTo_S256x8192_S_d0_1 : S256x8192.ReducesTo [0, 1] S_
  h_S_ : 0 < S_.numel
  bcast_S_S256x8 : S_.BroadcastsInDim S256x8 (![] : Fin 0 → Fin S256x8.rank)
  reducesTo_S256x8_S_d0_1 : S256x8.ReducesTo [0, 1] S_

variable [Facts]

def fn_part1 {F : FTy → Type} [FloatOps F] (main_arg3 : IVec S256x8 32) (main_v12 : IVec S_ 1) (main_v15 : IVec S_ 1) : IVec S_ 1 :=
  let main_v16 : IVec S_ 1 := andi main_v12 main_v15
  let main_c_6 : IVec S_ 32 := constantI S_ 32 0#32
  let main_v17 : IVec S256x8 32 := broadcastInDim S256x8 ![] bcast_S_S256x8 main_c_6
  let main_v18 : IVec S256x8 1 := cmpi .sge main_arg3 main_v17
  let main_c_7 : IVec S_ 1 := constantI S_ 1 1#1
  let main_v19 : IVec S_ 1 := (fun x v => Host.reduce IntOp.andi x v reducesTo_S256x8_S_d0_1 h_S_) main_v18 main_c_7
  let main_v20 : IVec S_ 1 := andi main_v16 main_v19
  let main_c_8 : IVec S_ 32 := constantI S_ 32 8192#32
  let main_v21 : IVec S256x8 32 := broadcastInDim S256x8 ![] bcast_S_S256x8 main_c_8
  let main_v22 : IVec S256x8 1 := cmpi .slt main_arg3 main_v21
  let main_c_9 : IVec S_ 1 := constantI S_ 1 1#1
  let main_v23 : IVec S_ 1 := (fun x v => Host.reduce IntOp.andi x v reducesTo_S256x8_S_d0_1 h_S_) main_v22 main_c_9
  let main_v24 : IVec S_ 1 := andi main_v20 main_v23
  main_v24

def fn {F : FTy → Type} [FloatOps F] (main_arg0 : FVec F S256x8192 .f32) (main_arg1 : FVec F S256x8192 .f32) (main_arg2 : IVec S256x8 32) (main_arg3 : IVec S256x8 32) : IVec S_ 1 :=
  let main_v0 : FVec F S256x8192 .f32 := Host.absf main_arg0
  let main_cst : FVec F S_ .f32 := constant S_ .f32 0x7F800000#32
  let main_v1 : FVec F S256x8192 .f32 := broadcastInDim S256x8192 ![] bcast_S_S256x8192 main_cst
  let main_v2 : IVec S256x8192 1 := cmpf .olt main_v0 main_v1
  let main_c : IVec S_ 1 := constantI S_ 1 1#1
  let main_v3 : IVec S_ 1 := (fun x v => Host.reduce IntOp.andi x v reducesTo_S256x8192_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_c_2 : IVec S_ 32 := constantI S_ 32 0#32
  let main_v9 : IVec S256x8 32 := broadcastInDim S256x8 ![] bcast_S_S256x8 main_c_2
  let main_v10 : IVec S256x8 1 := cmpi .sge main_arg2 main_v9
  let main_c_3 : IVec S_ 1 := constantI S_ 1 1#1
  let main_v11 : IVec S_ 1 := (fun x v => Host.reduce IntOp.andi x v reducesTo_S256x8_S_d0_1 h_S_) main_v10 main_c_3
  let main_v12 : IVec S_ 1 := andi main_v8 main_v11
  let main_c_4 : IVec S_ 32 := constantI S_ 32 8192#32
  let main_v13 : IVec S256x8 32 := broadcastInDim S256x8 ![] bcast_S_S256x8 main_c_4
  let main_v14 : IVec S256x8 1 := cmpi .slt main_arg2 main_v13
  let main_c_5 : IVec S_ 1 := constantI S_ 1 1#1
  let main_v15 : IVec S_ 1 := (fun x v => Host.reduce IntOp.andi x v reducesTo_S256x8_S_d0_1 h_S_) main_v14 main_c_5
  fn_part1 (F := F) main_arg3 main_v12 main_v15
-- ==== Kernel.lean ====
abbrev S256x8192 : Shape := ⟨2, ![256, 8192]⟩
abbrev S256x8 : Shape := ⟨2, ![256, 8]⟩
abbrev S2x8x128 : Shape := ⟨3, ![2, 8, 128]⟩
abbrev S128x2048 : Shape := ⟨2, ![128, 2048]⟩
abbrev S128x8 : Shape := ⟨2, ![128, 8]⟩
abbrev S1x8x128 : Shape := ⟨3, ![1, 8, 128]⟩
abbrev S1x2048 : Shape := ⟨2, ![1, 2048]⟩
abbrev S128x1 : Shape := ⟨2, ![128, 1]⟩
abbrev S16x8x16x128 : Shape := ⟨4, ![16, 8, 16, 128]⟩
abbrev S8x128 : Shape := ⟨2, ![8, 128]⟩
abbrev S_ : Shape := ⟨0, ![]⟩
abbrev S256x1x8 : Shape := ⟨3, ![256, 1, 8]⟩
abbrev S256x8x1 : Shape := ⟨3, ![256, 8, 1]⟩
abbrev S256x8x8 : Shape := ⟨3, ![256, 8, 8]⟩
abbrev S1 : Shape := ⟨1, ![1]⟩
abbrev S1x1x1 : Shape := ⟨3, ![1, 1, 1]⟩
abbrev S8 : Shape := ⟨1, ![8]⟩
abbrev S1x8x1 : Shape := ⟨3, ![1, 8, 1]⟩
abbrev S1x1x8 : Shape := ⟨3, ![1, 1, 8]⟩
abbrev S1x8x8 : Shape := ⟨3, ![1, 8, 8]⟩

abbrev nBuf : Space → Nat
  | .hbm => 229
  | .vmem => 10
  | .smem => 0
  | _ => 0

abbrev hbmTy0_0 (i : Nat) : BufTy := match i % 128 with
  | 0 => ⟨S256x8192, .f32⟩
  | 1 => ⟨S256x8192, .f32⟩
  | 2 => ⟨S256x8, .i32⟩
  | 3 => ⟨S256x8, .i32⟩
  | 4 => ⟨S2x8x128, .f32⟩
  | 5 => ⟨S_, .f32⟩
  | 6 => ⟨S_, .f32⟩
  | 7 => ⟨S256x8, .i1⟩
  | 8 => ⟨S256x8, .i32⟩
  | 9 => ⟨S_, .i32⟩
  | 10 => ⟨S256x8, .i32⟩
  | 11 => ⟨S256x8, .i32⟩
  | 12 => ⟨S256x8, .f32⟩
  | 13 => ⟨S256x1x8, .i32⟩
  | 14 => ⟨S256x8x1, .i32⟩
  | 15 => ⟨S256x8x8, .i32⟩
  | 16 => ⟨S256x8x8, .i32⟩
  | 17 => ⟨S256x8x8, .i1⟩
  | 18 => ⟨S256x8x1, .i32⟩
  | 19 => ⟨S256x1x8, .i32⟩
  | 20 => ⟨S256x8x8, .i32⟩
  | 21 => ⟨S256x8x8, .i32⟩
  | 22 => ⟨S256x8x8, .i1⟩
  | 23 => ⟨S256x8x8, .i1⟩
  | 24 => ⟨S256x1x8, .i1⟩
  | 25 => ⟨S256x8x8, .i1⟩
  | 26 => ⟨S256x8x8, .i1⟩
  | 27 => ⟨S256x1x8, .f32⟩
  | 28 => ⟨S_, .f32⟩
  | 29 => ⟨S256x1x8, .f32⟩
  | 30 => ⟨S256x1x8, .f32⟩
  | 31 => ⟨S_, .f32⟩
  | 32 => ⟨S_, .f32⟩
  | 33 => ⟨S256x8x8, .f32⟩
  | 34 => ⟨S256x8x8, .f32⟩
  | 35 => ⟨S256x8x8, .f32⟩
  | 36 => ⟨S_, .f32⟩
  | 37 => ⟨S256x8, .f32⟩
  | 38 => ⟨S_, .f32⟩
  | 39 => ⟨S256x8, .f32⟩
  | 40 => ⟨S256x8, .f32⟩
  | 41 => ⟨S_, .f32⟩
  | 42 => ⟨S256x8, .f32⟩
  | 43 => ⟨S256x8, .f32⟩
  | 44 => ⟨S_, .f32⟩
  | 45 => ⟨S256x8, .f32⟩
  | 46 => ⟨S256x8, .f32⟩
  | 47 => ⟨S_, .i32⟩
  | 48 => ⟨S256x8, .i32⟩
  | 49 => ⟨S256x8, .i1⟩
  | 50 => ⟨S_, .i32⟩
  | 51 => ⟨S256x8, .i32⟩
  | 52 => ⟨S256x8, .i32⟩
  | 53 => ⟨S256x8, .i32⟩
  | 54 => ⟨S256x8x1, .i32⟩
  | 55 => ⟨S1, .i32⟩
  | 56 => ⟨S_, .i32⟩
  | 57 => ⟨S256x8x1, .i32⟩
  | 58 => ⟨S256x8x1, .i1⟩
  | 59 => ⟨S1x1x1, .i32⟩
  | 60 => ⟨S256x8x1, .i32⟩
  | 61 => ⟨S256x8x1, .i1⟩
  | 62 => ⟨S256x8x1, .i1⟩
  | 63 => ⟨S_, .i1⟩
  | 64 => ⟨S256x8, .i1⟩
  | 65 => ⟨S256x8, .f32⟩
  | 66 => ⟨S_, .f32⟩
  | 67 => ⟨S256x8, .f32⟩
  | 68 => ⟨S256x8, .f32⟩
  | 69 => ⟨S_, .f32⟩
  | 70 => ⟨S256x8, .f32⟩
  | 71 => ⟨S256x8, .f32⟩
  | 72 => ⟨S_, .f32⟩
  | 73 => ⟨S256x8, .f32⟩
  | 74 => ⟨S256x8, .f32⟩
  | 75 => ⟨S256x8, .f32⟩
  | 76 => ⟨S256x8, .f32⟩
  | 77 => ⟨S256x8, .f32⟩
  | 78 => ⟨S256x8, .f32⟩
  | 79 => ⟨S256x8, .f32⟩
  | 80 => ⟨S256x8, .f32⟩
  | 81 => ⟨S_, .f32⟩
  | 82 => ⟨S256x8, .f32⟩
  | 83 => ⟨S256x8, .f32⟩
  | 84 => ⟨S_, .f32⟩
  | 85 => ⟨S256x8, .f32⟩
  | 86 => ⟨S256x8, .f32⟩
  | 87 => ⟨S_, .f32⟩
  | 88 => ⟨S256x8, .f32⟩
  | 89 => ⟨S256x8, .f32⟩
  | 90 => ⟨S256x8, .f32⟩
  | 91 => ⟨S256x8, .f32⟩
  | 92 => ⟨S256x8, .f32⟩
  | 93 => ⟨S256x8, .f32⟩
  | 94 => ⟨S256x8, .f32⟩
  | 95 => ⟨S256x8, .f32⟩
  | 96 => ⟨S256x8, .f32⟩
  | 97 => ⟨S256x8, .f32⟩
  | 98 => ⟨S256x8x1, .i32⟩
  | 99 => ⟨S256x1x8, .i32⟩
  | 100 => ⟨S256x8x8, .i32⟩
  | 101 => ⟨S256x8x8, .i32⟩
  | 102 => ⟨S256x8x8, .i1⟩
  | 103 => ⟨S8, .i32⟩
  | 104 => ⟨S1x8x1, .i32⟩
  | 105 => ⟨S1x1x8, .i32⟩
  | 106 => ⟨S1x8x8, .i32⟩
  | 107 => ⟨S1x8x8, .i32⟩
  | 108 => ⟨S1x8x8, .i1⟩
  | 109 => ⟨S256x8x8, .i1⟩
  | 110 => ⟨S256x8x8, .i1⟩
  | 111 => ⟨S_, .i1⟩
  | 112 => ⟨S256x8, .i1⟩
  | 113 => ⟨S_, .f32⟩
  | 114 => ⟨S_, .f32⟩
  | 115 => ⟨S256x8, .f32⟩
  | 116 => ⟨S256x8, .f32⟩
  | 117 => ⟨S_, .f32⟩
  | 118 => ⟨S_, .f32⟩
  | 119 => ⟨S256x1x8, .i32⟩
  | 120 => ⟨S256x8x1, .i32⟩
  | 121 => ⟨S256x8x8, .i32⟩
  | 122 => ⟨S256x8x8, .i32⟩
  | 123 => ⟨S256x8x8, .i1⟩
  | 124 => ⟨S256x8x1, .i32⟩
  | 125 => ⟨S256x1x8, .i32⟩
  | 126 => ⟨S256x8x8, .i32⟩
  | 127 => ⟨S256x8x8, .i32⟩
  | _ => ⟨S256x8192, .f32⟩

abbrev hbmTy0_1 (i : Nat) : BufTy := match i % 128 with
  | 0 => ⟨S256x8x8, .i1⟩
  | 1 => ⟨S256x8x8, .i1⟩
  | 2 => ⟨S256x1x8, .i1⟩
  | 3 => ⟨S256x8x8, .i1⟩
  | 4 => ⟨S256x8x8, .i1⟩
  | 5 => ⟨S256x1x8, .f32⟩
  | 6 => ⟨S_, .f32⟩
  | 7 => ⟨S256x1x8, .f32⟩
  | 8 => ⟨S256x1x8, .f32⟩
  | 9 => ⟨S_, .f32⟩
  | 10 => ⟨S_, .f32⟩
  | 11 => ⟨S256x8x8, .f32⟩
  | 12 => ⟨S256x8x8, .f32⟩
  | 13 => ⟨S256x8x8, .f32⟩
  | 14 => ⟨S_, .f32⟩
  | 15 => ⟨S256x8, .f32⟩
  | 16 => ⟨S_, .f32⟩
  | 17 => ⟨S256x8, .f32⟩
  | 18 => ⟨S256x8, .f32⟩
  | 19 => ⟨S_, .f32⟩
  | 20 => ⟨S256x8, .f32⟩
  | 21 => ⟨S256x8, .f32⟩
  | 22 => ⟨S_, .f32⟩
  | 23 => ⟨S256x8, .f32⟩
  | 24 => ⟨S256x8, .f32⟩
  | 25 => ⟨S_, .i32⟩
  | 26 => ⟨S256x8, .i32⟩
  | 27 => ⟨S256x8, .i1⟩
  | 28 => ⟨S_, .i32⟩
  | 29 => ⟨S256x8, .i32⟩
  | 30 => ⟨S256x8, .i32⟩
  | 31 => ⟨S256x8, .i32⟩
  | 32 => ⟨S256x8x1, .i32⟩
  | 33 => ⟨S1, .i32⟩
  | 34 => ⟨S_, .i32⟩
  | 35 => ⟨S256x8x1, .i32⟩
  | 36 => ⟨S256x8x1, .i1⟩
  | 37 => ⟨S1x1x1, .i32⟩
  | 38 => ⟨S256x8x1, .i32⟩
  | 39 => ⟨S256x8x1, .i1⟩
  | 40 => ⟨S256x8x1, .i1⟩
  | 41 => ⟨S_, .i1⟩
  | 42 => ⟨S256x8, .i1⟩
  | 43 => ⟨S256x8, .f32⟩
  | 44 => ⟨S_, .f32⟩
  | 45 => ⟨S256x8, .f32⟩
  | 46 => ⟨S256x8, .f32⟩
  | 47 => ⟨S_, .f32⟩
  | 48 => ⟨S256x8, .f32⟩
  | 49 => ⟨S256x8, .f32⟩
  | 50 => ⟨S_, .f32⟩
  | 51 => ⟨S256x8, .f32⟩
  | 52 => ⟨S256x8, .f32⟩
  | 53 => ⟨S256x8, .f32⟩
  | 54 => ⟨S256x8, .f32⟩
  | 55 => ⟨S256x8, .f32⟩
  | 56 => ⟨S256x8, .f32⟩
  | 57 => ⟨S256x8, .f32⟩
  | 58 => ⟨S256x8, .f32⟩
  | 59 => ⟨S_, .f32⟩
  | 60 => ⟨S256x8, .f32⟩
  | 61 => ⟨S256x8, .f32⟩
  | 62 => ⟨S_, .f32⟩
  | 63 => ⟨S256x8, .f32⟩
  | 64 => ⟨S256x8, .f32⟩
  | 65 => ⟨S_, .f32⟩
  | 66 => ⟨S256x8, .f32⟩
  | 67 => ⟨S256x8, .f32⟩
  | 68 => ⟨S256x8, .f32⟩
  | 69 => ⟨S256x8, .f32⟩
  | 70 => ⟨S256x8, .f32⟩
  | 71 => ⟨S256x8, .f32⟩
  | 72 => ⟨S256x8, .f32⟩
  | 73 => ⟨S256x8, .f32⟩
  | 74 => ⟨S256x8, .f32⟩
  | 75 => ⟨S256x8, .f32⟩
  | 76 => ⟨S256x8x1, .i32⟩
  | 77 => ⟨S256x1x8, .i32⟩
  | 78 => ⟨S256x8x8, .i32⟩
  | 79 => ⟨S256x8x8, .i32⟩
  | 80 => ⟨S256x8x8, .i1⟩
  | 81 => ⟨S8, .i32⟩
  | 82 => ⟨S1x8x1, .i32⟩
  | 83 => ⟨S1x1x8, .i32⟩
  | 84 => ⟨S1x8x8, .i32⟩
  | 85 => ⟨S1x8x8, .i32⟩
  | 86 => ⟨S1x8x8, .i1⟩
  | 87 => ⟨S256x8x8, .i1⟩
  | 88 => ⟨S256x8x8, .i1⟩
  | 89 => ⟨S_, .i1⟩
  | 90 => ⟨S256x8, .i1⟩
  | 91 => ⟨S_, .f32⟩
  | 92 => ⟨S_, .f32⟩
  | 93 => ⟨S256x8, .f32⟩
  | 94 => ⟨S256x8, .f32⟩
  | 95 => ⟨S_, .f32⟩
  | 96 => ⟨S_, .f32⟩
  | 97 => ⟨S_, .f32⟩
  | 98 => ⟨S_, .f32⟩
  | 99 => ⟨S_, .f32⟩
  | 100 => ⟨S_, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | .local _ .vmem, ⟨0, _⟩ => ⟨S128x2048, .f32⟩
  | .local _ .vmem, ⟨1, _⟩ => ⟨S128x2048, .f32⟩
  | .local _ .vmem, ⟨2, _⟩ => ⟨S128x2048, .f32⟩
  | .local _ .vmem, ⟨3, _⟩ => ⟨S128x2048, .f32⟩
  | .local _ .vmem, ⟨4, _⟩ => ⟨S128x8, .i32⟩
  | .local _ .vmem, ⟨5, _⟩ => ⟨S128x8, .i32⟩
  | .local _ .vmem, ⟨6, _⟩ => ⟨S128x8, .i32⟩
  | .local _ .vmem, ⟨7, _⟩ => ⟨S128x8, .i32⟩
  | .local _ .vmem, ⟨8, _⟩ => ⟨S1x8x128, .f32⟩
  | .local _ .vmem, ⟨9, _⟩ => ⟨S1x8x128, .f32⟩
  | _, _ => ⟨S256x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_c : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_cst_0 : Ref sig .tc := ⟨.hbm, 28, rfl⟩
abbrev main_v22 : Ref sig .tc := ⟨.hbm, 29, rfl⟩
abbrev main_v23 : Ref sig .tc := ⟨.hbm, 30, rfl⟩
abbrev main_cst_1 : Ref sig .tc := ⟨.hbm, 31, rfl⟩
abbrev main_call0_v0 : Ref sig .tc := ⟨.hbm, 32, rfl⟩
abbrev main_call0_v1 : Ref sig .tc := ⟨.hbm, 33, rfl⟩
abbrev main_call0_v2 : Ref sig .tc := ⟨.hbm, 34, rfl⟩
abbrev main_v24 : Ref sig .tc := ⟨.hbm, 35, rfl⟩
abbrev main_cst_2 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_cst : Ref sig .tc := ⟨.hbm, 66, rfl⟩
abbrev main_call1_v14 : Ref sig .tc := ⟨.hbm, 67, rfl⟩
abbrev main_v32 : Ref sig .tc := ⟨.hbm, 68, rfl⟩
abbrev main_cst_6 : Ref sig .tc := ⟨.hbm, 69, rfl⟩
abbrev main_v33 : Ref sig .tc := ⟨.hbm, 70, rfl⟩
abbrev main_v34 : Ref sig .tc := ⟨.hbm, 71, rfl⟩
abbrev main_cst_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_cst_8 : Ref sig .tc := ⟨.hbm, 81, rfl⟩
abbrev main_v43 : Ref sig .tc := ⟨.hbm, 82, rfl⟩
abbrev main_v44 : Ref sig .tc := ⟨.hbm, 83, rfl⟩
abbrev main_cst_9 : Ref sig .tc := ⟨.hbm, 84, rfl⟩
abbrev main_v45 : Ref sig .tc := ⟨.hbm, 85, rfl⟩
abbrev main_v46 : Ref sig .tc := ⟨.hbm, 86, rfl⟩
abbrev main_cst_10 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_v50 : Ref sig .tc := ⟨.hbm, 91, rfl⟩
abbrev main_v51 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_c_11 : Ref sig .tc := ⟨.hbm, 111, rfl⟩
abbrev main_v70 : Ref sig .tc := ⟨.hbm, 112, rfl⟩
abbrev main_cst_12 : Ref sig .tc := ⟨.hbm, 113, rfl⟩
abbrev main_call2_v0 : Ref sig .tc := ⟨.hbm, 114, rfl⟩
abbrev main_call2_v1 : Ref sig .tc := ⟨.hbm, 115, rfl⟩
abbrev main_v71 : Ref sig .tc := ⟨.hbm, 116, rfl⟩
abbrev main_cst_13 : Ref sig .tc := ⟨.hbm, 117, rfl⟩
abbrev main_v72 : Ref sig .tc := ⟨.hbm, 118, rfl⟩
abbrev main_v73 : Ref sig .tc := ⟨.hbm, 119, rfl⟩
abbrev main_v74 : Ref sig .tc := ⟨.hbm, 120, rfl⟩
abbrev main_v75 : Ref sig .tc := ⟨.hbm, 121, rfl⟩
abbrev main_v76 : Ref sig .tc := ⟨.hbm, 122, rfl⟩
abbrev main_v77 : Ref sig .tc := ⟨.hbm, 123, rfl⟩
abbrev main_v78 : Ref sig .tc := ⟨.hbm, 124, rfl⟩
abbrev main_v79 : Ref sig .tc := ⟨.hbm, 125, rfl⟩
abbrev main_v80 : Ref sig .tc := ⟨.hbm, 126, rfl⟩
abbrev main_v81 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_v86 : Ref sig .tc := ⟨.hbm, 132, rfl⟩
abbrev main_v87 : Ref sig .tc := ⟨.hbm, 133, rfl⟩
abbrev main_cst_14 : Ref sig .tc := ⟨.hbm, 134, rfl⟩
abbrev main_v88 : Ref sig .tc := ⟨.hbm, 135, rfl⟩
abbrev main_v89 : Ref sig .tc := ⟨.hbm, 136, rfl⟩
abbrev main_cst_15 : Ref sig .tc := ⟨.hbm, 137, rfl⟩
abbrev main_call3_v0 : Ref sig .tc := ⟨.hbm, 138, rfl⟩
abbrev main_call3_v1 : Ref sig .tc := ⟨.hbm, 139, rfl⟩
abbrev main_call3_v2 : Ref sig .tc := ⟨.hbm, 140, rfl⟩
abbrev main_v90 : Ref sig .tc := ⟨.hbm, 141, rfl⟩
abbrev main_cst_16 : Ref sig .tc := ⟨.hbm, 142, rfl⟩
abbrev main_v91 : Ref sig .tc := ⟨.hbm, 143, rfl⟩
abbrev main_cst_17 : Ref sig .tc := ⟨.hbm, 144, rfl⟩
abbrev main_v92 : Ref sig .tc := ⟨.hbm, 145, rfl⟩
abbrev main_v93 : Ref sig .tc := ⟨.hbm, 146, rfl⟩
abbrev main_cst_18 : Ref sig .tc := ⟨.hbm, 147, rfl⟩
abbrev main_v94 : Ref sig .tc := ⟨.hbm, 148, rfl⟩
abbrev main_v95 : Ref sig .tc := ⟨.hbm, 149, rfl⟩
abbrev main_cst_19 : Ref sig .tc := ⟨.hbm, 150, rfl⟩
abbrev main_v96 : Ref sig .tc := ⟨.hbm, 151, rfl⟩
abbrev main_v97 : Ref sig .tc := ⟨.hbm, 152, rfl⟩
abbrev main_call4_c : Ref sig .tc := ⟨.hbm, 153, rfl⟩
abbrev main_call4_v0 : Ref sig .tc := ⟨.hbm, 154, rfl⟩
abbrev main_call4_v1 : Ref sig .tc := ⟨.hbm, 155, rfl⟩
abbrev main_call4_c_0 : Ref sig .tc := ⟨.hbm, 156, rfl⟩
abbrev main_call4_v2 : Ref sig .tc := ⟨.hbm, 157, rfl⟩
abbrev main_call4_v3 : Ref sig .tc := ⟨.hbm, 158, rfl⟩
abbrev main_call4_v4 : Ref sig .tc := ⟨.hbm, 159, rfl⟩
abbrev main_call4_v5 : Ref sig .tc := ⟨.hbm, 160, rfl⟩
abbrev main_call4_c_1 : Ref sig .tc := ⟨.hbm, 161, rfl⟩
abbrev main_call4_c_2 : Ref sig .tc := ⟨.hbm, 162, rfl⟩
abbrev main_call4_v6 : Ref sig .tc := ⟨.hbm, 163, rfl⟩
abbrev main_call4_v7 : Ref sig .tc := ⟨.hbm, 164, rfl⟩
abbrev main_call4_v8 : Ref sig .tc := ⟨.hbm, 165, rfl⟩
abbrev main_call4_v9 : Ref sig .tc := ⟨.hbm, 166, rfl⟩
abbrev main_call4_v10 : Ref sig .tc := ⟨.hbm, 167, rfl⟩
abbrev main_call4_v11 : Ref sig .tc := ⟨.hbm, 168, rfl⟩
abbrev main_call4_c_3 : Ref sig .tc := ⟨.hbm, 169, rfl⟩
abbrev main_call4_v12 : Ref sig .tc := ⟨.hbm, 170, rfl⟩
abbrev main_call4_v13 : Ref sig .tc := ⟨.hbm, 171, rfl⟩
abbrev main_call4_cst : Ref sig .tc := ⟨.hbm, 172, rfl⟩
abbrev main_call4_v14 : Ref sig .tc := ⟨.hbm, 173, rfl⟩
abbrev main_v98 : Ref sig .tc := ⟨.hbm, 174, rfl⟩
abbrev main_cst_20 : Ref sig .tc := ⟨.hbm, 175, rfl⟩
abbrev main_v99 : Ref sig .tc := ⟨.hbm, 176, rfl⟩
abbrev main_v100 : Ref sig .tc := ⟨.hbm, 177, rfl⟩
abbrev main_cst_21 : Ref sig .tc := ⟨.hbm, 178, rfl⟩
abbrev main_v101 : Ref sig .tc := ⟨.hbm, 179, rfl⟩
abbrev main_v102 : Ref sig .tc := ⟨.hbm, 180, rfl⟩
abbrev main_v103 : Ref sig .tc := ⟨.hbm, 181, rfl⟩
abbrev main_v104 : Ref sig .tc := ⟨.hbm, 182, rfl⟩
abbrev main_v105 : Ref sig .tc := ⟨.hbm, 183, rfl⟩
abbrev main_v106 : Ref sig .tc := ⟨.hbm, 184, rfl⟩
abbrev main_v107 : Ref sig .tc := ⟨.hbm, 185, rfl⟩
abbrev main_v108 : Ref sig .tc := ⟨.hbm, 186, rfl⟩
abbrev main_cst_22 : Ref sig .tc := ⟨.hbm, 187, rfl⟩
abbrev main_v109 : Ref sig .tc := ⟨.hbm, 188, rfl⟩
abbrev main_v110 : Ref sig .tc := ⟨.hbm, 189, rfl⟩
abbrev main_cst_23 : Ref sig .tc := ⟨.hbm, 190, rfl⟩
abbrev main_v111 : Ref sig .tc := ⟨.hbm, 191, rfl⟩
abbrev main_v112 : Ref sig .tc := ⟨.hbm, 192, rfl⟩
abbrev main_cst_24 : Ref sig .tc := ⟨.hbm, 193, rfl⟩
abbrev main_v113 : Ref sig .tc := ⟨.hbm, 194, rfl⟩
abbrev main_v114 : Ref sig .tc := ⟨.hbm, 195, rfl⟩
abbrev main_v115 : Ref sig .tc := ⟨.hbm, 196, rfl⟩
abbrev main_v116 : Ref sig .tc := ⟨.hbm, 197, rfl⟩
abbrev main_v117 : Ref sig .tc := ⟨.hbm, 198, rfl⟩
abbrev main_v118 : Ref sig .tc := ⟨.hbm, 199, rfl⟩
abbrev main_v119 : Ref sig .tc := ⟨.hbm, 200, rfl⟩
abbrev main_v120 : Ref sig .tc := ⟨.hbm, 201, rfl⟩
abbrev main_v121 : Ref sig .tc := ⟨.hbm, 202, rfl⟩
abbrev main_v122 : Ref sig .tc := ⟨.hbm, 203, rfl⟩
abbrev main_v123 : Ref sig .tc := ⟨.hbm, 204, rfl⟩
abbrev main_v124 : Ref sig .tc := ⟨.hbm, 205, rfl⟩
abbrev main_v125 : Ref sig .tc := ⟨.hbm, 206, rfl⟩
abbrev main_v126 : Ref sig .tc := ⟨.hbm, 207, rfl⟩
abbrev main_v127 : Ref sig .tc := ⟨.hbm, 208, rfl⟩
abbrev main_v128 : Ref sig .tc := ⟨.hbm, 209, rfl⟩
abbrev main_v129 : Ref sig .tc := ⟨.hbm, 210, rfl⟩
abbrev main_v130 : Ref sig .tc := ⟨.hbm, 211, rfl⟩
abbrev main_v131 : Ref sig .tc := ⟨.hbm, 212, rfl⟩
abbrev main_v132 : Ref sig .tc := ⟨.hbm, 213, rfl⟩
abbrev main_v133 : Ref sig .tc := ⟨.hbm, 214, rfl⟩
abbrev main_v134 : Ref sig .tc := ⟨.hbm, 215, rfl⟩
abbrev main_v135 : Ref sig .tc := ⟨.hbm, 216, rfl⟩
abbrev main_c_25 : Ref sig .tc := ⟨.hbm, 217, rfl⟩
abbrev main_v136 : Ref sig .tc := ⟨.hbm, 218, rfl⟩
abbrev main_cst_26 : Ref sig .tc := ⟨.hbm, 219, rfl⟩
abbrev main_call5_v0 : Ref sig .tc := ⟨.hbm, 220, rfl⟩
abbrev main_call5_v1 : Ref sig .tc := ⟨.hbm, 221, rfl⟩
abbrev main_v137 : Ref sig .tc := ⟨.hbm, 222, rfl⟩
abbrev main_cst_27 : Ref sig .tc := ⟨.hbm, 223, rfl⟩
abbrev main_v138 : Ref sig .tc := ⟨.hbm, 224, rfl⟩
abbrev main_v139 : Ref sig .tc := ⟨.hbm, 225, rfl⟩
abbrev main_v140 : Ref sig .tc := ⟨.hbm, 226, rfl⟩
abbrev main_cst_28 : Ref sig .tc := ⟨.hbm, 227, rfl⟩
abbrev main_v141 : Ref sig .tc := ⟨.hbm, 228, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S128x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S128x8 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S128x8 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  inb_S1x8x128_S1x8x128_0_0_0 : ∀ a, (![0, 0, 0] : Fin 3 → Nat) a + S1x8x128.size a ≤ S1x8x128.size a
  h_S1x8x128 : 0 < S1x8x128.numel
  inb_S128x2048_S128x2048_0_0 : ∀ a, (![0, 0] : Fin 2 → Nat) a + S128x2048.size a ≤ S128x2048.size a
  h_S128x2048 : 0 < S128x2048.numel
  inb_S128x8_S128x8_0_0 : ∀ a, (![0, 0] : Fin 2 → Nat) a + S128x8.size a ≤ S128x8.size a
  h_S128x8 : 0 < S128x8.numel
  iota_S1x2048_d1_w32 : S1x2048.Iotas .tc 32 [1]
  slices_S128x8_o0_0_S128x1 : S128x8.Slices ![0, 0] S128x1
  broadcasts_S1x2048_S128x2048 : S1x2048.Broadcasts S128x2048
  broadcasts_S128x1_S128x2048 : S128x1.Broadcasts S128x2048
  shapeCasts_S128x1_S128x1 : S128x1.ShapeCasts S128x1
  slices_S128x8_o0_1_S128x1 : S128x8.Slices ![0, 1] S128x1
  slices_S128x8_o0_2_S128x1 : S128x8.Slices ![0, 2] S128x1
  slices_S128x8_o0_3_S128x1 : S128x8.Slices ![0, 3] S128x1
  slices_S128x8_o0_4_S128x1 : S128x8.Slices ![0, 4] S128x1
  slices_S128x8_o0_5_S128x1 : S128x8.Slices ![0, 5] S128x1
  slices_S128x8_o0_6_S128x1 : S128x8.Slices ![0, 6] S128x1
  slices_S128x8_o0_7_S128x1 : S128x8.Slices ![0, 7] S128x1
  shapeCasts_S128x2048_S16x8x16x128 : S128x2048.ShapeCasts S16x8x16x128
  reduces_S16x8x16x128_S8x128 : S16x8x16x128.Reduces [0, 2] S8x128
  shapeCasts_S1x8x128_S8x128 : S1x8x128.ShapeCasts S8x128
  shapeCasts_S8x128_S1x8x128 : S8x128.ShapeCasts S1x8x128
  reducesTo_S2x8x128_S_d0_1_2 : S2x8x128.ReducesTo [0, 1, 2] S_
  h_S_ : 0 < S_.numel
  bcast_S_S256x8 : S_.BroadcastsInDim S256x8 (![] : Fin 0 → Fin S256x8.rank)
  bcast_S256x8_S256x1x8_0_2 : S256x8.BroadcastsInDim S256x1x8 (![0, 2] : Fin 2 → Fin S256x1x8.rank)
  bcast_S256x8_S256x8x1_0_1 : S256x8.BroadcastsInDim S256x8x1 (![0, 1] : Fin 2 → Fin S256x8x1.rank)
  bcast_S256x1x8_S256x8x8_0_1_2 : S256x1x8.BroadcastsInDim S256x8x8 (![0, 1, 2] : Fin 3 → Fin S256x8x8.rank)
  bcast_S256x8x1_S256x8x8_0_1_2 : S256x8x1.BroadcastsInDim S256x8x8 (![0, 1, 2] : Fin 3 → Fin S256x8x8.rank)
  bcast_S_S256x1x8 : S_.BroadcastsInDim S256x1x8 (![] : Fin 0 → Fin S256x1x8.rank)
  bcast_S_S256x8x8 : S_.BroadcastsInDim S256x8x8 (![] : Fin 0 → Fin S256x8x8.rank)
  reducesTo_S256x8x8_S256x8_d2 : S256x8x8.ReducesTo [2] S256x8
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  bcast_S8_S1x8x1_1 : S8.BroadcastsInDim S1x8x1 (![1] : Fin 1 → Fin S1x8x1.rank)
  bcast_S8_S1x1x8_2 : S8.BroadcastsInDim S1x1x8 (![2] : Fin 1 → Fin S1x1x8.rank)
  bcast_S1x8x1_S1x8x8_0_1_2 : S1x8x1.BroadcastsInDim S1x8x8 (![0, 1, 2] : Fin 3 → Fin S1x8x8.rank)
  bcast_S1x1x8_S1x8x8_0_1_2 : S1x1x8.BroadcastsInDim S1x8x8 (![0, 1, 2] : Fin 3 → Fin S1x8x8.rank)
  bcast_S1x8x8_S256x8x8_0_1_2 : S1x8x8.BroadcastsInDim S256x8x8 (![0, 1, 2] : Fin 3 → Fin S256x8x8.rank)
  reducesTo_S256x8_S_d0_1 : S256x8.ReducesTo [0, 1] S_
  gather_S256x8192_S256x8x1_S256x8_n_1_0_0_1_2_11_wf : GatherDims.WF S256x8192 S256x8x1 S256x8 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x2048.size a ≤ S256x8192.size a
  hwx0_0 : ∀ i : grid0.Coords, EltTy.bits .f32 = 32 ∨ (Rect.block (s := S256x8192) S128x2048.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x2048.size a ≤ S256x8192.size a
  hwx0_1 : ∀ i : grid0.Coords, EltTy.bits .f32 = 32 ∨ (Rect.block (s := S256x8192) S128x2048.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x8.size a ≤ S256x8.size a
  hwx0_2 : ∀ i : grid0.Coords, EltTy.bits .i32 = 32 ∨ (Rect.block (s := S256x8) S128x8.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x8.size a ≤ S256x8.size a
  hwx0_3 : ∀ i : grid0.Coords, EltTy.bits .i32 = 32 ∨ (Rect.block (s := S256x8) S128x8.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x8x128.size a ≤ S2x8x128.size a
  hwx0_4 : ∀ i : grid0.Coords, EltTy.bits .f32 = 32 ∨ (Rect.block (s := S2x8x128) S1x8x128.size (cc0_transform_4 i) (hinb0_4 i)).WholeWords (EltTy.packing .f32)

variable [Facts₀]

def gather_S256x8192_S256x8x1_S256x8_n_1_0_0_1_2_11 : GatherDims S256x8192 S256x8x1 S256x8 where
  offsetDims := []
  collapsedSliceDims := [1]
  operandBatchingDims := [0]
  startIndicesBatchingDims := [0]
  startIndexMap := [1]
  indexVectorDim := 2
  sliceSizes := ![1, 1]
  wf := gather_S256x8192_S256x8x1_S256x8_n_1_0_0_1_2_11_wf

abbrev win0_0 : Pipeline.Window sig grid0 :=
  Pipeline.Window.ofSpec (Memref.whole main_arg0) S128x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x2048.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x8.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128x8.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x8x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S256x8192 : Shape := ⟨2, ![256, 8192]⟩
abbrev S256x8 : Shape := ⟨2, ![256, 8]⟩
abbrev S256 : Shape := ⟨1, ![256]⟩
abbrev S256x1 : Shape := ⟨2, ![256, 1]⟩
abbrev S_ : Shape := ⟨0, ![]⟩
abbrev S256x8x1 : Shape := ⟨3, ![256, 8, 1]⟩
abbrev S256x8x2 : Shape := ⟨3, ![256, 8, 2]⟩
abbrev S8192 : Shape := ⟨1, ![8192]⟩
abbrev S256x1x8 : Shape := ⟨3, ![256, 1, 8]⟩
abbrev S1x8192x1 : Shape := ⟨3, ![1, 8192, 1]⟩
abbrev S256x8192x8 : Shape := ⟨3, ![256, 8192, 8]⟩

abbrev nBuf : Space → Nat
  | .hbm => 138
  | .vmem => 0
  | .smem => 0
  | _ => 0

abbrev hbmTy0_0 (i : Nat) : BufTy := match i % 128 with
  | 0 => ⟨S256x8192, .f32⟩
  | 1 => ⟨S256x8192, .f32⟩
  | 2 => ⟨S256x8, .i32⟩
  | 3 => ⟨S256x8, .i32⟩
  | 4 => ⟨S256, .i32⟩
  | 5 => ⟨S256x1, .i32⟩
  | 6 => ⟨S_, .f32⟩
  | 7 => ⟨S256x8192, .f32⟩
  | 8 => ⟨S_, .i32⟩
  | 9 => ⟨S256x1, .i32⟩
  | 10 => ⟨S256x1, .i1⟩
  | 11 => ⟨S_, .i32⟩
  | 12 => ⟨S256x1, .i32⟩
  | 13 => ⟨S256x1, .i32⟩
  | 14 => ⟨S256x1, .i32⟩
  | 15 => ⟨S_, .i32⟩
  | 16 => ⟨S256x8, .i32⟩
  | 17 => ⟨S256x8, .i1⟩
  | 18 => ⟨S_, .i32⟩
  | 19 => ⟨S256x8, .i32⟩
  | 20 => ⟨S256x8, .i32⟩
  | 21 => ⟨S256x8, .i32⟩
  | 22 => ⟨S256x8, .i32⟩
  | 23 => ⟨S256x8x1, .i32⟩
  | 24 => ⟨S256x8x1, .i32⟩
  | 25 => ⟨S256x8x2, .i32⟩
  | 26 => ⟨S_, .f32⟩
  | 27 => ⟨S256x8, .f32⟩
  | 28 => ⟨S256x8192, .f32⟩
  | 29 => ⟨S_, .f32⟩
  | 30 => ⟨S256x8192, .f32⟩
  | 31 => ⟨S_, .i32⟩
  | 32 => ⟨S256x1, .i32⟩
  | 33 => ⟨S256x1, .i1⟩
  | 34 => ⟨S_, .i32⟩
  | 35 => ⟨S256x1, .i32⟩
  | 36 => ⟨S256x1, .i32⟩
  | 37 => ⟨S256x1, .i32⟩
  | 38 => ⟨S_, .i32⟩
  | 39 => ⟨S256x8, .i32⟩
  | 40 => ⟨S256x8, .i1⟩
  | 41 => ⟨S_, .i32⟩
  | 42 => ⟨S256x8, .i32⟩
  | 43 => ⟨S256x8, .i32⟩
  | 44 => ⟨S256x8, .i32⟩
  | 45 => ⟨S256x8, .i32⟩
  | 46 => ⟨S256x8x1, .i32⟩
  | 47 => ⟨S256x8x1, .i32⟩
  | 48 => ⟨S256x8x2, .i32⟩
  | 49 => ⟨S_, .f32⟩
  | 50 => ⟨S256x8, .f32⟩
  | 51 => ⟨S256x8192, .f32⟩
  | 52 => ⟨S256x8, .i1⟩
  | 53 => ⟨S8192, .i32⟩
  | 54 => ⟨S256x1x8, .i32⟩
  | 55 => ⟨S1x8192x1, .i32⟩
  | 56 => ⟨S256x8192x8, .i32⟩
  | 57 => ⟨S256x8192x8, .i32⟩
  | 58 => ⟨S256x8192x8, .i1⟩
  | 59 => ⟨S1x8192x1, .i32⟩
  | 60 => ⟨S256x1x8, .i32⟩
  | 61 => ⟨S256x8192x8, .i32⟩
  | 62 => ⟨S256x8192x8, .i32⟩
  | 63 => ⟨S256x8192x8, .i1⟩
  | 64 => ⟨S256x8192x8, .i1⟩
  | 65 => ⟨S256x1x8, .i1⟩
  | 66 => ⟨S256x8192x8, .i1⟩
  | 67 => ⟨S256x8192x8, .i1⟩
  | 68 => ⟨S256x8, .i32⟩
  | 69 => ⟨S_, .i32⟩
  | 70 => ⟨S256x8, .i32⟩
  | 71 => ⟨S256x8, .i32⟩
  | 72 => ⟨S256x8, .f32⟩
  | 73 => ⟨S256x1x8, .f32⟩
  | 74 => ⟨S_, .f32⟩
  | 75 => ⟨S256x1x8, .f32⟩
  | 76 => ⟨S256x1x8, .f32⟩
  | 77 => ⟨S_, .f32⟩
  | 78 => ⟨S_, .f32⟩
  | 79 => ⟨S256x8192x8, .f32⟩
  | 80 => ⟨S256x8192x8, .f32⟩
  | 81 => ⟨S256x8192x8, .f32⟩
  | 82 => ⟨S_, .f32⟩
  | 83 => ⟨S256x8192, .f32⟩
  | 84 => ⟨S_, .f32⟩
  | 85 => ⟨S256x8192, .f32⟩
  | 86 => ⟨S256x8192, .f32⟩
  | 87 => ⟨S_, .f32⟩
  | 88 => ⟨S256x8192, .f32⟩
  | 89 => ⟨S256x8192, .f32⟩
  | 90 => ⟨S_, .f32⟩
  | 91 => ⟨S256x8192, .f32⟩
  | 92 => ⟨S256x8192, .f32⟩
  | 93 => ⟨S_, .f32⟩
  | 94 => ⟨S256x8192, .f32⟩
  | 95 => ⟨S256x8192, .i1⟩
  | 96 => ⟨S_, .f32⟩
  | 97 => ⟨S_, .f32⟩
  | 98 => ⟨S256x8192, .f32⟩
  | 99 => ⟨S256x8192, .f32⟩
  | 100 => ⟨S_, .f32⟩
  | 101 => ⟨S256x8192, .f32⟩
  | 102 => ⟨S256x8192, .i1⟩
  | 103 => ⟨S_, .f32⟩
  | 104 => ⟨S_, .f32⟩
  | 105 => ⟨S256x8192, .f32⟩
  | 106 => ⟨S256x8192, .f32⟩
  | 107 => ⟨S_, .f32⟩
  | 108 => ⟨S256x8192, .f32⟩
  | 109 => ⟨S256x8192, .f32⟩
  | 110 => ⟨S256x8192, .f32⟩
  | 111 => ⟨S256x8192, .f32⟩
  | 112 => ⟨S256x8192, .f32⟩
  | 113 => ⟨S256x8192, .f32⟩
  | 114 => ⟨S256x8192, .f32⟩
  | 115 => ⟨S256x8192, .f32⟩
  | 116 => ⟨S256x8192, .f32⟩
  | 117 => ⟨S256x8192, .f32⟩
  | 118 => ⟨S_, .f32⟩
  | 119 => ⟨S_, .f32⟩
  | 120 => ⟨S_, .f32⟩
  | 121 => ⟨S_, .f32⟩
  | 122 => ⟨S_, .f32⟩
  | 123 => ⟨S256x8192, .f32⟩
  | 124 => ⟨S256x8192, .f32⟩
  | 125 => ⟨S256x8192, .f32⟩
  | 126 => ⟨S256x8192, .f32⟩
  | 127 => ⟨S256x8192, .f32⟩
  | _ => ⟨S256x8192, .f32⟩

abbrev hbmTy0_1 (i : Nat) : BufTy := match i % 128 with
  | 0 => ⟨S256x8192, .f32⟩
  | 1 => ⟨S256x8192, .f32⟩
  | 2 => ⟨S256x8192, .f32⟩
  | 3 => ⟨S256x8192, .f32⟩
  | 4 => ⟨S256x8192, .f32⟩
  | 5 => ⟨S_, .f32⟩
  | 6 => ⟨S_, .f32⟩
  | 7 => ⟨S_, .f32⟩
  | 8 => ⟨S_, .f32⟩
  | 9 => ⟨S_, .f32⟩
  | _ => ⟨S256x8192, .f32⟩

abbrev hbmTy (i : Nat) : BufTy := match i / 128 with
  | 0 => hbmTy0_0 i
  | 1 => hbmTy0_1 i
  | _ => ⟨S256x8192, .f32⟩

abbrev bufTy : (tb : Table) → Fin (tcTables nBuf tb) → BufTy
  | .hbm, ⟨i, _⟩ => hbmTy i
  | _, _ => ⟨S256x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_cst_4 : Ref sig .tc := ⟨.hbm, 29, rfl⟩
abbrev main_v19 : Ref sig .tc := ⟨.hbm, 30, rfl⟩
abbrev main_c_5 : Ref sig .tc := ⟨.hbm, 31, rfl⟩
abbrev main_v20 : Ref sig .tc := ⟨.hbm, 32, rfl⟩
abbrev main_v21 : Ref sig .tc := ⟨.hbm, 33, rfl⟩
abbrev main_c_6 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_c_7 : Ref sig .tc := ⟨.hbm, 38, rfl⟩
abbrev main_v25 : Ref sig .tc := ⟨.hbm, 39, rfl⟩
abbrev main_v26 : Ref sig .tc := ⟨.hbm, 40, rfl⟩
abbrev main_c_8 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_c_10 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_cst_11 : Ref sig .tc := ⟨.hbm, 74, rfl⟩
abbrev main_v57 : Ref sig .tc := ⟨.hbm, 75, rfl⟩
abbrev main_v58 : Ref sig .tc := ⟨.hbm, 76, rfl⟩
abbrev main_cst_12 : Ref sig .tc := ⟨.hbm, 77, rfl⟩
abbrev main_call0_v0 : Ref sig .tc := ⟨.hbm, 78, rfl⟩
abbrev main_call0_v1 : Ref sig .tc := ⟨.hbm, 79, rfl⟩
abbrev main_call0_v2 : Ref sig .tc := ⟨.hbm, 80, rfl⟩
abbrev main_v59 : Ref sig .tc := ⟨.hbm, 81, rfl⟩
abbrev main_cst_13 : Ref sig .tc := ⟨.hbm, 82, rfl⟩
abbrev main_v60 : Ref sig .tc := ⟨.hbm, 83, rfl⟩
abbrev main_cst_14 : Ref sig .tc := ⟨.hbm, 84, rfl⟩
abbrev main_v61 : Ref sig .tc := ⟨.hbm, 85, rfl⟩
abbrev main_v62 : Ref sig .tc := ⟨.hbm, 86, rfl⟩
abbrev main_cst_15 : Ref sig .tc := ⟨.hbm, 87, rfl⟩
abbrev main_v63 : Ref sig .tc := ⟨.hbm, 88, rfl⟩
abbrev main_v64 : Ref sig .tc := ⟨.hbm, 89, rfl⟩
abbrev main_cst_16 : Ref sig .tc := ⟨.hbm, 90, rfl⟩
abbrev main_v65 : Ref sig .tc := ⟨.hbm, 91, rfl⟩
abbrev main_v66 : Ref sig .tc := ⟨.hbm, 92, rfl⟩
abbrev main_cst_17 : Ref sig .tc := ⟨.hbm, 93, rfl⟩
abbrev main_v67 : Ref sig .tc := ⟨.hbm, 94, rfl⟩
abbrev main_v68 : Ref sig .tc := ⟨.hbm, 95, rfl⟩
abbrev main_cst_18 : Ref sig .tc := ⟨.hbm, 96, rfl⟩
abbrev main_call1_v0 : Ref sig .tc := ⟨.hbm, 97, rfl⟩
abbrev main_call1_v1 : Ref sig .tc := ⟨.hbm, 98, rfl⟩
abbrev main_v69 : Ref sig .tc := ⟨.hbm, 99, rfl⟩
abbrev main_cst_19 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_call2_v0 : Ref sig .tc := ⟨.hbm, 104, rfl⟩
abbrev main_call2_v1 : Ref sig .tc := ⟨.hbm, 105, rfl⟩
abbrev main_v72 : Ref sig .tc := ⟨.hbm, 106, rfl⟩
abbrev main_cst_21 : Ref sig .tc := ⟨.hbm, 107, rfl⟩
abbrev main_v73 : Ref sig .tc := ⟨.hbm, 108, rfl⟩
abbrev main_v74 : Ref sig .tc := ⟨.hbm, 109, rfl⟩
abbrev main_v75 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_cst_22 : Ref sig .tc := ⟨.hbm, 118, rfl⟩
abbrev main_v83 : Ref sig .tc := ⟨.hbm, 119, rfl⟩
abbrev main_cst_23 : Ref sig .tc := ⟨.hbm, 120, rfl⟩
abbrev main_v84 : Ref sig .tc := ⟨.hbm, 121, rfl⟩
abbrev main_cst_24 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_cst_25 : Ref sig .tc := ⟨.hbm, 133, rfl⟩
abbrev main_v95 : Ref sig .tc := ⟨.hbm, 134, rfl⟩
abbrev main_cst_26 : Ref sig .tc := ⟨.hbm, 135, rfl⟩
abbrev main_v96 : Ref sig .tc := ⟨.hbm, 136, rfl⟩
abbrev main_v97 : Ref sig .tc := ⟨.hbm, 137, rfl⟩

abbrev nD : Nat := 1
abbrev τ : Topo := Topo.v7x

variable {F : FTy → Type} [FloatOps F]

class Facts₀ : Prop where
  bcast_S256_S256x1_0 : S256.BroadcastsInDim S256x1 (![0] : Fin 1 → Fin S256x1.rank)
  bcast_S_S256x8192 : S_.BroadcastsInDim S256x8192 (![] : Fin 0 → Fin S256x8192.rank)
  bcast_S_S256x1 : S_.BroadcastsInDim S256x1 (![] : Fin 0 → Fin S256x1.rank)
  bcast_S_S256x8 : S_.BroadcastsInDim S256x8 (![] : Fin 0 → Fin S256x8.rank)
  bcast_S256x1_S256x8_0_1 : S256x1.BroadcastsInDim S256x8 (![0, 1] : Fin 2 → Fin S256x8.rank)
  bcast_S256x8_S256x8x1_0_1 : S256x8.BroadcastsInDim S256x8x1 (![0, 1] : Fin 2 → Fin S256x8x1.rank)
  concatenates_S256x8x1_S256x8x1_S256x8x2_d2 : Shape.Concatenates [S256x8x1, S256x8x1] S256x8x2 2
  bcast_S256x8_S256x1x8_0_2 : S256x8.BroadcastsInDim S256x1x8 (![0, 2] : Fin 2 → Fin S256x1x8.rank)
  bcast_S8192_S1x8192x1_1 : S8192.BroadcastsInDim S1x8192x1 (![1] : Fin 1 → Fin S1x8192x1.rank)
  bcast_S256x1x8_S256x8192x8_0_1_2 : S256x1x8.BroadcastsInDim S256x8192x8 (![0, 1, 2] : Fin 3 → Fin S256x8192x8.rank)
  bcast_S1x8192x1_S256x8192x8_0_1_2 : S1x8192x1.BroadcastsInDim S256x8192x8 (![0, 1, 2] : Fin 3 → Fin S256x8192x8.rank)
  bcast_S_S256x1x8 : S_.BroadcastsInDim S256x1x8 (![] : Fin 0 → Fin S256x1x8.rank)
  bcast_S_S256x8192x8 : S_.BroadcastsInDim S256x8192x8 (![] : Fin 0 → Fin S256x8192x8.rank)
  reducesTo_S256x8192x8_S256x8192_d2 : S256x8192x8.ReducesTo [2] S256x8192
  h_S_ : 0 < S_.numel
  reducesTo_S256x8192_S_d0_1 : S256x8192.ReducesTo [0, 1] S_
  scatter_S256x8192_S256x8x2_S256x8_n_01_01_2_wf : ScatterDims.WF S256x8192 S256x8x2 S256x8 [] [0, 1] [0, 1] 2

variable [Facts₀]

def scatter_S256x8192_S256x8x2_S256x8_n_01_01_2 : ScatterDims S256x8192 S256x8x2 S256x8 where
  updateWindowDims := []
  insertedWindowDims := [0, 1]
  scatterDimsToOperandDims := [0, 1]
  indexVectorDim := 2
  wf := scatter_S256x8192_S256x8x2_S256x8_n_01_01_2_wf

class Facts : Prop extends Facts₀ where

variable [Facts]
-- ==== Proof.KBody.lean ====
/-
  The value one grid point's body stores into the output block, as one function of what it loads.

  The body scans the eight spans of each of the 128 rows in the block: after span `s` it holds, for every position
  of the 128 × 2048 logit block, the largest overlap score among spans `0 … s`. The printed body is cut into parts
  between spans, so that running maximum is named here after every cut: `scan0` (span 0), `scan2` (spans 0–2),
  `scan4`, `scan6`. `pointVal` is the last part: span 7 joins the maximum, the weight `(1 + max)² / 4` multiplies
  the two logits' label-free cross entropies, the 128 × 2048 products are folded to 8 × 128 (rows a·8 + r, columns
  b·128 + l summed over a, b) and added to what the output block held (`prev`).
-/
import proofs.«423081_j13864154431993_3_alg».proof.Proof.Gen.Kernel.Skeleton

noncomputable section

namespace Cert.Kernel.Hand

open Idealize.ShloMosaic Cert.Kernel Cert.Kernel.Gen

variable {F : FTy → Type} [FloatOps F]

/-- The positions of the block's columns: `li · 2048 + column`, as 32-bit words. -/
def posRow (i : grid0.Coords) : IVec S1x2048 32 := k0_pay2 i

/-- Largest overlap score after span 0. -/
def scan0 (i : grid0.Coords) (st en : Vec F S128x8 .i32) : FVec F S128x2048 .f32 := k0_pay3 i st en

/-- … after spans 0–2. -/
def scan2 (i : grid0.Coords) (st en : Vec F S128x8 .i32) : FVec F S128x2048 .f32 :=
  k0_pay8 st en (posRow i) (scan0 i st en) (k0_pay4 st) (k0_pay6 st en) (k0_pay7 st en) 1#32

/-- … after spans 0–4. -/
def scan4 (i : grid0.Coords) (st en : Vec F S128x8 .i32) : FVec F S128x2048 .f32 :=
  k0_pay15 st en (posRow i) (scan2 i st en) (k0_pay9 st) (k0_pay11 st en) (k0_pay12 st en) (k0_pay13 st en) k0_pay14

/-- … after spans 0–6. -/
def scan6 (i : grid0.Coords) (st en : Vec F S128x8 .i32) : FVec F S128x2048 .f32 :=
  k0_pay22 st en (posRow i) (scan4 i st en) (k0_pay16 st) (k0_pay18 st en) (k0_pay19 st en) (k0_pay20 st en) (k0_pay21 (F := F))

/-- What the point stores into the output block: `prev` plus the folded weighted losses of its logit blocks
    `sl`, `el` under the spans `st`, `en` of its rows. -/
def pointVal (i : grid0.Coords) (sl el : Vec F S128x2048 .f32) (st en : Vec F S128x8 .i32) (prev : Vec F S1x8x128 .f32) :
    FVec F S1x8x128 .f32 :=
  k0_pay27 sl el (posRow i) (scan6 i st en) (k0_pay23 st) (k0_pay25 st en) (k0_pay26 st en) prev

/-- The zero block the first point of a row of the grid resets the output block to. -/
def zeroBlock : FVec F S1x8x128 .f32 := k0_pay1 (F := F)

end Cert.Kernel.Hand

end
-- ==== Proof.KMain.lean ====
/-
  The one region of the program and the host lines after it: the definitions the frame and the value proofs share.

  @main is the region alone followed by thirteen stretches of host operations (`tailOps`); nothing runs before the
  region, so the region finds every buffer as launched (`V`). The grid is 2 × 4: point `t` works on rows
  `(t / 4) · 128 …` and columns `(t % 4) · 2048 …` of the two logit arrays and on the spans of those rows; the output
  block `t / 4` is reset at the first point of each row of the grid and accumulates over its four points, so what it
  holds after point `n` (`outAfter`) is `pointVal` of the point's blocks over the zero block when `n % 4 = 0` and
  over what point `n - 1` left otherwise.
-/
import proofs.«423081_j13864154431993_3_alg».proof.Proof.Gen.Kernel.Launch
import proofs.«423081_j13864154431993_3_alg».proof.Proof.Gen.Kernel.Points
import proofs.«423081_j13864154431993_3_alg».proof.Proof.KBody
import Idealize.ShloMosaic.Lib.Pipeline.FrameBody
import Idealize.ShloMosaic.Lib.Pipeline.FrameSuffix

noncomputable section

namespace Cert.Kernel.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ)

/-- Core `c`'s TensorCore buffer contents when the region is entered: as launched (no host line runs before it). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host operations after the region, stretch by stretch (a called function's operations are a stretch of their own). -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output block's staging buffer holds after the body at position `n` of the grid. -/
def outAfter (c : Dev nD) : (n : ℕ) → n < cfg0.N → Vec F S1x8x128 .f32
  | 0, hn => pointVal (grid0.coords ⟨0, hn⟩) (iblk m c 0 ⟨0, hn⟩) (iblk m c 1 ⟨0, hn⟩) (iblk m c 2 ⟨0, hn⟩) (iblk m c 3 ⟨0, hn⟩) (zeroBlock (F := F))
  | n + 1, hn =>
    if (n + 1) % 4 = 0 then
      pointVal (grid0.coords ⟨n + 1, hn⟩) (iblk m c 0 ⟨n + 1, hn⟩) (iblk m c 1 ⟨n + 1, hn⟩) (iblk m c 2 ⟨n + 1, hn⟩) (iblk m c 3 ⟨n + 1, hn⟩) (zeroBlock (F := F))
    else
      pointVal (grid0.coords ⟨n + 1, hn⟩) (iblk m c 0 ⟨n + 1, hn⟩) (iblk m c 1 ⟨n + 1, hn⟩) (iblk m c 2 ⟨n + 1, hn⟩) (iblk m c 3 ⟨n + 1, hn⟩) (outAfter c n (Nat.lt_of_succ_lt hn))

/-- `outAfter` at a first point of a row of the grid. -/
theorem outAfter_first (c : Dev nD) (t : Fin cfg0.N) (h0 : t.val % 4 = 0) :
    outAfter m c t.val t.isLt = pointVal (grid0.coords t) (iblk m c 0 t) (iblk m c 1 t) (iblk m c 2 t) (iblk m c 3 t) (zeroBlock (F := F)) := by
  obtain ⟨n, hn⟩ := t
  cases n with
  | zero => rfl
  | succ n => exact (if_pos h0).trans rfl

/-- `outAfter` at a later point: over what the point before left. -/
theorem outAfter_next (c : Dev nD) (t : Fin cfg0.N) (h0 : ¬t.val % 4 = 0) :
    outAfter m c t.val t.isLt = pointVal (grid0.coords t) (iblk m c 0 t) (iblk m c 1 t) (iblk m c 2 t) (iblk m c 3 t)
      (outAfter m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the pipeline on core `c`: the arrays as the region finds them; after the body at point `t`
    each input's buffer at its block and the output's at `outAfter`; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = outAfter m c t.val t.isLt := by dsimp only [dats]

end Cert.Kernel.Hand

end
-- ==== Proof.KFrame.lean ====
/-
  The frame of the kernel program as printed, its floats read as machine words: @main is one pipelined region followed by thirteen stretches of host
  operations. The region's body, run at a grid point on whole staging buffers, leaves the four input blocks as it
  found them and the output block at the point's value over what the block held (over the zero block at the first
  point of a row of the grid, where the body first resets the block). From this the launch theorem of a region
  followed by host lines gives the run of @main: it terminates, the argument arrays end as launched, and the result
  buffer ends at what the host stretches compute from the region's exit contents.
-/
import proofs.«423081_j13864154431993_3_alg».proof.Proof.KMain
import proofs.«423081_j13864154431993_3_alg».proof.Proof.Gen.Kernel.Skeleton
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the region followed by the host stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall]) (by simp only [List.Forall]) main_chain

/-- A buffer that is no array of the pipeline is, as a device reference, none of them either. -/
theorem keeps_of {y : Ref sig .tc} (h : ∀ w, Pipeline.arrRef spec0 w ≠ y) :
    ∀ w, ¬ Proc.devRef (τ := τ) .tc (Pipeline.arrRef spec0 w) = Proc.devRef .tc y :=
  fun w => StableHlo.devRef_ne_of_ne (h w)

/-! ### Each stretch allocates nothing and writes no array of the pipeline (every operation writes its own result buffer only) -/

theorem hostOps1_fresh : (hostOps1 : List (HloOp τ sig (Elt F))).Forall fun op => op.fresh = ∅ := by
  simp only [List.Forall]; repeat' constructor
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops
  simp only [List.mem_cons, List.mem_nil_iff, or_false] at hops
  rcases hops with rfl | rfl | rfl | rfl | rfl | rfl | rfl | rfl | rfl | rfl | rfl | rfl | rfl
  · exact fun op hop => Pipeline.sub_ucRefs op ((List.forall_iff_forall_mem.mp hostOps1_sub) op hop)
  · exact fun op hop => Pipeline.sub_ucRefs op ((List.forall_iff_forall_mem.mp hostOps1_1_sub) op hop)
  · exact fun op hop => Pipeline.sub_ucRefs op ((List.forall_iff_forall_mem.mp hostOps1_2_sub) op hop)
  · exact fun op hop => Pipeline.sub_ucRefs op ((List.forall_iff_forall_mem.mp hostOps1_3_sub) op hop)
  · exact fun op hop => Pipeline.sub_ucRefs op ((List.forall_iff_forall_mem.mp hostOps1_4_sub) op hop)
  · exact fun op hop => Pipeline.sub_ucRefs op ((List.forall_iff_forall_mem.mp hostOps1_5_sub) op hop)
  · exact fun op hop => Pipeline.sub_ucRefs op ((List.forall_iff_forall_mem.mp hostOps1_6_sub) op hop)
  · exact fun op hop => Pipeline.sub_ucRefs op ((List.forall_iff_forall_mem.mp hostOps1_7_sub) op hop)
  · exact fun op hop => Pipeline.sub_ucRefs op ((List.forall_iff_forall_mem.mp hostOps1_8_sub) op hop)
  · exact fun op hop => Pipeline.sub_ucRefs op ((List.forall_iff_forall_mem.mp hostOps1_9_sub) op hop)
  · exact fun op hop => Pipeline.sub_ucRefs op ((List.forall_iff_forall_mem.mp hostOps1_10_sub) op hop)
  · exact fun op hop => Pipeline.sub_ucRefs op ((List.forall_iff_forall_mem.mp hostOps1_11_sub) op hop)
  · exact fun op hop => Pipeline.sub_ucRefs op ((List.forall_iff_forall_mem.mp hostOps1_12_sub) op hop)

/-- They allocate nothing. -/
theorem sfx_fresh : ∀ ops ∈ (tailOps : List (List (HloOp τ sig (Elt F)))), ∀ op ∈ ops, op.fresh = ∅ := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh
  · exact List.forall_iff_forall_mem.mp hostOps1_5_fresh
  · exact List.forall_iff_forall_mem.mp hostOps1_6_fresh
  · exact List.forall_iff_forall_mem.mp hostOps1_7_fresh
  · exact List.forall_iff_forall_mem.mp hostOps1_8_fresh
  · exact List.forall_iff_forall_mem.mp hostOps1_9_fresh
  · exact List.forall_iff_forall_mem.mp hostOps1_10_fresh
  · exact List.forall_iff_forall_mem.mp hostOps1_11_fresh
  · exact List.forall_iff_forall_mem.mp hostOps1_12_fresh

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_keeps
  · exact List.forall_iff_forall_mem.mp hostOps1_1_keeps
  · exact List.forall_iff_forall_mem.mp hostOps1_2_keeps
  · exact List.forall_iff_forall_mem.mp hostOps1_3_keeps
  · exact List.forall_iff_forall_mem.mp hostOps1_4_keeps
  · exact List.forall_iff_forall_mem.mp hostOps1_5_keeps
  · exact List.forall_iff_forall_mem.mp hostOps1_6_keeps
  · exact List.forall_iff_forall_mem.mp hostOps1_7_keeps
  · exact List.forall_iff_forall_mem.mp hostOps1_8_keeps
  · exact List.forall_iff_forall_mem.mp hostOps1_9_keeps
  · exact List.forall_iff_forall_mem.mp hostOps1_10_keeps
  · exact List.forall_iff_forall_mem.mp hostOps1_11_keeps
  · exact List.forall_iff_forall_mem.mp hostOps1_12_keeps

/-! ## Whole-block loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole logit block reads the buffer's contents. -/
theorem readAt_logits {κ : Kind} {sp : Space} (v : View sig κ sp S128x2048 .f32) (f : v.ty.Contents (Elt F)) :
    v.readAt (Elt F) (Rect.unit (s := S128x2048) ![0, 0] S128x2048.size inb_S128x2048_S128x2048_0_0).toLoadRect f
      = v.read (Elt F) f :=
  View.ld_unit_zero (S := S128x2048) hz2 inb_S128x2048_S128x2048_0_0 (v.read (Elt F) f)

/-- A load of a whole span block reads the buffer's contents. -/
theorem readAt_spans {κ : Kind} {sp : Space} (v : View sig κ sp S128x8 .i32) (f : v.ty.Contents (Elt F)) :
    v.readAt (Elt F) (Rect.unit (s := S128x8) ![0, 0] S128x8.size inb_S128x8_S128x8_0_0).toLoadRect f
      = v.read (Elt F) f :=
  View.ld_unit_zero (S := S128x8) hz2 inb_S128x8_S128x8_0_0 (v.read (Elt F) f)

/-- A load of the whole output block reads the buffer's contents. -/
theorem readAt_out {κ : Kind} {sp : Space} (v : View sig κ sp S1x8x128 .f32) (f : v.ty.Contents (Elt F)) :
    v.readAt (Elt F) (Rect.unit (s := S1x8x128) ![0, 0, 0] S1x8x128.size inb_S1x8x128_S1x8x128_0_0_0).toLoadRect f
      = v.read (Elt F) f :=
  View.ld_unit_zero (S := S1x8x128) hz3 inb_S1x8x128_S1x8x128_0_0_0 (v.read (Elt F) f)

/-- A load of the whole output block after one store of the whole block reads what was stored. -/
theorem readCov_out {κ : Kind} {sp : Space} (v : View sig κ sp S1x8x128 .f32) (w : S1x8x128.Idx → Elt F .f32) :
    v.readCov [(⟨Rect.unit (s := S1x8x128) ![0, 0, 0] S1x8x128.size inb_S1x8x128_S1x8x128_0_0_0, w⟩ : View.Piece (Elt F) S1x8x128 .f32)]
        (Rect.unit (s := S1x8x128) ![0, 0, 0] S1x8x128.size inb_S1x8x128_S1x8x128_0_0_0).toLoadRect = w :=
  View.readCov_unit_zero (S := S1x8x128) v hz3 inb_S1x8x128_S1x8x128_0_0_0 w

/-- What a buffer reads after writes whose last is a store of the whole output block: that store's payload. -/
theorem read_writes_out {κ : Kind} {sp : Space} (v : View sig κ sp S1x8x128 .f32) (f : v.ty.Contents (Elt F))
    (w : S1x8x128.Idx → Elt F .f32) (L : List (View.Piece (Elt F) S1x8x128 .f32)) :
    v.read (Elt F) (v.writes (Elt F) f
      ((⟨Rect.unit (s := S1x8x128) ![0, 0, 0] S1x8x128.size inb_S1x8x128_S1x8x128_0_0_0, w⟩ : View.Piece (Elt F) S1x8x128 .f32) :: L)) = w := by
  have hcov : ∀ y : S1x8x128.Idx, ∃ p ∈ ((⟨Rect.unit (s := S1x8x128) ![0, 0, 0] S1x8x128.size inb_S1x8x128_S1x8x128_0_0_0, w⟩ :
      View.Piece (Elt F) S1x8x128 .f32) :: L), y ∈ p.1.set :=
    fun y => ⟨_, List.mem_cons_self, View.mem_set_unit_zero (S := S1x8x128) hz3 inb_S1x8x128_S1x8x128_0_0_0 y⟩
  rw [View.read_writes_eq_canon v f _ hcov]
  exact View.canon_cons_unit_zero (S := S1x8x128) hz3 inb_S1x8x128_S1x8x128_0_0_0 w L

/-- The point's value depends on its five arguments only. -/
theorem pointVal_congr (i : grid0.Coords) {a a' b b' : Vec F S128x2048 .f32} {s s' e e' : Vec F S128x8 .i32}
    {p p' : Vec F S1x8x128 .f32} (ha : a = a') (hb : b = b') (hs : s = s') (he : e = e') (hp : p = p') :
    pointVal i a b s e p = pointVal i a' b' s' e' p' := by
  subst ha hb hs he hp; rfl

/-! ## What the body finds in the staging buffers -/

/-- The condition of the body's conditional, from the grid coordinates: the point is the first of its row of the grid. -/
abbrev cond0 (i : grid0.Coords) : Prop :=
  (Scalar.cmpi .ne (Scalar.extui (Scalar.cmpi .eq (BitVec.ofNat 32 (i 1).val) 0#32)) 0#32) = 1#1

/-- It holds at the points ≡ 0 (mod 4) only: decided over the grid. -/
theorem hcond0 : ∀ t : Fin cfg0.N, cond0 (grid0.coords t) ↔ t.val % 4 = 0 :=
  (by decide +kernel : ∀ t : Fin grid0.N, cond0 (grid0.coords t) ↔ t.val % 4 = 0)

/-- Each input's current staging buffer holds its block at every point, fetched there or not: where it is not
    fetched its block index has not moved since the point before. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)

/-- At a point that is not the first of its row of the grid the output's current staging buffer holds what the body
    left at the point before: the buffer was not written back in between, the window is never idle and is uncut. -/
theorem before4_next (c : Dev nD) (t : Fin cfg0.N) (h0 : ¬t.val % 4 = 0) (d) :
    (dats m 0 c).before 4 t d = outAfter m c (t.val - 1) (Nat.lt_of_le_of_lt (Nat.sub_le _ _) t.isLt) := by
  have hN : t.val < 8 := lt_of_lt_of_eq t.isLt (show cfg0.N = 8 from N_0)
  rw [Dat.before_out_kept _ 4 rfl t (by omega)
    (Bool.eq_false_iff.mpr fun h => by have := (flush0_4 _).mp h; dsimp only at this; omega)
    (fun _ => rfl) (fun _ _ => rfl)]
  dsimp only [dats]

/-! ## The body on any whole staging buffers -/

set_option maxHeartbeats 4000000 in
/-- AT THE FIRST POINT OF A ROW OF THE GRID. On whole staging buffers — the inputs' at read contents, the output's at
    anything — the body runs to the continuation holding the inputs' as they were and the output's at the point's
    value over the zero block: the zero block is stored, read back, and the point's value over it stored. -/
theorem kernel_first (c : Dev nD) (E : Set ℕ) (i : grid0.Coords)
    (arg2 : Memref sig .tc .vmem S128x2048 .f32) (harg2 : arg2.IsWhole) (arg3 : Memref sig .tc .vmem S128x2048 .f32) (harg3 : arg3.IsWhole)
    (arg4 : Memref sig .tc .vmem S128x8 .i32) (harg4 : arg4.IsWhole) (arg5 : Memref sig .tc .vmem S128x8 .i32) (harg5 : arg5.IsWhole)
    (arg6 : Memref sig .tc .vmem S1x8x128 .f32) (harg6 : arg6.IsWhole) (hc : cond0 i)
    (x0 x1 : Vec F S128x2048 .f32) (x2 x3 : Vec F S128x8 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointVal i x0 x1 x2 x3 (zeroBlock (F := F)))) -∗ K ⟨⟩))
      ⊢ wp frame (wpE (defs₀ (F := F)) Variants.none c none) E
          (cc0__span_loss_kernel i arg2 harg2 arg3 harg3 arg4 harg4 arg5 harg5 arg6 harg6) K := by
  simp only [cc0__span_loss_kernel_eq_skeleton]; unfold cc0__span_loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads the last store's payload; its loads of whole blocks read the buffers' contents
  refine (read_writes_out _ _ _ _).trans ?_
  refine Eq.trans ?_ (pointVal_congr i (readAt_logits arg2.view f0) (readAt_logits arg3.view f1)
    (readAt_spans arg4.view f2) (readAt_spans arg5.view f3) (readCov_out arg6.view (zeroBlock (F := F))))
  sl_unfold_run_names
  rfl

set_option maxHeartbeats 4000000 in
/-- AT A LATER POINT OF A ROW OF THE GRID. The same, the output's buffer holding the running value `prev`: the body
    runs to the continuation holding the output's at the point's value over `prev`. -/
theorem kernel_next (c : Dev nD) (E : Set ℕ) (i : grid0.Coords)
    (arg2 : Memref sig .tc .vmem S128x2048 .f32) (harg2 : arg2.IsWhole) (arg3 : Memref sig .tc .vmem S128x2048 .f32) (harg3 : arg3.IsWhole)
    (arg4 : Memref sig .tc .vmem S128x8 .i32) (harg4 : arg4.IsWhole) (arg5 : Memref sig .tc .vmem S128x8 .i32) (harg5 : arg5.IsWhole)
    (arg6 : Memref sig .tc .vmem S1x8x128 .f32) (harg6 : arg6.IsWhole) (hc : ¬cond0 i)
    (x0 x1 : Vec F S128x2048 .f32) (x2 x3 : Vec F S128x8 .i32) (prev : Vec F S1x8x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare prev
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointVal i x0 x1 x2 x3 prev)) -∗ K ⟨⟩))
      ⊢ wp frame (wpE (defs₀ (F := F)) Variants.none c none) E
          (cc0__span_loss_kernel i arg2 harg2 arg3 harg3 arg4 harg4 arg5 harg5 arg6 harg6) K := by
  simp only [cc0__span_loss_kernel_eq_skeleton]; unfold cc0__span_loss_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads the last store's payload; its loads of whole blocks read the buffers' contents
  refine (read_writes_out _ _ _ _).trans ?_
  refine Eq.trans ?_ (pointVal_congr i (readAt_logits arg2.view f0) (readAt_logits arg3.view f1)
    (readAt_spans arg4.view f2) (readAt_spans arg5.view f3) (readAt_out arg6.view f4))
  sl_unfold_run_names
  rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point: the inputs' buffers hold their blocks; at the first point of a row of the grid the output's
    buffer holds anything and the body leaves the point's value over the zero block, at a later point it holds what the
    point before left and the body leaves the point's value over that; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after_in0, after_in1, after_in2, after_in3, after_out]
  by_cases h0 : t.val % 4 = 0
  · rw [outAfter_first m c t h0]
    iintro ⟨HΦ, Ho, ⟨%d0, H0⟩, ⟨%d1, H1⟩, ⟨%d2, H2⟩, ⟨%d3, H3⟩, ⟨%d4, H4⟩⟩
    iapply (kernel_first c Set.univ (grid0.coords t) _ _ _ _ _ _ _ _ _ _ ((hcond0 t).mpr h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAfter_next m c t h0]
    simp only [before4_next m c t h0]
    iintro ⟨HΦ, Ho, ⟨%d0, H0⟩, ⟨%d1, H1⟩, ⟨%d2, H2⟩, ⟨%d3, H3⟩, ⟨%d4, H4⟩⟩
    iapply (kernel_next c Set.univ (grid0.coords t) _ _ _ _ _ _ _ _ _ _ (fun h => h0 ((hcond0 t).mp h))
      (iblk m c 0 t) (iblk m c 1 t) (iblk m c 2 t) (iblk m c 3 t)
      (outAfter m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer at what the host stretches compute from the region's exit contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.Kernel.Hand.run_main' depends on axioms: [propext, Classical.choice, Quot.sound] -/
#guard_msgs in #print axioms run_main

/-- No host operation runs before the region: it finds every buffer as launched. -/
theorem V_launch (c : Dev nD) (b : Ref sig .tc) : V m c b = m ((c : Thread nD τ).loc b) := rfl

/-- An input array of the pipeline ends as launched: the library keeps an input's array at its entry contents. -/
theorem arg_of_post {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_launch m c main_arg0))),
   ((h c).1 1).trans (((dats m 0 c).arrAt_in 1 rfl _).trans ((A_eq m c 1).trans (V_launch m c main_arg1))),
   ((h c).1 2).trans (((dats m 0 c).arrAt_in 2 rfl _).trans ((A_eq m c 2).trans (V_launch m c main_arg2))),
   ((h c).1 3).trans (((dats m 0 c).arrAt_in 3 rfl _).trans ((A_eq m c 3).trans (V_launch m c main_arg3)))⟩

/-- THE FRAME: @main runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => arg_of_post m h c) (run_main m ρ)

/-- The run with the result buffer read: it holds what the host stretches compute from the region's exit contents
    (the result buffer is unscoped and no array of the pipeline), and the arguments end unchanged. -/
theorem run_value : θ_run defs (onTc (τ := τ) (main (F := F))) ⟨m, fun _ => 0, ρ⟩ (fun r => ∀ c : Dev nD,
      r.2.mem ((c.tc : Thread nD τ).loc main_v141) = Pipeline.afterTail₀ cfgs (dats m) 0 (V0 m) tailOps c main_v141
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v141 (Pipeline.mem_restRefs_of main_v141 (by decide) (by decide)), arg_of_post m h c⟩) (run_main m ρ)

end Cert.Kernel.Hand

end
-- ==== Proof.KIBody.lean ====
/-
  The value one grid point's body stores into the output block, as one function of what it loads.

  The body scans the eight spans of each of the 128 rows in the block: after span `s` it holds, for every position
  of the 128 × 2048 logit block, the largest overlap score among spans `0 … s`. The printed body is cut into parts
  between spans, so that running maximum is named here after every cut: `scan0` (span 0), `scan2` (spans 0–2),
  `scan4`, `scan6`. `pointVal` is the last part: span 7 joins the maximum, the weight `(1 + max)² / 4` multiplies
  the two logits' label-free cross entropies, the 128 × 2048 products are folded to 8 × 128 (rows a·8 + r, columns
  b·128 + l summed over a, b) and added to what the output block held (`prev`).
-/
import proofs.«423081_j13864154431993_3_alg».proof.Proof.Gen.KernelIdeal.Skeleton

noncomputable section

namespace Cert.KernelIdeal.Hand

open Idealize.ShloMosaic Cert.KernelIdeal Cert.KernelIdeal.Gen

variable {F : FTy → Type} [FloatOps F]

/-- The positions of the block's columns: `li · 2048 + column`, as 32-bit words. -/
def posRow (i : grid0.Coords) : IVec S1x2048 32 := k0_pay2 i

/-- Largest overlap score after span 0. -/
def scan0 (i : grid0.Coords) (st en : Vec F S128x8 .i32) : FVec F S128x2048 .f32 := k0_pay3 i st en

/-- … after spans 0–2. -/
def scan2 (i : grid0.Coords) (st en : Vec F S128x8 .i32) : FVec F S128x2048 .f32 :=
  k0_pay8 st en (posRow i) (scan0 i st en) (k0_pay4 st) (k0_pay6 st en) (k0_pay7 st en) 1#32

/-- … after spans 0–4. -/
def scan4 (i : grid0.Coords) (st en : Vec F S128x8 .i32) : FVec F S128x2048 .f32 :=
  k0_pay15 st en (posRow i) (scan2 i st en) (k0_pay9 st) (k0_pay11 st en) (k0_pay12 st en) (k0_pay13 st en) k0_pay14

/-- … after spans 0–6. -/
def scan6 (i : grid0.Coords) (st en : Vec F S128x8 .i32) : FVec F S128x2048 .f32 :=
  k0_pay22 st en (posRow i) (scan4 i st en) (k0_pay16 st) (k0_pay18 st en) (k0_pay19 st en) (k0_pay20 st en) (k0_pay21 (F := F))

/-- What the point stores into the output block: `prev` plus the folded weighted losses of its logit blocks
    `sl`, `el` under the spans `st`, `en` of its rows. -/
def pointVal (i : grid0.Coords) (sl el : Vec F S128x2048 .f32) (st en : Vec F S128x8 .i32) (prev : Vec F S1x8x128 .f32) :
    FVec F S1x8x128 .f32 :=
  k0_pay27 sl el (posRow i) (scan6 i st en) (k0_pay23 st) (k0_pay25 st en) (k0_pay26 st en) prev

/-- The zero block the first point of a row of the grid resets the output block to. -/
def zeroBlock : FVec F S1x8x128 .f32 := k0_pay1 (F := F)

end Cert.KernelIdeal.Hand

end
-- ==== Proof.KIMain.lean ====
/-
  The one region of the program and the host lines after it: the definitions the frame and the value proofs share.

  @main is the region alone followed by thirteen stretches of host operations (`tailOps`); nothing runs before the
  region, so the region finds every buffer as launched (`V`). The grid is 2 × 4: point `t` works on rows
  `(t / 4) · 128 …` and columns `(t % 4) · 2048 …` of the two logit arrays and on the spans of those rows; the output
  block `t / 4` is reset at the first point of each row of the grid and accumulates over its four points, so what it
  holds after point `n` (`outAfter`) is `pointVal` of the point's blocks over the zero block when `n % 4 = 0` and
  over what point `n - 1` left otherwise.
-/
import proofs.«423081_j13864154431993_3_alg».proof.Proof.Gen.KernelIdeal.Launch
import proofs.«423081_j13864154431993_3_alg».proof.Proof.Gen.KernelIdeal.Points
import proofs.«423081_j13864154431993_3_alg».proof.Proof.KIBody
import Idealize.ShloMosaic.Lib.Pipeline.FrameBody
import Idealize.ShloMosaic.Lib.Pipeline.FrameSuffix

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ)

/-- Core `c`'s TensorCore buffer contents when the region is entered: as launched (no host line runs before it). -/
abbrev V0 (c : Dev nD) : Valuation τ sig (Elt F) :=
  StableHlo.after (List.flatten ([] : List (List (HloOp τ sig (Elt F))))) (fun b => m (c, b))
/-- The same read at a TensorCore reference. -/
abbrev V (c : Dev nD) (b : Ref sig .tc) : Buf (Elt F) ((c : Thread nD τ).loc b) := V0 m c (Proc.devRef .tc b)

/-- The host operations after the region, stretch by stretch (a called function's operations are a stretch of their own). -/
abbrev tailOps : List (List (HloOp τ sig (Elt F))) :=
  [hostOps1, hostOps1_1, hostOps1_2, hostOps1_3, hostOps1_4, hostOps1_5, hostOps1_6, hostOps1_7, hostOps1_8,
   hostOps1_9, hostOps1_10, hostOps1_11, hostOps1_12]

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- What the output block's staging buffer holds after the body at position `n` of the grid. -/
def outAfter (c : Dev nD) : (n : ℕ) → n < cfg0.N → Vec F S1x8x128 .f32
  | 0, hn => pointVal (grid0.coords ⟨0, hn⟩) (iblk m c 0 ⟨0, hn⟩) (iblk m c 1 ⟨0, hn⟩) (iblk m c 2 ⟨0, hn⟩) (iblk m c 3 ⟨0, hn⟩) (zeroBlock (F := F))
  | n + 1, hn =>
    if (n + 1) % 4 = 0 then
      pointVal (grid0.coords ⟨n + 1, hn⟩) (iblk m c 0 ⟨n + 1, hn⟩) (iblk m c 1 ⟨n + 1, hn⟩) (iblk m c 2 ⟨n + 1, hn⟩) (iblk m c 3 ⟨n + 1, hn⟩) (zeroBlock (F := F))
    else
      pointVal (grid0.coords ⟨n + 1, hn⟩) (iblk m c 0 ⟨n + 1, hn⟩) (iblk m c 1 ⟨n + 1, hn⟩) (iblk m c 2 ⟨n + 1, hn⟩) (iblk m c 3 ⟨n + 1, hn⟩) (outAfter c n (Nat.lt_of_succ_lt hn))

/-- `outAfter` at a first point of a row of the grid. -/
theorem outAfter_first (c : Dev nD) (t : Fin cfg0.N) (h0 : t.val % 4 = 0) :
    outAfter m c t.val t.isLt = pointVal (grid0.coords t) (iblk m c 0 t) (iblk m c 1 t) (iblk m c 2 t) (iblk m c 3 t) (zeroBlock (F := F)) := by
  obtain ⟨n, hn⟩ := t
  cases n with
  | zero => rfl
  | succ n => exact (if_pos h0).trans rfl

/-- `outAfter` at a later point: over what the point before left. -/
theorem outAfter_next (c : Dev nD) (t : Fin cfg0.N) (h0 : ¬t.val % 4 = 0) :
    outAfter m c t.val t.isLt = pointVal (grid0.coords t) (iblk m c 0 t) (iblk m c 1 t) (iblk m c 2 t) (iblk m c 3 t)
      (outAfter m c (t.val - 1) (Nat.lt_of_le_of_lt (Nat.sub_le _ _) t.isLt)) := by
  obtain ⟨n, hn⟩ := t
  cases n with
  | zero => exact absurd (Nat.zero_mod _) h0
  | succ n => exact (if_neg h0).trans rfl

/-- The proof data of the pipeline on core `c`: the arrays as the region finds them; after the body at point `t`
    each input's buffer at its block and the output's at `outAfter`; the invariant untouched; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAfter m c t.val t.isLt
  Φ _ := Pipeline.ΦA spec0 c
  q _ := fullShare
  owed _ := 0

theorem A_eq (c : Dev nD) (w : Fin cfg0.W) : (dats m 0 c).A w = V m c (Pipeline.arrRef spec0 w) := by
  dsimp only [dats]

theorem after_in0 (c : Dev nD) (t : Fin cfg0.N) : (dats m 0 c).after 0 t = iblk m c 0 t := by dsimp only [dats]
theorem after_in1 (c : Dev nD) (t : Fin cfg0.N) : (dats m 0 c).after 1 t = iblk m c 1 t := by dsimp only [dats]
theorem after_in2 (c : Dev nD) (t : Fin cfg0.N) : (dats m 0 c).after 2 t = iblk m c 2 t := by dsimp only [dats]
theorem after_in3 (c : Dev nD) (t : Fin cfg0.N) : (dats m 0 c).after 3 t = iblk m c 3 t := by dsimp only [dats]
theorem after_out (c : Dev nD) (t : Fin cfg0.N) : (dats m 0 c).after 4 t = outAfter m c t.val t.isLt := by dsimp only [dats]

end Cert.KernelIdeal.Hand

end
-- ==== Proof.KIFrame.lean ====
/-
  The frame of the idealized kernel program: @main is one pipelined region followed by thirteen stretches of host
  operations. The region's body, run at a grid point on whole staging buffers, leaves the four input blocks as it
  found them and the output block at the point's value over what the block held (over the zero block at the first
  point of a row of the grid, where the body first resets the block). From this the launch theorem of a region
  followed by host lines gives the run of @main: it terminates, the argument arrays end as launched, and the result
  buffer ends at what the host stretches compute from the region's exit contents.
-/
import proofs.«423081_j13864154431993_3_alg».proof.Proof.KIMain
import proofs.«423081_j13864154431993_3_alg».proof.Proof.Gen.KernelIdeal.Skeleton
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- @main is the region followed by the host stretches: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain (tailOps.map StableHlo.seq)) :=
  Pipeline.hmain_around cfgs 0 defs₀ 𝒱₀ m main [] tailOps (by simp only [List.Forall]) (by simp only [List.Forall]) main_chain

/-- A buffer that is no array of the pipeline is, as a device reference, none of them either. -/
theorem keeps_of {y : Ref sig .tc} (h : ∀ w, Pipeline.arrRef spec0 w ≠ y) :
    ∀ w, ¬ Proc.devRef (τ := τ) .tc (Pipeline.arrRef spec0 w) = Proc.devRef .tc y :=
  fun w => StableHlo.devRef_ne_of_ne (h w)

/-! ### Each stretch allocates nothing and writes no array of the pipeline (every operation writes its own result buffer only) -/

theorem hostOps1_fresh : (hostOps1 : List (HloOp τ sig (Elt F))).Forall fun op => op.fresh = ∅ := by
  simp only [List.Forall]; repeat' constructor
theorem hostOps1_keeps : (hostOps1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_1_fresh : (hostOps1_1 : List (HloOp τ sig (Elt F))).Forall fun op => op.fresh = ∅ := by
  simp only [List.Forall]; repeat' constructor
theorem hostOps1_1_keeps : (hostOps1_1 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_2_fresh : (hostOps1_2 : List (HloOp τ sig (Elt F))).Forall fun op => op.fresh = ∅ := by
  simp only [List.Forall]; repeat' constructor
theorem hostOps1_2_keeps : (hostOps1_2 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_3_fresh : (hostOps1_3 : List (HloOp τ sig (Elt F))).Forall fun op => op.fresh = ∅ := by
  simp only [List.Forall]; repeat' constructor
theorem hostOps1_3_keeps : (hostOps1_3 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_4_fresh : (hostOps1_4 : List (HloOp τ sig (Elt F))).Forall fun op => op.fresh = ∅ := by
  simp only [List.Forall]; repeat' constructor
theorem hostOps1_4_keeps : (hostOps1_4 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_5_fresh : (hostOps1_5 : List (HloOp τ sig (Elt F))).Forall fun op => op.fresh = ∅ := by
  simp only [List.Forall]; repeat' constructor
theorem hostOps1_5_keeps : (hostOps1_5 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_6_fresh : (hostOps1_6 : List (HloOp τ sig (Elt F))).Forall fun op => op.fresh = ∅ := by
  simp only [List.Forall]; repeat' constructor
theorem hostOps1_6_keeps : (hostOps1_6 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_7_fresh : (hostOps1_7 : List (HloOp τ sig (Elt F))).Forall fun op => op.fresh = ∅ := by
  simp only [List.Forall]; repeat' constructor
theorem hostOps1_7_keeps : (hostOps1_7 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_8_fresh : (hostOps1_8 : List (HloOp τ sig (Elt F))).Forall fun op => op.fresh = ∅ := by
  simp only [List.Forall]; repeat' constructor
theorem hostOps1_8_keeps : (hostOps1_8 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_9_fresh : (hostOps1_9 : List (HloOp τ sig (Elt F))).Forall fun op => op.fresh = ∅ := by
  simp only [List.Forall]; repeat' constructor
theorem hostOps1_9_keeps : (hostOps1_9 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_10_fresh : (hostOps1_10 : List (HloOp τ sig (Elt F))).Forall fun op => op.fresh = ∅ := by
  simp only [List.Forall]; repeat' constructor
theorem hostOps1_10_keeps : (hostOps1_10 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_11_fresh : (hostOps1_11 : List (HloOp τ sig (Elt F))).Forall fun op => op.fresh = ∅ := by
  simp only [List.Forall]; repeat' constructor
theorem hostOps1_11_keeps : (hostOps1_11 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

theorem hostOps1_12_fresh : (hostOps1_12 : List (HloOp τ sig (Elt F))).Forall fun op => op.fresh = ∅ := by
  simp only [List.Forall]; repeat' constructor
theorem hostOps1_12_keeps : (hostOps1_12 : List (HloOp τ sig (Elt F))).Forall fun op =>
    ∀ w, Proc.devRef .tc (Pipeline.arrRef spec0 w) ∉ op.writes := by
  simp only [List.Forall, StableHlo.nullary_writes, StableHlo.unary_writes, StableHlo.binary_writes, StableHlo.ternary_writes,
    StableHlo.reshape_writes, Finset.mem_singleton]
  repeat' apply And.intro
  all_goals exact keeps_of (by decide)

/-- The stretches after the region touch the pipeline's arrays and the bypassing buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops
  simp only [List.mem_cons, List.mem_nil_iff, or_false] at hops
  rcases hops with rfl | rfl | rfl | rfl | rfl | rfl | rfl | rfl | rfl | rfl | rfl | rfl | rfl
  · exact fun op hop => Pipeline.sub_ucRefs op ((List.forall_iff_forall_mem.mp hostOps1_sub) op hop)
  · exact fun op hop => Pipeline.sub_ucRefs op ((List.forall_iff_forall_mem.mp hostOps1_1_sub) op hop)
  · exact fun op hop => Pipeline.sub_ucRefs op ((List.forall_iff_forall_mem.mp hostOps1_2_sub) op hop)
  · exact fun op hop => Pipeline.sub_ucRefs op ((List.forall_iff_forall_mem.mp hostOps1_3_sub) op hop)
  · exact fun op hop => Pipeline.sub_ucRefs op ((List.forall_iff_forall_mem.mp hostOps1_4_sub) op hop)
  · exact fun op hop => Pipeline.sub_ucRefs op ((List.forall_iff_forall_mem.mp hostOps1_5_sub) op hop)
  · exact fun op hop => Pipeline.sub_ucRefs op ((List.forall_iff_forall_mem.mp hostOps1_6_sub) op hop)
  · exact fun op hop => Pipeline.sub_ucRefs op ((List.forall_iff_forall_mem.mp hostOps1_7_sub) op hop)
  · exact fun op hop => Pipeline.sub_ucRefs op ((List.forall_iff_forall_mem.mp hostOps1_8_sub) op hop)
  · exact fun op hop => Pipeline.sub_ucRefs op ((List.forall_iff_forall_mem.mp hostOps1_9_sub) op hop)
  · exact fun op hop => Pipeline.sub_ucRefs op ((List.forall_iff_forall_mem.mp hostOps1_10_sub) op hop)
  · exact fun op hop => Pipeline.sub_ucRefs op ((List.forall_iff_forall_mem.mp hostOps1_11_sub) op hop)
  · exact fun op hop => Pipeline.sub_ucRefs op ((List.forall_iff_forall_mem.mp hostOps1_12_sub) op hop)

/-- They allocate nothing. -/
theorem sfx_fresh : ∀ ops ∈ (tailOps : List (List (HloOp τ sig (Elt F)))), ∀ op ∈ ops, op.fresh = ∅ := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_fresh
  · exact List.forall_iff_forall_mem.mp hostOps1_1_fresh
  · exact List.forall_iff_forall_mem.mp hostOps1_2_fresh
  · exact List.forall_iff_forall_mem.mp hostOps1_3_fresh
  · exact List.forall_iff_forall_mem.mp hostOps1_4_fresh
  · exact List.forall_iff_forall_mem.mp hostOps1_5_fresh
  · exact List.forall_iff_forall_mem.mp hostOps1_6_fresh
  · exact List.forall_iff_forall_mem.mp hostOps1_7_fresh
  · exact List.forall_iff_forall_mem.mp hostOps1_8_fresh
  · exact List.forall_iff_forall_mem.mp hostOps1_9_fresh
  · exact List.forall_iff_forall_mem.mp hostOps1_10_fresh
  · exact List.forall_iff_forall_mem.mp hostOps1_11_fresh
  · exact List.forall_iff_forall_mem.mp hostOps1_12_fresh

/-- And write no array of the pipeline. -/
theorem sfx_keeps : ∀ ops ∈ (tailOps : List (List (HloOp τ sig (Elt F)))), ∀ op ∈ ops,
    ∀ w, Proc.devRef .tc (Pipeline.arrRef spec0 w) ∉ op.writes := by
  intro ops hops
  simp only [List.mem_cons, List.mem_nil_iff, or_false] at hops
  rcases hops with rfl | rfl | rfl | rfl | rfl | rfl | rfl | rfl | rfl | rfl | rfl | rfl | rfl
  · exact List.forall_iff_forall_mem.mp hostOps1_keeps
  · exact List.forall_iff_forall_mem.mp hostOps1_1_keeps
  · exact List.forall_iff_forall_mem.mp hostOps1_2_keeps
  · exact List.forall_iff_forall_mem.mp hostOps1_3_keeps
  · exact List.forall_iff_forall_mem.mp hostOps1_4_keeps
  · exact List.forall_iff_forall_mem.mp hostOps1_5_keeps
  · exact List.forall_iff_forall_mem.mp hostOps1_6_keeps
  · exact List.forall_iff_forall_mem.mp hostOps1_7_keeps
  · exact List.forall_iff_forall_mem.mp hostOps1_8_keeps
  · exact List.forall_iff_forall_mem.mp hostOps1_9_keeps
  · exact List.forall_iff_forall_mem.mp hostOps1_10_keeps
  · exact List.forall_iff_forall_mem.mp hostOps1_11_keeps
  · exact List.forall_iff_forall_mem.mp hostOps1_12_keeps

/-! ## Whole-block loads and stores -/

theorem hz2 : (![0, 0] : Fin 2 → Nat) = fun _ => 0 := funext fun a => by fin_cases a <;> rfl
theorem hz3 : (![0, 0, 0] : Fin 3 → Nat) = fun _ => 0 := funext fun a => by fin_cases a <;> rfl

/-- A load of a whole logit block reads the buffer's contents. -/
theorem readAt_logits {κ : Kind} {sp : Space} (v : View sig κ sp S128x2048 .f32) (f : v.ty.Contents (Elt F)) :
    v.readAt (Elt F) (Rect.unit (s := S128x2048) ![0, 0] S128x2048.size inb_S128x2048_S128x2048_0_0).toLoadRect f
      = v.read (Elt F) f :=
  View.ld_unit_zero (S := S128x2048) hz2 inb_S128x2048_S128x2048_0_0 (v.read (Elt F) f)

/-- A load of a whole span block reads the buffer's contents. -/
theorem readAt_spans {κ : Kind} {sp : Space} (v : View sig κ sp S128x8 .i32) (f : v.ty.Contents (Elt F)) :
    v.readAt (Elt F) (Rect.unit (s := S128x8) ![0, 0] S128x8.size inb_S128x8_S128x8_0_0).toLoadRect f
      = v.read (Elt F) f :=
  View.ld_unit_zero (S := S128x8) hz2 inb_S128x8_S128x8_0_0 (v.read (Elt F) f)

/-- A load of the whole output block reads the buffer's contents. -/
theorem readAt_out {κ : Kind} {sp : Space} (v : View sig κ sp S1x8x128 .f32) (f : v.ty.Contents (Elt F)) :
    v.readAt (Elt F) (Rect.unit (s := S1x8x128) ![0, 0, 0] S1x8x128.size inb_S1x8x128_S1x8x128_0_0_0).toLoadRect f
      = v.read (Elt F) f :=
  View.ld_unit_zero (S := S1x8x128) hz3 inb_S1x8x128_S1x8x128_0_0_0 (v.read (Elt F) f)

/-- A load of the whole output block after one store of the whole block reads what was stored. -/
theorem readCov_out {κ : Kind} {sp : Space} (v : View sig κ sp S1x8x128 .f32) (w : S1x8x128.Idx → Elt F .f32) :
    v.readCov [(⟨Rect.unit (s := S1x8x128) ![0, 0, 0] S1x8x128.size inb_S1x8x128_S1x8x128_0_0_0, w⟩ : View.Piece (Elt F) S1x8x128 .f32)]
        (Rect.unit (s := S1x8x128) ![0, 0, 0] S1x8x128.size inb_S1x8x128_S1x8x128_0_0_0).toLoadRect = w :=
  View.readCov_unit_zero (S := S1x8x128) v hz3 inb_S1x8x128_S1x8x128_0_0_0 w

/-- What a buffer reads after writes whose last is a store of the whole output block: that store's payload. -/
theorem read_writes_out {κ : Kind} {sp : Space} (v : View sig κ sp S1x8x128 .f32) (f : v.ty.Contents (Elt F))
    (w : S1x8x128.Idx → Elt F .f32) (L : List (View.Piece (Elt F) S1x8x128 .f32)) :
    v.read (Elt F) (v.writes (Elt F) f
      ((⟨Rect.unit (s := S1x8x128) ![0, 0, 0] S1x8x128.size inb_S1x8x128_S1x8x128_0_0_0, w⟩ : View.Piece (Elt F) S1x8x128 .f32) :: L)) = w := by
  have hcov : ∀ y : S1x8x128.Idx, ∃ p ∈ ((⟨Rect.unit (s := S1x8x128) ![0, 0, 0] S1x8x128.size inb_S1x8x128_S1x8x128_0_0_0, w⟩ :
      View.Piece (Elt F) S1x8x128 .f32) :: L), y ∈ p.1.set :=
    fun y => ⟨_, List.mem_cons_self, View.mem_set_unit_zero (S := S1x8x128) hz3 inb_S1x8x128_S1x8x128_0_0_0 y⟩
  rw [View.read_writes_eq_canon v f _ hcov]
  exact View.canon_cons_unit_zero (S := S1x8x128) hz3 inb_S1x8x128_S1x8x128_0_0_0 w L

/-- The point's value depends on its five arguments only. -/
theorem pointVal_congr (i : grid0.Coords) {a a' b b' : Vec F S128x2048 .f32} {s s' e e' : Vec F S128x8 .i32}
    {p p' : Vec F S1x8x128 .f32} (ha : a = a') (hb : b = b') (hs : s = s') (he : e = e') (hp : p = p') :
    pointVal i a b s e p = pointVal i a' b' s' e' p' := by
  subst ha hb hs he hp; rfl

/-! ## What the body finds in the staging buffers -/

/-- The condition of the body's conditional, from the grid coordinates: the point is the first of its row of the grid. -/
abbrev cond0 (i : grid0.Coords) : Prop :=
  (Scalar.cmpi .ne (Scalar.extui (Scalar.cmpi .eq (BitVec.ofNat 32 (i 1).val) 0#32)) 0#32) = 1#1

/-- It holds at the points ≡ 0 (mod 4) only: decided over the grid. -/
theorem hcond0 : ∀ t : Fin cfg0.N, cond0 (grid0.coords t) ↔ t.val % 4 = 0 :=
  (by decide +kernel : ∀ t : Fin grid0.N, cond0 (grid0.coords t) ↔ t.val % 4 = 0)

/-- Each input's current staging buffer holds its block at every point, fetched there or not: where it is not
    fetched its block index has not moved since the point before. -/
theorem before0 (c : Dev nD) (t : Fin cfg0.N) (d) : (dats m 0 c).before 0 t d = iblk m c 0 t :=
  ((dats m 0 c).before_in_eq_fetched 0 rfl (fun _ => rfl) (fun _ _ _ => rfl)
    (fun t => by rw [after_in0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl)
    (fun t => by rw [after_in1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl)
    (fun t => by rw [after_in2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl)
    (fun t => by rw [after_in3]; unfold Dat.blockOf iblk; rw [A_eq]; try rfl) t d).trans
    (by unfold Dat.fetched Dat.blockOf iblk; rw [A_eq]; try rfl)

/-- At a point that is not the first of its row of the grid the output's current staging buffer holds what the body
    left at the point before: the buffer was not written back in between, the window is never idle and is uncut. -/
theorem before4_next (c : Dev nD) (t : Fin cfg0.N) (h0 : ¬t.val % 4 = 0) (d) :
    (dats m 0 c).before 4 t d = outAfter m c (t.val - 1) (Nat.lt_of_le_of_lt (Nat.sub_le _ _) t.isLt) := by
  have hN : t.val < 8 := lt_of_lt_of_eq t.isLt (show cfg0.N = 8 from N_0)
  rw [Dat.before_out_kept _ 4 rfl t (by omega)
    (Bool.eq_false_iff.mpr fun h => by have := (flush0_4 _).mp h; dsimp only at this; omega)
    (fun _ => rfl) (fun _ _ => rfl)]
  dsimp only [dats]

/-! ## The body on any whole staging buffers -/

set_option maxHeartbeats 4000000 in
/-- AT THE FIRST POINT OF A ROW OF THE GRID. On whole staging buffers — the inputs' at read contents, the output's at
    anything — the body runs to the continuation holding the inputs' as they were and the output's at the point's
    value over the zero block: the zero block is stored, read back, and the point's value over it stored. -/
theorem kernel_first (c : Dev nD) (E : Set ℕ) (i : grid0.Coords)
    (arg2 : Memref sig .tc .vmem S128x2048 .f32) (harg2 : arg2.IsWhole) (arg3 : Memref sig .tc .vmem S128x2048 .f32) (harg3 : arg3.IsWhole)
    (arg4 : Memref sig .tc .vmem S128x8 .i32) (harg4 : arg4.IsWhole) (arg5 : Memref sig .tc .vmem S128x8 .i32) (harg5 : arg5.IsWhole)
    (arg6 : Memref sig .tc .vmem S1x8x128 .f32) (harg6 : arg6.IsWhole) (hc : cond0 i)
    (x0 x1 : Vec F S128x2048 .f32) (x2 x3 : Vec F S128x8 .i32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ (∃ d, owns (c : Thread nD τ) arg6 fullShare d)
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointVal i x0 x1 x2 x3 (zeroBlock (F := F)))) -∗ K ⟨⟩))
      ⊢ wp frame (wpE (defs₀ (F := F)) Variants.none c none) E
          (cc0__span_loss_kernel i arg2 harg2 arg3 harg3 arg4 harg4 arg5 harg5 arg6 harg6) K := by
  simp only [cc0__span_loss_kernel_eq_skeleton]; unfold cc0__span_loss_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads the last store's payload; its loads of whole blocks read the buffers' contents
  refine (read_writes_out _ _ _ _).trans ?_
  refine Eq.trans ?_ (pointVal_congr i (readAt_logits arg2.view f0) (readAt_logits arg3.view f1)
    (readAt_spans arg4.view f2) (readAt_spans arg5.view f3) (readCov_out arg6.view (zeroBlock (F := F))))
  sl_unfold_run_names
  rfl

set_option maxHeartbeats 4000000 in
/-- AT A LATER POINT OF A ROW OF THE GRID. The same, the output's buffer holding the running value `prev`: the body
    runs to the continuation holding the output's at the point's value over `prev`. -/
theorem kernel_next (c : Dev nD) (E : Set ℕ) (i : grid0.Coords)
    (arg2 : Memref sig .tc .vmem S128x2048 .f32) (harg2 : arg2.IsWhole) (arg3 : Memref sig .tc .vmem S128x2048 .f32) (harg3 : arg3.IsWhole)
    (arg4 : Memref sig .tc .vmem S128x8 .i32) (harg4 : arg4.IsWhole) (arg5 : Memref sig .tc .vmem S128x8 .i32) (harg5 : arg5.IsWhole)
    (arg6 : Memref sig .tc .vmem S1x8x128 .f32) (harg6 : arg6.IsWhole) (hc : ¬cond0 i)
    (x0 x1 : Vec F S128x2048 .f32) (x2 x3 : Vec F S128x8 .i32) (prev : Vec F S1x8x128 .f32) (K : PUnit → sProp 𝕄) :
    iprop(owns (c : Thread nD τ) arg2 fullShare x0 ∗ owns (c : Thread nD τ) arg3 fullShare x1
        ∗ owns (c : Thread nD τ) arg4 fullShare x2 ∗ owns (c : Thread nD τ) arg5 fullShare x3
        ∗ owns (c : Thread nD τ) arg6 fullShare prev
        ∗ (iprop(owns (c : Thread nD τ) arg2 fullShare x0 ∗ owns (c : Thread nD τ) arg3 fullShare x1
            ∗ owns (c : Thread nD τ) arg4 fullShare x2 ∗ owns (c : Thread nD τ) arg5 fullShare x3
            ∗ owns (c : Thread nD τ) arg6 fullShare (pointVal i x0 x1 x2 x3 prev)) -∗ K ⟨⟩))
      ⊢ wp frame (wpE (defs₀ (F := F)) Variants.none c none) E
          (cc0__span_loss_kernel i arg2 harg2 arg3 harg3 arg4 harg4 arg5 harg5 arg6 harg6) K := by
  simp only [cc0__span_loss_kernel_eq_skeleton]; unfold cc0__span_loss_kernel_skel
  unfold owns
  iintro ⟨⟨%f0, %hf0, H0⟩, ⟨%f1, %hf1, H1⟩, ⟨%f2, %hf2, H2⟩, ⟨%f3, %hf3, H3⟩, ⟨%f4, %hf4, H4⟩, Hk⟩
  subst hf0; subst hf1; subst hf2; subst hf3; subst hf4
  sl_exec (disch := first | exact hc)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  -- the buffer reads the last store's payload; its loads of whole blocks read the buffers' contents
  refine (read_writes_out _ _ _ _).trans ?_
  refine Eq.trans ?_ (pointVal_congr i (readAt_logits arg2.view f0) (readAt_logits arg3.view f1)
    (readAt_spans arg4.view f2) (readAt_spans arg5.view f3) (readAt_out arg6.view f4))
  sl_unfold_run_names
  rfl

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t))

set_option maxHeartbeats 1600000 in
/-- The body at any point: the inputs' buffers hold their blocks; at the first point of a row of the grid the output's
    buffer holds anything and the body leaves the point's value over the zero block, at a later point it holds what the
    point before left and the body leaves the point's value over that; the invariant and what the core owes pass
    through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).Φ t.succ = (dats m 0 c).Φ t.castSucc from rfl,
    show (dats m 0 c).owesAt () t.succ = (dats m 0 c).owesAt () t.castSucc from rfl,
    after_in0, after_in1, after_in2, after_in3, after_out]
  by_cases h0 : t.val % 4 = 0
  · rw [outAfter_first m c t h0]
    iintro ⟨HΦ, Ho, ⟨%d0, H0⟩, ⟨%d1, H1⟩, ⟨%d2, H2⟩, ⟨%d3, H3⟩, ⟨%d4, H4⟩⟩
    iapply (kernel_first c Set.univ (grid0.coords t) _ _ _ _ _ _ _ _ _ _ ((hcond0 t).mpr h0)
      (iblk m c 0 t) (iblk m c 1 t) (iblk m c 2 t) (iblk m c 3 t) _)
    isplitl [H0]; · iexact H0
    isplitl [H1]; · iexact H1
    isplitl [H2]; · iexact H2
    isplitl [H3]; · iexact H3
    isplitl [H4]; · iexists _; iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4
  · rw [outAfter_next m c t h0]
    simp only [before4_next m c t h0]
    iintro ⟨HΦ, Ho, ⟨%d0, H0⟩, ⟨%d1, H1⟩, ⟨%d2, H2⟩, ⟨%d3, H3⟩, ⟨%d4, H4⟩⟩
    iapply (kernel_next c Set.univ (grid0.coords t) _ _ _ _ _ _ _ _ _ _ (fun h => h0 ((hcond0 t).mp h))
      (iblk m c 0 t) (iblk m c 1 t) (iblk m c 2 t) (iblk m c 3 t)
      (outAfter m c (t.val - 1) (Nat.lt_of_le_of_lt (Nat.sub_le _ _) t.isLt)) _)
    isplitl [H0]; · iexact H0
    isplitl [H1]; · iexact H1
    isplitl [H2]; · iexact H2
    isplitl [H3]; · iexact H3
    isplitl [H4]; · iexact H4
    iintro ⟨H0, H1, H2, H3, H4⟩
    isplitl [HΦ]; · iexact HΦ
    isplitl [Ho]; · iexact Ho
    isplitl [H0]; · iexact H0
    isplitl [H1]; · iexact H1
    isplitl [H2]; · iexact H2
    isplitl [H3]; · iexact H3
    iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- From any memory with zero counters every weakly fair execution of @main on the TensorCores terminates, and every
    final state has every array of the pipeline at what the library computes from the proof data and every other
    unscoped buffer at what the host stretches compute from the region's exit contents. -/
theorem run_main : θ_run defs (onTc (τ := τ) (main (F := F))) (s₀ m ρ)
    (Pipeline.FramePost cfgs (dats m) 0 (Pipeline.afterTail₀ cfgs (dats m) 0 (V0 m) tailOps)) :=
  Pipeline.θ_run_frame_around cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hΦ := fun _ _ => rfl)

/-- info: 'Cert.KernelIdeal.Hand.run_main' depends on axioms: [propext, Classical.choice, Quot.sound] -/
#guard_msgs in #print axioms run_main

/-- No host operation runs before the region: it finds every buffer as launched. -/
theorem V_launch (c : Dev nD) (b : Ref sig .tc) : V m c b = m ((c : Thread nD τ).loc b) := rfl

/-- An input array of the pipeline ends as launched: the library keeps an input's array at its entry contents. -/
theorem arg_of_post {r : PUnit × MemSt nD τ sig (Elt F)}
    (h : Pipeline.FramePost cfgs (dats m) 0 (Pipeline.afterTail₀ cfgs (dats m) 0 (V0 m) tailOps) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).1 0).trans (((dats m 0 c).arrAt_in 0 rfl _).trans ((A_eq m c 0).trans (V_launch m c main_arg0))),
   ((h c).1 1).trans (((dats m 0 c).arrAt_in 1 rfl _).trans ((A_eq m c 1).trans (V_launch m c main_arg1))),
   ((h c).1 2).trans (((dats m 0 c).arrAt_in 2 rfl _).trans ((A_eq m c 2).trans (V_launch m c main_arg2))),
   ((h c).1 3).trans (((dats m 0 c).arrAt_in 3 rfl _).trans ((A_eq m c 3).trans (V_launch m c main_arg3)))⟩

/-- THE FRAME: @main runs to the end and its four argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => arg_of_post m h c) (run_main m ρ)

/-- The run with the result buffer read: it holds what the host stretches compute from the region's exit contents
    (the result buffer is unscoped and no array of the pipeline), and the arguments end unchanged. -/
theorem run_value : θ_run defs (onTc (τ := τ) (main (F := F))) ⟨m, fun _ => 0, ρ⟩ (fun r => ∀ c : Dev nD,
      r.2.mem ((c.tc : Thread nD τ).loc main_v141) = Pipeline.afterTail₀ cfgs (dats m) 0 (V0 m) tailOps c main_v141
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c).2 main_v141 (Pipeline.mem_restRefs_of main_v141 (by decide) (by decide)), arg_of_post m h c⟩) (run_main m ρ)

end Cert.KernelIdeal.Hand

end
-- ==== Proof.KICorr.lean ====
/-
  The host-side correction of the kernel program as one function of a logit array, the hit positions and the spans,
  and its value when every float operation is the exact one on extended reals.

  The program computes it twice, once for the start logits with the span starts as hit positions and once for the
  end logits with the span ends, from the same operations; `corrFn` is that sequence of operations.
-/
import proofs.«423081_j13864154431993_3_alg».proof.Proof.Gen.KernelIdeal

noncomputable section

namespace Cert.KernelIdeal.Hand

open Idealize.ShloMosaic Cert.KernelIdeal Cert.KernelIdeal.Gen

variable {F : FTy → Type} [FloatOps F]

/-- The unlabelled weight at each hit position: `(1 + m)² / 4` with `m` the largest overlap score of the position
    `H[b, s]` over the eight spans of its row — `1 / (en − st + 1)` for a span with `st ≤ en` that contains the position,
    `0` for the others. -/
noncomputable def hitWeight (H st en : IVec S256x8 32) : FVec F S256x8 .f32 :=
  have main_v2 : IVec S256x8 1 := cmpi .sle st en
  have main_v3 : IVec S256x8 32 := subi en st
  have main_c : IVec S_ 32 := constantI S_ 32 1#32
  have main_v4 : IVec S256x8 32 := broadcastInDim S256x8 ![] bcast_S_S256x8 main_c
  have main_v5 : IVec S256x8 32 := addi main_v3 main_v4
  have main_v6 : FVec F S256x8 .f32 := sitofp .f32 main_v5
  have main_v7 : IVec S256x1x8 32 := broadcastInDim S256x1x8 ![0, 2] bcast_S256x8_S256x1x8_0_2 st
  have main_v8 : IVec S256x8x1 32 := broadcastInDim S256x8x1 ![0, 1] bcast_S256x8_S256x8x1_0_1 H
  have main_v9 : IVec S256x8x8 32 := broadcastInDim S256x8x8 ![0, 1, 2] bcast_S256x1x8_S256x8x8_0_1_2 main_v7
  have main_v10 : IVec S256x8x8 32 := broadcastInDim S256x8x8 ![0, 1, 2] bcast_S256x8x1_S256x8x8_0_1_2 main_v8
  have main_v11 : IVec S256x8x8 1 := cmpi .sle main_v9 main_v10
  have main_v12 : IVec S256x8x1 32 := broadcastInDim S256x8x1 ![0, 1] bcast_S256x8_S256x8x1_0_1 H
  have main_v13 : IVec S256x1x8 32 := broadcastInDim S256x1x8 ![0, 2] bcast_S256x8_S256x1x8_0_2 en
  have main_v14 : IVec S256x8x8 32 := broadcastInDim S256x8x8 ![0, 1, 2] bcast_S256x8x1_S256x8x8_0_1_2 main_v12
  have main_v15 : IVec S256x8x8 32 := broadcastInDim S256x8x8 ![0, 1, 2] bcast_S256x1x8_S256x8x8_0_1_2 main_v13
  have main_v16 : IVec S256x8x8 1 := cmpi .sle main_v14 main_v15
  have main_v17 : IVec S256x8x8 1 := andi main_v11 main_v16
  have main_v18 : IVec S256x1x8 1 := broadcastInDim S256x1x8 ![0, 2] bcast_S256x8_S256x1x8_0_2 main_v2
  have main_v19 : IVec S256x8x8 1 := broadcastInDim S256x8x8 ![0, 1, 2] bcast_S256x1x8_S256x8x8_0_1_2 main_v18
  have main_v20 : IVec S256x8x8 1 := andi main_v17 main_v19
  have main_v21 : FVec F S256x1x8 .f32 := broadcastInDim S256x1x8 ![0, 2] bcast_S256x8_S256x1x8_0_2 main_v6
  have main_cst_0 : FVec F S_ .f32 := constant S_ .f32 0x3F800000#32
  have main_v22 : FVec F S256x1x8 .f32 := broadcastInDim S256x1x8 ![] bcast_S_S256x1x8 main_cst_0
  have main_v23 : FVec F S256x1x8 .f32 := Host.divf main_v22 main_v21
  have main_cst_1 : FVec F S_ .f32 := constant S_ .f32 0x00000000#32
  have main_call0_v0 : FVec F S_ .f32 := id main_cst_1
  have main_call0_v1 : FVec F S256x8x8 .f32 := broadcastInDim S256x8x8 ![0, 1, 2] bcast_S256x1x8_S256x8x8_0_1_2 main_v23
  have main_call0_v2 : FVec F S256x8x8 .f32 := broadcastInDim S256x8x8 ![] bcast_S_S256x8x8 main_call0_v0
  have main_v24 : FVec F S256x8x8 .f32 := select main_v20 main_call0_v1 main_call0_v2
  have main_cst_2 : FVec F S_ .f32 := constant S_ .f32 0xFF800000#32
  have main_v25 : FVec F S256x8 .f32 := Host.reduce FloatOps.maximumf main_v24 main_cst_2 reducesTo_S256x8x8_S256x8_d2 h_S_
  have main_cst_3 : FVec F S_ .f32 := constant S_ .f32 0x3F800000#32
  have main_v26 : FVec F S256x8 .f32 := broadcastInDim S256x8 ![] bcast_S_S256x8 main_cst_3
  have main_v27 : FVec F S256x8 .f32 := addf main_v26 main_v25
  have main_cst_4 : FVec F S_ .f32 := constant S_ .f32 0x40000000#32
  have main_v28 : FVec F S256x8 .f32 := broadcastInDim S256x8 ![] bcast_S_S256x8 main_cst_4
  have main_v29 : FVec F S256x8 .f32 := Host.powf main_v27 main_v28
  have main_cst_5 : FVec F S_ .f32 := constant S_ .f32 0x3E800000#32
  have main_v30 : FVec F S256x8 .f32 := broadcastInDim S256x8 ![] bcast_S_S256x8 main_cst_5
  have main_v31 : FVec F S256x8 .f32 := mulf main_v30 main_v29
  main_v31

/-- The logit at each hit position: a negative position is taken from the end of the row, the read is clamped to the
    row, and a position outside the row reads the not-a-number pattern. -/
noncomputable def hitLogit (L : FVec F S256x8192 .f32) (H : IVec S256x8 32) : FVec F S256x8 .f32 :=
  have main_call1_c : IVec S_ 32 := constantI S_ 32 0#32
  have main_call1_v0 : IVec S256x8 32 := broadcastInDim S256x8 ![] bcast_S_S256x8 main_call1_c
  have main_call1_v1 : IVec S256x8 1 := cmpi .slt H main_call1_v0
  have main_call1_c_0 : IVec S_ 32 := constantI S_ 32 8192#32
  have main_call1_v2 : IVec S256x8 32 := broadcastInDim S256x8 ![] bcast_S_S256x8 main_call1_c_0
  have main_call1_v3 : IVec S256x8 32 := addi H main_call1_v2
  have main_call1_v4 : IVec S256x8 32 := select main_call1_v1 main_call1_v3 H
  have main_call1_v5 : IVec S256x8x1 32 := shapeCast S256x8x1 main_call1_v4 shapeCasts_S256x8_S256x8x1
  have main_call1_c_1 : IVec S1 32 := constantI S1 32 8191#32
  have main_call1_c_2 : IVec S_ 32 := constantI S_ 32 0#32
  have main_call1_v6 : IVec S256x8x1 32 := broadcastInDim S256x8x1 ![] bcast_S_S256x8x1 main_call1_c_2
  have main_call1_v7 : IVec S256x8x1 1 := cmpi .sge main_call1_v5 main_call1_v6
  have main_call1_v8 : IVec S1x1x1 32 := broadcastInDim S1x1x1 ![2] bcast_S1_S1x1x1_2 main_call1_c_1
  have main_call1_v9 : IVec S256x8x1 32 := broadcastInDim S256x8x1 ![0, 1, 2] bcast_S1x1x1_S256x8x1_0_1_2 main_call1_v8
  have main_call1_v10 : IVec S256x8x1 1 := cmpi .sle main_call1_v5 main_call1_v9
  have main_call1_v11 : IVec S256x8x1 1 := andi main_call1_v7 main_call1_v10
  have main_call1_c_3 : IVec S_ 1 := constantI S_ 1 1#1
  have main_call1_v12 : IVec S256x8 1 := Host.reduce IntOp.andi main_call1_v11 main_call1_c_3 reducesTo_S256x8x1_S256x8_d2 h_S_
  have main_call1_v13 : FVec F S256x8 .f32 := Host.gather gather_S256x8192_S256x8x1_S256x8_n_1_0_0_1_2_11 L main_call1_v5
  have main_call1_cst : FVec F S_ .f32 := constant S_ .f32 0x7FC00000#32
  have main_call1_v14 : FVec F S256x8 .f32 := broadcastInDim S256x8 ![] bcast_S_S256x8 main_call1_cst
  have main_v32 : FVec F S256x8 .f32 := select main_call1_v12 main_call1_v13 main_call1_v14
  main_v32

/-- The correction of one hit: three quarters of the cross entropy of the logit `x` against label one, minus the
    weight `w` times its cross entropy against label zero. -/
noncomputable def delta (x w : FVec F S256x8 .f32) : FVec F S256x8 .f32 :=
  have main_cst_6 : FVec F S_ .f32 := constant S_ .f32 0x00000000#32
  have main_v33 : FVec F S256x8 .f32 := broadcastInDim S256x8 ![] bcast_S_S256x8 main_cst_6
  have main_v34 : FVec F S256x8 .f32 := maximumf x main_v33
  have main_cst_7 : FVec F S_ .f32 := constant S_ .f32 0x3F800000#32
  have main_v35 : FVec F S256x8 .f32 := broadcastInDim S256x8 ![] bcast_S_S256x8 main_cst_7
  have main_v36 : FVec F S256x8 .f32 := mulf x main_v35
  have main_v37 : FVec F S256x8 .f32 := subf main_v34 main_v36
  have main_v38 : FVec F S256x8 .f32 := Host.absf x
  have main_v39 : FVec F S256x8 .f32 := Host.negf main_v38
  have main_v40 : FVec F S256x8 .f32 := Host.exp main_v39
  have main_v41 : FVec F S256x8 .f32 := Host.log1p main_v40
  have main_v42 : FVec F S256x8 .f32 := addf main_v37 main_v41
  have main_cst_8 : FVec F S_ .f32 := constant S_ .f32 0x3F400000#32
  have main_v43 : FVec F S256x8 .f32 := broadcastInDim S256x8 ![] bcast_S_S256x8 main_cst_8
  have main_v44 : FVec F S256x8 .f32 := mulf main_v43 main_v42
  have main_cst_9 : FVec F S_ .f32 := constant S_ .f32 0x00000000#32
  have main_v45 : FVec F S256x8 .f32 := broadcastInDim S256x8 ![] bcast_S_S256x8 main_cst_9
  have main_v46 : FVec F S256x8 .f32 := maximumf x main_v45
  have main_cst_10 : FVec F S_ .f32 := constant S_ .f32 0x00000000#32
  have main_v47 : FVec F S256x8 .f32 := broadcastInDim S256x8 ![] bcast_S_S256x8 main_cst_10
  have main_v48 : FVec F S256x8 .f32 := mulf x main_v47
  have main_v49 : FVec F S256x8 .f32 := subf main_v46 main_v48
  have main_v50 : FVec F S256x8 .f32 := Host.absf x
  have main_v51 : FVec F S256x8 .f32 := Host.negf main_v50
  have main_v52 : FVec F S256x8 .f32 := Host.exp main_v51
  have main_v53 : FVec F S256x8 .f32 := Host.log1p main_v52
  have main_v54 : FVec F S256x8 .f32 := addf main_v49 main_v53
  have main_v55 : FVec F S256x8 .f32 := mulf w main_v54
  have main_v56 : FVec F S256x8 .f32 := subf main_v44 main_v55
  main_v56

/-- Span `s` of row `b` is flagged when an earlier span `s' < s` of the row has the same hit position. -/
noncomputable def dupFlag (H : IVec S256x8 32) : IVec S256x8 1 :=
  have main_v57 : IVec S256x8x1 32 := broadcastInDim S256x8x1 ![0, 1] bcast_S256x8_S256x8x1_0_1 H
  have main_v58 : IVec S256x1x8 32 := broadcastInDim S256x1x8 ![0, 2] bcast_S256x8_S256x1x8_0_2 H
  have main_v59 : IVec S256x8x8 32 := broadcastInDim S256x8x8 ![0, 1, 2] bcast_S256x8x1_S256x8x8_0_1_2 main_v57
  have main_v60 : IVec S256x8x8 32 := broadcastInDim S256x8x8 ![0, 1, 2] bcast_S256x1x8_S256x8x8_0_1_2 main_v58
  have main_v61 : IVec S256x8x8 1 := cmpi .eq main_v59 main_v60
  have main_v62 : IVec S8 32 := iotaInDim S8 32 0
  have main_v63 : IVec S1x8x1 32 := broadcastInDim S1x8x1 ![1] bcast_S8_S1x8x1_1 main_v62
  have main_v64 : IVec S1x1x8 32 := broadcastInDim S1x1x8 ![2] bcast_S8_S1x1x8_2 main_v62
  have main_v65 : IVec S1x8x8 32 := broadcastInDim S1x8x8 ![0, 1, 2] bcast_S1x8x1_S1x8x8_0_1_2 main_v63
  have main_v66 : IVec S1x8x8 32 := broadcastInDim S1x8x8 ![0, 1, 2] bcast_S1x1x8_S1x8x8_0_1_2 main_v64
  have main_v67 : IVec S1x8x8 1 := cmpi .sgt main_v65 main_v66
  have main_v68 : IVec S256x8x8 1 := broadcastInDim S256x8x8 ![0, 1, 2] bcast_S1x8x8_S256x8x8_0_1_2 main_v67
  have main_v69 : IVec S256x8x8 1 := andi main_v61 main_v68
  have main_c_11 : IVec S_ 1 := constantI S_ 1 0#1
  have main_v70 : IVec S256x8 1 := Host.reduce IntOp.ori main_v69 main_c_11 reducesTo_S256x8x8_S256x8_d2 h_S_
  main_v70

/-- The corrections of the unflagged hits, summed over all rows and spans. -/
noncomputable def corrOf (flag : IVec S256x8 1) (d : FVec F S256x8 .f32) : FVec F S_ .f32 :=
  have main_cst_12 : FVec F S_ .f32 := constant S_ .f32 0x00000000#32
  have main_call2_v0 : FVec F S_ .f32 := id main_cst_12
  have main_call2_v1 : FVec F S256x8 .f32 := broadcastInDim S256x8 ![] bcast_S_S256x8 main_call2_v0
  have main_v71 : FVec F S256x8 .f32 := select flag main_call2_v1 d
  have main_cst_13 : FVec F S_ .f32 := constant S_ .f32 0x00000000#32
  Host.reduceAdd main_v71 main_cst_13 reducesTo_S256x8_S_d0_1 h_S_

/-- The host-side correction for one logit array `L` with hit positions `H` and the spans `[st, en]`. -/
noncomputable def corrFn (L : FVec F S256x8192 .f32) (H st en : IVec S256x8 32) : FVec F S_ .f32 :=
  corrOf (dupFlag H) (delta (hitLogit L H) (hitWeight H st en))

end Cert.KernelIdeal.Hand

end
-- ==== Proof.KITail.lean ====
/-
  The result buffer after the host operations that follow the region, as one term of the four argument arrays and of
  the region's output array.

  The host part of the program adds three sums and divides once: the sum of the region's output array, and one
  correction for each of the two logit arrays. A correction visits the eight span positions of every row (the
  starts for the start logits, the ends for the end logits): it reads the logit there, forms
  3/4 · (cross entropy against 1) − w · (cross entropy against 0) with w = (1 + best overlap)² / 4, drops the term
  when an earlier span of the row names the same position, and sums what is left.

  The operations come in thirteen stretches. Each stretch is read here at an arbitrary state of the buffers before
  it: what it leaves in each buffer a later stretch reads is a short composite of named steps (`tl_*` below) of what
  it found, and every other buffer a later stretch needs is left as found. Chaining the thirteen readings from the
  state the region leaves, where the argument arrays are as launched, gives the value of the result buffer.
-/
import proofs.«423081_j13864154431993_3_alg».proof.Proof.KIMain
import Idealize.ShloMosaic.Lib.StableHlo.Run
import Idealize.ShloMosaic.Lib.Pipeline.FrameSuffix
import proofs.«423081_j13864154431993_3_alg».proof.Proof.KICorr

set_option maxRecDepth 16384

noncomputable section

namespace Cert.KernelIdeal.Hand

open Idealize.ShloMosaic Idealize.ShloMosaic.TcCoe
open Idealize.SL Idealize.SL.Sem
open Idealize.ShloMosaic.StableHlo
open Idealize.ShloMosaic.Pipeline (Dat Cfg)
open Cert.KernelIdeal Cert.KernelIdeal.Gen

variable {F : FTy → Type} [FloatOps F]

namespace Tail

/-! ## The steps of one correction -/

/-- The spans that count: those whose start does not exceed their end. -/
noncomputable def tl_vld (starts ends : IVec S256x8 32) : IVec S256x8 1 := cmpi .sle starts ends

/-- The span lengths `end − start + 1`, as floats. -/
noncomputable def tl_slen (starts ends : IVec S256x8 32) : FVec F S256x8 .f32 :=
  sitofp (F := F) .f32 (addi (subi ends starts) (broadcastInDim S256x8 ![] bcast_S_S256x8 (constantI S_ 32 1#32)))

/-- `inside b s s'`: the position `hit b s` lies between start and end of span `s'` of its row, and that span counts. -/
noncomputable def tl_inside (hit starts ends : IVec S256x8 32) (vld : IVec S256x8 1) : IVec S256x8x8 1 :=
  andi
    (andi
      (cmpi .sle
        (broadcastInDim S256x8x8 ![0, 1, 2] bcast_S256x1x8_S256x8x8_0_1_2
          (broadcastInDim S256x1x8 ![0, 2] bcast_S256x8_S256x1x8_0_2 starts))
        (broadcastInDim S256x8x8 ![0, 1, 2] bcast_S256x8x1_S256x8x8_0_1_2
          (broadcastInDim S256x8x1 ![0, 1] bcast_S256x8_S256x8x1_0_1 hit)))
      (cmpi .sle
        (broadcastInDim S256x8x8 ![0, 1, 2] bcast_S256x8x1_S256x8x8_0_1_2
          (broadcastInDim S256x8x1 ![0, 1] bcast_S256x8_S256x8x1_0_1 hit))
        (broadcastInDim S256x8x8 ![0, 1, 2] bcast_S256x1x8_S256x8x8_0_1_2
          (broadcastInDim S256x1x8 ![0, 2] bcast_S256x8_S256x1x8_0_2 ends))))
    (broadcastInDim S256x8x8 ![0, 1, 2] bcast_S256x1x8_S256x8x8_0_1_2
      (broadcastInDim S256x1x8 ![0, 2] bcast_S256x8_S256x1x8_0_2 vld))

/-- The reciprocals of the span lengths, laid out along the last axis. -/
noncomputable def tl_invlen (slen : FVec F S256x8 .f32) : FVec F S256x1x8 .f32 :=
  Host.divf (broadcastInDim S256x1x8 ![] bcast_S_S256x1x8 (constant (F := F) S_ .f32 0x3F800000#32))
    (broadcastInDim S256x1x8 ![0, 2] bcast_S256x8_S256x1x8_0_2 slen)

/-- The overlap scores: the reciprocal length of span `s'` where `inside`, the scalar `z` elsewhere. -/
noncomputable def tl_iou (inside : IVec S256x8x8 1) (invlen : FVec F S256x1x8 .f32) (z : FVec F S_ .f32) : FVec F S256x8x8 .f32 :=
  select inside (broadcastInDim S256x8x8 ![0, 1, 2] bcast_S256x1x8_S256x8x8_0_1_2 invlen)
    (broadcastInDim S256x8x8 ![] bcast_S_S256x8x8 (id z))

/-- The weight of an unlabelled position: a quarter of the square of one plus the best overlap score. -/
noncomputable def tl_negw (iou : FVec F S256x8x8 .f32) : FVec F S256x8 .f32 :=
  mulf (broadcastInDim S256x8 ![] bcast_S_S256x8 (constant (F := F) S_ .f32 0x3E800000#32))
    (Host.powf
      (addf (broadcastInDim S256x8 ![] bcast_S_S256x8 (constant (F := F) S_ .f32 0x3F800000#32))
        (Host.reduce FloatOps.maximumf iou (constant (F := F) S_ .f32 0xFF800000#32) reducesTo_S256x8x8_S256x8_d2 h_S_))
      (broadcastInDim S256x8 ![] bcast_S_S256x8 (constant (F := F) S_ .f32 0x40000000#32)))

/-- The column read for each span position: a negative position is shifted by the row length once. -/
noncomputable def tl_idx (hit : IVec S256x8 32) : IVec S256x8x1 32 :=
  shapeCast S256x8x1
    (select (cmpi .slt hit (broadcastInDim S256x8 ![] bcast_S_S256x8 (constantI S_ 32 0#32)))
      (addi hit (broadcastInDim S256x8 ![] bcast_S_S256x8 (constantI S_ 32 8192#32))) hit)
    shapeCasts_S256x8_S256x8x1

/-- The logit at each span position; a position outside the row reads as not-a-number. -/
noncomputable def tl_hit (logits : FVec F S256x8192 .f32) (hit : IVec S256x8 32) : FVec F S256x8 .f32 :=
  select
    (Host.reduce IntOp.andi
      (andi
        (cmpi .sge (tl_idx hit) (broadcastInDim S256x8x1 ![] bcast_S_S256x8x1 (constantI S_ 32 0#32)))
        (cmpi .sle (tl_idx hit)
          (broadcastInDim S256x8x1 ![0, 1, 2] bcast_S1x1x1_S256x8x1_0_1_2
            (broadcastInDim S1x1x1 ![2] bcast_S1_S1x1x1_2 (constantI S1 32 8191#32)))))
      (constantI S_ 1 1#1) reducesTo_S256x8x1_S256x8_d2 h_S_)
    (Host.gather gather_S256x8192_S256x8x1_S256x8_n_1_0_0_1_2_11 logits (tl_idx hit))
    (broadcastInDim S256x8 ![] bcast_S_S256x8 (constant (F := F) S_ .f32 0x7FC00000#32))

/-- The stable cross entropy `max x 0 − x·y + log (1 + exp (−|x|))` against the constant label with bits `y`. -/
noncomputable def tl_bce (x : FVec F S256x8 .f32) (y : BitVec 32) : FVec F S256x8 .f32 :=
  addf
    (subf (maximumf x (broadcastInDim S256x8 ![] bcast_S_S256x8 (constant (F := F) S_ .f32 0x00000000#32)))
      (mulf x (broadcastInDim S256x8 ![] bcast_S_S256x8 (constant (F := F) S_ .f32 y))))
    (Host.log1p (Host.exp (Host.negf (Host.absf x))))

/-- The labelled term minus the unlabelled one: `3/4 · bce x 1 − w · bce x 0`. -/
noncomputable def tl_delta (x w : FVec F S256x8 .f32) : FVec F S256x8 .f32 :=
  subf (mulf (broadcastInDim S256x8 ![] bcast_S_S256x8 (constant (F := F) S_ .f32 0x3F400000#32)) (tl_bce x 0x3F800000#32))
    (mulf w (tl_bce x 0x00000000#32))

/-- `dup b s`: some earlier span `s' < s` of row `b` names the same position. -/
noncomputable def tl_dup (hit : IVec S256x8 32) : IVec S256x8 1 :=
  Host.reduce IntOp.ori
    (andi
      (cmpi .eq
        (broadcastInDim S256x8x8 ![0, 1, 2] bcast_S256x8x1_S256x8x8_0_1_2
          (broadcastInDim S256x8x1 ![0, 1] bcast_S256x8_S256x8x1_0_1 hit))
        (broadcastInDim S256x8x8 ![0, 1, 2] bcast_S256x1x8_S256x8x8_0_1_2
          (broadcastInDim S256x1x8 ![0, 2] bcast_S256x8_S256x1x8_0_2 hit)))
      (broadcastInDim S256x8x8 ![0, 1, 2] bcast_S1x8x8_S256x8x8_0_1_2
        (cmpi .sgt
          (broadcastInDim S1x8x8 ![0, 1, 2] bcast_S1x8x1_S1x8x8_0_1_2
            (broadcastInDim S1x8x1 ![1] bcast_S8_S1x8x1_1 (iotaInDim S8 32 0)))
          (broadcastInDim S1x8x8 ![0, 1, 2] bcast_S1x1x8_S1x8x8_0_1_2
            (broadcastInDim S1x1x8 ![2] bcast_S8_S1x1x8_2 (iotaInDim S8 32 0))))))
    (constantI S_ 1 0#1) reducesTo_S256x8x8_S256x8_d2 h_S_

/-- A repeated position carries the scalar `z`, every other its term. -/
noncomputable def tl_masked (z : FVec F S_ .f32) (dup : IVec S256x8 1) (d : FVec F S256x8 .f32) : FVec F S256x8 .f32 :=
  select dup (broadcastInDim S256x8 ![] bcast_S_S256x8 (id z)) d

/-- One correction, from a logit array, the positions visited and the spans: the steps above in order, summed. -/
noncomputable def tl_corr (logits : FVec F S256x8192 .f32) (hit starts ends : IVec S256x8 32) : FVec F S_ .f32 :=
  Host.reduceAdd
    (tl_masked (constant (F := F) S_ .f32 0x00000000#32) (tl_dup hit)
      (tl_delta (tl_hit logits hit)
        (tl_negw (tl_iou (tl_inside hit starts ends (tl_vld starts ends)) (tl_invlen (tl_slen (F := F) starts ends)) (constant (F := F) S_ .f32 0x00000000#32)))))
    (constant (F := F) S_ .f32 0x00000000#32) reducesTo_S256x8_S_d0_1 h_S_

/-! ## The thirteen stretches, each from an arbitrary state `W` of the buffers -/

/-! The first stretch: the sum of the region's output array, the spans that count and their lengths, and for the start correction the `inside` table and the reciprocal lengths. -/

theorem s0_v1 (W : Valuation τ sig (Elt F)) :
    StableHlo.after (hostOps1 (F := F)) W (Proc.devRef .tc main_v1)
      = Host.reduceAdd (W (Proc.devRef .tc main_v0)) (constant (F := F) S_ .f32 0x00000000#32) reducesTo_S2x8x128_S_d0_1_2 h_S_ := by
  after_results_simp <;> rfl

theorem s0_v2 (W : Valuation τ sig (Elt F)) :
    StableHlo.after (hostOps1 (F := F)) W (Proc.devRef .tc main_v2)
      = tl_vld (W (Proc.devRef .tc main_arg2)) (W (Proc.devRef .tc main_arg3)) := by
  after_results_simp <;> rfl

theorem s0_v6 (W : Valuation τ sig (Elt F)) :
    StableHlo.after (hostOps1 (F := F)) W (Proc.devRef .tc main_v6)
      = tl_slen (F := F) (W (Proc.devRef .tc main_arg2)) (W (Proc.devRef .tc main_arg3)) := by
  after_results_simp <;> rfl

theorem s0_v20 (W : Valuation τ sig (Elt F)) :
    StableHlo.after (hostOps1 (F := F)) W (Proc.devRef .tc main_v20)
      = tl_inside (W (Proc.devRef .tc main_arg2)) (W (Proc.devRef .tc main_arg2)) (W (Proc.devRef .tc main_arg3)) (tl_vld (W (Proc.devRef .tc main_arg2)) (W (Proc.devRef .tc main_arg3))) := by
  after_results_simp <;> rfl

theorem s0_v23 (W : Valuation τ sig (Elt F)) :
    StableHlo.after (hostOps1 (F := F)) W (Proc.devRef .tc main_v23)
      = tl_invlen (tl_slen (F := F) (W (Proc.devRef .tc main_arg2)) (W (Proc.devRef .tc main_arg3))) := by
  after_results_simp <;> rfl

theorem s0_cst_1 (W : Valuation τ sig (Elt F)) :
    StableHlo.after (hostOps1 (F := F)) W (Proc.devRef .tc main_cst_1)
      = (constant (F := F) S_ .f32 0x00000000#32) := by
  after_results_simp <;> rfl

theorem k0_arg0 (W : Valuation τ sig (Elt F)) :
    StableHlo.after (hostOps1 (F := F)) W (Proc.devRef .tc main_arg0) = W (Proc.devRef .tc main_arg0) := by
  after_results_simp

theorem k0_arg1 (W : Valuation τ sig (Elt F)) :
    StableHlo.after (hostOps1 (F := F)) W (Proc.devRef .tc main_arg1) = W (Proc.devRef .tc main_arg1) := by
  after_results_simp

theorem k0_arg2 (W : Valuation τ sig (Elt F)) :
    StableHlo.after (hostOps1 (F := F)) W (Proc.devRef .tc main_arg2) = W (Proc.devRef .tc main_arg2) := by
  after_results_simp

theorem k0_arg3 (W : Valuation τ sig (Elt F)) :
    StableHlo.after (hostOps1 (F := F)) W (Proc.devRef .tc main_arg3) = W (Proc.devRef .tc main_arg3) := by
  after_results_simp

/-! The second stretch selects the overlap scores of the start correction. -/

theorem s1_v24 (W : Valuation τ sig (Elt F)) :
    StableHlo.after (hostOps1_1 (F := F)) W (Proc.devRef .tc main_v24)
      = tl_iou (W (Proc.devRef .tc main_v20)) (W (Proc.devRef .tc main_v23)) (W (Proc.devRef .tc main_cst_1)) := by
  after_results_simp <;> rfl

theorem k1_v1 (W : Valuation τ sig (Elt F)) :
    StableHlo.after (hostOps1_1 (F := F)) W (Proc.devRef .tc main_v1) = W (Proc.devRef .tc main_v1) := by
  after_results_simp

theorem k1_v2 (W : Valuation τ sig (Elt F)) :
    StableHlo.after (hostOps1_1 (F := F)) W (Proc.devRef .tc main_v2) = W (Proc.devRef .tc main_v2) := by
  after_results_simp

theorem k1_v6 (W : Valuation τ sig (Elt F)) :
    StableHlo.after (hostOps1_1 (F := F)) W (Proc.devRef .tc main_v6) = W (Proc.devRef .tc main_v6) := by
  after_results_simp

theorem k1_arg0 (W : Valuation τ sig (Elt F)) :
    StableHlo.after (hostOps1_1 (F := F)) W (Proc.devRef .tc main_arg0) = W (Proc.devRef .tc main_arg0) := by
  after_results_simp

theorem k1_arg1 (W : Valuation τ sig (Elt F)) :
    StableHlo.after (hostOps1_1 (F := F)) W (Proc.devRef .tc main_arg1) = W (Proc.devRef .tc main_arg1) := by
  after_results_simp

theorem k1_arg2 (W : Valuation τ sig (Elt F)) :
    StableHlo.after (hostOps1_1 (F := F)) W (Proc.devRef .tc main_arg2) = W (Proc.devRef .tc main_arg2) := by
  after_results_simp

theorem k1_arg3 (W : Valuation τ sig (Elt F)) :
    StableHlo.after (hostOps1_1 (F := F)) W (Proc.devRef .tc main_arg3) = W (Proc.devRef .tc main_arg3) := by
  after_results_simp

/-! The third stretch turns them into the unlabelled weights. -/

theorem s2_v31 (W : Valuation τ sig (Elt F)) :
    StableHlo.after (hostOps1_2 (F := F)) W (Proc.devRef .tc main_v31)
      = tl_negw (W (Proc.devRef .tc main_v24)) := by
  after_results_simp <;> rfl

theorem k2_v1 (W : Valuation τ sig (Elt F)) :
    StableHlo.after (hostOps1_2 (F := F)) W (Proc.devRef .tc main_v1) = W (Proc.devRef .tc main_v1) := by
  after_results_simp

theorem k2_v2 (W : Valuation τ sig (Elt F)) :
    StableHlo.after (hostOps1_2 (F := F)) W (Proc.devRef .tc main_v2) = W (Proc.devRef .tc main_v2) := by
  after_results_simp

theorem k2_v6 (W : Valuation τ sig (Elt F)) :
    StableHlo.after (hostOps1_2 (F := F)) W (Proc.devRef .tc main_v6) = W (Proc.devRef .tc main_v6) := by
  after_results_simp

theorem k2_arg0 (W : Valuation τ sig (Elt F)) :
    StableHlo.after (hostOps1_2 (F := F)) W (Proc.devRef .tc main_arg0) = W (Proc.devRef .tc main_arg0) := by
  after_results_simp

theorem k2_arg1 (W : Valuation τ sig (Elt F)) :
    StableHlo.after (hostOps1_2 (F := F)) W (Proc.devRef .tc main_arg1) = W (Proc.devRef .tc main_arg1) := by
  after_results_simp

theorem k2_arg2 (W : Valuation τ sig (Elt F)) :
    StableHlo.after (hostOps1_2 (F := F)) W (Proc.devRef .tc main_arg2) = W (Proc.devRef .tc main_arg2) := by
  after_results_simp

theorem k2_arg3 (W : Valuation τ sig (Elt F)) :
    StableHlo.after (hostOps1_2 (F := F)) W (Proc.devRef .tc main_arg3) = W (Proc.devRef .tc main_arg3) := by
  after_results_simp

/-! The fourth stretch reads the start logits at the span starts. -/

theorem s3_v32 (W : Valuation τ sig (Elt F)) :
    StableHlo.after (hostOps1_3 (F := F)) W (Proc.devRef .tc main_v32)
      = tl_hit (W (Proc.devRef .tc main_arg0)) (W (Proc.devRef .tc main_arg2)) := by
  after_results_simp <;> rfl

theorem k3_v1 (W : Valuation τ sig (Elt F)) :
    StableHlo.after (hostOps1_3 (F := F)) W (Proc.devRef .tc main_v1) = W (Proc.devRef .tc main_v1) := by
  after_results_simp

theorem k3_v2 (W : Valuation τ sig (Elt F)) :
    StableHlo.after (hostOps1_3 (F := F)) W (Proc.devRef .tc main_v2) = W (Proc.devRef .tc main_v2) := by
  after_results_simp

theorem k3_v6 (W : Valuation τ sig (Elt F)) :
    StableHlo.after (hostOps1_3 (F := F)) W (Proc.devRef .tc main_v6) = W (Proc.devRef .tc main_v6) := by
  after_results_simp

theorem k3_v31 (W : Valuation τ sig (Elt F)) :
    StableHlo.after (hostOps1_3 (F := F)) W (Proc.devRef .tc main_v31) = W (Proc.devRef .tc main_v31) := by
  after_results_simp

theorem k3_arg1 (W : Valuation τ sig (Elt F)) :
    StableHlo.after (hostOps1_3 (F := F)) W (Proc.devRef .tc main_arg1) = W (Proc.devRef .tc main_arg1) := by
  after_results_simp

theorem k3_arg2 (W : Valuation τ sig (Elt F)) :
    StableHlo.after (hostOps1_3 (F := F)) W (Proc.devRef .tc main_arg2) = W (Proc.devRef .tc main_arg2) := by
  after_results_simp

theorem k3_arg3 (W : Valuation τ sig (Elt F)) :
    StableHlo.after (hostOps1_3 (F := F)) W (Proc.devRef .tc main_arg3) = W (Proc.devRef .tc main_arg3) := by
  after_results_simp

/-! The fifth stretch forms the start correction's terms and marks the repeated positions. -/

theorem s4_v56 (W : Valuation τ sig (Elt F)) :
    StableHlo.after (hostOps1_4 (F := F)) W (Proc.devRef .tc main_v56)
      = tl_delta (W (Proc.devRef .tc main_v32)) (W (Proc.devRef .tc main_v31)) := by
  after_results_simp <;> rfl

theorem s4_v70 (W : Valuation τ sig (Elt F)) :
    StableHlo.after (hostOps1_4 (F := F)) W (Proc.devRef .tc main_v70)
      = tl_dup (W (Proc.devRef .tc main_arg2)) := by
  after_results_simp <;> rfl

theorem s4_cst_12 (W : Valuation τ sig (Elt F)) :
    StableHlo.after (hostOps1_4 (F := F)) W (Proc.devRef .tc main_cst_12)
      = (constant (F := F) S_ .f32 0x00000000#32) := by
  after_results_simp <;> rfl

theorem k4_v1 (W : Valuation τ sig (Elt F)) :
    StableHlo.after (hostOps1_4 (F := F)) W (Proc.devRef .tc main_v1) = W (Proc.devRef .tc main_v1) := by
  after_results_simp

theorem k4_v2 (W : Valuation τ sig (Elt F)) :
    StableHlo.after (hostOps1_4 (F := F)) W (Proc.devRef .tc main_v2) = W (Proc.devRef .tc main_v2) := by
  after_results_simp

theorem k4_v6 (W : Valuation τ sig (Elt F)) :
    StableHlo.after (hostOps1_4 (F := F)) W (Proc.devRef .tc main_v6) = W (Proc.devRef .tc main_v6) := by
  after_results_simp

theorem k4_arg1 (W : Valuation τ sig (Elt F)) :
    StableHlo.after (hostOps1_4 (F := F)) W (Proc.devRef .tc main_arg1) = W (Proc.devRef .tc main_arg1) := by
  after_results_simp

theorem k4_arg2 (W : Valuation τ sig (Elt F)) :
    StableHlo.after (hostOps1_4 (F := F)) W (Proc.devRef .tc main_arg2) = W (Proc.devRef .tc main_arg2) := by
  after_results_simp

theorem k4_arg3 (W : Valuation τ sig (Elt F)) :
    StableHlo.after (hostOps1_4 (F := F)) W (Proc.devRef .tc main_arg3) = W (Proc.devRef .tc main_arg3) := by
  after_results_simp

/-! The sixth stretch drops the repeated positions. -/

theorem s5_v71 (W : Valuation τ sig (Elt F)) :
    StableHlo.after (hostOps1_5 (F := F)) W (Proc.devRef .tc main_v71)
      = tl_masked (W (Proc.devRef .tc main_cst_12)) (W (Proc.devRef .tc main_v70)) (W (Proc.devRef .tc main_v56)) := by
  after_results_simp <;> rfl

theorem k5_v1 (W : Valuation τ sig (Elt F)) :
    StableHlo.after (hostOps1_5 (F := F)) W (Proc.devRef .tc main_v1) = W (Proc.devRef .tc main_v1) := by
  after_results_simp

theorem k5_v2 (W : Valuation τ sig (Elt F)) :
    StableHlo.after (hostOps1_5 (F := F)) W (Proc.devRef .tc main_v2) = W (Proc.devRef .tc main_v2) := by
  after_results_simp

theorem k5_v6 (W : Valuation τ sig (Elt F)) :
    StableHlo.after (hostOps1_5 (F := F)) W (Proc.devRef .tc main_v6) = W (Proc.devRef .tc main_v6) := by
  after_results_simp

theorem k5_arg1 (W : Valuation τ sig (Elt F)) :
    StableHlo.after (hostOps1_5 (F := F)) W (Proc.devRef .tc main_arg1) = W (Proc.devRef .tc main_arg1) := by
  after_results_simp

theorem k5_arg2 (W : Valuation τ sig (Elt F)) :
    StableHlo.after (hostOps1_5 (F := F)) W (Proc.devRef .tc main_arg2) = W (Proc.devRef .tc main_arg2) := by
  after_results_simp

theorem k5_arg3 (W : Valuation τ sig (Elt F)) :
    StableHlo.after (hostOps1_5 (F := F)) W (Proc.devRef .tc main_arg3) = W (Proc.devRef .tc main_arg3) := by
  after_results_simp

/-! The seventh stretch sums the start correction and begins the end correction: `inside` and the reciprocal lengths again, now at the span ends, from the counting spans and lengths of the first stretch. -/

theorem s6_v72 (W : Valuation τ sig (Elt F)) :
    StableHlo.after (hostOps1_6 (F := F)) W (Proc.devRef .tc main_v72)
      = Host.reduceAdd (W (Proc.devRef .tc main_v71)) (constant (F := F) S_ .f32 0x00000000#32) reducesTo_S256x8_S_d0_1 h_S_ := by
  after_results_simp <;> rfl

theorem s6_v86 (W : Valuation τ sig (Elt F)) :
    StableHlo.after (hostOps1_6 (F := F)) W (Proc.devRef .tc main_v86)
      = tl_inside (W (Proc.devRef .tc main_arg3)) (W (Proc.devRef .tc main_arg2)) (W (Proc.devRef .tc main_arg3)) (W (Proc.devRef .tc main_v2)) := by
  after_results_simp <;> rfl

theorem s6_v89 (W : Valuation τ sig (Elt F)) :
    StableHlo.after (hostOps1_6 (F := F)) W (Proc.devRef .tc main_v89)
      = tl_invlen (W (Proc.devRef .tc main_v6)) := by
  after_results_simp <;> rfl

theorem s6_cst_15 (W : Valuation τ sig (Elt F)) :
    StableHlo.after (hostOps1_6 (F := F)) W (Proc.devRef .tc main_cst_15)
      = (constant (F := F) S_ .f32 0x00000000#32) := by
  after_results_simp <;> rfl

theorem k6_v1 (W : Valuation τ sig (Elt F)) :
    StableHlo.after (hostOps1_6 (F := F)) W (Proc.devRef .tc main_v1) = W (Proc.devRef .tc main_v1) := by
  after_results_simp

theorem k6_arg1 (W : Valuation τ sig (Elt F)) :
    StableHlo.after (hostOps1_6 (F := F)) W (Proc.devRef .tc main_arg1) = W (Proc.devRef .tc main_arg1) := by
  after_results_simp

theorem k6_arg3 (W : Valuation τ sig (Elt F)) :
    StableHlo.after (hostOps1_6 (F := F)) W (Proc.devRef .tc main_arg3) = W (Proc.devRef .tc main_arg3) := by
  after_results_simp

/-! The eighth stretch selects the overlap scores of the end correction. -/

theorem s7_v90 (W : Valuation τ sig (Elt F)) :
    StableHlo.after (hostOps1_7 (F := F)) W (Proc.devRef .tc main_v90)
      = tl_iou (W (Proc.devRef .tc main_v86)) (W (Proc.devRef .tc main_v89)) (W (Proc.devRef .tc main_cst_15)) := by
  after_results_simp <;> rfl

theorem k7_v1 (W : Valuation τ sig (Elt F)) :
    StableHlo.after (hostOps1_7 (F := F)) W (Proc.devRef .tc main_v1) = W (Proc.devRef .tc main_v1) := by
  after_results_simp

theorem k7_v72 (W : Valuation τ sig (Elt F)) :
    StableHlo.after (hostOps1_7 (F := F)) W (Proc.devRef .tc main_v72) = W (Proc.devRef .tc main_v72) := by
  after_results_simp

theorem k7_arg1 (W : Valuation τ sig (Elt F)) :
    StableHlo.after (hostOps1_7 (F := F)) W (Proc.devRef .tc main_arg1) = W (Proc.devRef .tc main_arg1) := by
  after_results_simp

theorem k7_arg3 (W : Valuation τ sig (Elt F)) :
    StableHlo.after (hostOps1_7 (F := F)) W (Proc.devRef .tc main_arg3) = W (Proc.devRef .tc main_arg3) := by
  after_results_simp

/-! The ninth stretch turns them into the unlabelled weights. -/

theorem s8_v97 (W : Valuation τ sig (Elt F)) :
    StableHlo.after (hostOps1_8 (F := F)) W (Proc.devRef .tc main_v97)
      = tl_negw (W (Proc.devRef .tc main_v90)) := by
  after_results_simp <;> rfl

theorem k8_v1 (W : Valuation τ sig (Elt F)) :
    StableHlo.after (hostOps1_8 (F := F)) W (Proc.devRef .tc main_v1) = W (Proc.devRef .tc main_v1) := by
  after_results_simp

theorem k8_v72 (W : Valuation τ sig (Elt F)) :
    StableHlo.after (hostOps1_8 (F := F)) W (Proc.devRef .tc main_v72) = W (Proc.devRef .tc main_v72) := by
  after_results_simp

theorem k8_arg1 (W : Valuation τ sig (Elt F)) :
    StableHlo.after (hostOps1_8 (F := F)) W (Proc.devRef .tc main_arg1) = W (Proc.devRef .tc main_arg1) := by
  after_results_simp

theorem k8_arg3 (W : Valuation τ sig (Elt F)) :
    StableHlo.after (hostOps1_8 (F := F)) W (Proc.devRef .tc main_arg3) = W (Proc.devRef .tc main_arg3) := by
  after_results_simp

/-! The tenth stretch reads the end logits at the span ends. -/

theorem s9_v98 (W : Valuation τ sig (Elt F)) :
    StableHlo.after (hostOps1_9 (F := F)) W (Proc.devRef .tc main_v98)
      = tl_hit (W (Proc.devRef .tc main_arg1)) (W (Proc.devRef .tc main_arg3)) := by
  after_results_simp <;> rfl

theorem k9_v1 (W : Valuation τ sig (Elt F)) :
    StableHlo.after (hostOps1_9 (F := F)) W (Proc.devRef .tc main_v1) = W (Proc.devRef .tc main_v1) := by
  after_results_simp

theorem k9_v72 (W : Valuation τ sig (Elt F)) :
    StableHlo.after (hostOps1_9 (F := F)) W (Proc.devRef .tc main_v72) = W (Proc.devRef .tc main_v72) := by
  after_results_simp

theorem k9_v97 (W : Valuation τ sig (Elt F)) :
    StableHlo.after (hostOps1_9 (F := F)) W (Proc.devRef .tc main_v97) = W (Proc.devRef .tc main_v97) := by
  after_results_simp

theorem k9_arg3 (W : Valuation τ sig (Elt F)) :
    StableHlo.after (hostOps1_9 (F := F)) W (Proc.devRef .tc main_arg3) = W (Proc.devRef .tc main_arg3) := by
  after_results_simp

/-! The eleventh stretch forms the end correction's terms and marks the repeated positions. -/

theorem s10_v122 (W : Valuation τ sig (Elt F)) :
    StableHlo.after (hostOps1_10 (F := F)) W (Proc.devRef .tc main_v122)
      = tl_delta (W (Proc.devRef .tc main_v98)) (W (Proc.devRef .tc main_v97)) := by
  after_results_simp <;> rfl

theorem s10_v136 (W : Valuation τ sig (Elt F)) :
    StableHlo.after (hostOps1_10 (F := F)) W (Proc.devRef .tc main_v136)
      = tl_dup (W (Proc.devRef .tc main_arg3)) := by
  after_results_simp <;> rfl

theorem s10_cst_26 (W : Valuation τ sig (Elt F)) :
    StableHlo.after (hostOps1_10 (F := F)) W (Proc.devRef .tc main_cst_26)
      = (constant (F := F) S_ .f32 0x00000000#32) := by
  after_results_simp <;> rfl

theorem k10_v1 (W : Valuation τ sig (Elt F)) :
    StableHlo.after (hostOps1_10 (F := F)) W (Proc.devRef .tc main_v1) = W (Proc.devRef .tc main_v1) := by
  after_results_simp

theorem k10_v72 (W : Valuation τ sig (Elt F)) :
    StableHlo.after (hostOps1_10 (F := F)) W (Proc.devRef .tc main_v72) = W (Proc.devRef .tc main_v72) := by
  after_results_simp

/-! The twelfth stretch drops the repeated positions. -/

theorem s11_v137 (W : Valuation τ sig (Elt F)) :
    StableHlo.after (hostOps1_11 (F := F)) W (Proc.devRef .tc main_v137)
      = tl_masked (W (Proc.devRef .tc main_cst_26)) (W (Proc.devRef .tc main_v136)) (W (Proc.devRef .tc main_v122)) := by
  after_results_simp <;> rfl

theorem k11_v1 (W : Valuation τ sig (Elt F)) :
    StableHlo.after (hostOps1_11 (F := F)) W (Proc.devRef .tc main_v1) = W (Proc.devRef .tc main_v1) := by
  after_results_simp

theorem k11_v72 (W : Valuation τ sig (Elt F)) :
    StableHlo.after (hostOps1_11 (F := F)) W (Proc.devRef .tc main_v72) = W (Proc.devRef .tc main_v72) := by
  after_results_simp

/-! The last stretch sums the end correction, adds the three sums and divides by the number of positions. -/

theorem s12_v141 (W : Valuation τ sig (Elt F)) :
    StableHlo.after (hostOps1_12 (F := F)) W (Proc.devRef .tc main_v141)
      = Host.divf (addf (W (Proc.devRef .tc main_v1)) (addf (W (Proc.devRef .tc main_v72)) (Host.reduceAdd (W (Proc.devRef .tc main_v137)) (constant (F := F) S_ .f32 0x00000000#32) reducesTo_S256x8_S_d0_1 h_S_))) (constant (F := F) S_ .f32 0x4A000000#32) := by
  after_results_simp <;> rfl

end Tail

open Tail

variable (m : (ℓ : Loc nD τ sig) → Buf (Elt F) ℓ)

/-! ## The state the region leaves, and what the host operations read of it -/

/-- The buffers when the region is left: the arrays of the pipeline as the region leaves them, every other buffer as launched. -/
abbrev Tail.W0 (c : Dev nD) : Valuation τ sig (Elt F) :=
  Pipeline.withArrays (cfgs 0).spec c (V0 m c) (fun w => (dats m 0 c).arrAt w (cfgs 0).N)

/-- The region's output array is what the pipeline's last point leaves of it. -/
theorem Tail.leaf_v0 (c : Dev nD) : Tail.W0 m c (Proc.devRef .tc main_v0) = (dats m 0 c).arrAt 4 cfg0.N :=
  Pipeline.withArrays_arr (cfgs 0).spec winFacts0.arr_inj c (V0 m c) (fun w => (dats m 0 c).arrAt w (cfgs 0).N) 4

/-- An argument array is an input of the pipeline: never written back, so as launched. -/
theorem Tail.leaf_arg0 (c : Dev nD) : Tail.W0 m c (Proc.devRef .tc main_arg0) = m ((c.tc : Thread nD τ).loc main_arg0) :=
  (Pipeline.withArrays_arr (cfgs 0).spec winFacts0.arr_inj c (V0 m c) (fun w => (dats m 0 c).arrAt w (cfgs 0).N) 0).trans
    (((dats m 0 c).arrAt_in 0 rfl cfg0.N).trans (A_eq m c 0))
theorem Tail.leaf_arg1 (c : Dev nD) : Tail.W0 m c (Proc.devRef .tc main_arg1) = m ((c.tc : Thread nD τ).loc main_arg1) :=
  (Pipeline.withArrays_arr (cfgs 0).spec winFacts0.arr_inj c (V0 m c) (fun w => (dats m 0 c).arrAt w (cfgs 0).N) 1).trans
    (((dats m 0 c).arrAt_in 1 rfl cfg0.N).trans (A_eq m c 1))
theorem Tail.leaf_arg2 (c : Dev nD) : Tail.W0 m c (Proc.devRef .tc main_arg2) = m ((c.tc : Thread nD τ).loc main_arg2) :=
  (Pipeline.withArrays_arr (cfgs 0).spec winFacts0.arr_inj c (V0 m c) (fun w => (dats m 0 c).arrAt w (cfgs 0).N) 2).trans
    (((dats m 0 c).arrAt_in 2 rfl cfg0.N).trans (A_eq m c 2))
theorem Tail.leaf_arg3 (c : Dev nD) : Tail.W0 m c (Proc.devRef .tc main_arg3) = m ((c.tc : Thread nD τ).loc main_arg3) :=
  (Pipeline.withArrays_arr (cfgs 0).spec winFacts0.arr_inj c (V0 m c) (fun w => (dats m 0 c).arrAt w (cfgs 0).N) 3).trans
    (((dats m 0 c).arrAt_in 3 rfl cfg0.N).trans (A_eq m c 3))

/-! ## The thirteen stretches chained -/

/-- The result buffer after the host operations, in the steps of this module: the sum of the region's output array
    plus the two corrections, over the number of positions. -/
theorem Tail.tail_stages (c : Dev nD) :
    Pipeline.afterTail₀ cfgs (dats m) 0 (V0 m) tailOps c main_v141
      = Host.divf (addf (Host.reduceAdd (((dats m 0 c).arrAt 4 cfg0.N : FVec F S2x8x128 .f32)) (constant (F := F) S_ .f32 0x00000000#32) reducesTo_S2x8x128_S_d0_1_2 h_S_)
            (addf (tl_corr (m ((c.tc : Thread nD τ).loc main_arg0)) (m ((c.tc : Thread nD τ).loc main_arg2)) (m ((c.tc : Thread nD τ).loc main_arg2)) (m ((c.tc : Thread nD τ).loc main_arg3))) (tl_corr (m ((c.tc : Thread nD τ).loc main_arg1)) (m ((c.tc : Thread nD τ).loc main_arg3)) (m ((c.tc : Thread nD τ).loc main_arg2)) (m ((c.tc : Thread nD τ).loc main_arg3)))))
          (constant (F := F) S_ .f32 0x4A000000#32) := by
  show StableHlo.after (hostOps1 ++ (hostOps1_1 ++ (hostOps1_2 ++ (hostOps1_3 ++ (hostOps1_4 ++ (hostOps1_5 ++ (hostOps1_6 ++ (hostOps1_7 ++ (hostOps1_8 ++ (hostOps1_9 ++ (hostOps1_10 ++ (hostOps1_11 ++ (hostOps1_12 ++ ([])))))))))))))) (Tail.W0 m c) (Proc.devRef .tc main_v141) = _
  rw [StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_append, StableHlo.after_nil]
  rw [s12_v141]
  rw [s11_v137, k11_v1, k11_v72]
  rw [s10_v122, s10_v136, s10_cst_26, k10_v1, k10_v72]
  rw [s9_v98, k9_v1, k9_v72, k9_v97, k9_arg3]
  rw [s8_v97, k8_v1, k8_v72, k8_arg1, k8_arg3]
  rw [s7_v90, k7_v1, k7_v72, k7_arg1, k7_arg3]
  rw [s6_v72, s6_v86, s6_v89, s6_cst_15, k6_v1, k6_arg1, k6_arg3]
  rw [s5_v71, k5_v1, k5_v2, k5_v6, k5_arg1, k5_arg2, k5_arg3]
  rw [s4_v56, s4_v70, s4_cst_12, k4_v1, k4_v2, k4_v6, k4_arg1, k4_arg2, k4_arg3]
  rw [s3_v32, k3_v1, k3_v2, k3_v6, k3_v31, k3_arg1, k3_arg2, k3_arg3]
  rw [s2_v31, k2_v1, k2_v2, k2_v6, k2_arg0, k2_arg1, k2_arg2, k2_arg3]
  rw [s1_v24, k1_v1, k1_v2, k1_v6, k1_arg0, k1_arg1, k1_arg2, k1_arg3]
  rw [s0_v1, s0_v2, s0_v6, s0_v20, s0_v23, s0_cst_1, k0_arg0, k0_arg1, k0_arg2, k0_arg3]
  rw [Tail.leaf_v0 m c, Tail.leaf_arg0 m c, Tail.leaf_arg1 m c, Tail.leaf_arg2 m c, Tail.leaf_arg3 m c]
  rfl

/-! ## The same in the correction as the program text composes it -/

theorem Tail.hitLogit_eq (L : FVec F S256x8192 .f32) (H : IVec S256x8 32) : hitLogit L H = tl_hit L H := rfl
theorem Tail.delta_eq (x w : FVec F S256x8 .f32) : delta x w = tl_delta x w := rfl
theorem Tail.dupFlag_eq (H : IVec S256x8 32) : dupFlag H = tl_dup H := rfl
theorem Tail.hitWeight_eq (H st en : IVec S256x8 32) :
    hitWeight (F := F) H st en
      = tl_negw (tl_iou (tl_inside H st en (tl_vld st en)) (tl_invlen (tl_slen (F := F) st en)) (constant (F := F) S_ .f32 0x00000000#32)) := rfl
theorem Tail.corrOf_eq (flag : IVec S256x8 1) (d : FVec F S256x8 .f32) :
    corrOf flag d = Host.reduceAdd (tl_masked (constant (F := F) S_ .f32 0x00000000#32) flag d) (constant (F := F) S_ .f32 0x00000000#32) reducesTo_S256x8_S_d0_1 h_S_ := rfl

/-- The program's correction is the steps of this module in order. -/
theorem Tail.corrFn_eq (L : FVec F S256x8192 .f32) (H st en : IVec S256x8 32) : corrFn L H st en = tl_corr L H st en := by
  unfold corrFn tl_corr
  rw [Tail.corrOf_eq, Tail.dupFlag_eq, Tail.delta_eq, Tail.hitLogit_eq, Tail.hitWeight_eq]

/-- THE RESULT BUFFER after the host operations that follow the region: the sum of the region's output array plus the
    start correction (start logits, visited at the span starts) plus the end correction (end logits, visited at the
    span ends), divided by the number of positions. -/
theorem tail_value (c : Dev nD) :
    Pipeline.afterTail₀ cfgs (dats m) 0 (V0 m) tailOps c main_v141
      = Host.divf (addf (Host.reduceAdd (((dats m 0 c).arrAt 4 cfg0.N : FVec F S2x8x128 .f32)) (constant (F := F) S_ .f32 0x00000000#32) reducesTo_S2x8x128_S_d0_1_2 h_S_)
            (addf (corrFn (m ((c.tc : Thread nD τ).loc main_arg0)) (m ((c.tc : Thread nD τ).loc main_arg2)) (m ((c.tc : Thread nD τ).loc main_arg2)) (m ((c.tc : Thread nD τ).loc main_arg3))) (corrFn (m ((c.tc : Thread nD τ).loc main_arg1)) (m ((c.tc : Thread nD τ).loc main_arg3)) (m ((c.tc : Thread nD τ).loc main_arg2)) (m ((c.tc : Thread nD τ).loc main_arg3)))))
          (constant (F := F) S_ .f32 0x4A000000#32) := by
  rw [Tail.corrFn_eq, Tail.corrFn_eq]
  exact Tail.tail_stages m c

end Cert.KernelIdeal.Hand

end
-- ==== Proof.Spec.lean ====
/-
  The span-weighted loss as real-valued functions of the four argument arrays, in the two arrangements the two
  programs compute, and the statement that the arrangements agree.

  Rows `b : Fin 256`, positions `i : Fin 8192`, spans `s : Fin 8`. A span `s` of row `b` is the integer interval
  `[st b s, en b s]`; it counts only when `st b s ≤ en b s`. The overlap score of position `i` with span `s` is
  `1 / (en - st + 1)` when `i` lies in a counting span and `0` otherwise; `maxIou` is its maximum over the eight spans,
  and the weight of an unlabelled position is `negw = (1 + maxIou)² / 4`. A position is labelled when some span of
  its row starts (for the start logits) or ends (for the end logits) exactly there; a labelled position has weight 3/4.
  The per-position loss is the numerically stable binary cross entropy `bce x y = max x 0 - x y + log (1 + exp (-|x|))`.

  `refTotal` sums weight × loss over every position of both logit arrays, each sum divided by 256·8192.
  `kerTotal` sums the unlabelled form over every position (`dense`), then corrects the labelled positions, each once
  (`corr`: the first span that hits a position carries the correction, later spans hitting it carry none), and
  divides once.
-/
import Mathlib.Analysis.SpecialFunctions.Log.Basic
import Mathlib.Analysis.SpecialFunctions.Exp
import Mathlib.Algebra.BigOperators.Group.Finset.Basic
import Mathlib.Order.Interval.Finset.Fin
import Mathlib.Data.Real.Basic

noncomputable section

namespace SpanLoss

open Finset

/-- `log (1 + exp (-|x|))`, the smooth part of the stable cross entropy. -/
def soft (x : ℝ) : ℝ := Real.log (1 + Real.exp (-|x|))

/-- Stable binary cross entropy of the logit `x` against the label `y`. -/
def bce (x y : ℝ) : ℝ := max x 0 - x * y + soft x

/-- The same against label `0`, with the vanishing product dropped. -/
def bce0 (x : ℝ) : ℝ := max x 0 + soft x

abbrev Logits := Fin 256 → Fin 8192 → ℝ
abbrev Spans := Fin 256 → Fin 8 → ℤ

/-- Overlap score of the integer position `i` of row `b` with span `s`. -/
def iou (st en : Spans) (b : Fin 256) (i : ℤ) (s : Fin 8) : ℝ :=
  if st b s ≤ i ∧ i ≤ en b s ∧ st b s ≤ en b s then 1 / (((en b s - st b s + 1 : ℤ)) : ℝ) else 0

/-- The largest overlap score of position `i` over the eight spans of its row. -/
def maxIou (st en : Spans) (b : Fin 256) (i : ℤ) : ℝ :=
  (univ : Finset (Fin 8)).sup' univ_nonempty (iou st en b i)

/-- Weight of an unlabelled position. -/
def negw (st en : Spans) (b : Fin 256) (i : ℤ) : ℝ := (1 / 4 : ℝ) * (1 + maxIou st en b i) ^ 2

/-- Position `i` of row `b` is hit by one of the eight positions `p b ·`. -/
def Hit (p : Spans) (b : Fin 256) (i : ℤ) : Prop := ∃ s : Fin 8, p b s = i

open Classical in
/-- The label array: `1` at hit positions, `0` elsewhere. -/
def lab (p : Spans) (b : Fin 256) (i : ℤ) : ℝ := if Hit p b i then 1 else 0

open Classical in
/-- The weight array. -/
def wgt (p st en : Spans) (b : Fin 256) (i : ℤ) : ℝ :=
  if Hit p b i then (3 / 4 : ℝ) else negw st en b i

/-- One logit array's weighted loss summed over all positions (`p` = the labelled positions: starts or ends). -/
def refHalf (x : Logits) (p st en : Spans) : ℝ :=
  ∑ b : Fin 256, ∑ i : Fin 8192, wgt p st en b (i.val : ℤ) * bce (x b i) (lab p b (i.val : ℤ))

/-- The reference's result: the two means added. -/
def refTotal (x y : Logits) (st en : Spans) : ℝ :=
  refHalf x st st en / 2097152 + refHalf y en st en / 2097152

/-- The dense pass: every position taken as unlabelled, both logit arrays at once. -/
def dense (x y : Logits) (st en : Spans) : ℝ :=
  ∑ b : Fin 256, ∑ i : Fin 8192, negw st en b (i.val : ℤ) * (bce0 (x b i) + bce0 (y b i))

/-- The position `z` as a column of a row of length 8192 (used only for `0 ≤ z < 8192`). -/
def col (z : ℤ) : Fin 8192 := ⟨z.toNat % 8192, Nat.mod_lt _ (by norm_num)⟩

/-- Span `s` repeats the position of an earlier span of its row. -/
def Dup (p : Spans) (b : Fin 256) (s : Fin 8) : Prop := ∃ s' : Fin 8, s' < s ∧ p b s' = p b s

open Classical in
/-- The correction for one logit array: at each hit position, once, the labelled term minus the unlabelled one. -/
def corr (x : Logits) (p st en : Spans) : ℝ :=
  ∑ b : Fin 256, ∑ s : Fin 8,
    if Dup p b s then 0
    else (3 / 4 : ℝ) * bce (x b (col (p b s))) 1 - negw st en b (p b s) * bce (x b (col (p b s))) 0

/-- The kernel's result. -/
def kerTotal (x y : Logits) (st en : Spans) : ℝ :=
  (dense x y st en + (corr x st st en + corr y en st en)) / 2097152

end SpanLoss

end
-- ==== Proof.Good.lean ====
/-
  The argument arrays at the ideal instance read as tables of reals and integers, and what the precondition says
  of them: every logit is a real number (not an infinity), every span position lies in `[0, 8192)`.
-/
import Idealize.ShloMosaic.PureOps.Ideal
import Idealize.ShloMosaic.Lib.ValueIdx
import proofs.«423081_j13864154431993_3_alg».proof.Proof.Spec

noncomputable section

namespace SpanLoss

open Idealize.ShloMosaic

/-- The shape of a logit array. -/
abbrev SLogits : Shape := ⟨2, ![256, 8192]⟩
/-- The shape of a span-position array. -/
abbrev SSpans : Shape := ⟨2, ![256, 8]⟩

/-- A logit array's entries as reals (an infinite entry reads `0`; the precondition excludes it). -/
def lg (a : FVec Ideal SLogits .f32) : Logits := fun b i => EReal.toReal (a (ValueIdx.ix2 b i))

/-- A span-position array's entries as signed integers. -/
def sp (w : IVec SSpans 32) : Spans := fun b s => (w (ValueIdx.ix2 b s)).toInt

/-- The precondition's content: finite logits, positions in range. -/
structure Good (a0 a1 : FVec Ideal SLogits .f32) (a2 a3 : IVec SSpans 32) : Prop where
  fin0 : ∀ j, a0 j = ((EReal.toReal (a0 j) : ℝ) : EReal)
  fin1 : ∀ j, a1 j = ((EReal.toReal (a1 j) : ℝ) : EReal)
  rng2 : ∀ j, 0 ≤ (a2 j).toInt ∧ (a2 j).toInt < 8192
  rng3 : ∀ j, 0 ≤ (a3 j).toInt ∧ (a3 j).toInt < 8192

theorem Good.lg0 {a0 a1 a2 a3} (h : Good a0 a1 a2 a3) (b : Fin 256) (i : Fin 8192) :
    a0 (ValueIdx.ix2 b i) = ((lg a0 b i : ℝ) : EReal) := h.fin0 _
theorem Good.lg1 {a0 a1 a2 a3} (h : Good a0 a1 a2 a3) (b : Fin 256) (i : Fin 8192) :
    a1 (ValueIdx.ix2 b i) = ((lg a1 b i : ℝ) : EReal) := h.fin1 _
theorem Good.sp2 {a0 a1 a2 a3} (h : Good a0 a1 a2 a3) (b : Fin 256) (s : Fin 8) :
    0 ≤ sp a2 b s ∧ sp a2 b s < 8192 := h.rng2 _
theorem Good.sp3 {a0 a1 a2 a3} (h : Good a0 a1 a2 a3) (b : Fin 256) (s : Fin 8) :
    0 ≤ sp a3 b s ∧ sp a3 b s < 8192 := h.rng3 _

end SpanLoss

end
-- ==== Proof.KIPoint.lean ====
/-
  What one grid point's body stores into the output block, read at an entry, in real numbers.

  The point of grid column `li` holds a 128 × 2048 block of each logit array and the eight spans of its 128 rows.
  Column `q` of the block is position `li · 2048 + q` of the row. For a span [s, e] of words whose values lie in
  [0, 8192) the body's score of a position P is `1 / (e − s + 1)` when s ≤ e and s ≤ P ≤ e, else 0: the test
  "s ≤ P ≤ e" is ONE unsigned comparison (P − s) ≤ (e − s) of 32-bit differences, which for s ≤ e says exactly
  that (a P below s wraps to a huge word), and for s > e the score is 0 whatever the comparison answers because the
  reciprocal was replaced by 0 beforehand. The running maximum from 0 over the eight scores is the specification's
  `maxIou` (every score is ≥ 0). The entry's weighted loss is `negw · (bce0 x + bce0 y)`; the block of these is
  recast 16 × 8 × 16 × 128 (row a·8 + r, column b·128 + l), summed over a and b, and added to what the output
  block held. `pointVal_apply` states the stored value at (0, r, l) as that sum.

  Order of the file: the word facts; one span's score on words and as the specification's `iou`; the block's
  layout operations read at an entry and the body's parts as compositions of one span-term; the eightfold maximum;
  the loss at an entry; the recast and the double sum; the statement.
-/
import proofs.«423081_j13864154431993_3_alg».proof.Proof.KIBody
import proofs.«423081_j13864154431993_3_alg».proof.Proof.Good
import Idealize.ShloMosaic.Lib.IdealHost
import Idealize.ShloMosaic.Lib.ValueLayout
import Idealize.ShloMosaic.Lib.Pipeline.Value
import Mathlib.Data.EReal.Basic
import Mathlib.Data.EReal.Operations
import Mathlib.Data.Finset.Lattice.Fold
import Mathlib.Data.Fintype.BigOperators
import Mathlib.Algebra.BigOperators.Group.Finset.Basic
import Mathlib.Algebra.Order.Group.Abs
import Mathlib.Tactic.Ring
import Mathlib.Tactic.Positivity
import Mathlib.Tactic.NormNum
import Mathlib.Tactic.SplitIfs

noncomputable section

namespace Cert.KernelIdeal.Hand
open Idealize.ShloMosaic Cert.KernelIdeal Cert.KernelIdeal.Gen Idealize.ShloMosaic.ValueIdx

/-! ## Words: spans and positions below 8192 -/

/-- A word whose signed reading lies in [0, 8192) has that reading as its unsigned one. -/
theorem toNat_of_toInt_range (w : BitVec 32) (h0 : 0 ≤ w.toInt) (h1 : w.toInt < 8192) :
    w.toNat < 8192 ∧ w.toInt = (w.toNat : ℤ) := by
  rw [BitVec.toInt_eq_toNat_cond] at h0 h1 ⊢
  have := w.isLt
  split_ifs at * <;> omega

theorem ofBool_eq_one (b : Bool) : BitVec.ofBool b = 1#1 ↔ b = true := by cases b <;> decide

/-- The signed comparison of two small words compares their values. -/
theorem sle_iff (s e : BitVec 32) (hs : s.toNat < 8192) (he : e.toNat < 8192) :
    IntOp.cmpi .sle s e = 1#1 ↔ s.toNat ≤ e.toNat := by
  show BitVec.ofBool (s.sle e) = 1#1 ↔ _
  rw [ofBool_eq_one, BitVec.sle, decide_eq_true_iff, BitVec.toInt_eq_toNat_cond, BitVec.toInt_eq_toNat_cond]
  split_ifs <;> omega

/-- The difference of two small words, read unsigned, when the first is the larger. -/
theorem toNat_sub_small (e s : BitVec 32) (hs : s.toNat < 8192) (he : e.toNat < 8192) (hv : s.toNat ≤ e.toNat) :
    (IntOp.subi e s).toNat = e.toNat - s.toNat := by
  show (e - s).toNat = _
  rw [BitVec.toNat_sub]; omega

/-- The length of a span that counts: the larger of difference plus one and one, read signed. -/
theorem den_toInt (s e : BitVec 32) (hs : s.toNat < 8192) (he : e.toNat < 8192) (hv : s.toNat ≤ e.toNat) :
    (IntOp.maxsi (IntOp.addi (IntOp.subi e s) 1#32) 1#32).toInt = (e.toNat : ℤ) - (s.toNat : ℤ) + 1 := by
  have hd := toNat_sub_small e s hs he hv
  have h1 : (IntOp.addi (IntOp.subi e s) 1#32).toNat = e.toNat - s.toNat + 1 := by
    show (IntOp.subi e s + 1#32).toNat = _
    rw [BitVec.toNat_add, hd]; simp; omega
  have h1i : (IntOp.addi (IntOp.subi e s) 1#32).toInt = (e.toNat : ℤ) - (s.toNat : ℤ) + 1 := by
    rw [BitVec.toInt_eq_toNat_cond, h1]; split_ifs <;> omega
  have h1' : (1#32 : BitVec 32).toInt = 1 := by decide
  unfold IntOp.maxsi
  split_ifs with hc
  · exact h1i
  · have hn : ¬ ((1#32 : BitVec 32).toInt < (IntOp.addi (IntOp.subi e s) 1#32).toInt) := by
      simpa [BitVec.slt] using hc
    rw [h1i, h1'] at hn
    rw [h1']
    omega

/-- One unsigned comparison of the two differences tests membership in a span that counts. -/
theorem ule_iff (P s e : BitVec 32) (hP : P.toNat < 8192) (hs : s.toNat < 8192) (he : e.toNat < 8192) (hv : s.toNat ≤ e.toNat) :
    IntOp.cmpi .ule (IntOp.subi P s) (IntOp.subi e s) = 1#1 ↔ s.toNat ≤ P.toNat ∧ P.toNat ≤ e.toNat := by
  show BitVec.ofBool ((P - s).ule (e - s)) = 1#1 ↔ _
  rw [ofBool_eq_one, BitVec.ule, decide_eq_true_iff, BitVec.toNat_sub, BitVec.toNat_sub]
  omega

/-- The position word of column `q` of the point's block. -/
theorem posRow_apply (i : grid0.Coords) (q : Fin 2048) :
    posRow i (ix2 (0 : Fin 1) q) = BitVec.ofNat 32 ((i 1).val * 2048 + q.val) := by
  unfold posRow k0_pay2
  show IntOp.addi (Scalar.muli (BitVec.ofNat 32 (i 1).val) 2048#32) (iota .tc S1x2048 32 [1] iota_S1x2048_d1_w32 (ix2 (0 : Fin 1) q)) = _
  rw [iota_single_apply]
  show BitVec.ofNat 32 (i 1).val * 2048#32 + BitVec.ofNat 32 q.val = _
  apply BitVec.eq_of_toNat_eq
  have := (i 1).isLt
  have h4 : (i 1).val < 4 := this
  have := q.isLt
  simp [BitVec.toNat_add, BitVec.toNat_mul, BitVec.toNat_ofNat]

theorem posRow_toNat (i : grid0.Coords) (q : Fin 2048) :
    (posRow i (ix2 (0 : Fin 1) q)).toNat = (i 1).val * 2048 + q.val := by
  rw [posRow_apply, BitVec.toNat_ofNat]
  have h4 : (i 1).val < 4 := (i 1).isLt
  have := q.isLt
  omega

/-! ## One span's score at one position -/

/-- The score on words, as the body computes it: the reciprocal of the span's length where the span counts and
    holds the position, zero elsewhere. -/
def scoreW (P s e : BitVec 32) : Ideal .f32 :=
  Scalar.select (IntOp.cmpi .ule (IntOp.subi P s) (IntOp.subi e s))
    (Scalar.select (IntOp.cmpi .sle s e)
      (FloatOps.divf (F := Ideal) (φ := .f32) (FloatOps.ofBits (F := Ideal) .f32 0x3F800000#32)
        (FloatOps.sitofp (F := Ideal) .f32 (IntOp.maxsi (IntOp.addi (IntOp.subi e s) 1#32) 1#32)))
      (FloatOps.ofBits (F := Ideal) .f32 0x00000000#32))
    (FloatOps.ofBits (F := Ideal) .f32 0x00000000#32)

/-- The score of small words is the real overlap score of their values. -/
theorem scoreW_eq (P s e : BitVec 32) (hP : P.toNat < 8192) (hs : s.toNat < 8192) (he : e.toNat < 8192) :
    scoreW P s e
      = (((if (s.toNat : ℤ) ≤ (P.toNat : ℤ) ∧ (P.toNat : ℤ) ≤ (e.toNat : ℤ) ∧ (s.toNat : ℤ) ≤ (e.toNat : ℤ)
            then 1 / ((((e.toNat : ℤ) - (s.toNat : ℤ) + 1 : ℤ)) : ℝ) else 0 : ℝ)) : EReal) := by
  unfold scoreW
  rw [Ideal.ofBits_def, Ideal.ofBits_def, Ideal.ofBits_one_f32, Ideal.ofBits_zero_f32]
  by_cases hv : s.toNat ≤ e.toNat
  · have h1 : IntOp.cmpi .sle s e = 1#1 := (sle_iff s e hs he).mpr hv
    rw [h1, select_one]
    have hden : (FloatOps.sitofp (F := Ideal) .f32 (IntOp.maxsi (IntOp.addi (IntOp.subi e s) 1#32) 1#32) : EReal)
        = ((((((e.toNat : ℤ) - (s.toNat : ℤ) + 1 : ℤ)) : ℝ)) : EReal) := by
      show (((IntOp.maxsi (IntOp.addi (IntOp.subi e s) 1#32) 1#32).toInt : ℝ) : EReal) = _
      rw [den_toInt s e hs he hv]
    have hne : ((((e.toNat : ℤ) - (s.toNat : ℤ) + 1 : ℤ)) : ℝ) ≠ 0 := by
      have : (0 : ℤ) < (e.toNat : ℤ) - (s.toNat : ℤ) + 1 := by omega
      exact_mod_cast this.ne'
    rw [hden, Ideal.divf_def, Ideal.div_coe hne, one_mul]
    by_cases hin : s.toNat ≤ P.toNat ∧ P.toNat ≤ e.toNat
    · rw [(ule_iff P s e hP hs he hv).mpr hin, select_one, if_pos ⟨by omega, by omega, by omega⟩]
    · have h0 : IntOp.cmpi .ule (IntOp.subi P s) (IntOp.subi e s) = 0#1 :=
        eq_zero_of_ne_one (fun h => hin ((ule_iff P s e hP hs he hv).mp h))
      rw [h0, select_zero, if_neg (fun h => hin ⟨by omega, by omega⟩), EReal.coe_zero]
  · have h0 : IntOp.cmpi .sle s e = 0#1 := eq_zero_of_ne_one (fun h => hv ((sle_iff s e hs he).mp h))
    rw [h0, select_zero, if_neg (fun h => hv (by omega)), EReal.coe_zero]
    unfold Scalar.select
    split_ifs <;> rfl

/-- … which is the specification's score, for words that read as the tables' entries. -/
theorem scoreW_iou (stT enT : SpanLoss.Spans) (b : Fin 256) (k : Fin 8) (P s e : BitVec 32) (pos : ℕ)
    (hPn : P.toNat = pos) (hpos : pos < 8192) (hs : s.toInt = stT b k) (he : e.toInt = enT b k)
    (hsR : 0 ≤ stT b k ∧ stT b k < 8192) (heR : 0 ≤ enT b k ∧ enT b k < 8192) :
    scoreW P s e = ((SpanLoss.iou stT enT b (pos : ℤ) k : ℝ) : EReal) := by
  obtain ⟨hs8, hsI⟩ := toNat_of_toInt_range s (by rw [hs]; exact hsR.1) (by rw [hs]; exact hsR.2)
  obtain ⟨he8, heI⟩ := toNat_of_toInt_range e (by rw [he]; exact heR.1) (by rw [he]; exact heR.2)
  rw [scoreW_eq P s e (by rw [hPn]; exact hpos) hs8 he8]
  unfold SpanLoss.iou
  rw [← hs, ← he, hsI, heI, hPn]

/-! ## The block's layout operations read at an entry -/

/-- Column `k` cut out of a 128 × 8 table, read at a row. -/
theorem col_apply {α : Type} (k : ℕ) (hk : k < 8) (v : S128x8.Idx → α) (h : S128x8.Slices ![0, k] S128x1) (p : Fin 128) :
    extractStridedSlice S128x1 ![0, k] v h (ix2 p (0 : Fin 1)) = v (ix2 p (⟨k, hk⟩ : Fin 8)) :=
  slice2_axis1_apply k v h p 0 ⟨k, hk⟩ rfl

/-- One column repeated over the 2048 columns reads the row's entry. -/
theorem bcast_col_apply {α : Type} (u : S128x1.Idx → α) (h : S128x1.Broadcasts S128x2048) (p : Fin 128) (q : Fin 2048) :
    broadcastTo S128x2048 u h (ix2 p q) = u (ix2 p (0 : Fin 1)) := by
  refine broadcastTo_apply u h (ix2 p q) (ix2 p (0 : Fin 1)) fun ax => ?_
  match ax with
  | ⟨0, _⟩ => rfl
  | ⟨1, _⟩ => rfl

theorem cmpi_apply {s : Shape} {w : ℕ} (pr : CmpIPredicate) (a b : IVec s w) (i : s.Idx) : cmpi pr a b i = IntOp.cmpi pr (a i) (b i) := rfl
theorem subi_apply {s : Shape} {w : ℕ} (a b : IVec s w) (i : s.Idx) : subi a b i = IntOp.subi (a i) (b i) := rfl
theorem addi_apply {s : Shape} {w : ℕ} (a b : IVec s w) (i : s.Idx) : addi a b i = IntOp.addi (a i) (b i) := rfl
theorem maxsi_apply {s : Shape} {w : ℕ} (a b : IVec s w) (i : s.Idx) : maxsi a b i = IntOp.maxsi (a i) (b i) := rfl

/-- One span's scores over the block, from the positions and the span's two columns. -/
def spanTerm (pos : IVec S1x2048 32) (sK eK : IVec S128x1 32) : FVec Ideal S128x2048 .f32 :=
  select (cmpi .ule (subi (broadcastTo S128x2048 pos (by decide)) (broadcastTo S128x2048 sK (by decide)))
            (broadcastTo S128x2048 (subi eK sK) (by decide)))
    (broadcastTo S128x2048
      (shapeCast S128x1
        (select (cmpi .sle sK eK)
          (divf (broadcast S128x1 (Scalar.ofBits .f32 0x3F800000#32 : Ideal .f32))
            (sitofp .f32 (maxsi (addi (subi eK sK) (broadcast S128x1 1#32)) (broadcast S128x1 1#32))))
          (broadcast S128x1 (Scalar.ofBits .f32 0x00000000#32 : Ideal .f32)))
        (by decide))
      (by decide))
    (broadcast S128x2048 (Scalar.ofBits .f32 0x00000000#32 : Ideal .f32))

/-- … read at an entry: the word score of the entry's position and the row's span. -/
theorem spanTerm_apply (pos : IVec S1x2048 32) (sK eK : IVec S128x1 32) (p : Fin 128) (q : Fin 2048) :
    spanTerm pos sK eK (ix2 p q) = scoreW (pos (ix2 (0 : Fin 1) q)) (sK (ix2 p (0 : Fin 1))) (eK (ix2 p (0 : Fin 1))) := by
  unfold spanTerm scoreW
  simp only [select_apply, cmpi_apply, subi_apply, broadcastTo_1b_ab_apply, bcast_col_apply, shapeCast_self,
    divf_apply, sitofp_apply, maxsi_apply, addi_apply, broadcast_apply]
  rfl

/-- The running maximum after span 0, after spans 0–2, 0–4, 0–6, as the zero block joined with the spans' scores. -/
theorem scan0_eq (i : grid0.Coords) (st en : Vec Ideal S128x8 .i32) :
    scan0 (F := Ideal) i st en
      = maximumf (broadcast S128x2048 (Scalar.ofBits .f32 0x00000000#32 : Ideal .f32))
          (spanTerm (posRow i) (extractStridedSlice S128x1 ![0, 0] st (by decide)) (extractStridedSlice S128x1 ![0, 0] en (by decide))) := rfl

theorem scan2_eq (i : grid0.Coords) (st en : Vec Ideal S128x8 .i32) :
    scan2 (F := Ideal) i st en
      = maximumf (maximumf (scan0 (F := Ideal) i st en)
          (spanTerm (posRow i) (extractStridedSlice S128x1 ![0, 1] st (by decide)) (extractStridedSlice S128x1 ![0, 1] en (by decide))))
          (spanTerm (posRow i) (extractStridedSlice S128x1 ![0, 2] st (by decide)) (extractStridedSlice S128x1 ![0, 2] en (by decide))) := rfl

theorem scan4_eq (i : grid0.Coords) (st en : Vec Ideal S128x8 .i32) :
    scan4 (F := Ideal) i st en
      = maximumf (maximumf (scan2 (F := Ideal) i st en)
          (spanTerm (posRow i) (extractStridedSlice S128x1 ![0, 3] st (by decide)) (extractStridedSlice S128x1 ![0, 3] en (by decide))))
          (spanTerm (posRow i) (extractStridedSlice S128x1 ![0, 4] st (by decide)) (extractStridedSlice S128x1 ![0, 4] en (by decide))) := rfl

theorem scan6_eq (i : grid0.Coords) (st en : Vec Ideal S128x8 .i32) :
    scan6 (F := Ideal) i st en
      = maximumf (maximumf (scan4 (F := Ideal) i st en)
          (spanTerm (posRow i) (extractStridedSlice S128x1 ![0, 5] st (by decide)) (extractStridedSlice S128x1 ![0, 5] en (by decide))))
          (spanTerm (posRow i) (extractStridedSlice S128x1 ![0, 6] st (by decide)) (extractStridedSlice S128x1 ![0, 6] en (by decide))) := rfl

/-! ## Extended reals that are reals -/

theorem coe_max' (x y : ℝ) : max (x : EReal) (y : EReal) = ((max x y : ℝ) : EReal) :=
  (EReal.coe_strictMono.monotone.map_max).symm

theorem coe_sum' {ι : Type} (s : Finset ι) (f : ι → ℝ) :
    ∑ i ∈ s, ((f i : ℝ) : EReal) = ((∑ i ∈ s, f i : ℝ) : EReal) := by
  classical
  refine Finset.induction_on s (by simp) ?_
  intro a s ha ih
  rw [Finset.sum_insert ha, Finset.sum_insert ha, ih, EReal.coe_add]

/-! ## The running maximum over the eight spans -/

theorem iou_nonneg (stT enT : SpanLoss.Spans) (b : Fin 256) (z : ℤ) (k : Fin 8) : 0 ≤ SpanLoss.iou stT enT b z k := by
  unfold SpanLoss.iou
  split_ifs with h
  · apply div_nonneg zero_le_one
    have : (0 : ℤ) ≤ enT b k - stT b k + 1 := by omega
    exact_mod_cast this
  · exact le_refl _

/-- An eightfold maximum from zero of numbers that are not negative is their largest. -/
theorem max8_eq_sup' (f : Fin 8 → ℝ) (h0 : ∀ k, 0 ≤ f k) :
    max (max (max (max (max (max (max (max 0 (f ⟨0, by decide⟩)) (f ⟨1, by decide⟩)) (f ⟨2, by decide⟩)) (f ⟨3, by decide⟩))
      (f ⟨4, by decide⟩)) (f ⟨5, by decide⟩)) (f ⟨6, by decide⟩)) (f ⟨7, by decide⟩)
      = (Finset.univ : Finset (Fin 8)).sup' Finset.univ_nonempty f := by
  have hle : ∀ k, f k ≤ (Finset.univ : Finset (Fin 8)).sup' Finset.univ_nonempty f :=
    fun k => Finset.le_sup' f (Finset.mem_univ k)
  apply le_antisymm
  · have h00 : (0 : ℝ) ≤ (Finset.univ : Finset (Fin 8)).sup' Finset.univ_nonempty f := (h0 0).trans (hle 0)
    simp only [max_le_iff]
    exact ⟨⟨⟨⟨⟨⟨⟨⟨h00, hle _⟩, hle _⟩, hle _⟩, hle _⟩, hle _⟩, hle _⟩, hle _⟩, hle _⟩
  · apply Finset.sup'_le
    intro k _
    match k with
    | ⟨0, _⟩ => simp only [le_max_iff, le_refl, true_or, or_true]
    | ⟨1, _⟩ => simp only [le_max_iff, le_refl, true_or, or_true]
    | ⟨2, _⟩ => simp only [le_max_iff, le_refl, true_or, or_true]
    | ⟨3, _⟩ => simp only [le_max_iff, le_refl, true_or, or_true]
    | ⟨4, _⟩ => simp only [le_max_iff, le_refl, true_or, or_true]
    | ⟨5, _⟩ => simp only [le_max_iff, le_refl, true_or, or_true]
    | ⟨6, _⟩ => simp only [le_max_iff, le_refl, true_or, or_true]
    | ⟨7, _⟩ => simp only [le_max_iff, le_refl, true_or, or_true]

section Entry

variable (i : grid0.Coords) (st en : Vec Ideal S128x8 .i32) (stT enT : SpanLoss.Spans) (rowOf : Fin 128 → Fin 256)
  (hst : ∀ p s, (st (ix2 p s)).toInt = stT (rowOf p) s) (hen : ∀ p s, (en (ix2 p s)).toInt = enT (rowOf p) s)
  (hstR : ∀ b s, 0 ≤ stT b s ∧ stT b s < 8192) (henR : ∀ b s, 0 ≤ enT b s ∧ enT b s < 8192)

include hst hen hstR henR

/-- Span `k`'s scores at an entry: the specification's score of the entry's position. -/
theorem term_apply (k : ℕ) (hk : k < 8) (h1 h2 : S128x8.Slices ![0, k] S128x1) (p : Fin 128) (q : Fin 2048) :
    spanTerm (posRow i) (extractStridedSlice S128x1 ![0, k] st h1) (extractStridedSlice S128x1 ![0, k] en h2) (ix2 p q)
      = ((SpanLoss.iou stT enT (rowOf p) ((((i 1).val * 2048 + q.val : ℕ)) : ℤ) ⟨k, hk⟩ : ℝ) : EReal) := by
  rw [spanTerm_apply, col_apply k hk, col_apply k hk]
  exact scoreW_iou stT enT (rowOf p) ⟨k, hk⟩ _ _ _ ((i 1).val * 2048 + q.val) (posRow_toNat i q)
    (by have h4 : (i 1).val < 4 := (i 1).isLt; have := q.isLt; omega) (hst p _) (hen p _) (hstR _ _) (henR _ _)

/-- The running maximum after all eight spans, at an entry: the largest of the eight scores. -/
theorem scanAll_apply (p : Fin 128) (q : Fin 2048) :
    maximumf (scan6 (F := Ideal) i st en)
        (spanTerm (posRow i) (extractStridedSlice S128x1 ![0, 7] st (by decide)) (extractStridedSlice S128x1 ![0, 7] en (by decide)))
        (ix2 p q)
      = ((SpanLoss.maxIou stT enT (rowOf p) ((((i 1).val * 2048 + q.val : ℕ)) : ℤ) : ℝ) : EReal) := by
  rw [maximumf_apply, scan6_eq, maximumf_apply, maximumf_apply, scan4_eq, maximumf_apply, maximumf_apply,
    scan2_eq, maximumf_apply, maximumf_apply, scan0_eq, maximumf_apply, broadcast_apply]
  rw [term_apply i st en stT enT rowOf hst hen hstR henR 0 (by decide), term_apply i st en stT enT rowOf hst hen hstR henR 1 (by decide),
    term_apply i st en stT enT rowOf hst hen hstR henR 2 (by decide), term_apply i st en stT enT rowOf hst hen hstR henR 3 (by decide),
    term_apply i st en stT enT rowOf hst hen hstR henR 4 (by decide), term_apply i st en stT enT rowOf hst hen hstR henR 5 (by decide),
    term_apply i st en stT enT rowOf hst hen hstR henR 6 (by decide), term_apply i st en stT enT rowOf hst hen hstR henR 7 (by decide)]
  show max (max (max (max (max (max (max (max (Ideal.ofBits .f32 0x00000000#32) _) _) _) _) _) _) _) _ = _
  rw [Ideal.ofBits_zero_f32, ← EReal.coe_zero, coe_max', coe_max', coe_max', coe_max', coe_max', coe_max', coe_max', coe_max']
  unfold SpanLoss.maxIou
  rw [← max8_eq_sup' _ (fun k => iou_nonneg stT enT (rowOf p) _ k)]

end Entry

/-! ## The weighted loss at an entry -/

/-- The f32 pattern `0x3E800000` is the real one quarter. -/
theorem ofBits_quarter_f32 : Ideal.ofBits .f32 0x3E800000#32 = (((1 : ℝ) / 4 : ℝ) : EReal) := by
  simp [Ideal.ofBits, Ideal.ieee, -EReal.coe_mul]; norm_num

/-- The label-free cross entropy of a real logit, as the body spells it on extended reals. -/
theorem bce0_coe (x : ℝ) :
    max (x : EReal) 0 + Ideal.log1p (Ideal.exp (0 - max (x : EReal) (-(x : EReal)))) = ((SpanLoss.bce0 x : ℝ) : EReal) := by
  have h1 : max (x : EReal) (-(x : EReal)) = ((|x| : ℝ) : EReal) := by
    rw [← EReal.coe_neg, coe_max', ← abs_eq_max_neg]
  have h2 : (0 : EReal) - ((|x| : ℝ) : EReal) = ((-|x| : ℝ) : EReal) := by
    rw [← EReal.coe_zero, ← EReal.coe_sub, zero_sub]
  have hpos : ¬ (1 + Real.exp (-|x|) ≤ 0) := not_le.mpr (by positivity)
  rw [h1, h2, Ideal.exp_coe]
  unfold Ideal.log1p
  rw [← EReal.coe_one, ← EReal.coe_add, Ideal.log_coe, if_neg hpos, ← EReal.coe_zero, coe_max', ← EReal.coe_add]
  rfl

/-- The weighted losses over the block: the weight (1 + m)² / 4 times the sum of the two logits' label-free
    cross entropies. -/
def lossBlock (m sl el : FVec Ideal S128x2048 .f32) : FVec Ideal S128x2048 .f32 :=
  mulf
    (mulf (broadcast S128x2048 (Scalar.ofBits .f32 0x3E800000#32 : Ideal .f32))
      (mulf (addf (broadcast S128x2048 (Scalar.ofBits .f32 0x3F800000#32 : Ideal .f32)) m)
            (addf (broadcast S128x2048 (Scalar.ofBits .f32 0x3F800000#32 : Ideal .f32)) m)))
    (addf
      (addf (maximumf sl (broadcast S128x2048 (Scalar.ofBits .f32 0x00000000#32 : Ideal .f32)))
        (log1p (exp (subf (broadcast S128x2048 (Scalar.ofBits .f32 0x00000000#32 : Ideal .f32)) (absf sl)))))
      (addf (maximumf el (broadcast S128x2048 (Scalar.ofBits .f32 0x00000000#32 : Ideal .f32)))
        (log1p (exp (subf (broadcast S128x2048 (Scalar.ofBits .f32 0x00000000#32 : Ideal .f32)) (absf el))))))

/-- … at an entry where the maximum and the two logits are real. -/
theorem lossBlock_apply (m sl el : FVec Ideal S128x2048 .f32) (j : S128x2048.Idx) (M x y : ℝ)
    (hm : m j = ((M : ℝ) : EReal)) (hx : sl j = ((x : ℝ) : EReal)) (hy : el j = ((y : ℝ) : EReal)) :
    lossBlock m sl el j = (((1 / 4 : ℝ) * (1 + M) ^ 2 * (SpanLoss.bce0 x + SpanLoss.bce0 y) : ℝ) : EReal) := by
  show Ideal.ofBits .f32 0x3E800000#32 * ((Ideal.ofBits .f32 0x3F800000#32 + m j) * (Ideal.ofBits .f32 0x3F800000#32 + m j))
      * ((max (sl j) (Ideal.ofBits .f32 0x00000000#32)
            + Ideal.log1p (Ideal.exp (Ideal.ofBits .f32 0x00000000#32 - max (sl j) (-(sl j)))))
        + (max (el j) (Ideal.ofBits .f32 0x00000000#32)
            + Ideal.log1p (Ideal.exp (Ideal.ofBits .f32 0x00000000#32 - max (el j) (-(el j)))))) = _
  rw [hm, hx, hy, ofBits_quarter_f32, Ideal.ofBits_one_f32, Ideal.ofBits_zero_f32, bce0_coe, bce0_coe,
    ← EReal.coe_one, ← EReal.coe_add, ← EReal.coe_mul, ← EReal.coe_mul, ← EReal.coe_add, ← EReal.coe_mul]
  congr 1
  ring

/-! ## The fold of the block to 8 × 128 -/

/-- The block recast to 16 × 8 × 16 × 128 reads, at (a, r, b, l), the block's entry in row a·8 + r, column b·128 + l. -/
theorem cast4_apply {α : Type} (v : S128x2048.Idx → α) (h : S128x2048.ShapeCasts S16x8x16x128)
    (a : Fin 16) (r : Fin 8) (b : Fin 16) (l : Fin 128) :
    shapeCast S16x8x16x128 v h (ix4 a r b l)
      = v (ix2 (⟨a.val * 8 + r.val, by omega⟩ : Fin 128) (⟨b.val * 128 + l.val, by omega⟩ : Fin 2048)) :=
  shapeCast_apply v h _ _ (by
    rw [Shape.rowMajor_val_two, Shape.rowMajor_val_four]
    show (a.val * 8 + r.val) * 2048 + (b.val * 128 + l.val) = ((a.val * 8 + r.val) * 16 + b.val) * 128 + l.val
    ring)

/-- The sum over the first and third axes of a 16 × 8 × 16 × 128 array, at (r, l): the double sum over the two
    dropped coordinates. -/
theorem reduce02_apply (src : FVec Ideal S16x8x16x128 .f32) (h : S16x8x16x128.Reduces [0, 2] S8x128)
    (hφ : FKind.Formats .f32) (hacc : (0x00000000#32 : BitVec 32) = FKind.add.neutral .f32 hφ) (r : Fin 8) (l : Fin 128) :
    multiReduction .add [0, 2] S8x128 src 0x00000000#32 h hφ hacc (ix2 r l)
      = ∑ a : Fin 16, ∑ b : Fin 16, src (ix4 a r b l) := by
  show ∑ i ∈ Finset.univ.filter (fun i => h.drop i = ix2 r l), src i = _
  have hd0 : ∀ i : S16x8x16x128.Idx, (h.drop i (0 : Fin 2) : ℕ) = (i (1 : Fin 4) : ℕ) :=
    fun i => Shape.Reduces.drop_apply_val_of_eq h i (0 : Fin 2) (1 : Fin 4)
  have hd1 : ∀ i : S16x8x16x128.Idx, (h.drop i (1 : Fin 2) : ℕ) = (i (3 : Fin 4) : ℕ) :=
    fun i => Shape.Reduces.drop_apply_val_of_eq h i (1 : Fin 2) (3 : Fin 4)
  have hleft : ∀ i ∈ Finset.univ.filter (fun i : S16x8x16x128.Idx => h.drop i = ix2 r l),
      ix4 (i (0 : Fin 4) : Fin 16) r (i (2 : Fin 4) : Fin 16) l = i := by
    intro i hi
    have hj := (Finset.mem_filter.1 hi).2
    have e1 : (i (1 : Fin 4) : ℕ) = r.val := by rw [← hd0 i, hj]
    have e3 : (i (3 : Fin 4) : ℕ) = l.val := by rw [← hd1 i, hj]
    funext c; refine Fin.ext ?_
    match c with
    | ⟨0, _⟩ => rfl
    | ⟨1, _⟩ => exact e1.symm
    | ⟨2, _⟩ => rfl
    | ⟨3, _⟩ => exact e3.symm
  rw [← Fintype.sum_prod_type' (fun (a : Fin 16) (b : Fin 16) => src (ix4 a r b l))]
  refine Finset.sum_nbij' (fun i => ((i (0 : Fin 4) : Fin 16), (i (2 : Fin 4) : Fin 16))) (fun ab => ix4 ab.1 r ab.2 l)
    ?_ ?_ hleft ?_ ?_
  · intro i _; exact Finset.mem_univ _
  · intro ab _
    refine Finset.mem_filter.2 ⟨Finset.mem_univ _, ?_⟩
    funext c; refine Fin.ext ?_
    match c with
    | ⟨0, _⟩ => exact hd0 _
    | ⟨1, _⟩ => exact hd1 _
  · intro ab _; rfl
  · intro i hi; exact congrArg src (hleft i hi).symm

/-- What the point stores, as the fold of the loss block added to what the output block held. -/
theorem pointVal_eq (i : grid0.Coords) (sl el : Vec Ideal S128x2048 .f32) (st en : Vec Ideal S128x8 .i32)
    (prev : Vec Ideal S1x8x128 .f32) :
    pointVal (F := Ideal) i sl el st en prev
      = shapeCast S1x8x128
          (addf (shapeCast S8x128 prev (by decide))
            (multiReduction .add [0, 2] S8x128
              (shapeCast S16x8x16x128
                (lossBlock
                  (maximumf (scan6 (F := Ideal) i st en)
                    (spanTerm (posRow i) (extractStridedSlice S128x1 ![0, 7] st (by decide))
                      (extractStridedSlice S128x1 ![0, 7] en (by decide))))
                  sl el)
                (by decide))
              0x00000000#32 (by decide) (.inl rfl) rfl))
          (by decide) := rfl

/-- WHAT ONE GRID POINT STORES, AT AN ENTRY: what the output block held plus, over the 16 × 16 entries of the
    logit block that fold onto it, the unlabelled weight of the entry's position times the sum of the two logits'
    label-free cross entropies. -/
theorem pointVal_apply (i : grid0.Coords) (sl el : Vec Ideal S128x2048 .f32) (st en : Vec Ideal S128x8 .i32)
    (prev : Vec Ideal S1x8x128 .f32)
    (x y : Fin 128 → Fin 2048 → ℝ)
    (hx : ∀ p q, sl (ix2 p q) = ((x p q : ℝ) : EReal)) (hy : ∀ p q, el (ix2 p q) = ((y p q : ℝ) : EReal))
    (stT enT : SpanLoss.Spans) (rowOf : Fin 128 → Fin 256)
    (hst : ∀ p s, (st (ix2 p s)).toInt = stT (rowOf p) s) (hen : ∀ p s, (en (ix2 p s)).toInt = enT (rowOf p) s)
    (hstR : ∀ b s, 0 ≤ stT b s ∧ stT b s < 8192) (henR : ∀ b s, 0 ≤ enT b s ∧ enT b s < 8192)
    (r : Fin 8) (l : Fin 128) :
    pointVal (F := Ideal) i sl el st en prev (ix3 (0 : Fin 1) r l)
      = prev (ix3 (0 : Fin 1) r l)
        + ((∑ a : Fin 16, ∑ b : Fin 16,
              SpanLoss.negw stT enT (rowOf ⟨a.val * 8 + r.val, by omega⟩)
                  ((((i 1).val * 2048 + (b.val * 128 + l.val) : ℕ)) : ℤ)
                * (SpanLoss.bce0 (x ⟨a.val * 8 + r.val, by omega⟩ ⟨b.val * 128 + l.val, by omega⟩)
                  + SpanLoss.bce0 (y ⟨a.val * 8 + r.val, by omega⟩ ⟨b.val * 128 + l.val, by omega⟩)) : ℝ) : EReal) := by
  rw [pointVal_eq, shapeCast_ab_1ab_apply, addf_apply, shapeCast_1ab_ab_apply]
  refine congrArg (fun z => prev (ix3 (0 : Fin 1) r l) + z) ?_
  refine (reduce02_apply _ _ _ _ r l).trans ?_
  rw [← coe_sum']
  refine Finset.sum_congr rfl fun a _ => ?_
  rw [← coe_sum']
  refine Finset.sum_congr rfl fun b _ => ?_
  rw [cast4_apply]
  exact lossBlock_apply _ sl el _ _ _ _ (scanAll_apply i st en stT enT rowOf hst hen hstR henR _ _) (hx _ _) (hy _ _)

end Cert.KernelIdeal.Hand

end
-- ==== Proof.KIRegionReal.lean ====
/-
  Regrouping a sum over a 256 × 8192 table by blocks.

  The table is cut into 2 × 4 blocks of 128 × 2048 entries; inside a block, row a·8 + r and column b·128 + l
  (a, b < 16, r < 8, l < 128). Summing first over (a, b) inside each block, then over the four blocks of a row
  of blocks, then over (block row, r, l) visits every entry of the table exactly once.
-/
import Mathlib.Algebra.BigOperators.Group.Finset.Defs
import Mathlib.Algebra.BigOperators.Group.Finset.Basic
import Mathlib.Algebra.BigOperators.Fin
import Mathlib.Data.Fintype.BigOperators
import Mathlib.Data.Real.Basic

noncomputable section

namespace Cert.KernelIdeal.Hand.Region

open Finset

/-- What block (bi, li) of the table `g` adds to the folded entry (r, l): its entries at rows a·8 + r and columns
    b·128 + l, over all a, b < 16. -/
def ptTerm (g : Fin 256 → Fin 8192 → ℝ) (bi : Fin 2) (li : Fin 4) (r : Fin 8) (l : Fin 128) : ℝ :=
  ∑ a : Fin 16, ∑ b : Fin 16,
    g ⟨bi.val * 128 + (a.val * 8 + r.val), by omega⟩ ⟨li.val * 2048 + (b.val * 128 + l.val), by omega⟩

/-- The folded entry (r, l) of block row `bi` once its four blocks are in. -/
def rowTerm (g : Fin 256 → Fin 8192 → ℝ) (bi : Fin 2) (r : Fin 8) (l : Fin 128) : ℝ :=
  ∑ li : Fin 4, ptTerm g bi li r l

/-- (block row, r, l, block column, a, b) ↦ (table row, table column), a bijection: the inverse reads the six
    coordinates off the quotients and remainders of the row by 128 and 8 and of the column by 2048 and 128. -/
def blockEquiv : (Fin 2 × Fin 8 × Fin 128 × Fin 4 × Fin 16 × Fin 16) ≃ (Fin 256 × Fin 8192) where
  toFun x :=
    (⟨x.1.val * 128 + (x.2.2.2.2.1.val * 8 + x.2.1.val), by omega⟩,
     ⟨x.2.2.2.1.val * 2048 + (x.2.2.2.2.2.val * 128 + x.2.2.1.val), by omega⟩)
  invFun y :=
    (⟨y.1.val / 128, by omega⟩, ⟨y.1.val % 8, by omega⟩, ⟨y.2.val % 128, by omega⟩,
     ⟨y.2.val / 2048, by omega⟩, ⟨y.1.val % 128 / 8, by omega⟩, ⟨y.2.val % 2048 / 128, by omega⟩)
  left_inv := by
    rintro ⟨bi, r, l, li, a, b⟩
    simp only [Prod.mk.injEq, Fin.ext_iff]
    refine ⟨?_, ?_, ?_, ?_, ?_, ?_⟩ <;> omega
  right_inv := by
    rintro ⟨row, col⟩
    simp only [Prod.mk.injEq, Fin.ext_iff]
    refine ⟨?_, ?_⟩ <;> omega

/-- The folded entries of both block rows add up to the sum of the whole table. -/
theorem sum_rowTerm (g : Fin 256 → Fin 8192 → ℝ) :
    (∑ bi : Fin 2, ∑ r : Fin 8, ∑ l : Fin 128, rowTerm g bi r l) = ∑ row : Fin 256, ∑ col : Fin 8192, g row col := by
  have h := blockEquiv.sum_comp (fun y : Fin 256 × Fin 8192 => g y.1 y.2)
  simp only [Fintype.sum_prod_type] at h
  exact h

end Cert.KernelIdeal.Hand.Region

end
-- ==== Proof.KIRegion.lean ====
/-
  What the region leaves in its output array, and the sum of that array.

  The grid is 2 × 4. Point t = 4·bi + li reads block (bi, li) of each 256 × 8192 logit array (128 × 2048 entries)
  and the spans of block row bi, and adds into the 1 × 8 × 128 output block bi: entry (r, l) gains the weighted
  label-free losses at rows a·8 + r and columns b·128 + l of the block (a, b < 16). The block is reset at li = 0
  and written to the array after li = 3. So the array ends holding, at (bi, r, l), the losses of the positions
  (bi·128 + a·8 + r, li·2048 + b·128 + l) over all li, a, b; every position of the table is such a position for
  exactly one (bi, r, l, li, a, b), so the array's total is the dense pass of the specification.
-/
import proofs.«423081_j13864154431993_3_alg».proof.Proof.KIMain
import proofs.«423081_j13864154431993_3_alg».proof.Proof.Good
import proofs.«423081_j13864154431993_3_alg».proof.Proof.KIPoint
import proofs.«423081_j13864154431993_3_alg».proof.Proof.KIRegionReal
import Idealize.ShloMosaic.Lib.Pipeline.Value
import Idealize.ShloMosaic.Lib.IdealHost
import Idealize.ShloMosaic.Lib.ValueIdx
import Idealize.ShloMosaic.PureOps.Ideal.Laws
import Mathlib.Data.EReal.Basic
import Mathlib.Algebra.BigOperators.Fin
import Mathlib.Algebra.BigOperators.Group.Finset.Basic
import Mathlib.Data.Fintype.BigOperators

noncomputable section

namespace Cert.KernelIdeal.Hand

open Idealize.ShloMosaic Idealize.ShloMosaic.TcCoe
open Idealize.SL Idealize.SL.Sem
open Idealize.ShloMosaic.Pipeline (Dat Cfg Window)
open Cert.KernelIdeal Cert.KernelIdeal.Gen
open Idealize.ShloMosaic.ValueIdx

namespace Region

open Finset

variable (m : (ℓ : Loc nD τ sig) → Buf (Elt Ideal) ℓ) (c : Dev nD)

/-! ## The grid's arithmetic -/

theorem lt8 (t : Fin cfg0.N) : t.val < 8 := Nat.lt_of_lt_of_eq t.isLt N_0

/-- The second grid coordinate of point `t` is `t % 4`. -/
theorem coords1 : ∀ t : Fin cfg0.N, ((grid0.coords t) 1).val = t.val % 4 :=
  (by decide +kernel : ∀ t : Fin grid0.N, ((grid0.coords t) 1).val = t.val % 4)

theorem idx0_0 : ∀ t : Fin cfg0.N, win0_0.index t 0 = t.val / 4 ∧ win0_0.index t 1 = t.val % 4 :=
  (by decide +kernel : ∀ t : Fin grid0.N, win0_0.index t 0 = t.val / 4 ∧ win0_0.index t 1 = t.val % 4)
theorem idx0_1 : ∀ t : Fin cfg0.N, win0_1.index t 0 = t.val / 4 ∧ win0_1.index t 1 = t.val % 4 :=
  (by decide +kernel : ∀ t : Fin grid0.N, win0_1.index t 0 = t.val / 4 ∧ win0_1.index t 1 = t.val % 4)
theorem idx0_2 : ∀ t : Fin cfg0.N, win0_2.index t 0 = t.val / 4 ∧ win0_2.index t 1 = 0 :=
  (by decide +kernel : ∀ t : Fin grid0.N, win0_2.index t 0 = t.val / 4 ∧ win0_2.index t 1 = 0)
theorem idx0_3 : ∀ t : Fin cfg0.N, win0_3.index t 0 = t.val / 4 ∧ win0_3.index t 1 = 0 :=
  (by decide +kernel : ∀ t : Fin grid0.N, win0_3.index t 0 = t.val / 4 ∧ win0_3.index t 1 = 0)
theorem idx0_4 : ∀ t : Fin cfg0.N, win0_4.index t 0 = t.val / 4 ∧ win0_4.index t 1 = 0 ∧ win0_4.index t 2 = 0 :=
  (by decide +kernel : ∀ t : Fin grid0.N, win0_4.index t 0 = t.val / 4 ∧ win0_4.index t 1 = 0 ∧ win0_4.index t 2 = 0)

/-! ## The blocks a point reads are blocks of the argument arrays -/

theorem iblk0_apply (t : Fin cfg0.N) (p : Fin 128) (q : Fin 2048) (k : S256x8192.Idx)
    (hk0 : (k 0).val = t.val / 4 * 128 + p.val) (hk1 : (k 1).val = t.val % 4 * 2048 + q.val) :
    (iblk m c 0 t : Vec Ideal S128x2048 .f32) (ix2 p q) = (m ((c.tc : Thread nD τ).loc main_arg0) : FVec Ideal S256x8192 .f32) k := by
  have hi := idx0_0 t
  unfold iblk
  rw [View.read_apply]
  show m (c.tc.loc main_arg0) _ = m (c.tc.loc main_arg0) _
  congr 1
  funext a
  apply Fin.ext
  match a with
  | ⟨0, _⟩ => show win0_0.index t 0 * 128 + 1 * p.val = (k 0).val; rw [hi.1, hk0]; omega
  | ⟨1, _⟩ => show win0_0.index t 1 * 2048 + 1 * q.val = (k 1).val; rw [hi.2, hk1]; omega

theorem iblk1_apply (t : Fin cfg0.N) (p : Fin 128) (q : Fin 2048) (k : S256x8192.Idx)
    (hk0 : (k 0).val = t.val / 4 * 128 + p.val) (hk1 : (k 1).val = t.val % 4 * 2048 + q.val) :
    (iblk m c 1 t : Vec Ideal S128x2048 .f32) (ix2 p q) = (m ((c.tc : Thread nD τ).loc main_arg1) : FVec Ideal S256x8192 .f32) k := by
  have hi := idx0_1 t
  unfold iblk
  rw [View.read_apply]
  show m (c.tc.loc main_arg1) _ = m (c.tc.loc main_arg1) _
  congr 1
  funext a
  apply Fin.ext
  match a with
  | ⟨0, _⟩ => show win0_1.index t 0 * 128 + 1 * p.val = (k 0).val; rw [hi.1, hk0]; omega
  | ⟨1, _⟩ => show win0_1.index t 1 * 2048 + 1 * q.val = (k 1).val; rw [hi.2, hk1]; omega

theorem iblk2_apply (t : Fin cfg0.N) (p : Fin 128) (s : Fin 8) (k : S256x8.Idx)
    (hk0 : (k 0).val = t.val / 4 * 128 + p.val) (hk1 : (k 1).val = s.val) :
    (iblk m c 2 t : Vec Ideal S128x8 .i32) (ix2 p s) = (m ((c.tc : Thread nD τ).loc main_arg2) : IVec S256x8 32) k := by
  have hi := idx0_2 t
  unfold iblk
  rw [View.read_apply]
  show m (c.tc.loc main_arg2) _ = m (c.tc.loc main_arg2) _
  congr 1
  funext a
  apply Fin.ext
  match a with
  | ⟨0, _⟩ => show win0_2.index t 0 * 128 + 1 * p.val = (k 0).val; rw [hi.1, hk0]; omega
  | ⟨1, _⟩ => show win0_2.index t 1 * 8 + 1 * s.val = (k 1).val; rw [hi.2, hk1]; omega

theorem iblk3_apply (t : Fin cfg0.N) (p : Fin 128) (s : Fin 8) (k : S256x8.Idx)
    (hk0 : (k 0).val = t.val / 4 * 128 + p.val) (hk1 : (k 1).val = s.val) :
    (iblk m c 3 t : Vec Ideal S128x8 .i32) (ix2 p s) = (m ((c.tc : Thread nD τ).loc main_arg3) : IVec S256x8 32) k := by
  have hi := idx0_3 t
  unfold iblk
  rw [View.read_apply]
  show m (c.tc.loc main_arg3) _ = m (c.tc.loc main_arg3) _
  congr 1
  funext a
  apply Fin.ext
  match a with
  | ⟨0, _⟩ => show win0_3.index t 0 * 128 + 1 * p.val = (k 0).val; rw [hi.1, hk0]; omega
  | ⟨1, _⟩ => show win0_3.index t 1 * 8 + 1 * s.val = (k 1).val; rw [hi.2, hk1]; omega

/-! ## One point's step, in real numbers -/

/-- The weighted label-free loss of one table position: the summand of the dense pass. -/
def posLoss (a0 a1 : FVec Ideal SpanLoss.SLogits .f32) (a2 a3 : IVec SpanLoss.SSpans 32) (row : Fin 256) (col : Fin 8192) : ℝ :=
  SpanLoss.negw (SpanLoss.sp a2) (SpanLoss.sp a3) row (col.val : ℤ)
    * (SpanLoss.bce0 (SpanLoss.lg a0 row col) + SpanLoss.bce0 (SpanLoss.lg a1 row col))

/-- Point `t`'s block row and block column. -/
def bRow (t : Fin cfg0.N) : Fin 2 := ⟨t.val / 4, by have := lt8 t; omega⟩
def bCol (t : Fin cfg0.N) : Fin 4 := ⟨t.val % 4, by omega⟩
/-- Row `p` of block row `bi`, column `q` of block column `li`, in the table. -/
def rowAt (bi : Fin 2) (p : Fin 128) : Fin 256 := ⟨bi.val * 128 + p.val, by omega⟩
def colAt (li : Fin 4) (q : Fin 2048) : Fin 8192 := ⟨li.val * 2048 + q.val, by omega⟩

theorem region_zeroBlock (j : S1x8x128.Idx) : zeroBlock (F := Ideal) j = 0 := by
  show Ideal.ofBits .f32 0x00000000#32 = 0
  exact Ideal.ofBits_zero_f32

variable (hg : SpanLoss.Good (m ((c.tc : Thread nD τ).loc main_arg0)) (m ((c.tc : Thread nD τ).loc main_arg1))
  (m ((c.tc : Thread nD τ).loc main_arg2)) (m ((c.tc : Thread nD τ).loc main_arg3)))

/-- The table of position losses of the arrays the region finds. -/
abbrev tbl : Fin 256 → Fin 8192 → ℝ :=
  posLoss (m ((c.tc : Thread nD τ).loc main_arg0)) (m ((c.tc : Thread nD τ).loc main_arg1))
    (m ((c.tc : Thread nD τ).loc main_arg2)) (m ((c.tc : Thread nD τ).loc main_arg3))

include hg in
/-- The body at point `t` adds, at entry (r, l), its block's folded position losses onto what the block held. -/
theorem point_step (t : Fin cfg0.N) (prev : Vec Ideal S1x8x128 .f32) (r : Fin 8) (l : Fin 128) :
    pointVal (F := Ideal) (grid0.coords t) (iblk m c 0 t) (iblk m c 1 t) (iblk m c 2 t) (iblk m c 3 t) prev (ix3 0 r l)
      = prev (ix3 0 r l) + ((ptTerm (tbl m c) (bRow t) (bCol t) r l : ℝ) : EReal) := by
  have h := pointVal_apply (grid0.coords t) (iblk m c 0 t) (iblk m c 1 t) (iblk m c 2 t) (iblk m c 3 t) prev
    (fun p q => SpanLoss.lg (m ((c.tc : Thread nD τ).loc main_arg0)) (rowAt (bRow t) p) (colAt (bCol t) q))
    (fun p q => SpanLoss.lg (m ((c.tc : Thread nD τ).loc main_arg1)) (rowAt (bRow t) p) (colAt (bCol t) q))
    (fun p q => (iblk0_apply m c t p q (ix2 (rowAt (bRow t) p) (colAt (bCol t) q)) rfl rfl).trans (hg.lg0 _ _))
    (fun p q => (iblk1_apply m c t p q (ix2 (rowAt (bRow t) p) (colAt (bCol t) q)) rfl rfl).trans (hg.lg1 _ _))
    (SpanLoss.sp (m ((c.tc : Thread nD τ).loc main_arg2))) (SpanLoss.sp (m ((c.tc : Thread nD τ).loc main_arg3))) (rowAt (bRow t))
    (fun p s => congrArg BitVec.toInt (iblk2_apply m c t p s (ix2 (rowAt (bRow t) p) s) rfl rfl))
    (fun p s => congrArg BitVec.toInt (iblk3_apply m c t p s (ix2 (rowAt (bRow t) p) s) rfl rfl))
    hg.sp2 hg.sp3 r l
  rw [h, coords1 t]
  rfl

/-! ## Along a row of the grid -/

/-- Point `n`'s contribution to entry (r, l). -/
def stepTerm (g : Fin 256 → Fin 8192 → ℝ) (r : Fin 8) (l : Fin 128) (n : ℕ) (h : n < cfg0.N) : ℝ :=
  ptTerm g (bRow ⟨n, h⟩) (bCol ⟨n, h⟩) r l

/-- Entry (r, l) of the output block after point `n`: restarted at the first point of a grid row, added to after. -/
def accR (g : Fin 256 → Fin 8192 → ℝ) (r : Fin 8) (l : Fin 128) : (n : ℕ) → n < cfg0.N → ℝ
  | 0, h => stepTerm g r l 0 h
  | n + 1, h =>
    if (n + 1) % 4 = 0 then stepTerm g r l (n + 1) h
    else accR g r l n (Nat.lt_of_succ_lt h) + stepTerm g r l (n + 1) h

theorem accR_first (g : Fin 256 → Fin 8192 → ℝ) (r : Fin 8) (l : Fin 128) (n : ℕ) (h : n + 1 < cfg0.N) (h0 : (n + 1) % 4 = 0) :
    accR g r l (n + 1) h = stepTerm g r l (n + 1) h := (if_pos h0).trans rfl
theorem accR_next (g : Fin 256 → Fin 8192 → ℝ) (r : Fin 8) (l : Fin 128) (n : ℕ) (h : n + 1 < cfg0.N) (h0 : ¬(n + 1) % 4 = 0) :
    accR g r l (n + 1) h = accR g r l n (Nat.lt_of_succ_lt h) + stepTerm g r l (n + 1) h := (if_neg h0).trans rfl

include hg in
/-- What the output block's buffer holds after point `n`, entry by entry. -/
theorem outAfter_eq (r : Fin 8) (l : Fin 128) : ∀ (n : ℕ) (h : n < cfg0.N),
    outAfter m c n h (ix3 0 r l) = ((accR (tbl m c) r l n h : ℝ) : EReal)
  | 0, h => by
    refine (congrFun (outAfter_first m c ⟨0, h⟩ rfl) (ix3 0 r l)).trans ?_
    rw [point_step m c hg ⟨0, h⟩, region_zeroBlock, zero_add]
    rfl
  | n + 1, h => by
    by_cases h0 : (n + 1) % 4 = 0
    · refine (congrFun (outAfter_first m c ⟨n + 1, h⟩ h0) (ix3 0 r l)).trans ?_
      rw [point_step m c hg ⟨n + 1, h⟩, region_zeroBlock, zero_add, accR_first _ _ _ _ _ h0]
      rfl
    · refine (congrFun (outAfter_next m c ⟨n + 1, h⟩ h0) (ix3 0 r l)).trans ?_
      rw [point_step m c hg ⟨n + 1, h⟩, accR_next _ _ _ _ _ h0, EReal.coe_add]
      show outAfter m c n _ (ix3 0 r l) + _ = _
      rw [outAfter_eq r l n]
      rfl

theorem accR_zero (g : Fin 256 → Fin 8192 → ℝ) (r : Fin 8) (l : Fin 128) (h : 0 < cfg0.N) :
    accR g r l 0 h = stepTerm g r l 0 h := rfl

/-- A point's contribution, by its block row and block column. -/
theorem stepTerm_eq (g : Fin 256 → Fin 8192 → ℝ) (r : Fin 8) (l : Fin 128) (n : ℕ) (h : n < cfg0.N) (bi : Fin 2) (li : Fin 4)
    (hb : n / 4 = bi.val) (hl : n % 4 = li.val) : stepTerm g r l n h = ptTerm g bi li r l := by
  have e1 : bRow ⟨n, h⟩ = bi := Fin.ext hb
  have e2 : bCol ⟨n, h⟩ = li := Fin.ext hl
  rw [stepTerm, e1, e2]

theorem add4_congr {a b d e a' b' d' e' : ℝ} (ha : a = a') (hb : b = b') (hd : d = d') (he : e = e') :
    a + b + d + e = a' + b' + d' + e' := by rw [ha, hb, hd, he]

/-- After the last point of a grid row the entry holds the row's four blocks. -/
theorem accR_last (g : Fin 256 → Fin 8192 → ℝ) (r : Fin 8) (l : Fin 128) (n : ℕ) (h : n < cfg0.N) (h3 : n % 4 = 3) :
    accR g r l n h = rowTerm g ⟨n / 4, by have := Nat.lt_of_lt_of_eq h N_0; omega⟩ r l := by
  have h8 : n < 8 := Nat.lt_of_lt_of_eq h N_0
  have hn : n = 3 ∨ n = 7 := by omega
  rcases hn with rfl | rfl
  · rw [rowTerm, Fin.sum_univ_four, accR_next _ _ _ _ _ (by decide), accR_next _ _ _ _ _ (by decide), accR_next _ _ _ _ _ (by decide),
      accR_zero]
    refine add4_congr ?_ ?_ ?_ ?_
    · exact stepTerm_eq g r l _ _ _ _ (by rfl) (by rfl)
    · exact stepTerm_eq g r l _ _ _ _ (by rfl) (by rfl)
    · exact stepTerm_eq g r l _ _ _ _ (by rfl) (by rfl)
    · exact stepTerm_eq g r l _ _ _ _ (by rfl) (by rfl)
  · rw [rowTerm, Fin.sum_univ_four, accR_next _ _ _ _ _ (by decide), accR_next _ _ _ _ _ (by decide), accR_next _ _ _ _ _ (by decide),
      accR_first _ _ _ _ _ (by decide)]
    refine add4_congr ?_ ?_ ?_ ?_
    · exact stepTerm_eq g r l _ _ _ _ (by rfl) (by rfl)
    · exact stepTerm_eq g r l _ _ _ _ (by rfl) (by rfl)
    · exact stepTerm_eq g r l _ _ _ _ (by rfl) (by rfl)
    · exact stepTerm_eq g r l _ _ _ _ (by rfl) (by rfl)

/-! ## The output array after the region -/

/-- What the region leaves in the output array: at (bi, r, l) the four blocks of block row `bi`, folded. -/
def regionOut (g : Fin 256 → Fin 8192 → ℝ) : FVec Ideal S2x8x128 .f32 :=
  fun j => ((rowTerm g (j 0) (j 1) (j 2) : ℝ) : EReal)

theorem idxN_4 (n : ℕ) (h : n < cfg0.N) :
    win0_4.index ⟨n, h⟩ 0 = n / 4 ∧ win0_4.index ⟨n, h⟩ 1 = 0 ∧ win0_4.index ⟨n, h⟩ 2 = 0 := idx0_4 ⟨n, h⟩

include hg in
/-- Each write-back (at the last point of a grid row) writes its block of `regionOut`. -/
theorem flushed_eq (t : Fin cfg0.N) (hf : (cfg0.win 4).flush t = true) :
    (dats m 0 c).flushed 4 t = ((cfg0.win 4).blk t).view.read (Elt Ideal) (regionOut (tbl m c)) := by
  have h3 : t.val % 4 = 3 := (flush0_4 t).mp hf
  have hi := idx0_4 t
  have h8 := lt8 t
  funext y
  obtain ⟨y1, y2, rfl⟩ : ∃ (y1 : Fin 8) (y2 : Fin 128), y = (ix3 (0 : Fin 1) y1 y2 : S1x8x128.Idx) :=
    ⟨y 1, y 2, funext fun a => match a with
      | ⟨0, _⟩ => Fin.ext (Nat.lt_one_iff.mp (y 0).isLt)
      | ⟨1, _⟩ => rfl
      | ⟨2, _⟩ => rfl⟩
  rw [View.read_apply]
  show outAfter m c t.val t.isLt (ix3 0 y1 y2) = regionOut (tbl m c) (((cfg0.win 4).blk t).view.emb (ix3 0 y1 y2))
  have e0 : ((cfg0.win 4).blk t).view.emb (ix3 (0 : Fin 1) y1 y2) = (ix3 (⟨t.val / 4, by omega⟩ : Fin 2) y1 y2 : S2x8x128.Idx) := by
    funext a
    apply Fin.ext
    match a with
    | ⟨0, _⟩ => show win0_4.index t 0 * 1 + 1 * 0 = t.val / 4; rw [hi.1]; omega
    | ⟨1, _⟩ => show win0_4.index t 1 * 8 + 1 * y1.val = y1.val; rw [hi.2.1]; omega
    | ⟨2, _⟩ => show win0_4.index t 2 * 128 + 1 * y2.val = y2.val; rw [hi.2.2]; omega
  rw [e0, outAfter_eq m c hg y1 y2 t.val t.isLt, accR_last _ _ _ _ _ h3]
  rfl

/-- The two written blocks tile the output array. -/
theorem cover (i : S2x8x128.Idx) :
    ∃ t : Fin cfg0.N, (cfg0.win 4).flush t = true ∧ i ∈ ((cfg0.win 4).blk t).view.set := by
  have h0 : (i 0).val < 2 := (i 0).isLt
  have h1 : (i 1).val < 8 := (i 1).isLt
  have h2 : (i 2).val < 128 := (i 2).isLt
  have hlt : 4 * (i 0).val + 3 < cfg0.N := Nat.lt_of_lt_of_eq (by omega : 4 * (i 0).val + 3 < 8) N_0.symm
  have hi := idxN_4 (4 * (i 0).val + 3) hlt
  refine ⟨⟨4 * (i 0).val + 3, hlt⟩, (flush0_4 _).mpr (by show (4 * (i 0).val + 3) % 4 = 3; omega), ?_⟩
  show i ∈ ((View.whole main_v0).slice (win0_4.rect ⟨4 * (i 0).val + 3, hlt⟩)).set
  rw [View.set_slice_whole, Rect.mem_set_unit]
  intro a
  match a with
  | ⟨0, _⟩ =>
    show win0_4.index ⟨4 * (i 0).val + 3, hlt⟩ 0 * 1 ≤ (i 0).val ∧ (i 0).val < win0_4.index ⟨4 * (i 0).val + 3, hlt⟩ 0 * 1 + 1
    rw [hi.1]; omega
  | ⟨1, _⟩ =>
    show win0_4.index ⟨4 * (i 0).val + 3, hlt⟩ 1 * 8 ≤ (i 1).val ∧ (i 1).val < win0_4.index ⟨4 * (i 0).val + 3, hlt⟩ 1 * 8 + 8
    rw [hi.2.1]; omega
  | ⟨2, _⟩ =>
    show win0_4.index ⟨4 * (i 0).val + 3, hlt⟩ 2 * 128 ≤ (i 2).val ∧ (i 2).val < win0_4.index ⟨4 * (i 0).val + 3, hlt⟩ 2 * 128 + 128
    rw [hi.2.2]; omega

include hg in
/-- So the output array ends holding `regionOut`. -/
theorem region_out : (dats m 0 c).arrAt 4 cfg0.N = regionOut (tbl m c) :=
  (dats m 0 c).arrAt_eq_of_cover 4 (regionOut (tbl m c)) (flushed_eq m c hg) cover

/-! ## Its sum -/

/-- A finite sum of reals, read in the extended reals, is the sum of the readings. -/
theorem ereal_coe_sum {ι : Type} (s : Finset ι) (f : ι → ℝ) :
    ((∑ i ∈ s, f i : ℝ) : EReal) = ∑ i ∈ s, ((f i : ℝ) : EReal) := by
  classical
  induction s using Finset.induction_on with
  | empty => simp
  | insert a s ha ih => rw [Finset.sum_insert ha, Finset.sum_insert ha, EReal.coe_add, ih]

/-- A rank-3 index set is the product of its three coordinate ranges … -/
def idxEquiv3 {n0 n1 n2 : ℕ} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

/-- … so a sum over it is the triple sum over the coordinates. -/
theorem sum_idx3 {M : Type} [AddCommMonoid M] {n0 n1 n2 : ℕ} (f : (⟨3, ![n0, n1, n2]⟩ : Shape).Idx → M) :
    ∑ i, f i = ∑ a : Fin n0, ∑ b : Fin n1, ∑ d : Fin n2, f (ix3 a b d) := by
  rw [← Equiv.sum_comp (idxEquiv3 (n0 := n0) (n1 := n1) (n2 := n2)).symm f]
  simp only [Fintype.sum_prod_type]
  rfl

include hg in
/-- The first host operation after the region, the sum of the output array over all its axes from zero, is the
    dense pass of the specification over the argument arrays. -/
theorem reduce_eq :
    Host.reduceAdd (F := Ideal) ((dats m 0 c).arrAt 4 cfg0.N) (constant (F := Ideal) S_ .f32 0x00000000#32) reducesTo_S2x8x128_S_d0_1_2 h_S_
      = fun _ => ((SpanLoss.dense (SpanLoss.lg (m ((c.tc : Thread nD τ).loc main_arg0))) (SpanLoss.lg (m ((c.tc : Thread nD τ).loc main_arg1)))
          (SpanLoss.sp (m ((c.tc : Thread nD τ).loc main_arg2))) (SpanLoss.sp (m ((c.tc : Thread nD τ).loc main_arg3))) : ℝ) : EReal) := by
  funext j
  rw [region_out m c hg, hostReduceAdd_apply, Ideal.hostReduceAdd_total _ (fun b => b.elim0)]
  rw [show (constant (F := Ideal) S_ .f32 0x00000000#32) (Shape.Idx.first h_S_) = 0 from Ideal.ofBits_zero_f32, zero_add]
  refine (sum_idx3 (n0 := 2) (n1 := 8) (n2 := 128) (regionOut (tbl m c))).trans ?_
  show (∑ bi : Fin 2, ∑ r : Fin 8, ∑ l : Fin 128, ((rowTerm (tbl m c) bi r l : ℝ) : EReal)) = _
  simp only [← ereal_coe_sum]
  rw [sum_rowTerm]
  rfl

end Region

/-- The first host operation after the region — the sum of the output array over all three axes, from zero — is the
    dense pass of the specification over the argument arrays, when the logits are finite and the span positions lie
    in [0, 8192). -/
theorem region_sum (m : (ℓ : Loc nD τ sig) → Buf (Elt Ideal) ℓ) (c : Dev nD)
    (hg : SpanLoss.Good (m ((c.tc : Thread nD τ).loc main_arg0)) (m ((c.tc : Thread nD τ).loc main_arg1))
      (m ((c.tc : Thread nD τ).loc main_arg2)) (m ((c.tc : Thread nD τ).loc main_arg3))) :
    Host.reduceAdd (F := Ideal) ((dats m 0 c).arrAt 4 cfg0.N) (constant (F := Ideal) S_ .f32 0x00000000#32) reducesTo_S2x8x128_S_d0_1_2 h_S_
      = fun _ => ((SpanLoss.dense (SpanLoss.lg (m ((c.tc : Thread nD τ).loc main_arg0))) (SpanLoss.lg (m ((c.tc : Thread nD τ).loc main_arg1)))
          (SpanLoss.sp (m ((c.tc : Thread nD τ).loc main_arg2))) (SpanLoss.sp (m ((c.tc : Thread nD τ).loc main_arg3))) : ℝ) : EReal) :=
  Region.reduce_eq m c hg

end Cert.KernelIdeal.Hand

end
-- ==== Proof.LibIdealReal.lean ====
/-
  The float operations at the ideal values, on extended reals that are REAL numbers.

  At the ideal values a float is an extended real. A program kept away from the infinities by its precondition
  computes on reals throughout, and each of its operations is then the textbook real operation: this file says
  so, one equation per operation, with the embedding of the reals into the extended reals pushed outside — the
  left side is the operation applied to embedded reals, the right side is one embedded real. Rewriting with these
  equations left to right turns a term of float operations over embedded reals into a single embedded real
  expression, after which what remains is a statement about real numbers.

  Part 1: the scalar operations (a kernel's fields, their host twins, the scalar unit's), the conversion of a
  signed integer, the literal bit patterns, the comparisons, and the maximum against minus infinity.
  Part 2: composites — the smooth part of the stable cross entropy in its two spellings, a finite maximum as a
  fold from minus infinity, a finite sum.

  None of the equations is a simp lemma; the closing comment lists their names in the order a rewriting takes them.
-/
import Idealize.ShloMosaic.PureOps
import Idealize.ShloMosaic.PureOps.Ideal
import Idealize.ShloMosaic.PureOps.Ideal.Laws
import Mathlib.Data.EReal.Basic
import Mathlib.Data.EReal.Operations
import Mathlib.Data.EReal.Inv
import Mathlib.Analysis.SpecialFunctions.Pow.Real
import Mathlib.Analysis.SpecialFunctions.Log.Basic
import Mathlib.Analysis.SpecialFunctions.Exp
import Mathlib.Algebra.BigOperators.Group.Finset.Basic
import Mathlib.Data.Finset.Fold
import Mathlib.Data.Finset.Lattice.Fold

noncomputable section

namespace Idealize.ShloMosaic.IdealReal

open scoped BigOperators

variable {φ : FTy} (a b : ℝ)

/-! ## Part 1 — the scalar operations on reals -/

/-- The embedding of the reals is monotone, so it carries a maximum to the maximum. -/
theorem coe_max : ((max a b : ℝ) : EReal) = max (a : EReal) (b : EReal) :=
  EReal.coe_strictMono.monotone.map_max

/-- The embedding of the reals carries a minimum to the minimum. -/
theorem coe_min : ((min a b : ℝ) : EReal) = min (a : EReal) (b : EReal) :=
  EReal.coe_strictMono.monotone.map_min

/-! ### Sum, difference, product, maximum, minimum -/

/-- The sum of two reals is the real sum. -/
theorem addf_coe : FloatOps.addf (F := Ideal) (φ := φ) (a : EReal) (b : EReal) = ((a + b : ℝ) : EReal) :=
  (EReal.coe_add a b).symm

/-- The difference of two reals is the real difference. -/
theorem subf_coe : FloatOps.subf (F := Ideal) (φ := φ) (a : EReal) (b : EReal) = ((a - b : ℝ) : EReal) :=
  (EReal.coe_sub a b).symm

/-- The product of two reals is the real product. -/
theorem mulf_coe : FloatOps.mulf (F := Ideal) (φ := φ) (a : EReal) (b : EReal) = ((a * b : ℝ) : EReal) :=
  (EReal.coe_mul a b).symm

/-- The maximum of two reals is the real maximum. -/
theorem maximumf_coe : FloatOps.maximumf (F := Ideal) (φ := φ) (a : EReal) (b : EReal) = ((max a b : ℝ) : EReal) :=
  (coe_max a b).symm

/-- The minimum of two reals is the real minimum. -/
theorem minimumf_coe : FloatOps.minimumf (F := Ideal) (φ := φ) (a : EReal) (b : EReal) = ((min a b : ℝ) : EReal) :=
  (coe_min a b).symm

/-- Minus infinity is neutral for the maximum, on the left. -/
theorem maximumf_bot_left (x : Ideal φ) : FloatOps.maximumf (F := Ideal) (φ := φ) (⊥ : EReal) x = x :=
  max_bot_left x

/-- Minus infinity is neutral for the maximum, on the right. -/
theorem maximumf_bot_right (x : Ideal φ) : FloatOps.maximumf (F := Ideal) (φ := φ) x (⊥ : EReal) = x :=
  max_bot_right x

/-! ### Negation and absolute value, a kernel's and the host's -/

/-- The negation of a real is the real negation. -/
theorem negf_coe : FloatOps.negf (F := Ideal) (φ := φ) (a : EReal) = ((-a : ℝ) : EReal) :=
  (EReal.coe_neg a).symm

/-- The absolute value of a real — the larger of it and its negation — is the real absolute value. -/
theorem absf_coe : FloatOps.absf (F := Ideal) (φ := φ) (a : EReal) = ((|a| : ℝ) : EReal) := by
  show max (a : EReal) (-(a : EReal)) = _
  rw [← EReal.coe_neg, ← coe_max, ← abs_eq_max_neg]

/-- The host's negation of a real is the real negation. -/
theorem hostNegf_coe : FloatOps.hostNegf (F := Ideal) (φ := φ) (a : EReal) = ((-a : ℝ) : EReal) :=
  negf_coe a

/-- The host's absolute value of a real is the real absolute value. -/
theorem hostAbsf_coe : FloatOps.hostAbsf (F := Ideal) (φ := φ) (a : EReal) = ((|a| : ℝ) : EReal) :=
  absf_coe a

/-! ### Quotient by a nonzero real -/

/-- The ideal quotient of a real by a nonzero real is the real quotient. -/
theorem ideal_div_coe {b : ℝ} (hb : b ≠ 0) : Ideal.div (a : EReal) (b : EReal) = ((a / b : ℝ) : EReal) := by
  rw [Ideal.div, if_neg (by exact_mod_cast hb), ← EReal.coe_inv, ← EReal.coe_mul, div_eq_mul_inv]

/-- A kernel's quotient of a real by a nonzero real is the real quotient. -/
theorem divf_coe {b : ℝ} (hb : b ≠ 0) :
    FloatOps.divf (F := Ideal) (φ := φ) (a : EReal) (b : EReal) = ((a / b : ℝ) : EReal) :=
  ideal_div_coe a hb

/-- The host's quotient of a real by a nonzero real is the real quotient. -/
theorem hostDivf_coe {b : ℝ} (hb : b ≠ 0) :
    FloatOps.hostDivf (F := Ideal) (φ := φ) (a : EReal) (b : EReal) = ((a / b : ℝ) : EReal) :=
  ideal_div_coe a hb

/-! ### Exponential and logarithm of one plus -/

/-- A kernel's exponential of a real is the real exponential. -/
theorem exp_coe : FloatOps.exp (F := Ideal) (φ := φ) (a : EReal) = ((Real.exp a : ℝ) : EReal) := rfl

/-- The host's exponential of a real is the real exponential. -/
theorem hostExp_coe : FloatOps.hostUnary (F := Ideal) .exp (φ := φ) (a : EReal) = ((Real.exp a : ℝ) : EReal) := rfl

/-- The ideal `log (1 + ·)` of a real above `-1` is the real logarithm of one plus it. -/
theorem ideal_log1p_coe (h : 0 < 1 + a) : Ideal.log1p (a : EReal) = ((Real.log (1 + a) : ℝ) : EReal) := by
  rw [Ideal.log1p, ← EReal.coe_one, ← EReal.coe_add, Ideal.log_coe, if_neg (not_le.mpr h)]

/-- A kernel's `log1p` of a real above `-1` is the real logarithm of one plus it. -/
theorem log1p_coe (h : 0 < 1 + a) :
    FloatOps.log1p (F := Ideal) (φ := φ) (a : EReal) = ((Real.log (1 + a) : ℝ) : EReal) :=
  ideal_log1p_coe a h

/-- The host's `log1p` of a real above `-1` is the real logarithm of one plus it. -/
theorem hostLog1p_coe (h : 0 < 1 + a) :
    FloatOps.hostUnary (F := Ideal) .log1p (φ := φ) (a : EReal) = ((Real.log (1 + a) : ℝ) : EReal) :=
  ideal_log1p_coe a h

/-! ### The square as a power -/

/-- The ideal power of any real, negative ones too, to the exponent two is its square. -/
theorem ideal_pow_two_coe : Ideal.pow (a : EReal) ((2 : ℝ) : EReal) = ((a ^ 2 : ℝ) : EReal) := by
  rw [Ideal.pow_coe_coe, Real.rpow_eq_pow, Real.rpow_two]

/-- A kernel's power of a real to the exponent two is its square. -/
theorem powf_two_coe : FloatOps.powf (F := Ideal) (φ := φ) (a : EReal) ((2 : ℝ) : EReal) = ((a ^ 2 : ℝ) : EReal) :=
  ideal_pow_two_coe a

/-- The host's power of a real to the exponent two is its square. -/
theorem hostPowf_two_coe :
    FloatOps.hostPowf (F := Ideal) (φ := φ) (a : EReal) ((2 : ℝ) : EReal) = ((a ^ 2 : ℝ) : EReal) :=
  ideal_pow_two_coe a

/-! ### The conversion of a signed integer -/

/-- A signed word converts to the integer it reads as, exactly (a kernel's conversion and the host's are this
    one function). -/
theorem sitofp_eq {w : Nat} (x : BitVec w) :
    FloatOps.sitofp (F := Ideal) φ x = (((x.toInt : ℤ) : ℝ) : EReal) := rfl

/-- The scalar unit's conversion of a signed word likewise. -/
theorem scalar_sitofp_eq {w : Nat} (x : BitVec w) :
    Scalar.sitofp (F := Ideal) φ x = (((x.toInt : ℤ) : ℝ) : EReal) := rfl

/-! ### The literal bit patterns -/

/-- `+0.0` denotes zero. -/
theorem ofBits_zero : Ideal.ofBits .f32 0x00000000#32 = 0 := by
  simp [Ideal.ofBits, Ideal.ieee]

/-- `+0.0` denotes the real zero. -/
theorem ofBits_zero_coe : Ideal.ofBits .f32 0x00000000#32 = ((0 : ℝ) : EReal) := by
  rw [ofBits_zero, EReal.coe_zero]

/-- `1.0` denotes the real one. -/
theorem ofBits_one : Ideal.ofBits .f32 0x3F800000#32 = ((1 : ℝ) : EReal) := by
  simp [Ideal.ofBits, Ideal.ieee, -EReal.coe_mul]; norm_num

/-- `2.0` denotes the real two. -/
theorem ofBits_two : Ideal.ofBits .f32 0x40000000#32 = ((2 : ℝ) : EReal) := by
  simp [Ideal.ofBits, Ideal.ieee, -EReal.coe_mul]; norm_num

/-- `0.25` denotes a quarter. -/
theorem ofBits_quarter : Ideal.ofBits .f32 0x3E800000#32 = ((1 / 4 : ℝ) : EReal) := by
  simp [Ideal.ofBits, Ideal.ieee, -EReal.coe_mul]; norm_num

/-- `0.75` denotes three quarters. -/
theorem ofBits_three_quarters : Ideal.ofBits .f32 0x3F400000#32 = ((3 / 4 : ℝ) : EReal) := by
  simp [Ideal.ofBits, Ideal.ieee, -EReal.coe_mul]; norm_num

/-- `2097152.0`, two to the twenty-first, denotes that real. -/
theorem ofBits_2097152 : Ideal.ofBits .f32 0x4A000000#32 = ((2097152 : ℝ) : EReal) := by
  simp [Ideal.ofBits, Ideal.ieee, -EReal.coe_mul]; norm_num

/-- The pattern of minus infinity denotes the bottom element. -/
theorem ofBits_neg_inf : Ideal.ofBits .f32 0xFF800000#32 = ⊥ := by
  simp [Ideal.ofBits, Ideal.ieee]

/-- The pattern of plus infinity denotes the top element. -/
theorem ofBits_inf : Ideal.ofBits .f32 0x7F800000#32 = ⊤ := by
  simp [Ideal.ofBits, Ideal.ieee]

/-- The quiet not-a-number pattern denotes the junk value, the bottom element. -/
theorem ofBits_nan : Ideal.ofBits .f32 0x7FC00000#32 = ⊥ := by
  simp [Ideal.ofBits, Ideal.ieee]

/-! ### Comparisons of reals -/

/-- Equality of two embedded reals is equality of the reals. -/
theorem cmpf_oeq_coe_eq_one :
    FloatOps.cmpf (F := Ideal) (φ := φ) .oeq (a : EReal) (b : EReal) = 1#1 ↔ a = b := by
  show BitVec.ofBool (decide ((a : EReal) = (b : EReal))) = 1#1 ↔ a = b
  by_cases h : a = b
  · simp [h]
  · have : ¬ ((a : EReal) = (b : EReal)) := fun e => h (EReal.coe_eq_coe_iff.mp e)
    simp [h, this]

/-- The equality test of two embedded reals answers zero exactly when the reals differ. -/
theorem cmpf_oeq_coe_eq_zero :
    FloatOps.cmpf (F := Ideal) (φ := φ) .oeq (a : EReal) (b : EReal) = 0#1 ↔ a ≠ b := by
  show BitVec.ofBool (decide ((a : EReal) = (b : EReal))) = 0#1 ↔ a ≠ b
  by_cases h : a = b
  · simp [h]
  · have : ¬ ((a : EReal) = (b : EReal)) := fun e => h (EReal.coe_eq_coe_iff.mp e)
    simp [h, this]

/-- The strict order test of two embedded reals is the order of the reals. -/
theorem cmpf_olt_coe_eq_one :
    FloatOps.cmpf (F := Ideal) (φ := φ) .olt (a : EReal) (b : EReal) = 1#1 ↔ a < b := by
  show BitVec.ofBool (decide ((a : EReal) < (b : EReal))) = 1#1 ↔ a < b
  by_cases h : a < b
  · have : (a : EReal) < (b : EReal) := EReal.coe_lt_coe_iff.mpr h
    simp [h, this]
  · have : ¬ ((a : EReal) < (b : EReal)) := fun e => h (EReal.coe_lt_coe_iff.mp e)
    simp [h, this]

/-- The strict order test of two embedded reals answers zero exactly when the first is not below the second. -/
theorem cmpf_olt_coe_eq_zero :
    FloatOps.cmpf (F := Ideal) (φ := φ) .olt (a : EReal) (b : EReal) = 0#1 ↔ b ≤ a := by
  show BitVec.ofBool (decide ((a : EReal) < (b : EReal))) = 0#1 ↔ b ≤ a
  by_cases h : a < b
  · have : (a : EReal) < (b : EReal) := EReal.coe_lt_coe_iff.mpr h
    simp [h, this, not_le.mpr h]
  · have : ¬ ((a : EReal) < (b : EReal)) := fun e => h (EReal.coe_lt_coe_iff.mp e)
    simp [this, not_lt.mp h]

/-- A selection on the equality test of two embedded reals is the choice by the equality of the reals. -/
theorem select_cmpf_oeq_coe {α : Type} (x y : α) :
    Scalar.select (FloatOps.cmpf (F := Ideal) (φ := φ) .oeq (a : EReal) (b : EReal)) x y = if a = b then x else y := by
  unfold Scalar.select
  by_cases h : a = b
  · rw [(cmpf_oeq_coe_eq_one (φ := φ) a b).mpr h, if_pos (by decide), if_pos h]
  · rw [(cmpf_oeq_coe_eq_zero (φ := φ) a b).mpr h, if_neg (by decide), if_neg h]

/-- A selection on the strict order test of two embedded reals is the choice by the order of the reals. -/
theorem select_cmpf_olt_coe {α : Type} (x y : α) :
    Scalar.select (FloatOps.cmpf (F := Ideal) (φ := φ) .olt (a : EReal) (b : EReal)) x y = if a < b then x else y := by
  unfold Scalar.select
  by_cases h : a < b
  · rw [(cmpf_olt_coe_eq_one (φ := φ) a b).mpr h, if_pos (by decide), if_pos h]
  · rw [(cmpf_olt_coe_eq_zero (φ := φ) a b).mpr (not_lt.mp h), if_neg (by decide), if_neg h]

/-! ### The scalar unit's operations

At the ideal values the scalar unit computes the same exact operations as the vector unit. -/

/-- The scalar unit's sum of two reals is the real sum. -/
theorem scalar_addf_coe : Scalar.addf (F := Ideal) (φ := φ) (a : EReal) (b : EReal) = ((a + b : ℝ) : EReal) :=
  addf_coe a b

/-- The scalar unit's difference of two reals is the real difference. -/
theorem scalar_subf_coe : Scalar.subf (F := Ideal) (φ := φ) (a : EReal) (b : EReal) = ((a - b : ℝ) : EReal) :=
  subf_coe a b

/-- The scalar unit's product of two reals is the real product. -/
theorem scalar_mulf_coe : Scalar.mulf (F := Ideal) (φ := φ) (a : EReal) (b : EReal) = ((a * b : ℝ) : EReal) :=
  mulf_coe a b

/-- The scalar unit's quotient of a real by a nonzero real is the real quotient. -/
theorem scalar_divf_coe {b : ℝ} (hb : b ≠ 0) :
    Scalar.divf (F := Ideal) (φ := φ) (a : EReal) (b : EReal) = ((a / b : ℝ) : EReal) :=
  ideal_div_coe a hb

/-- The scalar unit's maximum of two reals is the real maximum. -/
theorem scalar_maximumf_coe :
    Scalar.maximumf (F := Ideal) (φ := φ) (a : EReal) (b : EReal) = ((max a b : ℝ) : EReal) :=
  maximumf_coe a b

/-- The scalar unit's minimum of two reals is the real minimum. -/
theorem scalar_minimumf_coe :
    Scalar.minimumf (F := Ideal) (φ := φ) (a : EReal) (b : EReal) = ((min a b : ℝ) : EReal) :=
  minimumf_coe a b

/-- The scalar unit's negation of a real is the real negation. -/
theorem scalar_negf_coe : Scalar.negf (F := Ideal) (φ := φ) (a : EReal) = ((-a : ℝ) : EReal) :=
  negf_coe a

/-- The scalar unit's absolute value of a real is the real absolute value. -/
theorem scalar_absf_coe : Scalar.absf (F := Ideal) (φ := φ) (a : EReal) = ((|a| : ℝ) : EReal) :=
  absf_coe (φ := φ) a

/-! ## Part 2 — composites -/

/-- One plus an exponential is positive: the argument of every logarithm below. -/
theorem one_add_exp_pos (t : ℝ) : 0 < 1 + Real.exp t := add_pos one_pos (Real.exp_pos t)

/-! ### The smooth part of the stable cross entropy, `log (1 + exp (-|x|))` -/

/-- The host's spelling at one element: `log1p` of the exponential of the negated absolute value. -/
theorem host_log1p_exp_neg_abs (x : ℝ) :
    FloatOps.hostUnary (F := Ideal) .log1p (φ := φ)
        (FloatOps.hostUnary .exp (FloatOps.hostNegf (FloatOps.hostAbsf (x : EReal))))
      = ((Real.log (1 + Real.exp (-|x|)) : ℝ) : EReal) := by
  rw [hostAbsf_coe, hostNegf_coe, hostExp_coe, hostLog1p_coe _ (one_add_exp_pos _)]

/-- The host's spelling over a whole array, read at an index whose element is the real `x`. -/
theorem host_log1p_exp_neg_abs_apply {s : Shape} (v : FVec Ideal s φ) (i : s.Idx) (x : ℝ) (hv : v i = (x : EReal)) :
    Host.log1p (Host.exp (Host.negf (Host.absf v))) i = ((Real.log (1 + Real.exp (-|x|)) : ℝ) : EReal) := by
  show FloatOps.hostUnary .log1p (FloatOps.hostUnary .exp (FloatOps.hostNegf (FloatOps.hostAbsf (v i)))) = _
  rw [hv]
  exact host_log1p_exp_neg_abs x

/-- A kernel's spelling at one element: the negation written as a subtraction from the literal zero. -/
theorem kernel_log1p_exp_neg_abs (x : ℝ) :
    FloatOps.log1p (F := Ideal) (φ := .f32)
        (FloatOps.exp (FloatOps.subf (FloatOps.ofBits .f32 0x00000000#32) (FloatOps.absf (x : EReal))))
      = ((Real.log (1 + Real.exp (-|x|)) : ℝ) : EReal) := by
  rw [Ideal.ofBits_def, ofBits_zero_coe, absf_coe, subf_coe, zero_sub, exp_coe, log1p_coe _ (one_add_exp_pos _)]

/-- A kernel's spelling over a whole vector — the zero a broadcast scalar literal — read at an index whose
    element is the real `x`. -/
theorem kernel_log1p_exp_neg_abs_apply {s : Shape} (v : FVec Ideal s .f32) (i : s.Idx) (x : ℝ) (hv : v i = (x : EReal)) :
    log1p (exp (subf (broadcast s (Scalar.ofBits (F := Ideal) .f32 0x00000000#32)) (absf v))) i
      = ((Real.log (1 + Real.exp (-|x|)) : ℝ) : EReal) := by
  show FloatOps.log1p (FloatOps.exp (FloatOps.subf (FloatOps.ofBits .f32 0x00000000#32) (FloatOps.absf (v i)))) = _
  rw [hv]
  exact kernel_log1p_exp_neg_abs x

/-! ### A finite maximum, as a fold from minus infinity -/

/-- The fold of the maximum from minus infinity over a nonempty finite set of embedded reals is the embedded
    largest of them. -/
theorem fold_max_bot_coe {ι : Type*} (s : Finset ι) (hs : s.Nonempty) (f : ι → ℝ) :
    s.fold max (⊥ : EReal) (fun k => ((f k : ℝ) : EReal)) = ((s.sup' hs f : ℝ) : EReal) := by
  rw [Finset.apply_sup'_eq_sup'_comp hs (fun r : ℝ => (r : EReal)) coe_max, Finset.sup'_eq_sup]
  rfl

/-- The same with the float maximum as the folded operation, which is how a host max-reduction reads. -/
theorem fold_maximumf_bot_coe {ι : Type*} (s : Finset ι) (hs : s.Nonempty) (f : ι → ℝ) :
    s.fold (FloatOps.maximumf (F := Ideal) (φ := φ)) (⊥ : EReal) (fun k => ((f k : ℝ) : EReal))
      = ((s.sup' hs f : ℝ) : EReal) :=
  fold_max_bot_coe s hs f

/-- The same for any family that is, on the set, the embedding of a real family. -/
theorem fold_maximumf_bot_eq {ι : Type*} (s : Finset ι) (hs : s.Nonempty) (g : ι → Ideal φ) (f : ι → ℝ)
    (hg : ∀ k ∈ s, g k = ((f k : ℝ) : EReal)) :
    s.fold (FloatOps.maximumf (F := Ideal) (φ := φ)) (⊥ : EReal) g = ((s.sup' hs f : ℝ) : EReal) := by
  rw [Finset.fold_congr hg]
  exact fold_maximumf_bot_coe s hs f

/-! ### A finite sum -/

/-- A finite sum of embedded reals is the embedded sum. -/
theorem coe_finset_sum {ι : Type*} (s : Finset ι) (f : ι → ℝ) :
    ∑ k ∈ s, ((f k : ℝ) : EReal) = ((∑ k ∈ s, f k : ℝ) : EReal) := by
  classical
  induction s using Finset.induction_on with
  | empty => rw [Finset.sum_empty, Finset.sum_empty, EReal.coe_zero]
  | insert k s hk ih => rw [Finset.sum_insert hk, Finset.sum_insert hk, ih, EReal.coe_add]

/-- A sum of embedded reals over a whole finite type is the embedded sum. -/
theorem coe_sum {ι : Type*} [Fintype ι] (f : ι → ℝ) : ∑ k, ((f k : ℝ) : EReal) = ((∑ k, f k : ℝ) : EReal) :=
  coe_finset_sum Finset.univ f

/-- A finite sum of a family that is, on the set, the embedding of a real family is the embedded real sum. -/
theorem sum_eq_coe_sum {ι : Type*} (s : Finset ι) (g : ι → EReal) (f : ι → ℝ)
    (hg : ∀ k ∈ s, g k = ((f k : ℝ) : EReal)) : ∑ k ∈ s, g k = ((∑ k ∈ s, f k : ℝ) : EReal) := by
  rw [Finset.sum_congr rfl hg]
  exact coe_finset_sum s f

/-
  The equations above, in the order a rewriting from the leaves of a term to its root takes them (with `simp only`
  the order is immaterial; the side conditions `b ≠ 0` of the quotients and `0 < 1 + a` of `log1p` are goals the
  caller closes, e.g. `simp only [...] ` with a discharger, or `rw` with the hypothesis supplied):

    literals     Ideal.ofBits_def, ofBits_zero (or ofBits_zero_coe), ofBits_one, ofBits_two, ofBits_quarter,
                 ofBits_three_quarters, ofBits_2097152, ofBits_neg_inf, ofBits_inf, ofBits_nan
    conversion   sitofp_eq, scalar_sitofp_eq
    one operand  negf_coe, absf_coe, hostNegf_coe, hostAbsf_coe, exp_coe, hostExp_coe, log1p_coe, hostLog1p_coe,
                 scalar_negf_coe, scalar_absf_coe
    two operands addf_coe, subf_coe, mulf_coe, divf_coe, hostDivf_coe, maximumf_coe, minimumf_coe,
                 maximumf_bot_left, maximumf_bot_right, powf_two_coe, hostPowf_two_coe,
                 scalar_addf_coe, scalar_subf_coe, scalar_mulf_coe, scalar_divf_coe, scalar_maximumf_coe,
                 scalar_minimumf_coe
    comparisons  cmpf_oeq_coe_eq_one, cmpf_oeq_coe_eq_zero, cmpf_olt_coe_eq_one, cmpf_olt_coe_eq_zero,
                 select_cmpf_oeq_coe, select_cmpf_olt_coe
    composites   host_log1p_exp_neg_abs, host_log1p_exp_neg_abs_apply, kernel_log1p_exp_neg_abs,
                 kernel_log1p_exp_neg_abs_apply, fold_max_bot_coe, fold_maximumf_bot_coe, fold_maximumf_bot_eq,
                 coe_finset_sum, coe_sum, sum_eq_coe_sum
    (helpers)    coe_max, coe_min, ideal_div_coe, ideal_log1p_coe, ideal_pow_two_coe, one_add_exp_pos
-/

end Idealize.ShloMosaic.IdealReal

end
-- ==== Proof.KICorrWeight.lean ====
/-
  The host-side weight stage of the kernel program at the exact operations on extended reals.

  For row b and span s the stage takes the hit position h = H[b, s] and, for each span s' of the row, the score
  "1 / (en − st + 1) if st ≤ h, h ≤ en and st ≤ en, else 0", by three signed comparisons of 32-bit words, a
  conjunction of the three condition bits and a choice; it folds the eight scores by the maximum from minus infinity
  and returns (1 + max)² / 4, the square taken as a power with exponent two. A signed comparison compares the signed
  readings of its words, whatever they are; the length en − st + 1 does not wrap when both positions lie in
  [0, 8192) and st ≤ en, and where st > en the quotient (possibly by zero) is never chosen. So each score is the
  specification's `iou` of the readings, the fold is `maxIou`, and the stage's value is `negw`.

  The stage is cut here into three parts (the table of scores, the fold, the weight from a largest score) whose
  composition is the program's stage by unfolding; the broadcasts that spread the row's spans and the hit position
  over the 256 × 8 × 8 table are read at an entry one by one.
-/
import proofs.«423081_j13864154431993_3_alg».proof.Proof.KICorr
import proofs.«423081_j13864154431993_3_alg».proof.Proof.Good
import proofs.«423081_j13864154431993_3_alg».proof.Proof.LibIdealReal
import Idealize.ShloMosaic.Lib.IdealHost
import Idealize.ShloMosaic.Lib.Pipeline.Value
import Idealize.ShloMosaic.PureOps.Reduce
import Mathlib.Data.EReal.Basic
import Mathlib.Data.EReal.Operations
import Mathlib.Data.Finset.Lattice.Fold
import Mathlib.Tactic.SplitIfs

noncomputable section

namespace Cert.KernelIdeal.Hand
open Idealize.ShloMosaic Cert.KernelIdeal Cert.KernelIdeal.Gen Idealize.ShloMosaic.ValueIdx

/-! ## The stage, operation by operation, in three parts -/

section Transcription
variable {F : FTy → Type} [FloatOps F]

/-- inside[b, s, s'] : the hit position of span s lies in span s' of its row, and span s' counts. -/
def hwInside (H st en : IVec S256x8 32) : IVec S256x8x8 1 :=
  let main_v2 : IVec S256x8 1 := cmpi .sle st en
  let main_v7 : IVec S256x1x8 32 := broadcastInDim S256x1x8 ![0, 2] bcast_S256x8_S256x1x8_0_2 st
  let main_v8 : IVec S256x8x1 32 := broadcastInDim S256x8x1 ![0, 1] bcast_S256x8_S256x8x1_0_1 H
  let main_v9 : IVec S256x8x8 32 := broadcastInDim S256x8x8 ![0, 1, 2] bcast_S256x1x8_S256x8x8_0_1_2 main_v7
  let main_v10 : IVec S256x8x8 32 := broadcastInDim S256x8x8 ![0, 1, 2] bcast_S256x8x1_S256x8x8_0_1_2 main_v8
  let main_v11 : IVec S256x8x8 1 := cmpi .sle main_v9 main_v10
  let main_v12 : IVec S256x8x1 32 := broadcastInDim S256x8x1 ![0, 1] bcast_S256x8_S256x8x1_0_1 H
  let main_v13 : IVec S256x1x8 32 := broadcastInDim S256x1x8 ![0, 2] bcast_S256x8_S256x1x8_0_2 en
  let main_v14 : IVec S256x8x8 32 := broadcastInDim S256x8x8 ![0, 1, 2] bcast_S256x8x1_S256x8x8_0_1_2 main_v12
  let main_v15 : IVec S256x8x8 32 := broadcastInDim S256x8x8 ![0, 1, 2] bcast_S256x1x8_S256x8x8_0_1_2 main_v13
  let main_v16 : IVec S256x8x8 1 := cmpi .sle main_v14 main_v15
  let main_v17 : IVec S256x8x8 1 := andi main_v11 main_v16
  let main_v18 : IVec S256x1x8 1 := broadcastInDim S256x1x8 ![0, 2] bcast_S256x8_S256x1x8_0_2 main_v2
  let main_v19 : IVec S256x8x8 1 := broadcastInDim S256x8x8 ![0, 1, 2] bcast_S256x1x8_S256x8x8_0_1_2 main_v18
  andi main_v17 main_v19

/-- The overlap scores: the reciprocal of the length of span s' where inside, zero elsewhere. -/
def hwScores (H st en : IVec S256x8 32) : FVec F S256x8x8 .f32 :=
  let main_v3 : IVec S256x8 32 := subi en st
  let main_c : IVec S_ 32 := constantI S_ 32 1#32
  let main_v4 : IVec S256x8 32 := broadcastInDim S256x8 ![] bcast_S_S256x8 main_c
  let main_v5 : IVec S256x8 32 := addi main_v3 main_v4
  let main_v6 : FVec F S256x8 .f32 := sitofp .f32 main_v5
  let main_v20 : IVec S256x8x8 1 := hwInside H st en
  let main_v21 : FVec F S256x1x8 .f32 := broadcastInDim S256x1x8 ![0, 2] bcast_S256x8_S256x1x8_0_2 main_v6
  let main_cst_0 : FVec F S_ .f32 := constant S_ .f32 0x3F800000#32
  let main_v22 : FVec F S256x1x8 .f32 := broadcastInDim S256x1x8 ![] bcast_S_S256x1x8 main_cst_0
  let main_v23 : FVec F S256x1x8 .f32 := Host.divf main_v22 main_v21
  let main_cst_1 : FVec F S_ .f32 := constant S_ .f32 0x00000000#32
  let main_call0_v0 : FVec F S_ .f32 := id main_cst_1
  let main_call0_v1 : FVec F S256x8x8 .f32 := broadcastInDim S256x8x8 ![0, 1, 2] bcast_S256x1x8_S256x8x8_0_1_2 main_v23
  let main_call0_v2 : FVec F S256x8x8 .f32 := broadcastInDim S256x8x8 ![] bcast_S_S256x8x8 main_call0_v0
  select main_v20 main_call0_v1 main_call0_v2

/-- From the largest score m of each (row, span): the unlabelled weight (1 + m)² / 4. -/
def hwFinish (main_v25 : FVec F S256x8 .f32) : FVec F S256x8 .f32 :=
  let main_cst_3 : FVec F S_ .f32 := constant S_ .f32 0x3F800000#32
  let main_v26 : FVec F S256x8 .f32 := broadcastInDim S256x8 ![] bcast_S_S256x8 main_cst_3
  let main_v27 : FVec F S256x8 .f32 := addf main_v26 main_v25
  let main_cst_4 : FVec F S_ .f32 := constant S_ .f32 0x40000000#32
  let main_v28 : FVec F S256x8 .f32 := broadcastInDim S256x8 ![] bcast_S_S256x8 main_cst_4
  let main_v29 : FVec F S256x8 .f32 := Host.powf main_v27 main_v28
  let main_cst_5 : FVec F S_ .f32 := constant S_ .f32 0x3E800000#32
  let main_v30 : FVec F S256x8 .f32 := broadcastInDim S256x8 ![] bcast_S_S256x8 main_cst_5
  mulf main_v30 main_v29

/-- The whole stage: scores, their maximum over s' from minus infinity, the weight. -/
def hitWeightT (H st en : IVec S256x8 32) : FVec F S256x8 .f32 :=
  let main_v24 : FVec F S256x8x8 .f32 := hwScores H st en
  let main_cst_2 : FVec F S_ .f32 := constant S_ .f32 0xFF800000#32
  let main_v25 : FVec F S256x8 .f32 := Host.reduce FloatOps.maximumf main_v24 main_cst_2 reducesTo_S256x8x8_S256x8_d2 h_S_
  hwFinish main_v25

end Transcription

/-! ## The broadcasts of the stage read at an entry -/

private theorem bc3_mid_apply {α : Type} (X : S256x1x8.Idx → α) (h : S256x1x8.BroadcastsInDim S256x8x8 ![0, 1, 2])
    (b : Fin 256) (s s' : Fin 8) :
    broadcastInDim S256x8x8 ![0, 1, 2] h X (ix3 b s s') = X (ix3 b (0 : Fin 1) s') :=
  broadcastInDim_apply _ h X _ _ (fun a => by
    match a with
    | ⟨0, _⟩ => rfl
    | ⟨1, _⟩ => rfl
    | ⟨2, _⟩ => rfl)

private theorem bc3_last_apply {α : Type} (X : S256x8x1.Idx → α) (h : S256x8x1.BroadcastsInDim S256x8x8 ![0, 1, 2])
    (b : Fin 256) (s s' : Fin 8) :
    broadcastInDim S256x8x8 ![0, 1, 2] h X (ix3 b s s') = X (ix3 b s (0 : Fin 1)) :=
  broadcastInDim_apply _ h X _ _ (fun a => by
    match a with
    | ⟨0, _⟩ => rfl
    | ⟨1, _⟩ => rfl
    | ⟨2, _⟩ => rfl)

private theorem bcRow_apply {α : Type} (X : S256x8.Idx → α) (h : S256x8.BroadcastsInDim S256x1x8 ![0, 2])
    (b : Fin 256) (z : Fin 1) (s' : Fin 8) :
    broadcastInDim S256x1x8 ![0, 2] h X (ix3 b z s') = X (ix2 b s') :=
  broadcastInDim_apply _ h X _ _ (fun a => by
    match a with
    | ⟨0, _⟩ => rfl
    | ⟨1, _⟩ => rfl)

private theorem bcCol_apply {α : Type} (X : S256x8.Idx → α) (h : S256x8.BroadcastsInDim S256x8x1 ![0, 1])
    (b : Fin 256) (s : Fin 8) (z : Fin 1) :
    broadcastInDim S256x8x1 ![0, 1] h X (ix3 b s z) = X (ix2 b s) :=
  broadcastInDim_apply _ h X _ _ (fun a => by
    match a with
    | ⟨0, _⟩ => rfl
    | ⟨1, _⟩ => rfl)

private theorem cmpi_at {s : Shape} {w : ℕ} (pr : CmpIPredicate) (a b : IVec s w) (i : s.Idx) :
    cmpi pr a b i = IntOp.cmpi pr (a i) (b i) := rfl
private theorem andi_at {s : Shape} {w : ℕ} (a b : IVec s w) (i : s.Idx) : andi a b i = IntOp.andi (a i) (b i) := rfl
private theorem subi_at {s : Shape} {w : ℕ} (a b : IVec s w) (i : s.Idx) : subi a b i = IntOp.subi (a i) (b i) := rfl
private theorem addi_at {s : Shape} {w : ℕ} (a b : IVec s w) (i : s.Idx) : addi a b i = IntOp.addi (a i) (b i) := rfl
private theorem hostPowf_at {s : Shape} {φ : FTy} (a b : FVec Ideal s φ) (i : s.Idx) :
    Host.powf a b i = FloatOps.hostPowf (a i) (b i) := rfl
private theorem hostDivf_at {s : Shape} {φ : FTy} (a b : FVec Ideal s φ) (i : s.Idx) :
    Host.divf a b i = FloatOps.hostDivf (a i) (b i) := rfl

/-! ## Words -/

private theorem toNat_rng (w : BitVec 32) (h0 : 0 ≤ w.toInt) (h1 : w.toInt < 8192) :
    w.toNat < 8192 ∧ w.toInt = (w.toNat : ℤ) := by
  rw [BitVec.toInt_eq_toNat_cond] at h0 h1 ⊢
  have := w.isLt
  split_ifs at * <;> omega

private theorem ofBool1 (b : Bool) : BitVec.ofBool b = 1#1 ↔ b = true := by cases b <;> decide

/-- The signed comparison compares the signed readings. -/
private theorem sle1 (x y : BitVec 32) : IntOp.cmpi .sle x y = 1#1 ↔ x.toInt ≤ y.toInt := by
  show BitVec.ofBool (x.sle y) = 1#1 ↔ _
  rw [ofBool1, BitVec.sle, decide_eq_true_iff]

/-- The conjunction of two condition bits. -/
private theorem and1 (x y : BitVec 1) : IntOp.andi x y = 1#1 ↔ x = 1#1 ∧ y = 1#1 := by
  rcases BitVec.eq_zero_or_eq_one x with rfl | rfl <;> rcases BitVec.eq_zero_or_eq_one y with rfl | rfl <;> decide

/-- The length of a span that counts, read signed: no wrap for positions below 8192. -/
private theorem len_toInt (s e : BitVec 32) (hs : 0 ≤ s.toInt ∧ s.toInt < 8192) (he : 0 ≤ e.toInt ∧ e.toInt < 8192)
    (hv : s.toInt ≤ e.toInt) : (IntOp.addi (IntOp.subi e s) 1#32).toInt = e.toInt - s.toInt + 1 := by
  obtain ⟨hs8, hsI⟩ := toNat_rng s hs.1 hs.2
  obtain ⟨he8, heI⟩ := toNat_rng e he.1 he.2
  have hv' : s.toNat ≤ e.toNat := by omega
  have hd : (IntOp.subi e s).toNat = e.toNat - s.toNat := by
    show (e - s).toNat = _
    rw [BitVec.toNat_sub]; omega
  have h1 : (IntOp.addi (IntOp.subi e s) 1#32).toNat = e.toNat - s.toNat + 1 := by
    show (IntOp.subi e s + 1#32).toNat = _
    rw [BitVec.toNat_add, hd]; simp; omega
  rw [BitVec.toInt_eq_toNat_cond, h1, hsI, heI]; split_ifs <;> omega

/-! ## One score -/

/-- One entry of the host's table of scores, on words: hit position h against the span [s, e]. -/
def hostScore (h s e : BitVec 32) : Ideal .f32 :=
  Scalar.select (IntOp.andi (IntOp.andi (IntOp.cmpi .sle s h) (IntOp.cmpi .sle h e)) (IntOp.cmpi .sle s e))
    (FloatOps.hostDivf (F := Ideal) (φ := .f32) (FloatOps.ofBits (F := Ideal) .f32 0x3F800000#32)
      (FloatOps.sitofp (F := Ideal) .f32 (IntOp.addi (IntOp.subi e s) 1#32)))
    (FloatOps.ofBits (F := Ideal) .f32 0x00000000#32)

/-- It is the specification's score of the signed readings, for span words below 8192 (the hit word is free). -/
theorem hostScore_eq (h s e : BitVec 32) (hs : 0 ≤ s.toInt ∧ s.toInt < 8192) (he : 0 ≤ e.toInt ∧ e.toInt < 8192) :
    hostScore h s e
      = (((if s.toInt ≤ h.toInt ∧ h.toInt ≤ e.toInt ∧ s.toInt ≤ e.toInt
            then 1 / (((e.toInt - s.toInt + 1 : ℤ)) : ℝ) else 0 : ℝ)) : EReal) := by
  unfold hostScore
  rw [Ideal.ofBits_def, Ideal.ofBits_def, IdealReal.ofBits_one, IdealReal.ofBits_zero_coe]
  by_cases hc : s.toInt ≤ h.toInt ∧ h.toInt ≤ e.toInt ∧ s.toInt ≤ e.toInt
  · have hb : IntOp.andi (IntOp.andi (IntOp.cmpi .sle s h) (IntOp.cmpi .sle h e)) (IntOp.cmpi .sle s e) = 1#1 :=
      (and1 _ _).mpr ⟨(and1 _ _).mpr ⟨(sle1 _ _).mpr hc.1, (sle1 _ _).mpr hc.2.1⟩, (sle1 _ _).mpr hc.2.2⟩
    have hden := len_toInt s e hs he hc.2.2
    have hne : (((e.toInt - s.toInt + 1 : ℤ)) : ℝ) ≠ 0 := by
      have : (0 : ℤ) < e.toInt - s.toInt + 1 := by omega
      exact_mod_cast this.ne'
    rw [hb, select_one, if_pos hc, IdealReal.sitofp_eq, hden, IdealReal.hostDivf_coe 1 hne]
  · have hb : IntOp.andi (IntOp.andi (IntOp.cmpi .sle s h) (IntOp.cmpi .sle h e)) (IntOp.cmpi .sle s e) = 0#1 :=
      eq_zero_of_ne_one (fun hb1 => hc (by
        obtain ⟨h12, h3⟩ := (and1 _ _).mp hb1
        obtain ⟨h1, h2⟩ := (and1 _ _).mp h12
        exact ⟨(sle1 _ _).mp h1, (sle1 _ _).mp h2, (sle1 _ _).mp h3⟩))
    rw [hb, select_zero, if_neg hc]

/-! ## The stage at an entry -/

/-- The table of scores at (b, s, s'). -/
theorem hwScores_apply (H st en : IVec S256x8 32) (b : Fin 256) (s s' : Fin 8) :
    hwScores (F := Ideal) H st en (ix3 b s s') = hostScore (H (ix2 b s)) (st (ix2 b s')) (en (ix2 b s')) := by
  unfold hwScores hwInside hostScore
  simp only [select_apply, andi_at, cmpi_at]
  repeat rw [bc3_mid_apply]
  repeat rw [bc3_last_apply]
  simp only [hostDivf_at]
  repeat rw [bcRow_apply]
  repeat rw [bcCol_apply]
  rfl

/-- The weight from a real largest score. -/
theorem hwFinish_apply (m : FVec Ideal S256x8 .f32) (j : S256x8.Idx) (M : ℝ) (hm : m j = ((M : ℝ) : EReal)) :
    hwFinish (F := Ideal) m j = (((1 / 4 : ℝ) * (1 + M) ^ 2 : ℝ) : EReal) := by
  show Ideal.ofBits .f32 0x3E800000#32
      * FloatOps.hostPowf (F := Ideal) (φ := .f32) (Ideal.ofBits .f32 0x3F800000#32 + m j) (Ideal.ofBits .f32 0x40000000#32) = _
  rw [hm, IdealReal.ofBits_quarter, IdealReal.ofBits_one, IdealReal.ofBits_two, ← EReal.coe_add,
    IdealReal.hostPowf_two_coe, ← EReal.coe_mul]

private theorem lift_eq (h : S256x8x8.Reduces [2] S256x8) (b : Fin 256) (s : Fin 8) (k : Fin 8) :
    h.lift (ix2 b s) k = ix3 b s k := by
  funext c
  match c with
  | ⟨0, _⟩ => exact Fin.ext rfl
  | ⟨1, _⟩ => exact Fin.ext rfl
  | ⟨2, _⟩ => exact Fin.ext rfl

/-- THE STAGE AT (b, s): the unlabelled weight of the hit position of span s in row b. -/
theorem hitWeightT_ideal (H st en : IVec S256x8 32)
    (hRH : ∀ j, 0 ≤ (H j).toInt ∧ (H j).toInt < 8192)
    (hRs : ∀ j, 0 ≤ (st j).toInt ∧ (st j).toInt < 8192) (hRe : ∀ j, 0 ≤ (en j).toInt ∧ (en j).toInt < 8192)
    (b : Fin 256) (s : Fin 8) :
    hitWeightT (F := Ideal) H st en (ix2 b s)
      = ((SpanLoss.negw (SpanLoss.sp st) (SpanLoss.sp en) b ((H (ix2 b s)).toInt) : ℝ) : EReal) := by
  have hred : (S256x8x8).Reduces [2] S256x8 := by decide
  have hmax : Host.reduce (FloatOps.maximumf (F := Ideal) (φ := .f32)) (hwScores (F := Ideal) H st en)
        (constant (F := Ideal) S_ .f32 0xFF800000#32) reducesTo_S256x8x8_S256x8_d2 h_S_ (ix2 b s)
      = ((SpanLoss.maxIou (SpanLoss.sp st) (SpanLoss.sp en) b ((H (ix2 b s)).toInt) : ℝ) : EReal) := by
    rw [Host.reduce_eq_fold_single (FloatOps.maximumf (F := Ideal) (φ := .f32)) _ _ reducesTo_S256x8x8_S256x8_d2 hred h_S_ (ix2 b s),
      constant_apply, IdealReal.ofBits_neg_inf]
    exact IdealReal.fold_maximumf_bot_eq Finset.univ Finset.univ_nonempty _
      (fun k => SpanLoss.iou (SpanLoss.sp st) (SpanLoss.sp en) b ((H (ix2 b s)).toInt) k) (fun k _ => by
        show hwScores (F := Ideal) H st en (hred.lift (ix2 b s) k) = _
        rw [lift_eq, hwScores_apply, hostScore_eq _ _ _ (hRs _) (hRe _)]
        rfl)
  exact hwFinish_apply _ _ _ hmax

/-! ## The statement for the program's stage -/

/-- The program's stage is the three parts composed. -/
theorem hitWeight_eq {F : FTy → Type} [FloatOps F] (H st en : IVec S256x8 32) :
    hitWeight (F := F) H st en = hitWeightT (F := F) H st en := rfl

/-- THE STAGE'S VALUE: at (b, s), the unlabelled weight of the position H[b, s] against the spans of row b. -/
theorem hitWeight_ideal (H st en : IVec S256x8 32)
    (hRH : ∀ j, 0 ≤ (H j).toInt ∧ (H j).toInt < 8192)
    (hRs : ∀ j, 0 ≤ (st j).toInt ∧ (st j).toInt < 8192) (hRe : ∀ j, 0 ≤ (en j).toInt ∧ (en j).toInt < 8192)
    (b : Fin 256) (s : Fin 8) :
    hitWeight (F := Ideal) H st en (ix2 b s)
      = ((SpanLoss.negw (SpanLoss.sp st) (SpanLoss.sp en) b ((H (ix2 b s)).toInt) : ℝ) : EReal) := by
  rw [hitWeight_eq]
  exact hitWeightT_ideal H st en hRH hRs hRe b s

end Cert.KernelIdeal.Hand

end
-- ==== Proof.LibGatherAlong.lean ====
/-
  THE BATCHED TAKE ALONG AN AXIS, READ AT AN INDEX.

  Picking, in every row of a table `x : [R, N]`, the entries at the columns an integer array `idx : [R, C]` names
  (`take_along_axis(x, idx, axis = 1)`) is a gather whose rows are BATCHED: row `b` of the result reads row `b` of
  the operand and row `b` of the indices. Its dimension numbers, over the indices as `[R, C, 1]`: no offset axes;
  operand axis 1 collapsed and addressed by the start index (start index map `[1]`); operand axis 0 a batching axis
  paired with indices axis 0; the index vector on indices axis 2; slices of one element (`[1, 1]`).

  Result element `(b, s)` is the operand at row `b` and at the column `idx[b, s, 0]`, that word read as a SIGNED
  integer and CLAMPED into `[0, N − 1]`: a negative word reads column 0 (the signed value's natural-number part is 0),
  a word at or past `N` reads the last column `N − 1`. In range, `0 ≤ z < N`, the column is `z` itself
  (`gather_along_inrange`).
-/
import Idealize.ShloMosaic.PureOps.ShapeOps
import Idealize.ShloMosaic.Lib.ValueIdx

noncomputable section

namespace Idealize.ShloMosaic.Host

open Idealize.ShloMosaic Idealize.ShloMosaic.ValueIdx

variable {α : Type}

/-- The dimension numbers of the batched take along axis 1, for an operand `[R, N]`, start indices `[R, C, 1]` and a
    result `[R, C]`; their conditions `wf` are decided on a program's literal shapes. -/
abbrev alongDims (R N C : Nat)
    (wf : GatherDims.WF ⟨2, ![R, N]⟩ ⟨3, ![R, C, 1]⟩ ⟨2, ![R, C]⟩ [] [1] [0] [1] [0] 2 ![1, 1]) :
    GatherDims ⟨2, ![R, N]⟩ ⟨3, ![R, C, 1]⟩ ⟨2, ![R, C]⟩ where
  offsetDims := []
  collapsedSliceDims := [1]
  operandBatchingDims := [0]
  startIndicesBatchingDims := [0]
  startIndexMap := [1]
  indexVectorDim := 2
  sliceSizes := ![1, 1]
  wf := wf

/-- THE GATHER READ AT `(b, s)`: row `b` of the operand, at the column `idx[b, s, 0]` read signed and clamped into
    `[0, N − 1]` (a negative word gives column 0, a word at or past `N` gives column `N − 1`). -/
theorem gather_along_apply {R N C w : Nat} (hN : 0 < N)
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C) :
    Host.gather (alongDims R N C wf) x idx (ix2 b s)
      = x (ix2 b ⟨min (idx (ix3 b s (0 : Fin 1))).toInt.toNat (N - 1), by omega⟩) := by
  unfold Host.gather
  congr 1
  funext a
  refine Fin.ext ?_
  match a with
  | ⟨0, _⟩ =>
    -- the batching axis: no start, no offset; the row is the result's own row
    show (alongDims R N C wf).start (ix2 b s) idx 0 + (alongDims R N C wf).batchCoord (ix2 b s) 0
        + (alongDims R N C wf).offCoord (ix2 b s) 0 = b.val
    have hb : (0 : Fin 2) ∈ (alongDims R N C wf).operandBatchingDims := List.mem_singleton.mpr rfl
    rw [GatherDims.start_batching _ _ _ _ hb,
      GatherDims.offCoord_eq_zero _ _ _ (fun h => ((GatherDims.mem_sKept _ _).mp h).2 hb)]
    simp only [Nat.add_zero, Nat.zero_add]
    unfold GatherDims.batchCoord
    rw [dif_pos hb]
    rfl
  | ⟨1, _⟩ =>
    -- the collapsed axis: the clamped start index alone
    show (alongDims R N C wf).start (ix2 b s) idx 1 + (alongDims R N C wf).batchCoord (ix2 b s) 1
        + (alongDims R N C wf).offCoord (ix2 b s) 1 = min (idx (ix3 b s (0 : Fin 1))).toInt.toNat (N - 1)
    have hc : (1 : Fin 2) ∈ (alongDims R N C wf).collapsedSliceDims := List.mem_singleton.mpr rfl
    have hnb : (1 : Fin 2) ∉ (alongDims R N C wf).operandBatchingDims := fun h =>
      Nat.one_ne_zero (congrArg Fin.val (List.mem_singleton.mp h))
    have hm : (1 : Fin 2) ∈ (alongDims R N C wf).startIndexMap := List.mem_singleton.mpr rfl
    rw [GatherDims.batchCoord_eq_zero _ _ _ hnb,
      GatherDims.offCoord_eq_zero _ _ _ (fun h => ((GatherDims.mem_sKept _ _).mp h).1 hc)]
    simp only [Nat.add_zero]
    unfold GatherDims.start
    rw [dif_pos hm]
    have hsi : (alongDims R N C wf).siIdx (ix2 b s) ⟨List.idxOf (1 : Fin 2) (alongDims R N C wf).startIndexMap,
        List.idxOf_lt_length_iff.2 hm⟩ = ix3 b s (0 : Fin 1) := by
      funext c; refine Fin.ext ?_
      match c with
      | ⟨0, _⟩ => rfl
      | ⟨1, _⟩ => rfl
      | ⟨2, _⟩ => rfl
    rw [hsi]
    rfl

/-- The same for ANY dimension-number record of these shapes whose fields are the batched take's lists (a program's
    printed record is one: each hypothesis by `rfl`). -/
theorem gather_along_apply_of {R N C w : Nat} (hN : 0 < N)
    (d : GatherDims ⟨2, ![R, N]⟩ ⟨3, ![R, C, 1]⟩ ⟨2, ![R, C]⟩)
    (hod : d.offsetDims = []) (hcoll : d.collapsedSliceDims = [1]) (hob : d.operandBatchingDims = [0])
    (hsb : d.startIndicesBatchingDims = [0]) (hsim : d.startIndexMap = [1]) (hivd : d.indexVectorDim = 2)
    (hss : d.sliceSizes = ![1, 1])
    (x : (⟨2, ![R, N]⟩ : Shape).Idx → α) (idx : IVec ⟨3, ![R, C, 1]⟩ w) (b : Fin R) (s : Fin C) :
    Host.gather d x idx (ix2 b s)
      = x (ix2 b ⟨min (idx (ix3 b s (0 : Fin 1))).toInt.toNat (N - 1), by omega⟩) := by
  obtain ⟨od, cd, ob, sb, sm, iv, ss, wf⟩ := d
  simp only at hod hcoll hob hsb hsim hivd hss
  subst hod hcoll hob hsb hsim hivd hss
  exact gather_along_apply hN wf x idx b s

/-- IN RANGE the clamp is the identity: a start word whose signed value `z` has `0 ≤ z < N` reads column `z`. -/
theorem gather_along_inrange {R N C w : Nat}
    (wf : GatherDims.WF ⟨2, ![R, N]⟩ ⟨3, ![R, C, 1]⟩ ⟨2, ![R, C]⟩ [] [1] [0] [1] [0] 2 ![1, 1])
    (x : (⟨2, ![R, N]⟩ : Shape).Idx → α) (idx : IVec ⟨3, ![R, C, 1]⟩ w) (b : Fin R) (s : Fin C)
    (h0 : 0 ≤ (idx (ix3 b s (0 : Fin 1))).toInt) (hlt : (idx (ix3 b s (0 : Fin 1))).toInt < N) :
    Host.gather (alongDims R N C wf) x idx (ix2 b s)
      = x (ix2 b ⟨(idx (ix3 b s (0 : Fin 1))).toInt.toNat, by omega⟩) := by
  have hN : 0 < N := by omega
  rw [gather_along_apply hN wf x idx b s]
  congr 2
  refine Fin.ext ?_
  show min (idx (ix3 b s (0 : Fin 1))).toInt.toNat (N - 1) = (idx (ix3 b s (0 : Fin 1))).toInt.toNat
  omega

end Idealize.ShloMosaic.Host

end
-- ==== Proof.KICorrLogit.lean ====
/-
  The logit read at each hit position, at the ideal values: under the range condition on the positions the wrap of a
  negative position does nothing, the in-range mask is set, the clamp of the read is the identity, and the entry read
  is the logit at the position's column.
-/
import proofs.«423081_j13864154431993_3_alg».proof.Proof.KICorr
import proofs.«423081_j13864154431993_3_alg».proof.Proof.LibGatherAlong
import proofs.«423081_j13864154431993_3_alg».proof.Proof.Good
import Idealize.ShloMosaic.Lib.Pipeline.Value
import Idealize.ShloMosaic.Lib.Affine
import Idealize.ShloMosaic.PureOps.Reduce

noncomputable section

namespace Cert.KernelIdeal.Hand

open Idealize.ShloMosaic Idealize.ShloMosaic.ValueIdx Cert.KernelIdeal Cert.KernelIdeal.Gen

/-- The column words the read takes, as a `[256, 8, 1]` array: each position, `8192` added when it is negative. -/
def takeIdx (H : IVec S256x8 32) : IVec S256x8x1 32 :=
  shapeCast S256x8x1
    (select (cmpi .slt H (broadcastInDim S256x8 ![] bcast_S_S256x8 (constantI S_ 32 0#32)))
      (addi H (broadcastInDim S256x8 ![] bcast_S_S256x8 (constantI S_ 32 8192#32))) H)
    shapeCasts_S256x8_S256x8x1

/-- The in-range mask of the read: the column word lies in `[0, 8191]`. -/
def takeMask (H : IVec S256x8 32) : IVec S256x8 1 :=
  Host.reduce IntOp.andi
    (andi (cmpi .sge (takeIdx H) (broadcastInDim S256x8x1 ![] bcast_S_S256x8x1 (constantI S_ 32 0#32)))
      (cmpi .sle (takeIdx H)
        (broadcastInDim S256x8x1 ![0, 1, 2] bcast_S1x1x1_S256x8x1_0_1_2
          (broadcastInDim S1x1x1 ![2] bcast_S1_S1x1x1_2 (constantI S1 32 8191#32)))))
    (constantI S_ 1 1#1) reducesTo_S256x8x1_S256x8_d2 h_S_

/-- The stage as a selection between the gathered entry and the not-a-number pattern. -/
theorem hitLogit_eq {F : FTy → Type} [FloatOps F] (L : FVec F S256x8192 .f32) (H : IVec S256x8 32) :
    hitLogit L H = select (takeMask H) (Host.gather gather_S256x8192_S256x8x1_S256x8_n_1_0_0_1_2_11 L (takeIdx H))
      (broadcastInDim S256x8 ![] bcast_S_S256x8 (constant S_ .f32 0x7FC00000#32)) := rfl

/-- A position that is not negative is its own column word. -/
theorem takeIdx_apply (H : IVec S256x8 32) (b : Fin 256) (s : Fin 8) (h0 : 0 ≤ (H (ix2 b s)).toInt) :
    takeIdx H (ix3 b s (0 : Fin 1)) = H (ix2 b s) := by
  unfold takeIdx
  rw [shapeCast_apply _ _ (ix3 b s (0 : Fin 1)) (ix2 b s)
    (by rw [Shape.rowMajor_val_two, Shape.rowMajor_val_three]; simp)]
  show Scalar.select (IntOp.cmpi .slt (H (ix2 b s)) 0#32) _ (H (ix2 b s)) = H (ix2 b s)
  have hc : ¬ IntOp.cmpi .slt (H (ix2 b s)) 0#32 = 1#1 := by
    rw [IntOp.cmpi_slt]; simp only [BitVec.toInt_zero]; omega
  exact if_neg hc

/-- The and-fold from one of words that are all one is one. -/
theorem foldl_andi_one {ι : Type} (f : ι → BitVec 1) (l : List ι) (hf : ∀ i ∈ l, f i = 1#1) :
    l.foldl (fun r i => IntOp.andi r (f i)) 1#1 = 1#1 := by
  induction l with
  | nil => rfl
  | cons a l ih =>
    rw [List.foldl_cons, hf a (List.mem_cons_self ..)]
    have e : IntOp.andi (1#1 : BitVec 1) 1#1 = 1#1 := by decide
    rw [e]
    exact ih (fun i hi => hf i (List.mem_cons_of_mem _ hi))

/-- With every position in `[0, 8192)` the in-range mask is set everywhere. -/
theorem takeMask_apply (H : IVec S256x8 32) (hH : ∀ j, 0 ≤ (H j).toInt ∧ (H j).toInt < 8192) (j : S256x8.Idx) :
    takeMask H j = 1#1 := by
  unfold takeMask
  rw [Host.reduce_eq_foldl]
  refine foldl_andi_one _ _ (fun i _ => ?_)
  obtain ⟨b, s, rfl⟩ : ∃ (b : Fin 256) (s : Fin 8), i = ix3 b s (0 : Fin 1) :=
    ⟨i 0, i 1, (eq_ix3 i).trans (congrArg (ix3 (i 0) (i 1)) (Fin.eq_zero (i 2)))⟩
  show IntOp.andi (IntOp.cmpi .sge (takeIdx H (ix3 b s (0 : Fin 1))) 0#32)
    (IntOp.cmpi .sle (takeIdx H (ix3 b s (0 : Fin 1))) 8191#32) = 1#1
  rw [takeIdx_apply H b s (hH _).1]
  have h1 : IntOp.cmpi .sge (H (ix2 b s)) 0#32 = 1#1 :=
    IntOp.cmpi_sge.mpr (by simp only [BitVec.toInt_zero]; exact (hH _).1)
  have h2 : IntOp.cmpi .sle (H (ix2 b s)) 8191#32 = 1#1 :=
    IntOp.cmpi_sle.mpr (by
      have e : (8191#32 : BitVec 32).toInt = 8191 := by decide
      have := (hH (ix2 b s)).2
      omega)
  rw [h1, h2]
  decide

/-- THE STAGE'S VALUE: the logit of row `b` at the column of the hit position of span `s`. -/
theorem hitLogit_ideal (L : FVec Ideal S256x8192 .f32) (H : IVec S256x8 32)
    (hL : ∀ j, L j = ((EReal.toReal (L j) : ℝ) : EReal))
    (hH : ∀ j, 0 ≤ (H j).toInt ∧ (H j).toInt < 8192) (b : Fin 256) (s : Fin 8) :
    hitLogit (F := Ideal) L H (ix2 b s)
      = ((SpanLoss.lg L b (SpanLoss.col ((H (ix2 b s)).toInt)) : ℝ) : EReal) := by
  rw [hitLogit_eq]
  show Scalar.select (takeMask H (ix2 b s))
    (Host.gather gather_S256x8192_S256x8x1_S256x8_n_1_0_0_1_2_11 L (takeIdx H) (ix2 b s)) _ = _
  rw [takeMask_apply H hH, select_one,
    Host.gather_along_apply_of (R := 256) (N := 8192) (C := 8) (by norm_num) _ rfl rfl rfl rfl rfl rfl rfl L (takeIdx H) b s]
  have hcol : (⟨min (takeIdx H (ix3 b s (0 : Fin 1))).toInt.toNat (8192 - 1), by omega⟩ : Fin 8192)
      = SpanLoss.col ((H (ix2 b s)).toInt) := by
    apply Fin.ext
    show min (takeIdx H (ix3 b s (0 : Fin 1))).toInt.toNat (8192 - 1) = (H (ix2 b s)).toInt.toNat % 8192
    rw [takeIdx_apply H b s (hH _).1]
    have := hH (ix2 b s)
    omega
  rw [hcol]
  exact hL _

end Cert.KernelIdeal.Hand

end
-- ==== Proof.KICorrDelta.lean ====
/-
  Two stages of the host-side correction at the exact real values: the per-hit correction term, and the total.

  The per-hit term is built from maxima, products, differences and sums and from log(1 + exp(−|x|)); at a real logit
  x and a real weight w each of these is the real operation, so the term is 3/4 · bce(x, 1) − w · bce(x, 0).
  The total selects zero at the flagged entries, keeps the others, and sums everything from zero: the double sum over
  rows and spans of the unflagged terms.
-/
import proofs.«423081_j13864154431993_3_alg».proof.Proof.KICorr
import proofs.«423081_j13864154431993_3_alg».proof.Proof.LibIdealReal
import proofs.«423081_j13864154431993_3_alg».proof.Proof.Spec
import Idealize.ShloMosaic.Lib.ValueIdx
import Idealize.ShloMosaic.PureOps.Ideal.Laws

noncomputable section

namespace Cert.KernelIdeal.Hand

open Idealize.ShloMosaic Cert.KernelIdeal Cert.KernelIdeal.Gen

open Idealize.ShloMosaic.ValueIdx Idealize.ShloMosaic.IdealReal

/-- At real operands the per-hit term is the real expression: with x the real logit and w the real weight,
    3/4 · bce(x, 1) − w · bce(x, 0). Every operation of the stretch acts on reals and stays real: maxima, products,
    differences and sums of reals, and the smooth part log(1 + exp(−|x|)), whose logarithm has a positive argument. -/
theorem delta_ideal (x w : FVec Ideal S256x8 .f32) (j : S256x8.Idx) (xr wr : ℝ)
    (hx : x j = ((xr : ℝ) : EReal)) (hw : w j = ((wr : ℝ) : EReal)) :
    delta (F := Ideal) x w j
      = (((3 / 4 : ℝ) * SpanLoss.bce xr 1 - wr * SpanLoss.bce xr 0 : ℝ) : EReal) := by
  have hsoft : Host.log1p (Host.exp (Host.negf (Host.absf x))) j
      = ((Real.log (1 + Real.exp (-|xr|)) : ℝ) : EReal) :=
    host_log1p_exp_neg_abs_apply x j xr hx
  unfold delta
  show FloatOps.subf (F := Ideal) (φ := .f32)
      (FloatOps.mulf (FloatOps.ofBits .f32 0x3F400000#32)
        (FloatOps.addf
          (FloatOps.subf (FloatOps.maximumf (x j) (FloatOps.ofBits .f32 0x00000000#32))
            (FloatOps.mulf (x j) (FloatOps.ofBits .f32 0x3F800000#32)))
          (Host.log1p (Host.exp (Host.negf (Host.absf x))) j)))
      (FloatOps.mulf (w j)
        (FloatOps.addf
          (FloatOps.subf (FloatOps.maximumf (x j) (FloatOps.ofBits .f32 0x00000000#32))
            (FloatOps.mulf (x j) (FloatOps.ofBits .f32 0x00000000#32)))
          (Host.log1p (Host.exp (Host.negf (Host.absf x))) j))) = _
  rw [hsoft, hx, hw]
  simp only [Ideal.ofBits_def, ofBits_zero_coe, ofBits_one, ofBits_three_quarters, maximumf_coe, mulf_coe, subf_coe,
    addf_coe]
  rfl

/-- The correction total at real terms: the flagged entries contribute nothing, so the total is the double sum over
    rows and spans of the unflagged terms. The host sum over both axes from zero is the plain sum of all entries. -/
theorem corrOf_ideal (flag : IVec S256x8 1) (d : FVec Ideal S256x8 .f32) (f : Fin 256 → Fin 8 → ℝ)
    (hd : ∀ b s, d (ix2 b s) = ((f b s : ℝ) : EReal)) :
    corrOf (F := Ideal) flag d
      = fun _ => ((∑ b : Fin 256, ∑ s : Fin 8, (if flag (ix2 b s) = 1#1 then 0 else f b s) : ℝ) : EReal) := by
  funext j
  have hterm : ∀ (b : Fin 256) (s : Fin 8),
      select flag (broadcastInDim S256x8 ![] bcast_S_S256x8 (id (constant (F := Ideal) S_ .f32 0x00000000#32))) d
          (ix2 b s)
        = (((if flag (ix2 b s) = 1#1 then 0 else f b s : ℝ)) : EReal) := by
    intro b s
    show (if flag (ix2 b s) = 1#1 then Ideal.ofBits .f32 0x00000000#32 else d (ix2 b s)) = _
    by_cases h : flag (ix2 b s) = 1#1
    · rw [if_pos h, if_pos h, ofBits_zero_coe]
    · rw [if_neg h, if_neg h, hd]
  unfold corrOf
  show Ideal.hostReduceAdd reducesTo_S256x8_S_d0_1
      (select flag (broadcastInDim S256x8 ![] bcast_S_S256x8 (id (constant (F := Ideal) S_ .f32 0x00000000#32))) d)
      (Ideal.ofBits .f32 0x00000000#32) j = _
  rw [Ideal.hostReduceAdd_total _ (fun b => b.elim0), ofBits_zero, zero_add, sum_idx2,
    Finset.sum_congr rfl (fun b _ => Finset.sum_congr rfl (fun s _ => hterm b s)),
    Finset.sum_congr rfl (fun b _ => coe_sum (fun s => if flag (ix2 b s) = 1#1 then 0 else f b s))]
  exact coe_sum (fun b => ∑ s : Fin 8, if flag (ix2 b s) = 1#1 then 0 else f b s)

end Cert.KernelIdeal.Hand

end
-- ==== Proof.KICorrLemmas.lean ====
/-
  TWO REDUCTIONS OF THE CORRECTION TERM, EACH READ AT ONE ENTRY.

  Fix a row `b` and one of its eight spans `s`, and let `h` be the position that span labels.

  THE DUPLICATE FLAG. Over the eight spans `s'` of the row, take the "or" of the bits
  "position of `s` = position of `s'`, and `s' < s`" (the order of the span numbers tested on their 32-bit words,
  which for numbers below 8 is the order of the numbers). An "or" of bits is 1 exactly when one of them is 1, and
  two words are equal exactly when their signed values are: so the flag is 1 exactly when an EARLIER span of the row
  labels the same position — the span repeats a position already counted.

  THE WEIGHT AT A LABELLED POSITION. Over the eight spans `s'` of the row, take the maximum, starting from −∞, of
  "`1 / (en − st + 1)` if `st ≤ h ≤ en` and `st ≤ en`, else `0`", where `st`, `en` are the ends of `s'`. With both
  ends in `[0, 8192)` the word `en − st + 1` reads signed as that integer (nothing wraps); when the three
  comparisons hold it is at least 1, so the quotient is the real quotient; when they fail the entry is the literal 0.
  Entry by entry this is the overlap score of `h` with `s'`, and the maximum of eight real numbers from −∞ is their
  largest: the largest overlap score of `h` over the row's spans.
-/
import Mathlib.Data.Finset.Fold
import Idealize.ShloMosaic.PureOps
import Idealize.ShloMosaic.PureOps.Reduce
import Idealize.ShloMosaic.PureOps.Ideal
import Idealize.ShloMosaic.PureOps.Ideal.Laws
import Idealize.ShloMosaic.Lib.Affine
import Idealize.ShloMosaic.Lib.ValueIdx
import proofs.«423081_j13864154431993_3_alg».proof.Proof.Good
import proofs.«423081_j13864154431993_3_alg».proof.Proof.LibIdealReal

noncomputable section

namespace SpanLoss.CorrLemmas

open Idealize.ShloMosaic Idealize.ShloMosaic.ValueIdx

/-! ## Bits and small words -/

/-- A one-bit word is 0 exactly when it is not 1. -/
theorem bit_eq_zero_iff (c : BitVec 1) : c = 0#1 ↔ ¬ c = 1#1 := by
  rcases BitVec.eq_zero_or_eq_one c with h | h <;> subst h <;> decide

/-- An "or" of bits over a finite set, from 0, is 1 exactly when one of the bits is 1. -/
theorem fold_ori_eq_one {ι : Type} (S : Finset ι) (g : ι → BitVec 1) :
    S.fold IntOp.ori 0#1 g = 1#1 ↔ ∃ k ∈ S, g k = 1#1 := by
  induction S using Finset.cons_induction with
  | empty => simp
  | cons a S ha ih =>
    rw [Finset.fold_cons, IntOp.ori_eq_one, ih]
    simp [Finset.mem_cons]

/-- The word of a natural number below 8192 reads signed as that number. -/
theorem toInt_ofNat_small (n : ℕ) (hn : n < 8192) : (BitVec.ofNat 32 n).toInt = (n : ℤ) := by
  have hN : (BitVec.ofNat 32 n).toNat = n := by rw [BitVec.toNat_ofNat]; omega
  rw [BitVec.toInt_eq_toNat_cond, hN]
  split <;> omega

/-- A word whose signed value lies in `[0, 8192)` reads the same unsigned. -/
theorem toNat_of_range (x : BitVec 32) (h0 : 0 ≤ x.toInt) (h1 : x.toInt < 8192) :
    (x.toNat : ℤ) = x.toInt ∧ x.toNat < 8192 := by
  have hx := x.isLt
  rw [BitVec.toInt_eq_toNat_cond] at h0 h1 ⊢
  split at h0 <;> omega

/-- For two words in `[0, 8192)` the word `en − st + 1` reads signed as that integer: nothing wraps. -/
theorem len_toInt (st en : BitVec 32) (hs0 : 0 ≤ st.toInt) (hs1 : st.toInt < 8192) (he0 : 0 ≤ en.toInt)
    (he1 : en.toInt < 8192) : (IntOp.addi (IntOp.subi en st) 1#32).toInt = en.toInt - st.toInt + 1 := by
  obtain ⟨hs, hs'⟩ := toNat_of_range st hs0 hs1
  obtain ⟨he, he'⟩ := toNat_of_range en he0 he1
  show (en - st + 1#32).toInt = _
  rw [BitVec.toInt_eq_toNat_cond, BitVec.toNat_add, BitVec.toNat_sub]
  simp only [BitVec.toNat_ofNat, Nat.reducePow, Nat.reduceMod]
  split <;> omega

/-! ## (1) The duplicate flag -/

/-- One bit of the flag: "the two position words are equal and span `s'` comes before span `s`". -/
theorem dup_entry_eq_one (a a' : BitVec 32) (s s' : Fin 8) :
    IntOp.andi (IntOp.cmpi .eq a a') (IntOp.cmpi .sgt (BitVec.ofNat 32 s.val) (BitVec.ofNat 32 s'.val)) = 1#1
      ↔ s' < s ∧ a'.toInt = a.toInt := by
  have hs := s.isLt
  have hs' := s'.isLt
  rw [IntOp.andi_eq_one, IntOp.cmpi_eq, IntOp.cmpi_sgt, toInt_ofNat_small s'.val (by omega),
    toInt_ofNat_small s.val (by omega)]
  constructor
  · rintro ⟨rfl, hlt⟩
    exact ⟨Fin.lt_def.mpr (by omega), rfl⟩
  · rintro ⟨hlt, e⟩
    have hlt' := Fin.lt_def.mp hlt
    exact ⟨(BitVec.toInt_inj.mp e).symm, by omega⟩

/-- THE FLAG IS 1 exactly when span `s` of row `b` repeats the position of an earlier span of the row. -/
theorem dup_flag_eq_one (hit : IVec ⟨2, ![256, 8]⟩ 32) (b : Fin 256) (s : Fin 8) :
    (Finset.univ : Finset (Fin 8)).fold IntOp.ori 0#1
        (fun s' => IntOp.andi (IntOp.cmpi .eq (hit (ix2 b s)) (hit (ix2 b s')))
          (IntOp.cmpi .sgt (BitVec.ofNat 32 s.val) (BitVec.ofNat 32 s'.val))) = 1#1
      ↔ Dup (sp hit) b s := by
  rw [fold_ori_eq_one]
  show _ ↔ ∃ s' : Fin 8, s' < s ∧ (hit (ix2 b s')).toInt = (hit (ix2 b s)).toInt
  constructor
  · rintro ⟨s', -, h⟩
    exact ⟨s', (dup_entry_eq_one _ _ s s').mp h⟩
  · rintro ⟨s', h⟩
    exact ⟨s', Finset.mem_univ _, (dup_entry_eq_one _ _ s s').mpr h⟩

/-- The flag is 0 exactly when it does not. -/
theorem dup_flag_eq_zero (hit : IVec ⟨2, ![256, 8]⟩ 32) (b : Fin 256) (s : Fin 8) :
    (Finset.univ : Finset (Fin 8)).fold IntOp.ori 0#1
        (fun s' => IntOp.andi (IntOp.cmpi .eq (hit (ix2 b s)) (hit (ix2 b s')))
          (IntOp.cmpi .sgt (BitVec.ofNat 32 s.val) (BitVec.ofNat 32 s'.val))) = 0#1
      ↔ ¬ Dup (sp hit) b s := by
  rw [bit_eq_zero_iff, dup_flag_eq_one]

open Classical in
/-- A selection on the flag is the choice by "span `s` repeats an earlier position". -/
theorem select_dup_flag {α : Type} (hit : IVec ⟨2, ![256, 8]⟩ 32) (b : Fin 256) (s : Fin 8) (x y : α) :
    Scalar.select ((Finset.univ : Finset (Fin 8)).fold IntOp.ori 0#1
        (fun s' => IntOp.andi (IntOp.cmpi .eq (hit (ix2 b s)) (hit (ix2 b s')))
          (IntOp.cmpi .sgt (BitVec.ofNat 32 s.val) (BitVec.ofNat 32 s'.val)))) x y
      = if Dup (sp hit) b s then x else y := by
  by_cases h : Dup (sp hit) b s
  · rw [(dup_flag_eq_one hit b s).mpr h, select_one, if_pos h]
  · rw [(dup_flag_eq_zero hit b s).mpr h, select_zero, if_neg h]

/-! ## (2) The weight at a labelled position -/

/-- The three-way test "`st ≤ h`, `h ≤ en`, `st ≤ en`" on words is the same test on their signed values. -/
theorem cond_eq_one (st en h : BitVec 32) :
    IntOp.andi (IntOp.andi (IntOp.cmpi .sle st h) (IntOp.cmpi .sle h en)) (IntOp.cmpi .sle st en) = 1#1
      ↔ st.toInt ≤ h.toInt ∧ h.toInt ≤ en.toInt ∧ st.toInt ≤ en.toInt := by
  rw [IntOp.andi_eq_one, IntOp.andi_eq_one, IntOp.cmpi_sle, IntOp.cmpi_sle, IntOp.cmpi_sle, and_assoc]

/-- ONE ENTRY, on words: with both ends in `[0, 8192)`, the selected value is the reciprocal length when the
    three-way test holds and zero otherwise (`one`, `zero`: the two float constants, whatever their spelling). -/
theorem weight_entry (st en h : BitVec 32) (hs0 : 0 ≤ st.toInt) (hs1 : st.toInt < 8192) (he0 : 0 ≤ en.toInt)
    (he1 : en.toInt < 8192) (one zero : EReal) (h1 : one = ((1 : ℝ) : EReal)) (h0 : zero = ((0 : ℝ) : EReal)) :
    Scalar.select
        (IntOp.andi (IntOp.andi (IntOp.cmpi .sle st h) (IntOp.cmpi .sle h en)) (IntOp.cmpi .sle st en))
        (FloatOps.hostDivf (F := Ideal) (φ := .f32) one
          (FloatOps.sitofp (F := Ideal) .f32 (IntOp.addi (IntOp.subi en st) 1#32)))
        zero
      = (((if st.toInt ≤ h.toInt ∧ h.toInt ≤ en.toInt ∧ st.toInt ≤ en.toInt
            then 1 / (((en.toInt - st.toInt + 1 : ℤ)) : ℝ) else 0 : ℝ)) : EReal) := by
  subst h1 h0
  by_cases hc : st.toInt ≤ h.toInt ∧ h.toInt ≤ en.toInt ∧ st.toInt ≤ en.toInt
  · have hb : (((en.toInt - st.toInt + 1 : ℤ)) : ℝ) ≠ 0 := by
      have hz : (en.toInt - st.toInt + 1 : ℤ) ≠ 0 := by omega
      exact_mod_cast hz
    rw [(cond_eq_one st en h).mpr hc, select_one, if_pos hc, IdealReal.sitofp_eq,
      len_toInt st en hs0 hs1 he0 he1, IdealReal.hostDivf_coe 1 hb]
  · have hz : IntOp.andi (IntOp.andi (IntOp.cmpi .sle st h) (IntOp.cmpi .sle h en)) (IntOp.cmpi .sle st en) = 0#1 :=
      (bit_eq_zero_iff _).mpr (fun e => hc ((cond_eq_one st en h).mp e))
    rw [hz, select_zero, if_neg hc]

/-- ONE ENTRY, on the arrays: for row `b`, span `s'` and a position word `h`, the selected value is the overlap score of
    `h` with `s'`. -/
theorem weight_entry_iou (st en : IVec ⟨2, ![256, 8]⟩ 32)
    (hst : ∀ b s, 0 ≤ sp st b s ∧ sp st b s < 8192) (hen : ∀ b s, 0 ≤ sp en b s ∧ sp en b s < 8192)
    (b : Fin 256) (h : BitVec 32) (one zero : EReal) (h1 : one = ((1 : ℝ) : EReal)) (h0 : zero = ((0 : ℝ) : EReal))
    (s' : Fin 8) :
    Scalar.select
        (IntOp.andi (IntOp.andi (IntOp.cmpi .sle (st (ix2 b s')) h) (IntOp.cmpi .sle h (en (ix2 b s'))))
          (IntOp.cmpi .sle (st (ix2 b s')) (en (ix2 b s'))))
        (FloatOps.hostDivf (F := Ideal) (φ := .f32) one
          (FloatOps.sitofp (F := Ideal) .f32 (IntOp.addi (IntOp.subi (en (ix2 b s')) (st (ix2 b s'))) 1#32)))
        zero
      = ((iou (sp st) (sp en) b h.toInt s' : ℝ) : EReal) :=
  weight_entry (st (ix2 b s')) (en (ix2 b s')) h (hst b s').1 (hst b s').2 (hen b s').1 (hen b s').2 one zero h1 h0

/-- THE MAXIMUM FROM −∞ over the eight spans of row `b` is the largest overlap score of the position `h`. -/
theorem weight_fold (st en : IVec ⟨2, ![256, 8]⟩ 32)
    (hst : ∀ b s, 0 ≤ sp st b s ∧ sp st b s < 8192) (hen : ∀ b s, 0 ≤ sp en b s ∧ sp en b s < 8192)
    (b : Fin 256) (h : BitVec 32) (one zero : EReal) (h1 : one = ((1 : ℝ) : EReal)) (h0 : zero = ((0 : ℝ) : EReal)) :
    (Finset.univ : Finset (Fin 8)).fold (FloatOps.maximumf (F := Ideal) (φ := .f32)) (⊥ : EReal)
        (fun s' => Scalar.select
          (IntOp.andi (IntOp.andi (IntOp.cmpi .sle (st (ix2 b s')) h) (IntOp.cmpi .sle h (en (ix2 b s'))))
            (IntOp.cmpi .sle (st (ix2 b s')) (en (ix2 b s'))))
          (FloatOps.hostDivf (F := Ideal) (φ := .f32) one
            (FloatOps.sitofp (F := Ideal) .f32 (IntOp.addi (IntOp.subi (en (ix2 b s')) (st (ix2 b s'))) 1#32)))
          zero)
      = ((maxIou (sp st) (sp en) b h.toInt : ℝ) : EReal) :=
  IdealReal.fold_maximumf_bot_eq Finset.univ Finset.univ_nonempty _ (iou (sp st) (sp en) b h.toInt)
    (fun s' _ => weight_entry_iou st en hst hen b h one zero h1 h0 s')

/-- The same with the three constants spelt as their bit patterns: −∞ the start, 1.0 the dividend, +0.0 the
    alternative. -/
theorem weight_fold_bits (st en : IVec ⟨2, ![256, 8]⟩ 32)
    (hst : ∀ b s, 0 ≤ sp st b s ∧ sp st b s < 8192) (hen : ∀ b s, 0 ≤ sp en b s ∧ sp en b s < 8192)
    (b : Fin 256) (h : BitVec 32) :
    (Finset.univ : Finset (Fin 8)).fold (FloatOps.maximumf (F := Ideal) (φ := .f32))
        (FloatOps.ofBits (F := Ideal) .f32 0xFF800000#32)
        (fun s' => Scalar.select
          (IntOp.andi (IntOp.andi (IntOp.cmpi .sle (st (ix2 b s')) h) (IntOp.cmpi .sle h (en (ix2 b s'))))
            (IntOp.cmpi .sle (st (ix2 b s')) (en (ix2 b s'))))
          (FloatOps.hostDivf (F := Ideal) (φ := .f32) (FloatOps.ofBits (F := Ideal) .f32 0x3F800000#32)
            (FloatOps.sitofp (F := Ideal) .f32 (IntOp.addi (IntOp.subi (en (ix2 b s')) (st (ix2 b s'))) 1#32)))
          (FloatOps.ofBits (F := Ideal) .f32 0x00000000#32))
      = ((maxIou (sp st) (sp en) b h.toInt : ℝ) : EReal) := by
  rw [show FloatOps.ofBits (F := Ideal) .f32 0xFF800000#32 = (⊥ : EReal) from IdealReal.ofBits_neg_inf]
  exact weight_fold st en hst hen b h _ _ IdealReal.ofBits_one IdealReal.ofBits_zero_coe

end SpanLoss.CorrLemmas

end
-- ==== Proof.KICorrDup.lean ====
/-
  THE DUPLICATE FLAG, READ AT ONE ENTRY.

  The flag of span `s` of row `b` is computed on a cube indexed `(b, s, s')`: the positions array `H` is laid along the
  second axis (entry `H[b, s]`) and along the third (entry `H[b, s']`) and the two are compared for equality; the
  numbers `0 … 7` are laid the same two ways (entries `s` and `s'`, as 32-bit words) and compared for `s > s'`; the two
  bits are and-ed, and the cube is or-ed along its third axis starting from 0.

  Read at `(b, s)`: the or over `s' : Fin 8` of "`H[b, s] = H[b, s']` and `s' < s`". An or of bits is 1 exactly when
  one of them is; words below 8 order as their numbers; two words are equal exactly when their signed values are.
  So the flag is 1 exactly when an earlier span of the row has the same position.
-/
import Mathlib.Data.Finset.Fold
import Idealize.ShloMosaic.PureOps.Reduce
import Idealize.ShloMosaic.Lib.ValueIdx
import Idealize.ShloMosaic.Lib.Pipeline.Value
import proofs.«423081_j13864154431993_3_alg».proof.Proof.KICorrLemmas
import proofs.«423081_j13864154431993_3_alg».proof.Proof.KICorr

noncomputable section

namespace Cert.KernelIdeal.Hand

open Idealize.ShloMosaic Idealize.ShloMosaic.ValueIdx Cert.KernelIdeal

namespace Dup

/-! ## The cube's entries -/

/-- An array laid along the second axis of the cube reads `x[b, s]` at `(b, s, s')`. -/
theorem along_second {α : Type} (h1 : S256x8.BroadcastsInDim S256x8x1 (![0, 1] : Fin 2 → Fin S256x8x1.rank))
    (h2 : S256x8x1.BroadcastsInDim S256x8x8 (![0, 1, 2] : Fin 3 → Fin S256x8x8.rank))
    (x : S256x8.Idx → α) (b : Fin 256) (s s' : Fin 8) :
    broadcastInDim S256x8x8 ![0, 1, 2] h2 (broadcastInDim S256x8x1 ![0, 1] h1 x) (ix3 b s s') = x (ix2 b s) := by
  refine (broadcastInDim_apply _ h2 _ (ix3 b s s') (ix3 b s (0 : Fin 1)) ?_).trans
    (broadcastInDim_apply _ h1 _ (ix3 b s (0 : Fin 1)) (ix2 b s) ?_)
  · intro a
    match a with
    | ⟨0, _⟩ => rfl
    | ⟨1, _⟩ => rfl
    | ⟨2, _⟩ => rfl
  · intro a
    match a with
    | ⟨0, _⟩ => rfl
    | ⟨1, _⟩ => rfl

/-- An array laid along the third axis of the cube reads `x[b, s']` at `(b, s, s')`. -/
theorem along_third {α : Type} (h1 : S256x8.BroadcastsInDim S256x1x8 (![0, 2] : Fin 2 → Fin S256x1x8.rank))
    (h2 : S256x1x8.BroadcastsInDim S256x8x8 (![0, 1, 2] : Fin 3 → Fin S256x8x8.rank))
    (x : S256x8.Idx → α) (b : Fin 256) (s s' : Fin 8) :
    broadcastInDim S256x8x8 ![0, 1, 2] h2 (broadcastInDim S256x1x8 ![0, 2] h1 x) (ix3 b s s') = x (ix2 b s') := by
  refine (broadcastInDim_apply _ h2 _ (ix3 b s s') (ix3 b (0 : Fin 1) s') ?_).trans
    (broadcastInDim_apply _ h1 _ (ix3 b (0 : Fin 1) s') (ix2 b s') ?_)
  · intro a
    match a with
    | ⟨0, _⟩ => rfl
    | ⟨1, _⟩ => rfl
    | ⟨2, _⟩ => rfl
  · intro a
    match a with
    | ⟨0, _⟩ => rfl
    | ⟨1, _⟩ => rfl

/-- The numbers `0 … 7` laid along the second axis of a one-row cube read the word of `s` at `(0, s, s')`. -/
theorem count_second (h1 : S8.BroadcastsInDim S1x8x1 (![1] : Fin 1 → Fin S1x8x1.rank))
    (h2 : S1x8x1.BroadcastsInDim S1x8x8 (![0, 1, 2] : Fin 3 → Fin S1x8x8.rank)) (s s' : Fin 8) :
    broadcastInDim S1x8x8 ![0, 1, 2] h2 (broadcastInDim S1x8x1 ![1] h1 (iotaInDim S8 32 0)) (ix3 (0 : Fin 1) s s')
      = BitVec.ofNat 32 s.val := by
  refine (broadcastInDim_apply _ h2 _ (ix3 (0 : Fin 1) s s') (ix3 (0 : Fin 1) s (0 : Fin 1)) ?_).trans
    ((broadcastInDim_apply _ h1 _ (ix3 (0 : Fin 1) s (0 : Fin 1)) (ix1 s) ?_).trans rfl)
  · intro a
    match a with
    | ⟨0, _⟩ => rfl
    | ⟨1, _⟩ => rfl
    | ⟨2, _⟩ => rfl
  · intro a
    match a with
    | ⟨0, _⟩ => rfl

/-- Laid along the third axis they read the word of `s'`. -/
theorem count_third (h1 : S8.BroadcastsInDim S1x1x8 (![2] : Fin 1 → Fin S1x1x8.rank))
    (h2 : S1x1x8.BroadcastsInDim S1x8x8 (![0, 1, 2] : Fin 3 → Fin S1x8x8.rank)) (s s' : Fin 8) :
    broadcastInDim S1x8x8 ![0, 1, 2] h2 (broadcastInDim S1x1x8 ![2] h1 (iotaInDim S8 32 0)) (ix3 (0 : Fin 1) s s')
      = BitVec.ofNat 32 s'.val := by
  refine (broadcastInDim_apply _ h2 _ (ix3 (0 : Fin 1) s s') (ix3 (0 : Fin 1) (0 : Fin 1) s') ?_).trans
    ((broadcastInDim_apply _ h1 _ (ix3 (0 : Fin 1) (0 : Fin 1) s') (ix1 s') ?_).trans rfl)
  · intro a
    match a with
    | ⟨0, _⟩ => rfl
    | ⟨1, _⟩ => rfl
    | ⟨2, _⟩ => rfl
  · intro a
    match a with
    | ⟨0, _⟩ => rfl

/-- The order bit of the one-row cube, repeated over the rows, reads "`s > s'`" on the two words at `(b, s, s')`. -/
theorem order_bit (h1 : S8.BroadcastsInDim S1x8x1 (![1] : Fin 1 → Fin S1x8x1.rank))
    (h2 : S1x8x1.BroadcastsInDim S1x8x8 (![0, 1, 2] : Fin 3 → Fin S1x8x8.rank))
    (h1' : S8.BroadcastsInDim S1x1x8 (![2] : Fin 1 → Fin S1x1x8.rank))
    (h2' : S1x1x8.BroadcastsInDim S1x8x8 (![0, 1, 2] : Fin 3 → Fin S1x8x8.rank))
    (h3 : S1x8x8.BroadcastsInDim S256x8x8 (![0, 1, 2] : Fin 3 → Fin S256x8x8.rank))
    (b : Fin 256) (s s' : Fin 8) :
    broadcastInDim S256x8x8 ![0, 1, 2] h3
        (cmpi .sgt (broadcastInDim S1x8x8 ![0, 1, 2] h2 (broadcastInDim S1x8x1 ![1] h1 (iotaInDim S8 32 0)))
          (broadcastInDim S1x8x8 ![0, 1, 2] h2' (broadcastInDim S1x1x8 ![2] h1' (iotaInDim S8 32 0))))
        (ix3 b s s')
      = IntOp.cmpi .sgt (BitVec.ofNat 32 s.val) (BitVec.ofNat 32 s'.val) := by
  refine (broadcastInDim_apply _ h3 _ (ix3 b s s') (ix3 (0 : Fin 1) s s') ?_).trans ?_
  · intro a
    match a with
    | ⟨0, _⟩ => rfl
    | ⟨1, _⟩ => rfl
    | ⟨2, _⟩ => rfl
  · exact congrArg₂ (IntOp.cmpi .sgt) (count_second h1 h2 s s') (count_third h1' h2' s s')

/-- The cube index over `(b, s)` with third coordinate `s'`. -/
theorem lift_eq (hR : S256x8x8.Reduces [2] S256x8) (b : Fin 256) (s s' : Fin 8) :
    hR.lift (ix2 b s) s' = ix3 b s s' := by
  funext c
  refine Fin.ext ?_
  match c with
  | ⟨0, _⟩ => rfl
  | ⟨1, _⟩ => rfl
  | ⟨2, _⟩ => rfl

end Dup

/-! ## The flag -/

/-- THE FLAG AT `(b, s)` is the or, over the eight spans `s'` of the row, of "same position and `s' < s`". -/
theorem dupFlag_apply (H : IVec S256x8 32) (b : Fin 256) (s : Fin 8) :
    dupFlag H (ix2 b s)
      = (Finset.univ : Finset (Fin 8)).fold IntOp.ori 0#1
          (fun s' => IntOp.andi (IntOp.cmpi .eq (H (ix2 b s)) (H (ix2 b s')))
            (IntOp.cmpi .sgt (BitVec.ofNat 32 s.val) (BitVec.ofNat 32 s'.val))) := by
  have hR : S256x8x8.Reduces [2] S256x8 := by decide
  have g1 : S256x8.BroadcastsInDim S256x8x1 (![0, 1] : Fin 2 → Fin S256x8x1.rank) := by decide
  have g2 : S256x8x1.BroadcastsInDim S256x8x8 (![0, 1, 2] : Fin 3 → Fin S256x8x8.rank) := by decide
  have g3 : S256x8.BroadcastsInDim S256x1x8 (![0, 2] : Fin 2 → Fin S256x1x8.rank) := by decide
  have g4 : S256x1x8.BroadcastsInDim S256x8x8 (![0, 1, 2] : Fin 3 → Fin S256x8x8.rank) := by decide
  have c1 : S8.BroadcastsInDim S1x8x1 (![1] : Fin 1 → Fin S1x8x1.rank) := by decide
  have c2 : S1x8x1.BroadcastsInDim S1x8x8 (![0, 1, 2] : Fin 3 → Fin S1x8x8.rank) := by decide
  have c3 : S8.BroadcastsInDim S1x1x8 (![2] : Fin 1 → Fin S1x1x8.rank) := by decide
  have c4 : S1x1x8.BroadcastsInDim S1x8x8 (![0, 1, 2] : Fin 3 → Fin S1x8x8.rank) := by decide
  have c5 : S1x8x8.BroadcastsInDim S256x8x8 (![0, 1, 2] : Fin 3 → Fin S256x8x8.rank) := by decide
  refine (Host.reduce_eq_fold_single IntOp.ori _ _ _ hR _ (ix2 b s)).trans ?_
  refine Finset.fold_congr ?_
  intro (s' : Fin 8) _
  have hl := Dup.lift_eq hR b s s'
  have e1 := Dup.along_second g1 g2 H b s s'
  have e2 := Dup.along_third g3 g4 H b s s'
  have e3 := Dup.order_bit c1 c2 c3 c4 c5 b s s'
  rw [← hl] at e1 e2 e3
  exact congrArg₂ IntOp.andi (congrArg₂ (IntOp.cmpi .eq) e1 e2) e3

/-- THE FLAG IS 1 exactly when span `s` of row `b` repeats the position of an earlier span of the row. -/
theorem dupFlag_iff (H : IVec S256x8 32) (b : Fin 256) (s : Fin 8) :
    dupFlag H (ix2 b s) = 1#1 ↔ SpanLoss.Dup (SpanLoss.sp H) b s := by
  rw [dupFlag_apply]
  exact SpanLoss.CorrLemmas.dup_flag_eq_one H b s

/-- The flag is 0 exactly when it does not. -/
theorem dupFlag_eq_zero_iff (H : IVec S256x8 32) (b : Fin 256) (s : Fin 8) :
    dupFlag H (ix2 b s) = 0#1 ↔ ¬ SpanLoss.Dup (SpanLoss.sp H) b s := by
  rw [dupFlag_apply]
  exact SpanLoss.CorrLemmas.dup_flag_eq_zero H b s

end Cert.KernelIdeal.Hand

end
-- ==== Proof.KICorrValue.lean ====
/-
  The host-side correction at the ideal values: the stages' values put together. The flag array marks the repeated
  hits, the gathered logit and the weight give each hit's correction, and the sum over rows and spans of the unflagged
  corrections is the specification's correction term.
-/
import proofs.«423081_j13864154431993_3_alg».proof.Proof.KICorr
import proofs.«423081_j13864154431993_3_alg».proof.Proof.Good
import proofs.«423081_j13864154431993_3_alg».proof.Proof.KICorrWeight
import proofs.«423081_j13864154431993_3_alg».proof.Proof.KICorrLogit
import proofs.«423081_j13864154431993_3_alg».proof.Proof.KICorrDelta
import proofs.«423081_j13864154431993_3_alg».proof.Proof.KICorrDup

noncomputable section

namespace Cert.KernelIdeal.Hand

open Idealize.ShloMosaic Idealize.ShloMosaic.ValueIdx Cert.KernelIdeal Cert.KernelIdeal.Gen

/-- THE ASSEMBLY, from the five stages' values: whatever logit array `L`, hit positions `H` and spans `[st, en]`, if
    the weight stage reads the unlabelled weight at each hit position, the logit stage the logit there, the per-hit
    stage the difference of the two weighted cross entropies, the flag stage marks exactly the repeated hits and the
    last stage sums the unflagged entries, then the whole is the specification's correction. -/
theorem corrFn_ideal_core (L : FVec Ideal S256x8192 .f32) (H st en : IVec S256x8 32)
    (hW : ∀ (b : Fin 256) (s : Fin 8), hitWeight (F := Ideal) H st en (ix2 b s)
      = ((SpanLoss.negw (SpanLoss.sp st) (SpanLoss.sp en) b ((H (ix2 b s)).toInt) : ℝ) : EReal))
    (hX : ∀ (b : Fin 256) (s : Fin 8), hitLogit (F := Ideal) L H (ix2 b s)
      = ((SpanLoss.lg L b (SpanLoss.col ((H (ix2 b s)).toInt)) : ℝ) : EReal))
    (hD : ∀ (x w : FVec Ideal S256x8 .f32) (j : S256x8.Idx) (xr wr : ℝ), x j = ((xr : ℝ) : EReal) → w j = ((wr : ℝ) : EReal) →
      delta (F := Ideal) x w j = (((3 / 4 : ℝ) * SpanLoss.bce xr 1 - wr * SpanLoss.bce xr 0 : ℝ) : EReal))
    (hF : ∀ (b : Fin 256) (s : Fin 8), dupFlag H (ix2 b s) = 1#1 ↔ SpanLoss.Dup (SpanLoss.sp H) b s)
    (hC : ∀ (flag : IVec S256x8 1) (d : FVec Ideal S256x8 .f32) (f : Fin 256 → Fin 8 → ℝ),
      (∀ (b : Fin 256) (s : Fin 8), d (ix2 b s) = ((f b s : ℝ) : EReal)) →
      corrOf (F := Ideal) flag d
        = fun _ => ((∑ b : Fin 256, ∑ s : Fin 8, (if flag (ix2 b s) = 1#1 then 0 else f b s) : ℝ) : EReal)) :
    corrFn (F := Ideal) L H st en
      = fun _ => ((SpanLoss.corr (SpanLoss.lg L) (SpanLoss.sp H) (SpanLoss.sp st) (SpanLoss.sp en) : ℝ) : EReal) := by
  unfold corrFn
  rw [hC (dupFlag H) (delta (hitLogit L H) (hitWeight H st en))
    (fun b s => (3 / 4 : ℝ) * SpanLoss.bce (SpanLoss.lg L b (SpanLoss.col (SpanLoss.sp H b s))) 1
      - SpanLoss.negw (SpanLoss.sp st) (SpanLoss.sp en) b (SpanLoss.sp H b s)
        * SpanLoss.bce (SpanLoss.lg L b (SpanLoss.col (SpanLoss.sp H b s))) 0)
    (fun b s => hD (hitLogit L H) (hitWeight H st en) (ix2 b s) _ _ (hX b s) (hW b s))]
  funext _
  refine congrArg (fun r : ℝ => (r : EReal)) ?_
  unfold SpanLoss.corr
  refine Finset.sum_congr rfl (fun b _ => Finset.sum_congr rfl (fun s _ => ?_))
  by_cases hd : SpanLoss.Dup (SpanLoss.sp H) b s
  · rw [if_pos ((hF b s).mpr hd), if_pos hd]
  · rw [if_neg (fun h => hd ((hF b s).mp h)), if_neg hd]

/-- THE START HALF: the start logits corrected at the span starts. -/
theorem corrFn_ideal (a0 a1 : FVec Ideal S256x8192 .f32) (a2 a3 : IVec S256x8 32) (hg : SpanLoss.Good a0 a1 a2 a3) :
    corrFn (F := Ideal) a0 a2 a2 a3
      = fun _ => ((SpanLoss.corr (SpanLoss.lg a0) (SpanLoss.sp a2) (SpanLoss.sp a2) (SpanLoss.sp a3) : ℝ) : EReal) :=
  corrFn_ideal_core a0 a2 a2 a3 (fun b s => hitWeight_ideal a2 a2 a3 hg.rng2 hg.rng2 hg.rng3 b s) (fun b s => hitLogit_ideal a0 a2 hg.fin0 hg.rng2 b s)
    (fun x w j xr wr hx hw => delta_ideal x w j xr wr hx hw) (fun b s => dupFlag_iff a2 b s) (fun flag d f hd => corrOf_ideal flag d f hd)

/-- THE END HALF: the end logits corrected at the span ends. -/
theorem corrFn_ideal' (a0 a1 : FVec Ideal S256x8192 .f32) (a2 a3 : IVec S256x8 32) (hg : SpanLoss.Good a0 a1 a2 a3) :
    corrFn (F := Ideal) a1 a3 a2 a3
      = fun _ => ((SpanLoss.corr (SpanLoss.lg a1) (SpanLoss.sp a3) (SpanLoss.sp a2) (SpanLoss.sp a3) : ℝ) : EReal) :=
  corrFn_ideal_core a1 a3 a2 a3 (fun b s => hitWeight_ideal a3 a2 a3 hg.rng3 hg.rng2 hg.rng3 b s) (fun b s => hitLogit_ideal a1 a3 hg.fin1 hg.rng3 b s)
    (fun x w j xr wr hx hw => delta_ideal x w j xr wr hx hw) (fun b s => dupFlag_iff a3 b s) (fun flag d f hd => corrOf_ideal flag d f hd)

end Cert.KernelIdeal.Hand

end
-- ==== Proof.KIValue.lean ====
/-
  The kernel program's result as one real number.

  After the region and the host lines that follow it, the program's output is the quotient by the number of
  positions, 256 · 8192 = 2097152, of three terms added: the sum of the region's output blocks — under the
  precondition the dense pass of the loss — and the two host-side corrections, for the start logits and for the end
  logits. Each of the three is a real number there, so the sums and the quotient are the real ones, and what comes
  out is `kerTotal` of the four argument arrays read as tables of reals and integers.
-/
import proofs.«423081_j13864154431993_3_alg».proof.Proof.KITail
import proofs.«423081_j13864154431993_3_alg».proof.Proof.KIRegion
import proofs.«423081_j13864154431993_3_alg».proof.Proof.KICorrValue
import proofs.«423081_j13864154431993_3_alg».proof.Proof.LibIdealReal
import proofs.«423081_j13864154431993_3_alg».proof.Proof.Good

noncomputable section

namespace Cert.KernelIdeal.Hand

open Cert.KernelIdeal Cert.KernelIdeal.Gen Idealize.ShloMosaic Idealize.ShloMosaic.TcCoe Idealize.SL.Sem

/-- The kernel program's result, at the exact values and under the precondition, is the real number `kerTotal` of
    the four argument arrays: the summed dense pass plus the two corrections, divided once by the number of positions. -/
theorem kernel_value (m : (ℓ : Loc nD τ sig) → Buf (Elt Ideal) ℓ) (c : Dev nD)
    (hg : SpanLoss.Good (m ((c.tc : Thread nD τ).loc main_arg0)) (m ((c.tc : Thread nD τ).loc main_arg1)) (m ((c.tc : Thread nD τ).loc main_arg2)) (m ((c.tc : Thread nD τ).loc main_arg3))) :
    Pipeline.afterTail₀ cfgs (dats m) 0 (V0 m) tailOps c main_v141
      = fun _ => ((SpanLoss.kerTotal (SpanLoss.lg (m ((c.tc : Thread nD τ).loc main_arg0))) (SpanLoss.lg (m ((c.tc : Thread nD τ).loc main_arg1))) (SpanLoss.sp (m ((c.tc : Thread nD τ).loc main_arg2))) (SpanLoss.sp (m ((c.tc : Thread nD τ).loc main_arg3))) : ℝ) : EReal) := by
  rw [tail_value, region_sum m c hg, corrFn_ideal _ _ _ _ hg, corrFn_ideal' _ _ _ _ hg]
  funext i
  show FloatOps.hostDivf (F := Ideal) (φ := .f32)
      (FloatOps.addf (F := Ideal) (φ := .f32) _ (FloatOps.addf (F := Ideal) (φ := .f32) _ _)) (FloatOps.ofBits .f32 0x4A000000#32) = _
  rw [IdealReal.addf_coe, IdealReal.addf_coe, Ideal.ofBits_def, IdealReal.ofBits_2097152,
    IdealReal.hostDivf_coe _ (by norm_num)]
  rfl

end Cert.KernelIdeal.Hand

end
-- ==== Proof.LibScatterConst.lean ====
/-
  An overwriting scatter all of whose updates carry one value, read at one position of the result.

  The scatter is a left fold over the update indices: each update that lands inside the operand overwrites the
  element it lands on, each update that falls outside is dropped. When every update carries the same value v the
  order of the fold is immaterial: a position holds v exactly when some update lands on it, and its old value
  otherwise.

  Then the landing condition is made explicit for scalar updates scattered into a rank-2 operand at index pairs
  [row, position]: update (b', s') lands on (b, i) exactly when its pair of indices, read as signed integers, is
  (b, i).
-/
import Idealize.ShloMosaic.Lib.StableHlo
import Idealize.ShloMosaic.PureOps.ShapeOps
import Idealize.ShloMosaic.Lib.ValueIdx

namespace Idealize.ShloMosaic

/-- A left fold of overwriting steps, every written value being v. The step at n writes val n at the position
    land n (when there is one) and changes nothing else. After the fold, a position that some step of the list
    lands on holds v, and a position no step lands on holds what the accumulator held. -/
theorem foldl_overwrite_const {β ι α : Type} (land : β → Option ι) (val : β → α) (v : α)
    (hval : ∀ n, val n = v) (step : (ι → α) → β → (ι → α))
    (hhit : ∀ r n i, land n = some i → step r n i = val n)
    (hmiss : ∀ r n i i', land n = some i → i' ≠ i → step r n i' = r i')
    (hnone : ∀ r n, land n = none → step r n = r)
    (l : List β) (acc : ι → α) (j : ι) :
    ((∃ n ∈ l, land n = some j) → (l.foldl step acc) j = v) ∧
      ((¬ ∃ n ∈ l, land n = some j) → (l.foldl step acc) j = acc j) := by
  induction l generalizing acc with
  | nil =>
    constructor
    · rintro ⟨n, hn, _⟩
      exact absurd hn (List.not_mem_nil)
    · intro _
      rfl
  | cons n l ih =>
    rw [List.foldl_cons]
    obtain ⟨ih1, ih2⟩ := ih (step acc n)
    constructor
    · rintro ⟨m, hm, hland⟩
      by_cases hl : ∃ m ∈ l, land m = some j
      · exact ih1 hl
      · rw [ih2 hl]
        rcases List.mem_cons.1 hm with rfl | hm'
        · rw [hhit acc m j hland, hval]
        · exact absurd ⟨m, hm', hland⟩ hl
    · intro hno
      have hl : ¬ ∃ m ∈ l, land m = some j := fun ⟨m, hm, h⟩ => hno ⟨m, List.mem_cons_of_mem _ hm, h⟩
      have hn : land n ≠ some j := fun h => hno ⟨n, List.mem_cons_self, h⟩
      rw [ih2 hl]
      cases hc : land n with
      | none => rw [hnone acc n hc]
      | some i =>
        have hji : j ≠ i := fun h => hn (by rw [hc, h])
        exact hmiss acc n i j hc hji

variable {s si u : Shape} {α : Type} {w : Nat}

/-- An overwriting scatter whose updates all carry the value v: position j of the result holds v when some update
    index k lands on j (its result index d.resultIdx? k idx is some j: start read signed off the indices, not
    clamped, plus the window coordinate, inside the operand on every axis), and the operand's element otherwise.
    Several updates may land on one position; they all write v, so the order of the fold does not matter. -/
theorem Host.scatter_const (d : ScatterDims s si u) (x : s.Idx → α) (idx : IVec si w) (upd : u.Idx → α) (v : α)
    (hupd : ∀ k, upd k = v) (j : s.Idx) [Decidable (∃ k : u.Idx, d.resultIdx? k idx = some j)] :
    Host.scatter d (fun _ b => b) x idx upd j
      = if (∃ k : u.Idx, d.resultIdx? k idx = some j) then v else x j := by
  have hiff : (∃ k : u.Idx, d.resultIdx? k idx = some j)
      ↔ ∃ n ∈ List.finRange u.numel, d.resultIdx? (u.rowMajor.symm n) idx = some j := by
    constructor
    · rintro ⟨k, hk⟩
      exact ⟨u.rowMajor k, List.mem_finRange _, by rw [Equiv.symm_apply_apply]; exact hk⟩
    · rintro ⟨n, _, hn⟩
      exact ⟨_, hn⟩
  have key : ∀ step : (s.Idx → α) → Fin u.numel → (s.Idx → α),
      (∀ r n i, d.resultIdx? (u.rowMajor.symm n) idx = some i → step r n i = upd (u.rowMajor.symm n)) →
      (∀ r n i i', d.resultIdx? (u.rowMajor.symm n) idx = some i → i' ≠ i → step r n i' = r i') →
      (∀ r n, d.resultIdx? (u.rowMajor.symm n) idx = none → step r n = r) →
      (List.finRange u.numel).foldl step x j
        = if (∃ k : u.Idx, d.resultIdx? k idx = some j) then v else x j := by
    intro step hhit hmiss hnone
    have h2 := foldl_overwrite_const (fun n : Fin u.numel => d.resultIdx? (u.rowMajor.symm n) idx)
      (fun n => upd (u.rowMajor.symm n)) v (fun n => hupd _) step hhit hmiss hnone (List.finRange u.numel) x j
    split_ifs with h
    · exact h2.1 (hiff.1 h)
    · exact h2.2 (fun h' => h (hiff.2 h'))
  unfold Host.scatter
  apply key
  · intro r n i h
    simp only [h]
    exact if_pos trivial
  · intro r n i i' h hne
    simp only [h]
    exact if_neg hne
  · intro r n h
    simp only [h]

/-- An update lands on the position k exactly when, on every operand axis, its start (read signed off the indices)
    plus its window coordinate is k's coordinate on that axis. -/
theorem ScatterDims.resultIdx?_eq_some_iff (d : ScatterDims s si u) (idx : IVec si w) (j : u.Idx) (k : s.Idx) :
    d.resultIdx? j idx = some k ↔ ∀ a, d.start j idx a + (d.window j a : Int) = ((k a).val : Int) := by
  unfold ScatterDims.resultIdx?
  split
  · next h =>
    constructor
    · intro e a
      have := congrFun (Option.some.inj e) a
      have h1 := h a
      rw [← this]; simp only []; omega
    · intro e
      congr 1
      funext a
      apply Fin.ext
      have := e a; simp only []; omega
  · next h =>
    constructor
    · intro e; exact absurd e (by simp)
    · intro e
      exfalso; apply h; intro a
      have := e a; have := (k a).isLt; omega

section RowPos

open ValueIdx

variable {R C R' K : Nat}

/-- The dimension numbers of a scatter of scalars into a rank-2 operand at index pairs [row, position]: no window
    axes, both operand axes inserted, the index vector (of length two, on the last axis of the indices) naming the
    operand's axes in order. The well-formedness condition is taken as given. -/
abbrev ScatterDims.rowPos
    (hwf : ScatterDims.WF (⟨2, ![R, C]⟩ : Shape) ⟨3, ![R', K, 2]⟩ ⟨2, ![R', K]⟩ [] [0, 1] [0, 1] 2) :
    ScatterDims (⟨2, ![R, C]⟩ : Shape) ⟨3, ![R', K, 2]⟩ ⟨2, ![R', K]⟩ :=
  { updateWindowDims := [], insertedWindowDims := [0, 1], scatterDimsToOperandDims := [0, 1], indexVectorDim := 2,
    wf := hwf }

variable (hwf : ScatterDims.WF (⟨2, ![R, C]⟩ : Shape) ⟨3, ![R', K, 2]⟩ ⟨2, ![R', K]⟩ [] [0, 1] [0, 1] 2)

/-- There is no window: the window coordinate is zero on both operand axes. -/
theorem ScatterDims.rowPos_window (k : (⟨2, ![R', K]⟩ : Shape).Idx) (a : Fin 2) :
    (ScatterDims.rowPos hwf).window k a = 0 := by
  unfold ScatterDims.window
  rw [dif_neg]
  exact fun h => List.not_mem_nil (show a ∈ ([] : List (Fin 2)) from h)

/-- The scatter-indices index read for component c of update (b', s'): the update's two coordinates, then c. -/
theorem ScatterDims.rowPos_siIdx (b' : Fin R') (s' : Fin K) (c : Fin 2) :
    (ScatterDims.rowPos hwf).siIdx (ix2 b' s') c = ix3 b' s' c := by
  funext a
  match a with
  | ⟨0, _⟩ => rfl
  | ⟨1, _⟩ => rfl
  | ⟨2, _⟩ => rfl

/-- The start on the row axis is the first component of the update's index pair. -/
theorem ScatterDims.rowPos_start_zero (idx : IVec (⟨3, ![R', K, 2]⟩ : Shape) w) (b' : Fin R') (s' : Fin K) :
    (ScatterDims.rowPos hwf).start (ix2 b' s') idx 0 = (idx (ix3 b' s' 0)).toInt := by
  unfold ScatterDims.start
  have h0 : (0 : Fin 2) ∈ (ScatterDims.rowPos hwf).scatterDimsToOperandDims := List.mem_cons_self
  rw [dif_pos h0]
  exact congrArg (fun q => (idx q).toInt) (ScatterDims.rowPos_siIdx hwf b' s' 0)

/-- The start on the position axis is the second component of the update's index pair. -/
theorem ScatterDims.rowPos_start_one (idx : IVec (⟨3, ![R', K, 2]⟩ : Shape) w) (b' : Fin R') (s' : Fin K) :
    (ScatterDims.rowPos hwf).start (ix2 b' s') idx 1 = (idx (ix3 b' s' 1)).toInt := by
  unfold ScatterDims.start
  have h1 : (1 : Fin 2) ∈ (ScatterDims.rowPos hwf).scatterDimsToOperandDims :=
    List.mem_cons_of_mem _ List.mem_cons_self
  rw [dif_pos h1]
  exact congrArg (fun q => (idx q).toInt) (ScatterDims.rowPos_siIdx hwf b' s' 1)

/-- Update (b', s') lands on position (b, i) exactly when its index pair, read signed, is (b, i). (An index pair
    outside the operand equals no position, so the update is dropped.) -/
theorem ScatterDims.rowPos_resultIdx?_eq_some_iff (idx : IVec (⟨3, ![R', K, 2]⟩ : Shape) w)
    (b' : Fin R') (s' : Fin K) (b : Fin R) (i : Fin C) :
    (ScatterDims.rowPos hwf).resultIdx? (ix2 b' s') idx = some (ix2 b i)
      ↔ (idx (ix3 b' s' 0)).toInt = (b.val : Int) ∧ (idx (ix3 b' s' 1)).toInt = (i.val : Int) := by
  rw [ScatterDims.resultIdx?_eq_some_iff]
  constructor
  · intro h
    have e0 := h 0
    have e1 := h 1
    rw [ScatterDims.rowPos_start_zero, ScatterDims.rowPos_window] at e0
    rw [ScatterDims.rowPos_start_one, ScatterDims.rowPos_window] at e1
    constructor
    · have e0' : (idx (ix3 b' s' 0)).toInt + ((0 : Nat) : Int) = (b.val : Int) := e0
      omega
    · have e1' : (idx (ix3 b' s' 1)).toInt + ((0 : Nat) : Int) = (i.val : Int) := e1
      omega
  · rintro ⟨e0, e1⟩ a
    match a with
    | ⟨0, _⟩ =>
      show (ScatterDims.rowPos hwf).start (ix2 b' s') idx 0 + ((ScatterDims.rowPos hwf).window (ix2 b' s') 0 : Int)
        = (b.val : Int)
      rw [ScatterDims.rowPos_start_zero, ScatterDims.rowPos_window, e0]
      simp
    | ⟨1, _⟩ =>
      show (ScatterDims.rowPos hwf).start (ix2 b' s') idx 1 + ((ScatterDims.rowPos hwf).window (ix2 b' s') 1 : Int)
        = (i.val : Int)
      rw [ScatterDims.rowPos_start_one, ScatterDims.rowPos_window, e1]
      simp

/-- An overwriting scatter at index pairs [row, position], every update carrying v, read at position (b, i): v when
    some update's index pair, read signed, is (b, i), and the operand's element otherwise. -/
theorem Host.scatter_rowPos_const (x : (⟨2, ![R, C]⟩ : Shape).Idx → α) (idx : IVec (⟨3, ![R', K, 2]⟩ : Shape) w)
    (upd : (⟨2, ![R', K]⟩ : Shape).Idx → α) (v : α) (hupd : ∀ k, upd k = v) (b : Fin R) (i : Fin C)
    [Decidable (∃ (b' : Fin R') (s' : Fin K),
      (idx (ix3 b' s' 0)).toInt = (b.val : Int) ∧ (idx (ix3 b' s' 1)).toInt = (i.val : Int))] :
    Host.scatter (ScatterDims.rowPos hwf) (fun _ b => b) x idx upd (ix2 b i)
      = if (∃ (b' : Fin R') (s' : Fin K),
          (idx (ix3 b' s' 0)).toInt = (b.val : Int) ∧ (idx (ix3 b' s' 1)).toInt = (i.val : Int))
        then v else x (ix2 b i) := by
  classical
  have hiff : (∃ k : (⟨2, ![R', K]⟩ : Shape).Idx, (ScatterDims.rowPos hwf).resultIdx? k idx = some (ix2 b i))
      ↔ ∃ (b' : Fin R') (s' : Fin K),
          (idx (ix3 b' s' 0)).toInt = (b.val : Int) ∧ (idx (ix3 b' s' 1)).toInt = (i.val : Int) := by
    constructor
    · rintro ⟨k, hk⟩
      rw [eq_ix2 k] at hk
      exact ⟨k 0, k 1, (ScatterDims.rowPos_resultIdx?_eq_some_iff hwf idx (k 0) (k 1) b i).1 hk⟩
    · rintro ⟨b', s', h⟩
      exact ⟨ix2 b' s', (ScatterDims.rowPos_resultIdx?_eq_some_iff hwf idx b' s' b i).2 h⟩
  rw [Host.scatter_const (ScatterDims.rowPos hwf) x idx upd v hupd (ix2 b i)]
  by_cases h : ∃ (b' : Fin R') (s' : Fin K),
      (idx (ix3 b' s' 0)).toInt = (b.val : Int) ∧ (idx (ix3 b' s' 1)).toInt = (i.val : Int)
  · rw [if_pos h, if_pos (hiff.2 h)]
  · rw [if_neg h, if_neg (fun h' => h (hiff.1 h'))]

end RowPos

end Idealize.ShloMosaic
-- ==== Proof.RefValue.lean ====
/-
  The reference's result in real numbers.

  Every stage of the reference is read at an index and, under the precondition (finite logits, span positions in
  [0, 8192)), shown to be the coercion of a real number: the overlap score of a position with a span, its maximum over the
  eight spans, the weight of an unlabelled position, the label, the weight, the stable cross entropy, their product, the
  sum over all positions, the mean, and the sum of the two means, which is `SpanLoss.refTotal`.
-/
import proofs.«423081_j13864154431993_3_alg».proof.Proof.RefReadP
import proofs.«423081_j13864154431993_3_alg».proof.Proof.Good
import proofs.«423081_j13864154431993_3_alg».proof.Proof.LibScatterConst
import Idealize.ShloMosaic.Lib.WordArith
import Idealize.ShloMosaic.Lib.IdealHost
import Idealize.ShloMosaic.Lib.Affine
import Mathlib.Analysis.SpecialFunctions.Pow.Real
import Mathlib.Data.EReal.Operations
import Mathlib.Data.EReal.Inv
import Mathlib.Data.Finset.Lattice.Fold

noncomputable section

namespace Cert.ReferenceIdeal.RefValue

open Cert.ReferenceIdeal Cert.ReferenceIdeal.Gen Cert.ReferenceIdeal.ReadP Idealize.ShloMosaic Idealize.ShloMosaic.ValueIdx SpanLoss

/-! ## Indices with equal coordinates are equal -/

private theorem ext2 {n0 n1 : Nat} (j k : (⟨2, ![n0, n1]⟩ : Shape).Idx) (h0 : j 0 = k 0) (h1 : j 1 = k 1) : j = k := by
  funext a; match a with | ⟨0, _⟩ => exact h0 | ⟨1, _⟩ => exact h1
private theorem ext3 {n0 n1 n2 : Nat} (j k : (⟨3, ![n0, n1, n2]⟩ : Shape).Idx) (h0 : j 0 = k 0) (h1 : j 1 = k 1)
    (h2 : j 2 = k 2) : j = k := by
  funext a; match a with | ⟨0, _⟩ => exact h0 | ⟨1, _⟩ => exact h1 | ⟨2, _⟩ => exact h2

/-! ## The literals and the operations on real numbers -/

private theorem lit_zero : FloatOps.ofBits (F := Ideal) .f32 0x00000000#32 = ((0 : ℝ) : EReal) := by
  rw [Ideal.ofBits_def, Ideal.ofBits_zero_f32, EReal.coe_zero]
private theorem lit_one : FloatOps.ofBits (F := Ideal) .f32 0x3F800000#32 = ((1 : ℝ) : EReal) := by
  rw [Ideal.ofBits_def, Ideal.ofBits_one_f32, EReal.coe_one]
private theorem lit_two : FloatOps.ofBits (F := Ideal) .f32 0x40000000#32 = ((2 : ℝ) : EReal) := by
  rw [Ideal.ofBits_def]; simp [Ideal.ofBits, Ideal.ieee, -EReal.coe_mul]; norm_num
private theorem lit_quarter : FloatOps.ofBits (F := Ideal) .f32 0x3E800000#32 = ((1 / 4 : ℝ) : EReal) := by
  rw [Ideal.ofBits_def]; simp [Ideal.ofBits, Ideal.ieee, -EReal.coe_mul]; norm_num
private theorem lit_three_quarters : FloatOps.ofBits (F := Ideal) .f32 0x3F400000#32 = ((3 / 4 : ℝ) : EReal) := by
  rw [Ideal.ofBits_def]; simp [Ideal.ofBits, Ideal.ieee, -EReal.coe_mul]; norm_num
private theorem lit_count : FloatOps.ofBits (F := Ideal) .f32 0x4A000000#32 = ((2097152 : ℝ) : EReal) := by
  rw [Ideal.ofBits_def]; simp [Ideal.ofBits, Ideal.ieee, -EReal.coe_mul]; norm_num
private theorem lit_bot : FloatOps.ofBits (F := Ideal) .f32 0xFF800000#32 = (⊥ : EReal) := by
  rw [Ideal.ofBits_def]; simp [Ideal.ofBits, Ideal.ieee]

private theorem coe_max (x y : ℝ) : max (x : EReal) (y : EReal) = ((max x y : ℝ) : EReal) :=
  (EReal.coe_strictMono.monotone.map_max).symm

/-- A sum of coerced reals is the coerced sum. -/
private theorem coe_sum {ι : Type} (s : Finset ι) (f : ι → ℝ) :
    ((∑ j ∈ s, f j : ℝ) : EReal) = ∑ j ∈ s, ((f j : ℝ) : EReal) := by
  classical
  induction s using Finset.induction_on with
  | empty => simp
  | insert a s ha ih => rw [Finset.sum_insert ha, Finset.sum_insert ha, EReal.coe_add, ih]

/-- The maximum, from the bottom element, of eight coerced reals is their coerced maximum. -/
private theorem fold_max_coe (g : Fin 8 → ℝ) :
    Finset.fold (FloatOps.maximumf (F := Ideal) (φ := .f32)) (⊥ : EReal) (fun k => ((g k : ℝ) : EReal)) Finset.univ
      = ((Finset.univ.sup' Finset.univ_nonempty g : ℝ) : EReal) := by
  show Finset.sup Finset.univ (fun k => ((g k : ℝ) : EReal)) = _
  rw [← Finset.sup'_eq_sup Finset.univ_nonempty,
    Finset.comp_sup'_eq_sup'_comp Finset.univ_nonempty (fun x : ℝ => (x : EReal)) (fun x y => (coe_max x y).symm)]
  rfl

/-- Equality of two coerced reals, as the comparison's bit. -/
private theorem cmp_oeq_coe (x y : ℝ) :
    FloatOps.cmpf (F := Ideal) (φ := .f32) .oeq (x : EReal) (y : EReal) = BitVec.ofBool (decide (x = y)) := by
  show BitVec.ofBool (decide ((x : EReal) = (y : EReal))) = _
  congr 1
  exact decide_eq_decide.2 EReal.coe_eq_coe_iff

/-- A select on "the 0/1 label equals one" is the `if` on the label's condition. -/
private theorem sel_lab (P : Prop) [Decidable P] (A B : EReal) :
    Scalar.select (FloatOps.cmpf (F := Ideal) (φ := .f32) .oeq (((if P then (1 : ℝ) else 0 : ℝ)) : EReal) ((1 : ℝ) : EReal)) A B
      = if P then A else B := by
  by_cases h : P
  · rw [if_pos h, if_pos h, cmp_oeq_coe, decide_eq_true rfl]; exact select_one _ _
  · rw [if_neg h, if_neg h, cmp_oeq_coe, decide_eq_false (by norm_num)]; exact select_zero _ _

/-- The stable cross entropy, operation by operation, on coerced reals. -/
private theorem loss_real (x y : ℝ) :
    FloatOps.addf (F := Ideal) (φ := .f32)
        (FloatOps.subf (FloatOps.maximumf (x : EReal) ((0 : ℝ) : EReal)) (FloatOps.mulf (x : EReal) (y : EReal)))
        (FloatOps.hostUnary .log1p (FloatOps.hostUnary .exp (FloatOps.hostNegf (FloatOps.hostAbsf (x : EReal)))))
      = ((bce x y : ℝ) : EReal) := by
  show (max (x : EReal) ((0 : ℝ) : EReal) - (x : EReal) * (y : EReal))
      + Ideal.log1p (Ideal.exp (-(max (x : EReal) (-(x : EReal))))) = _
  have habs : max (x : EReal) (-(x : EReal)) = ((|x| : ℝ) : EReal) := by
    rw [← EReal.coe_neg, coe_max, abs_eq_max_neg]
  have hpos : ¬ (1 + Real.exp (-|x|) ≤ 0) := by have := Real.exp_pos (-|x|); linarith
  rw [coe_max, habs, ← EReal.coe_mul, ← EReal.coe_sub, ← EReal.coe_neg, Ideal.exp_coe]
  unfold Ideal.log1p
  rw [← EReal.coe_one, ← EReal.coe_add, Ideal.log_coe, if_neg hpos, ← EReal.coe_add]
  rfl

/-- A quotient of coerced reals by a divisor that is not zero. -/
private theorem div_real (x y : ℝ) (hy : y ≠ 0) : FloatOps.hostDivf (F := Ideal) (φ := .f32) (x : EReal) (y : EReal) = ((x / y : ℝ) : EReal) := by
  show Ideal.div (x : EReal) (y : EReal) = _
  rw [Ideal.div_coe hy, ← EReal.coe_mul, div_eq_mul_one_div x y]

/-! ## The overlap score of a position with a span -/

section Stages

variable (x2 x3 : IVec S256x8 32)

private theorem v40_at (b : Fin 256) (i : Fin 8192) (s : Fin 8) :
    val_main_v40 (F := Ideal) x2 (ix3 b i s) = x2 (ix2 b s) := by
  rw [val_main_v40_apply, val_main_v38_apply]; exact congrArg x2 (ext2 _ _ rfl rfl)
private theorem v41_at (b : Fin 256) (i : Fin 8192) (s : Fin 8) :
    val_main_v41 (F := Ideal) (ix3 b i s) = BitVec.ofNat 32 i.val := by
  rw [val_main_v41_apply, val_main_v39_apply, val_main_v37_apply]
private theorem v45_at (b : Fin 256) (i : Fin 8192) (s : Fin 8) :
    val_main_v45 (F := Ideal) (ix3 b i s) = BitVec.ofNat 32 i.val := by
  rw [val_main_v45_apply, val_main_v43_apply, val_main_v37_apply]
private theorem v46_at (b : Fin 256) (i : Fin 8192) (s : Fin 8) :
    val_main_v46 (F := Ideal) x3 (ix3 b i s) = x3 (ix2 b s) := by
  rw [val_main_v46_apply, val_main_v44_apply]; exact congrArg x3 (ext2 _ _ rfl rfl)
private theorem v50_at (b : Fin 256) (i : Fin 8192) (s : Fin 8) :
    val_main_v50 (F := Ideal) x2 x3 (ix3 b i s) = IntOp.cmpi .sle (x2 (ix2 b s)) (x3 (ix2 b s)) := by
  rw [val_main_v50_apply, val_main_v49_apply, val_main_v36_apply]
  rw [show idx_main_v49 (idx_main_v50 (ix3 b i s)) = ix2 b s from ext2 _ _ rfl rfl]

/-- The "inside a counting span" bit is set exactly when the position lies in the span and the span counts. -/
private theorem v51_iff (b : Fin 256) (i : Fin 8192) (s : Fin 8) :
    val_main_v51 (F := Ideal) x2 x3 (ix3 b i s) = 1#1
      ↔ sp x2 b s ≤ (i.val : ℤ) ∧ (i.val : ℤ) ≤ sp x3 b s ∧ sp x2 b s ≤ sp x3 b s := by
  rw [val_main_v51_apply, val_main_v48_apply, val_main_v42_apply, val_main_v47_apply, v40_at, v41_at, v45_at, v46_at,
    v50_at, IntOp.andi_eq_one, IntOp.andi_eq_one, IntOp.cmpi_sle, IntOp.cmpi_sle, IntOp.cmpi_sle,
    WordArith.toInt_ofNat_small _ (by have := i.isLt; omega)]
  unfold sp
  exact and_assoc

/-- The span's length as a float: the integer `end - start + 1`, for positions in range. -/
private theorem v55_at (b : Fin 256) (s : Fin 8) (h2 : 0 ≤ sp x2 b s ∧ sp x2 b s < 8192)
    (h3 : 0 ≤ sp x3 b s ∧ sp x3 b s < 8192) :
    val_main_v55 (F := Ideal) x2 x3 (ix2 b s) = ((((sp x3 b s - sp x2 b s + 1 : ℤ)) : ℝ) : EReal) := by
  unfold sp at h2 h3 ⊢
  rw [val_main_v55_apply, val_main_v54_apply, val_main_v52_apply, val_main_v53_apply, val_main_c_10_apply]
  have hs : (x3 (ix2 b s) - x2 (ix2 b s)).toInt = (x3 (ix2 b s)).toInt - (x2 (ix2 b s)).toInt :=
    WordArith.toInt_sub_of_bounds _ _ (by omega) (by omega)
  have h1 : (1#32 : BitVec 32).toInt = 1 := by decide
  have e : (IntOp.addi (IntOp.subi (x3 (ix2 b s)) (x2 (ix2 b s))) 1#32).toInt
      = (x3 (ix2 b s)).toInt - (x2 (ix2 b s)).toInt + 1 := by
    show ((x3 (ix2 b s) - x2 (ix2 b s)) + 1#32).toInt = _
    rw [WordArith.toInt_add_of_bounds _ _ (by rw [hs, h1]; omega) (by rw [hs, h1]; omega), hs, h1]
  show (((IntOp.addi (IntOp.subi (x3 (ix2 b s)) (x2 (ix2 b s))) 1#32).toInt : ℝ) : EReal) = _
  rw [e]

/-- The reciprocal of the span's length, broadcast over the positions. -/
private theorem call0_v1_at (b : Fin 256) (i : Fin 8192) (s : Fin 8) (h2 : 0 ≤ sp x2 b s ∧ sp x2 b s < 8192)
    (h3 : 0 ≤ sp x3 b s ∧ sp x3 b s < 8192) :
    val_main_call0_v1 (F := Ideal) x2 x3 (ix3 b i s)
      = FloatOps.hostDivf (F := Ideal) (φ := .f32) ((1 : ℝ) : EReal) ((((sp x3 b s - sp x2 b s + 1 : ℤ)) : ℝ) : EReal) := by
  rw [val_main_call0_v1_apply, val_main_v58_apply, val_main_v57_apply, val_main_cst_11_apply, lit_one, val_main_v56_apply,
    show idx_main_v56 (idx_main_call0_v1 (ix3 b i s)) = ix2 b s from ext2 _ _ rfl rfl, v55_at x2 x3 b s h2 h3]

/-- The overlap score of position `i` with span `s`, as computed, is the real `SpanLoss.iou`. -/
private theorem v59_at (b : Fin 256) (i : Fin 8192) (s : Fin 8) (h2 : 0 ≤ sp x2 b s ∧ sp x2 b s < 8192)
    (h3 : 0 ≤ sp x3 b s ∧ sp x3 b s < 8192) :
    val_main_v59 (F := Ideal) x2 x3 (ix3 b i s) = ((iou (sp x2) (sp x3) b (i.val : ℤ) s : ℝ) : EReal) := by
  rw [val_main_v59_apply]
  unfold iou
  by_cases hc : sp x2 b s ≤ (i.val : ℤ) ∧ (i.val : ℤ) ≤ sp x3 b s ∧ sp x2 b s ≤ sp x3 b s
  · rw [if_pos hc, (v51_iff x2 x3 b i s).2 hc, select_one, call0_v1_at x2 x3 b i s h2 h3]
    have hne : ((((sp x3 b s - sp x2 b s + 1 : ℤ)) : ℝ)) ≠ 0 := by
      have : (0 : ℤ) < sp x3 b s - sp x2 b s + 1 := by omega
      exact_mod_cast this.ne'
    exact div_real _ _ hne
  · rw [if_neg hc, eq_zero_of_ne_one (fun h => hc ((v51_iff x2 x3 b i s).1 h)), select_zero, val_main_call0_v2_apply,
      val_main_call0_v0_apply, val_main_cst_12_apply, lit_zero]

private theorem hred : S256x8192x8.Reduces [2] S256x8192 := by decide

private theorem lift_eq (b : Fin 256) (i : Fin 8192) (k : Fin 8) :
    hred.lift (ix2 b i) k = ix3 b i k := by
  funext c
  apply Fin.ext
  match c with
  | ⟨0, _⟩ => rfl
  | ⟨1, _⟩ => rfl
  | ⟨2, _⟩ => rfl

/-- The largest overlap score over the eight spans, as computed, is the real `SpanLoss.maxIou`. -/
private theorem v60_at (b : Fin 256) (i : Fin 8192) (h2 : ∀ s, 0 ≤ sp x2 b s ∧ sp x2 b s < 8192)
    (h3 : ∀ s, 0 ≤ sp x3 b s ∧ sp x3 b s < 8192) :
    val_main_v60 (F := Ideal) x2 x3 (ix2 b i) = ((maxIou (sp x2) (sp x3) b (i.val : ℤ) : ℝ) : EReal) := by
  unfold val_main_v60
  rw [Host.reduce_eq_fold_single FloatOps.maximumf _ _ reducesTo_S256x8192x8_S256x8192_d2 hred h_S_ (ix2 b i),
    val_main_cst_13_apply, lit_bot]
  have hf : (val_main_v59 (F := Ideal) x2 x3 ∘ hred.lift (ix2 b i))
      = fun k : Fin 8 => ((iou (sp x2) (sp x3) b (i.val : ℤ) k : ℝ) : EReal) :=
    funext (fun k : Fin 8 => by
      exact (congrArg (val_main_v59 (F := Ideal) x2 x3) (lift_eq b i k)).trans (v59_at x2 x3 b i k (h2 k) (h3 k)))
  refine Eq.trans ?_ (fold_max_coe (iou (sp x2) (sp x3) b (i.val : ℤ)))
  exact congrArg
    (fun f : Fin 8 → EReal => Finset.fold (FloatOps.maximumf (F := Ideal) (φ := .f32)) (⊥ : EReal) f Finset.univ) hf

/-- The weight of an unlabelled position, as computed, is the real `SpanLoss.negw`. -/
private theorem v66_at (b : Fin 256) (i : Fin 8192) (h2 : ∀ s, 0 ≤ sp x2 b s ∧ sp x2 b s < 8192)
    (h3 : ∀ s, 0 ≤ sp x3 b s ∧ sp x3 b s < 8192) :
    val_main_v66 (F := Ideal) x2 x3 (ix2 b i) = ((negw (sp x2) (sp x3) b (i.val : ℤ) : ℝ) : EReal) := by
  rw [val_main_v66_apply, val_main_v65_apply, val_main_cst_16_apply, lit_quarter, val_main_v64_apply, val_main_v62_apply,
    val_main_v61_apply, val_main_cst_14_apply, lit_one, v60_at x2 x3 b i h2 h3, val_main_v63_apply, val_main_cst_15_apply,
    lit_two]
  show ((1 / 4 : ℝ) : EReal)
      * Ideal.pow (((1 : ℝ) : EReal) + ((maxIou (sp x2) (sp x3) b (i.val : ℤ) : ℝ) : EReal)) ((2 : ℝ) : EReal) = _
  rw [← EReal.coe_add, Ideal.pow_coe_coe, ← EReal.coe_mul]
  unfold negw
  congr 2
  exact Real.rpow_two _

end Stages

/-! ## The scatters' index pairs -/

section Pairs

variable (x2 x3 : IVec S256x8 32)

private theorem toInt_zero32 : (0#32 : BitVec 32).toInt = 0 := by decide

private theorem v1_at (b : Fin 256) : val_main_v1 (F := Ideal) (ix2 b (0 : Fin 1)) = BitVec.ofNat 32 b.val := by
  rw [val_main_v1_apply, val_main_v0_apply]

private theorem row_toInt (b : Fin 256) : (BitVec.ofNat 32 b.val).toInt = (b.val : ℤ) :=
  WordArith.toInt_ofNat_small _ (by have := b.isLt; omega)

/-- The row number needs no wrap-around: it is not negative. -/
private theorem v7_at (b : Fin 256) : val_main_v7 (F := Ideal) (ix2 b (0 : Fin 1)) = BitVec.ofNat 32 b.val := by
  have hc : IntOp.cmpi .slt (BitVec.ofNat 32 b.val) 0#32 = 0#1 :=
    eq_zero_of_ne_one (fun h => by have := IntOp.cmpi_slt.1 h; rw [row_toInt, toInt_zero32] at this; omega)
  rw [val_main_v7_apply, val_main_v4_apply, v1_at, val_main_v3_apply, val_main_c_apply, hc, select_zero]
private theorem v24_at (b : Fin 256) : val_main_v24 (F := Ideal) (ix2 b (0 : Fin 1)) = BitVec.ofNat 32 b.val := by
  have hc : IntOp.cmpi .slt (BitVec.ofNat 32 b.val) 0#32 = 0#1 :=
    eq_zero_of_ne_one (fun h => by have := IntOp.cmpi_slt.1 h; rw [row_toInt, toInt_zero32] at this; omega)
  rw [val_main_v24_apply, val_main_v21_apply, v1_at, val_main_v20_apply, val_main_c_5_apply, hc, select_zero]

/-- A position that is not negative needs no wrap-around. -/
private theorem v12_at (b : Fin 256) (s : Fin 8) (h : 0 ≤ sp x2 b s) :
    val_main_v12 (F := Ideal) x2 (ix2 b s) = x2 (ix2 b s) := by
  unfold sp at h
  have hc : IntOp.cmpi .slt (x2 (ix2 b s)) 0#32 = 0#1 :=
    eq_zero_of_ne_one (fun h' => by have := IntOp.cmpi_slt.1 h'; rw [toInt_zero32] at this; omega)
  rw [val_main_v12_apply, val_main_v9_apply, val_main_v8_apply, val_main_c_1_apply, hc, select_zero]
private theorem v29_at (b : Fin 256) (s : Fin 8) (h : 0 ≤ sp x3 b s) :
    val_main_v29 (F := Ideal) x3 (ix2 b s) = x3 (ix2 b s) := by
  unfold sp at h
  have hc : IntOp.cmpi .slt (x3 (ix2 b s)) 0#32 = 0#1 :=
    eq_zero_of_ne_one (fun h' => by have := IntOp.cmpi_slt.1 h'; rw [toInt_zero32] at this; omega)
  rw [val_main_v29_apply, val_main_v26_apply, val_main_v25_apply, val_main_c_7_apply, hc, select_zero]

/-- The index pair of update `(b, s)`: its row … -/
private theorem v16_row (b : Fin 256) (s : Fin 8) :
    val_main_v16 (F := Ideal) x2 (ix3 b s (0 : Fin 2)) = BitVec.ofNat 32 b.val := by
  unfold val_main_v16
  rw [concatenate_pair_apply_left (t := S256x8x2) (s₁ := S256x8x1) (s₂ := S256x8x1) 2 _ _
      concatenates_S256x8x1_S256x8x1_S256x8x2_d2 (ix3 b s (0 : Fin 2)) rfl (ix3 b s (0 : Fin 1))
      (fun c => by match c with | ⟨0, _⟩ => rfl | ⟨1, _⟩ => rfl | ⟨2, _⟩ => rfl),
    val_main_v14_apply, val_main_v13_apply,
    show idx_main_v13 (idx_main_v14 (ix3 b s (0 : Fin 1))) = ix2 b (0 : Fin 1) from ext2 _ _ rfl rfl, v7_at]
/-- … and its position. -/
private theorem v16_pos (b : Fin 256) (s : Fin 8) (h : 0 ≤ sp x2 b s) :
    val_main_v16 (F := Ideal) x2 (ix3 b s (1 : Fin 2)) = x2 (ix2 b s) := by
  unfold val_main_v16
  rw [concatenate_pair_apply_right (t := S256x8x2) (s₁ := S256x8x1) (s₂ := S256x8x1) 2 _ _
      concatenates_S256x8x1_S256x8x1_S256x8x2_d2 (ix3 b s (1 : Fin 2)) rfl rfl (ix3 b s (0 : Fin 1))
      (fun c hc => by match c with | ⟨0, _⟩ => rfl | ⟨1, _⟩ => rfl | ⟨2, _⟩ => exact absurd rfl hc) rfl,
    val_main_v15_apply, show idx_main_v15 (ix3 b s (0 : Fin 1)) = ix2 b s from ext2 _ _ rfl rfl, v12_at x2 b s h]
private theorem v33_row (b : Fin 256) (s : Fin 8) :
    val_main_v33 (F := Ideal) x3 (ix3 b s (0 : Fin 2)) = BitVec.ofNat 32 b.val := by
  unfold val_main_v33
  rw [concatenate_pair_apply_left (t := S256x8x2) (s₁ := S256x8x1) (s₂ := S256x8x1) 2 _ _
      concatenates_S256x8x1_S256x8x1_S256x8x2_d2 (ix3 b s (0 : Fin 2)) rfl (ix3 b s (0 : Fin 1))
      (fun c => by match c with | ⟨0, _⟩ => rfl | ⟨1, _⟩ => rfl | ⟨2, _⟩ => rfl),
    val_main_v31_apply, val_main_v30_apply,
    show idx_main_v30 (idx_main_v31 (ix3 b s (0 : Fin 1))) = ix2 b (0 : Fin 1) from ext2 _ _ rfl rfl, v24_at]
private theorem v33_pos (b : Fin 256) (s : Fin 8) (h : 0 ≤ sp x3 b s) :
    val_main_v33 (F := Ideal) x3 (ix3 b s (1 : Fin 2)) = x3 (ix2 b s) := by
  unfold val_main_v33
  rw [concatenate_pair_apply_right (t := S256x8x2) (s₁ := S256x8x1) (s₂ := S256x8x1) 2 _ _
      concatenates_S256x8x1_S256x8x1_S256x8x2_d2 (ix3 b s (1 : Fin 2)) rfl rfl (ix3 b s (0 : Fin 1))
      (fun c hc => by match c with | ⟨0, _⟩ => rfl | ⟨1, _⟩ => rfl | ⟨2, _⟩ => exact absurd rfl hc) rfl,
    val_main_v32_apply, show idx_main_v32 (ix3 b s (0 : Fin 1)) = ix2 b s from ext2 _ _ rfl rfl, v29_at x3 b s h]

end Pairs

/-! ## The labels -/

section Labels

/-- An overwriting scatter of ones into zeros, at index pairs `[row, position]` whose row is the update's own row and whose
    position is `x`'s entry, is the 0/1 label array of `x`: a one exactly where some span of the row has its position
    (several spans may share a position; they all write the same one). -/
private theorem lab_of_pairs (x : IVec S256x8 32) (idx : IVec S256x8x2 32) (zero : FVec Ideal S256x8192 .f32)
    (ones : FVec Ideal S256x8 .f32) (hz : ∀ k, zero k = ((0 : ℝ) : EReal)) (ho : ∀ k, ones k = ((1 : ℝ) : EReal))
    (hrow : ∀ (b : Fin 256) (s : Fin 8), idx (ix3 b s (0 : Fin 2)) = BitVec.ofNat 32 b.val)
    (hpos : ∀ (b : Fin 256) (s : Fin 8), idx (ix3 b s (1 : Fin 2)) = x (ix2 b s)) (b : Fin 256) (i : Fin 8192) :
    Host.scatter scatter_S256x8192_S256x8x2_S256x8_n_01_01_2 (fun _ b => b) zero idx ones (ix2 b i)
      = ((lab (sp x) b (i.val : ℤ) : ℝ) : EReal) := by
  classical
  refine Eq.trans (Host.scatter_rowPos_const Facts₀.scatter_S256x8192_S256x8x2_S256x8_n_01_01_2_wf zero idx ones
    ((1 : ℝ) : EReal) ho b i) ?_
  split
  · next hc =>
    obtain ⟨b', s', h0, h1⟩ := hc
    have h0' : (b'.val : ℤ) = (b.val : ℤ) :=
      ((congrArg BitVec.toInt (hrow b' s')).trans (row_toInt b')).symm.trans h0
    have hb : b' = b := Fin.ext (by exact_mod_cast h0')
    have hH : Hit (sp x) b (i.val : ℤ) := by
      refine ⟨s', ?_⟩
      rw [← hb]
      exact (congrArg BitVec.toInt (hpos b' s')).symm.trans h1
    unfold lab
    rw [if_pos hH]
  · next hc =>
    have hH : ¬ Hit (sp x) b (i.val : ℤ) := fun ⟨s, hs⟩ =>
      hc ⟨b, s, (congrArg BitVec.toInt (hrow b s)).trans (row_toInt b), (congrArg BitVec.toInt (hpos b s)).trans hs⟩
    rw [hz]
    unfold lab
    rw [if_neg hH]

variable (a0 a1 : FVec Ideal S256x8192 .f32) (a2 a3 : IVec S256x8 32)

/-- The start labels: a one where some span of the row starts. -/
private theorem lab_start (hg : Good a0 a1 a2 a3) (b : Fin 256) (i : Fin 8192) :
    val_main_v18 (F := Ideal) a2 (ix2 b i) = ((lab (sp a2) b (i.val : ℤ) : ℝ) : EReal) :=
  lab_of_pairs a2 (val_main_v16 (F := Ideal) a2) (val_main_v2 (F := Ideal)) (val_main_v17 (F := Ideal))
    (fun k => by rw [val_main_v2_apply, val_main_cst_apply, lit_zero])
    (fun k => by rw [val_main_v17_apply, val_main_cst_3_apply, lit_one])
    (fun b s => v16_row a2 b s) (fun b s => v16_pos a2 b s (hg.sp2 b s).1) b i

/-- The end labels: a one where some span of the row ends. -/
private theorem lab_end (hg : Good a0 a1 a2 a3) (b : Fin 256) (i : Fin 8192) :
    val_main_v35 (F := Ideal) a3 (ix2 b i) = ((lab (sp a3) b (i.val : ℤ) : ℝ) : EReal) :=
  lab_of_pairs a3 (val_main_v33 (F := Ideal) a3) (val_main_v19 (F := Ideal)) (val_main_v34 (F := Ideal))
    (fun k => by rw [val_main_v19_apply, val_main_cst_4_apply, lit_zero])
    (fun k => by rw [val_main_v34_apply, val_main_cst_9_apply, lit_one])
    (fun b s => v33_row a3 b s) (fun b s => v33_pos a3 b s (hg.sp3 b s).1) b i

end Labels

section Halves

variable (a0 a1 : FVec Ideal S256x8192 .f32) (a2 a3 : IVec S256x8 32)

/-! ## Weights, losses, products -/

private theorem v69_at (hg : Good a0 a1 a2 a3) (b : Fin 256) (i : Fin 8192) :
    val_main_v69 (F := Ideal) a2 a3 (ix2 b i) = ((wgt (sp a2) (sp a2) (sp a3) b (i.val : ℤ) : ℝ) : EReal) := by
  rw [val_main_v69_apply, val_main_v68_apply, lab_start a0 a1 a2 a3 hg, val_main_v67_apply, val_main_cst_17_apply, lit_one,
    val_main_call1_v1_apply, val_main_call1_v0_apply, val_main_cst_18_apply, lit_three_quarters,
    v66_at a2 a3 b i (fun s => hg.sp2 b s) (fun s => hg.sp3 b s)]
  unfold wgt lab
  rw [sel_lab]
  by_cases h : Hit (sp a2) b (i.val : ℤ)
  · rw [if_pos h, if_pos h]
  · rw [if_neg h, if_neg h]

private theorem v72_at (hg : Good a0 a1 a2 a3) (b : Fin 256) (i : Fin 8192) :
    val_main_v72 (F := Ideal) a2 a3 (ix2 b i) = ((wgt (sp a3) (sp a2) (sp a3) b (i.val : ℤ) : ℝ) : EReal) := by
  rw [val_main_v72_apply, val_main_v71_apply, lab_end a0 a1 a2 a3 hg, val_main_v70_apply, val_main_cst_19_apply, lit_one,
    val_main_call2_v1_apply, val_main_call2_v0_apply, val_main_cst_20_apply, lit_three_quarters,
    v66_at a2 a3 b i (fun s => hg.sp2 b s) (fun s => hg.sp3 b s)]
  unfold wgt lab
  rw [sel_lab]
  by_cases h : Hit (sp a3) b (i.val : ℤ)
  · rw [if_pos h, if_pos h]
  · rw [if_neg h, if_neg h]

private theorem v81_at (hg : Good a0 a1 a2 a3) (b : Fin 256) (i : Fin 8192) :
    val_main_v81 (F := Ideal) a0 a2 (ix2 b i) = ((bce (lg a0 b i) (lab (sp a2) b (i.val : ℤ)) : ℝ) : EReal) := by
  rw [val_main_v81_apply, val_main_v76_apply, val_main_v74_apply, val_main_v73_apply, val_main_cst_21_apply, lit_zero,
    val_main_v75_apply, lab_start a0 a1 a2 a3 hg, val_main_v80_apply, val_main_v79_apply, val_main_v78_apply,
    val_main_v77_apply, hg.lg0 b i]
  exact loss_real _ _

private theorem v93_at (hg : Good a0 a1 a2 a3) (b : Fin 256) (i : Fin 8192) :
    val_main_v93 (F := Ideal) a1 a3 (ix2 b i) = ((bce (lg a1 b i) (lab (sp a3) b (i.val : ℤ)) : ℝ) : EReal) := by
  rw [val_main_v93_apply, val_main_v88_apply, val_main_v86_apply, val_main_v85_apply, val_main_cst_24_apply, lit_zero,
    val_main_v87_apply, lab_end a0 a1 a2 a3 hg, val_main_v92_apply, val_main_v91_apply, val_main_v90_apply,
    val_main_v89_apply, hg.lg1 b i]
  exact loss_real _ _

private theorem v82_at (hg : Good a0 a1 a2 a3) (b : Fin 256) (i : Fin 8192) :
    val_main_v82 (F := Ideal) a0 a2 a3 (ix2 b i)
      = ((wgt (sp a2) (sp a2) (sp a3) b (i.val : ℤ) * bce (lg a0 b i) (lab (sp a2) b (i.val : ℤ)) : ℝ) : EReal) := by
  rw [val_main_v82_apply, v69_at a0 a1 a2 a3 hg, v81_at a0 a1 a2 a3 hg]
  exact (EReal.coe_mul _ _).symm

private theorem v94_at (hg : Good a0 a1 a2 a3) (b : Fin 256) (i : Fin 8192) :
    val_main_v94 (F := Ideal) a1 a2 a3 (ix2 b i)
      = ((wgt (sp a3) (sp a2) (sp a3) b (i.val : ℤ) * bce (lg a1 b i) (lab (sp a3) b (i.val : ℤ)) : ℝ) : EReal) := by
  rw [val_main_v94_apply, v72_at a0 a1 a2 a3 hg, v93_at a0 a1 a2 a3 hg]
  exact (EReal.coe_mul _ _).symm

/-! ## The sums and the means -/

private theorem v84_at (hg : Good a0 a1 a2 a3) (j : S_.Idx) :
    val_main_v84 (F := Ideal) a0 a2 a3 j = ((refHalf (lg a0) (sp a2) (sp a2) (sp a3) / 2097152 : ℝ) : EReal) := by
  have hs : ∑ k : S256x8192.Idx, val_main_v82 (F := Ideal) a0 a2 a3 k
      = ((refHalf (lg a0) (sp a2) (sp a2) (sp a3) : ℝ) : EReal) := by
    rw [sum_idx2]
    unfold refHalf
    rw [coe_sum]
    refine Finset.sum_congr rfl (fun b _ => ?_)
    rw [coe_sum]
    exact Finset.sum_congr rfl (fun i _ => v82_at a0 a1 a2 a3 hg b i)
  rw [val_main_v84_apply, val_main_v83_apply, hs, val_main_cst_22_apply, lit_zero, val_main_cst_23_apply, lit_count,
    EReal.coe_zero, zero_add]
  exact div_real _ _ (by norm_num)

private theorem v96_at (hg : Good a0 a1 a2 a3) (j : S_.Idx) :
    val_main_v96 (F := Ideal) a1 a2 a3 j = ((refHalf (lg a1) (sp a3) (sp a2) (sp a3) / 2097152 : ℝ) : EReal) := by
  have hs : ∑ k : S256x8192.Idx, val_main_v94 (F := Ideal) a1 a2 a3 k
      = ((refHalf (lg a1) (sp a3) (sp a2) (sp a3) : ℝ) : EReal) := by
    rw [sum_idx2]
    unfold refHalf
    rw [coe_sum]
    refine Finset.sum_congr rfl (fun b _ => ?_)
    rw [coe_sum]
    exact Finset.sum_congr rfl (fun i _ => v94_at a0 a1 a2 a3 hg b i)
  rw [val_main_v96_apply, val_main_v95_apply, hs, val_main_cst_25_apply, lit_zero, val_main_cst_26_apply, lit_count,
    EReal.coe_zero, zero_add]
  exact div_real _ _ (by norm_num)

end Halves

/-- The reference's result is the real number `SpanLoss.refTotal` of the argument arrays read as reals and integers. -/
theorem ref_value (a0 a1 : FVec Ideal S256x8192 .f32) (a2 a3 : IVec S256x8 32) (hg : SpanLoss.Good a0 a1 a2 a3) :
    Cert.ReferenceIdeal.ReadP.val_main_v97 (F := Ideal) a0 a1 a2 a3
      = fun _ => ((SpanLoss.refTotal (SpanLoss.lg a0) (SpanLoss.lg a1) (SpanLoss.sp a2) (SpanLoss.sp a3) : ℝ) : EReal) := by
  funext j
  rw [val_main_v97_apply, v84_at a0 a1 a2 a3 hg, v96_at a0 a1 a2 a3 hg]
  unfold refTotal
  exact (EReal.coe_add _ _).symm

end Cert.ReferenceIdeal.RefValue

end
-- ==== Proof.PreDecode.lean ====
/-
  From the printed precondition to its content.

  The precondition is one bit: the conjunction of six "for all entries" statements, each the fold by `and` of an array of
  one-bit comparisons. Two of them compare the absolute value of a logit with the pattern of +∞; four compare a span
  position, read as a signed integer, with 0 or with 8192. When the bit is 1 every conjunct is 1, so every folded
  array holds only 1s, and each comparison can be read at any single entry.

  At the extended reals the pattern 0x7F800000 denotes ⊤ and the absolute value of x is max x (-x). That maximum is ⊤
  exactly at x = ⊤ and at x = ⊥, so "max x (-x) < ⊤" says x is neither infinity: x is the real number it reads as.
  The integer comparisons are signed, and read back as 0 ≤ z and z < 8192 for the signed value z of the word.
-/
import Mathlib.Data.EReal.Basic
import Idealize.ShloMosaic.PureOps.Ideal
import Idealize.ShloMosaic.Lib.ValueIdx
import Idealize.ShloMosaic.Lib.ReduceAll
import Idealize.ShloMosaic.Lib.StableHlo.Predicate
import proofs.«423081_j13864154431993_3_alg».proof.Pre_finite_inputs
import proofs.«423081_j13864154431993_3_alg».proof.Proof.Gen.Pre_finite_inputs
import proofs.«423081_j13864154431993_3_alg».proof.Proof.Good

noncomputable section

namespace Cert.Proof.Pre

open Idealize.ShloMosaic Idealize.ShloMosaic.ValueIdx
open Cert.Pre_finite_inputs

/-! ## One entry -/

/-- The pattern of +∞ denotes the top of the extended reals. -/
theorem ofBits_inf : Ideal.ofBits .f32 0x7F800000#32 = (⊤ : EReal) := by
  simp [Ideal.ofBits, Ideal.ieee]

/-- An ordered "less than" answers 1 exactly when the strict inequality holds. -/
theorem cmp_olt_one (x y : EReal) : Ideal.cmp .olt x y = 1#1 ↔ x < y := by
  simp only [Ideal.cmp, StableHlo.Predicate.ofBool_eq_one_iff, decide_eq_true_eq]

/-- An extended real whose absolute value is below ⊤ is neither infinity, hence the real number it reads as. -/
theorem real_of_abs_lt_top (x : EReal) (h : max x (-x) < ⊤) : x = ((x.toReal : ℝ) : EReal) := by
  have ht : x ≠ ⊤ := by
    rintro rfl
    simp at h
  have hb : x ≠ ⊥ := by
    rintro rfl
    simp at h
  exact (EReal.coe_toReal ht hb).symm

/-- The signed value of the word 0. -/
theorem toInt_zero32 : (0#32 : BitVec 32).toInt = 0 := by decide

/-- The signed value of the word 8192. -/
theorem toInt_8192 : (8192#32 : BitVec 32).toInt = 8192 := by decide

/-! ## One array: the comparison read at any entry -/

/-- The scalar shape has a single index. -/
local instance : Subsingleton S_.Idx := ⟨fun a b => funext fun d => d.elim0⟩

section
variable [Facts]
open Facts

/-- Where the comparison of |a| with the broadcast +∞ is 1, the entry of `a` is a real number. -/
theorem fin_entry (a : FVec Ideal S256x8192 .f32) (j : S256x8192.Idx)
    (h : cmpf .olt (Host.absf a) (broadcastInDim S256x8192 ![] bcast_S_S256x8192 (constant (F := Ideal) S_ .f32 0x7F800000#32)) j = 1#1) :
    a j = ((EReal.toReal (a j) : ℝ) : EReal) := by
  have h' : Ideal.cmp .olt (max (a j) (-(a j))) (Ideal.ofBits .f32 0x7F800000#32) = 1#1 := h
  rw [ofBits_inf, cmp_olt_one] at h'
  exact real_of_abs_lt_top _ h'

/-- Where the signed "≥" against the broadcast 0 is 1, the entry's signed value is not negative. -/
theorem nonneg_entry (w : IVec S256x8 32) (j : S256x8.Idx)
    (h : cmpi .sge w (broadcastInDim S256x8 ![] bcast_S_S256x8 (constantI S_ 32 0#32)) j = 1#1) : 0 ≤ (w j).toInt := by
  have h' : IntOp.cmpi .sge (w j) (0#32) = 1#1 := h
  rw [IntOp.cmpi_sge, toInt_zero32] at h'
  exact h'

/-- Where the signed "<" against the broadcast 8192 is 1, the entry's signed value is below 8192. -/
theorem below_entry (w : IVec S256x8 32) (j : S256x8.Idx)
    (h : cmpi .slt w (broadcastInDim S256x8 ![] bcast_S_S256x8 (constantI S_ 32 8192#32)) j = 1#1) : (w j).toInt < 8192 := by
  have h' : IntOp.cmpi .slt (w j) (8192#32) = 1#1 := h
  rw [IntOp.cmpi_slt, toInt_8192] at h'
  exact h'

/-! ## The whole precondition -/

/-- The precondition's bit is 1 only when every logit is a real number and every span position lies in [0, 8192). -/
theorem good_of_pre (a0 a1 : FVec Ideal S256x8192 .f32) (a2 a3 : IVec S256x8 32)
    (h : Cert.Pre_finite_inputs.fn (F := Ideal) a0 a1 a2 a3 = (fun _ => 1#1)) : SpanLoss.Good a0 a1 a2 a3 := by
  have e := congrFun h ix0
  dsimp only [fn, fn_part1] at e
  simp only [andi, IntOp.andi_eq_one] at e
  obtain ⟨⟨⟨⟨⟨h0, h1⟩, h2lo⟩, h2hi⟩, h3lo⟩, h3hi⟩ := e
  exact
    { fin0 := fun j => fin_entry a0 j (Host.reduce_andi_all _ _ _ _ _ h0 j)
      fin1 := fun j => fin_entry a1 j (Host.reduce_andi_all _ _ _ _ _ h1 j)
      rng2 := fun j => ⟨nonneg_entry a2 j (Host.reduce_andi_all _ _ _ _ _ h2lo j),
                        below_entry a2 j (Host.reduce_andi_all _ _ _ _ _ h2hi j)⟩
      rng3 := fun j => ⟨nonneg_entry a3 j (Host.reduce_andi_all _ _ _ _ _ h3lo j),
                        below_entry a3 j (Host.reduce_andi_all _ _ _ _ _ h3hi j)⟩ }

end

end Cert.Proof.Pre

end
-- ==== Proof.SpecMath.lean ====
/-
  The two arrangements of the span-weighted loss agree as real numbers once every span position is a column.

  One logit array at a time: a labelled position carries (3/4)·bce(x,1) where the dense pass put negw·bce(x,0),
  and bce(x,0) is the dense pass's bce0(x). So one row's weighted sum is the dense row sum plus, for every position
  that some span labels, the difference of the two terms, each position once. Summing a function over the set of
  labelled positions is the same as summing it over the spans while skipping every span that repeats an earlier one:
  the first occurrences map one-to-one onto the set of values taken.
-/
import proofs.«423081_j13864154431993_3_alg».proof.Proof.Spec
import Mathlib.Algebra.BigOperators.Group.Finset.Basic
import Mathlib.Tactic.Ring
import Mathlib.Tactic.Linarith

noncomputable section

namespace SpanLoss

open Finset

/-- An in-range position read as a column and back is itself. -/
theorem col_val (z : ℤ) (h0 : 0 ≤ z) (h1 : z < 8192) : (((col z).val : ℕ) : ℤ) = z := by
  show (((z.toNat % 8192 : ℕ)) : ℤ) = z
  have h : z.toNat < 8192 := by omega
  rw [Nat.mod_eq_of_lt h]
  exact Int.toNat_of_nonneg h0

/-- A column read as a position and back is itself. -/
theorem col_cast (i : Fin 8192) : col ((i.val : ℕ) : ℤ) = i := by
  apply Fin.ext
  unfold col
  simp only [Int.toNat_natCast]
  exact Nat.mod_eq_of_lt i.isLt

/-- Against the label zero the product term of the cross entropy vanishes. -/
theorem bce_zero (x : ℝ) : bce x 0 = bce0 x := by
  unfold bce bce0
  ring

/-- Every value of the family is taken at an index that repeats no earlier one. -/
theorem exists_first (f : Fin 8 → ℤ) (s : Fin 8) :
    ∃ s0 : Fin 8, (¬ ∃ s' : Fin 8, s' < s0 ∧ f s' = f s0) ∧ f s0 = f s := by
  induction s using WellFoundedLT.induction with
  | ind s ih =>
    by_cases hd : ∃ s' : Fin 8, s' < s ∧ f s' = f s
    · obtain ⟨s', hlt, he⟩ := hd
      obtain ⟨s0, h0, h1⟩ := ih s' hlt
      exact ⟨s0, h0, h1.trans he⟩
    · exact ⟨s, hd, rfl⟩

/-- Summing over the columns that the family hits equals summing over the family with repeats skipped. -/
theorem sum_first (f : Fin 8 → ℤ) (G : ℤ → ℝ) (hf : ∀ s, 0 ≤ f s ∧ f s < 8192)
    [DecidablePred (fun i : Fin 8192 => ∃ s : Fin 8, f s = ((i.val : ℕ) : ℤ))]
    [DecidablePred (fun s : Fin 8 => ∃ s' : Fin 8, s' < s ∧ f s' = f s)] :
    (∑ i : Fin 8192, if (∃ s : Fin 8, f s = ((i.val : ℕ) : ℤ)) then G ((i.val : ℕ) : ℤ) else 0)
      = ∑ s : Fin 8, if (∃ s' : Fin 8, s' < s ∧ f s' = f s) then 0 else G (f s) := by
  classical
  -- both sides are the sum of G over the set of values of f
  have hL : (∑ i : Fin 8192, if (∃ s : Fin 8, f s = ((i.val : ℕ) : ℤ)) then G ((i.val : ℕ) : ℤ) else 0)
      = ∑ z ∈ (univ : Finset (Fin 8)).image f, G z := by
    rw [← Finset.sum_filter]
    have himg : (univ : Finset (Fin 8)).image f
        = ((univ : Finset (Fin 8192)).filter
            (fun i => ∃ s : Fin 8, f s = ((i.val : ℕ) : ℤ))).image (fun i => ((i.val : ℕ) : ℤ)) := by
      ext z
      simp only [mem_image, mem_univ, true_and, mem_filter]
      constructor
      · rintro ⟨s, rfl⟩
        exact ⟨col (f s), ⟨s, (col_val _ (hf s).1 (hf s).2).symm⟩, col_val _ (hf s).1 (hf s).2⟩
      · rintro ⟨i, ⟨s, hs⟩, rfl⟩
        exact ⟨s, hs⟩
    rw [himg, Finset.sum_image]
    intro a _ b _ hab
    have hab' : ((a.val : ℕ) : ℤ) = ((b.val : ℕ) : ℤ) := hab
    exact Fin.ext (by exact_mod_cast hab')
  have hR : (∑ s : Fin 8, if (∃ s' : Fin 8, s' < s ∧ f s' = f s) then 0 else G (f s))
      = ∑ z ∈ (univ : Finset (Fin 8)).image f, G z := by
    have hnot : ∀ s : Fin 8, (if (∃ s' : Fin 8, s' < s ∧ f s' = f s) then 0 else G (f s))
        = if ¬ (∃ s' : Fin 8, s' < s ∧ f s' = f s) then G (f s) else 0 := by
      intro s
      by_cases h : ∃ s' : Fin 8, s' < s ∧ f s' = f s
      · rw [if_pos h, if_neg (not_not.mpr h)]
      · rw [if_neg h, if_pos h]
    rw [Finset.sum_congr rfl (fun s _ => hnot s), ← Finset.sum_filter]
    have himg : (univ : Finset (Fin 8)).image f
        = ((univ : Finset (Fin 8)).filter
            (fun s => ¬ ∃ s' : Fin 8, s' < s ∧ f s' = f s)).image f := by
      ext z
      simp only [mem_image, mem_univ, true_and, mem_filter]
      constructor
      · rintro ⟨s, rfl⟩
        obtain ⟨s0, h0, h1⟩ := exists_first f s
        exact ⟨s0, h0, h1⟩
      · rintro ⟨s, _, rfl⟩
        exact ⟨s, rfl⟩
    rw [himg, Finset.sum_image]
    intro a ha b hb hab
    simp only [Finset.coe_filter, Set.mem_setOf_eq, mem_univ, true_and] at ha hb
    rcases lt_trichotomy a b with h | h | h
    · exact absurd ⟨a, h, hab⟩ hb
    · exact h
    · exact absurd ⟨b, h, hab.symm⟩ ha
  rw [hL, hR]

/-- One row of one logit array: the weighted loss is the dense row sum plus the once-per-position corrections. -/
theorem row_eq (x : Logits) (p st en : Spans) (hp : ∀ b s, 0 ≤ p b s ∧ p b s < 8192) (b : Fin 256) :
    (∑ i : Fin 8192, wgt p st en b ((i.val : ℕ) : ℤ) * bce (x b i) (lab p b ((i.val : ℕ) : ℤ)))
      = (∑ i : Fin 8192, negw st en b ((i.val : ℕ) : ℤ) * bce0 (x b i))
        + ∑ s : Fin 8, (open Classical in
            if Dup p b s then 0
            else (3 / 4 : ℝ) * bce (x b (col (p b s))) 1 - negw st en b (p b s) * bce (x b (col (p b s))) 0) := by
  classical
  have hG := @sum_first (p b)
    (fun z => (3 / 4 : ℝ) * bce (x b (col z)) 1 - negw st en b z * bce (x b (col z)) 0) (hp b)
    (fun _ => Classical.propDecidable _) (fun _ => Classical.propDecidable _)
  unfold Dup
  rw [← hG, ← Finset.sum_add_distrib]
  apply Finset.sum_congr rfl
  intro i _
  unfold wgt lab Hit
  by_cases h : ∃ s : Fin 8, p b s = ((i.val : ℕ) : ℤ)
  · rw [if_pos h, if_pos h, if_pos h, col_cast, bce_zero]
    ring
  · rw [if_neg h, if_neg h, if_neg h, bce_zero]
    ring

/-- One logit array: the weighted loss is the dense sum plus the correction. -/
theorem refHalf_eq (x : Logits) (p st en : Spans) (hp : ∀ b s, 0 ≤ p b s ∧ p b s < 8192) :
    refHalf x p st en
      = (∑ b : Fin 256, ∑ i : Fin 8192, negw st en b ((i.val : ℕ) : ℤ) * bce0 (x b i)) + corr x p st en := by
  unfold refHalf corr
  rw [← Finset.sum_add_distrib]
  apply Finset.sum_congr rfl
  intro b _
  exact row_eq x p st en hp b

/-- The dense pass splits by logit array. -/
theorem dense_split (x y : Logits) (st en : Spans) :
    dense x y st en
      = (∑ b : Fin 256, ∑ i : Fin 8192, negw st en b ((i.val : ℕ) : ℤ) * bce0 (x b i))
        + ∑ b : Fin 256, ∑ i : Fin 8192, negw st en b ((i.val : ℕ) : ℤ) * bce0 (y b i) := by
  unfold dense
  rw [← Finset.sum_add_distrib]
  apply Finset.sum_congr rfl
  intro b _
  rw [← Finset.sum_add_distrib]
  apply Finset.sum_congr rfl
  intro i _
  ring

/-- The two arrangements agree. -/
theorem ker_eq_ref (x y : Logits) (st en : Spans)
    (hst : ∀ b s, 0 ≤ st b s ∧ st b s < 8192) (hen : ∀ b s, 0 ≤ en b s ∧ en b s < 8192) :
    kerTotal x y st en = refTotal x y st en := by
  unfold kerTotal refTotal
  rw [refHalf_eq x st st en hst, refHalf_eq y en st en hen, dense_split]
  ring

end SpanLoss

end
-- ==== Proof.lean ====
/-
  The certificate of the span-weighted focal loss: a Pallas kernel with a host-side correction against its jnp reference,
  as extended reals.

  Both programs take two logit arrays f32[256, 8192] (start and end logits) and two position arrays i32[256, 8] (span
  starts and span ends). The reference builds a label array by setting `1` at every (row, span start) — respectively
  (row, span end) —, a weight array `3/4` at labelled positions and `(1 + m)² / 4` elsewhere, where `m` is the largest
  overlap score `1 / (end − start + 1)` of the position with the spans of its row that contain it, multiplies by the
  stable binary cross entropy of logit against label, and adds the two arrays' means.

  The kernel sums, over all positions of both arrays at once, the UNLABELLED form — weight `(1 + m)² / 4` times the
  cross entropy against `0` — on a 2 × 4 grid of 128 × 2048 blocks, each grid row accumulating into one 8 × 128 block of
  the output; the host then adds, for every labelled position once (the first span that hits it), the difference between
  the labelled term and the unlabelled term that the dense pass counted there, and divides once by 256 · 8192.

  The two agree as real numbers when every logit is finite and every span position lies in `[0, 8192)`: that is the
  precondition (outside that range the reference's scatter drops the label while the kernel's gather path does not).
  The proof: the precondition read as those two facts (`Pre.good_of_pre`); the kernel's run with its result buffer at
  the host lines' value and its arguments unchanged (`Hand.run_value`, `Hand.frame`), that value as the real number
  `kerTotal` (`Hand.kernel_value`: the region's output array sums to the dense pass, the host lines compute the
  correction); the reference's run and its value `refTotal` (`RefValue.ref_value`); and `kerTotal = refTotal`
  (`SpanLoss.ker_eq_ref`: per row, the labelled positions are the image of the eight spans' positions, and a sum over
  first occurrences is a sum over that image).
-/
import proofs.«423081_j13864154431993_3_alg».proof.Defs
import proofs.«423081_j13864154431993_3_alg».proof.Proof.Gen.Kernel
import proofs.«423081_j13864154431993_3_alg».proof.Proof.Gen.Kernel.Skeleton
import proofs.«423081_j13864154431993_3_alg».proof.Proof.Gen.Kernel.Launch
import proofs.«423081_j13864154431993_3_alg».proof.Proof.Gen.Kernel.Points
import proofs.«423081_j13864154431993_3_alg».proof.Proof.Gen.KernelIdeal
import proofs.«423081_j13864154431993_3_alg».proof.Proof.Gen.KernelIdeal.Skeleton
import proofs.«423081_j13864154431993_3_alg».proof.Proof.Gen.KernelIdeal.Launch
import proofs.«423081_j13864154431993_3_alg».proof.Proof.Gen.KernelIdeal.Points
import proofs.«423081_j13864154431993_3_alg».proof.Proof.Gen.ReferenceIdeal
import proofs.«423081_j13864154431993_3_alg».proof.Proof.Gen.Pre_finite_inputs
import proofs.«423081_j13864154431993_3_alg».proof.Proof.KFrame
import proofs.«423081_j13864154431993_3_alg».proof.Proof.KIFrame
import proofs.«423081_j13864154431993_3_alg».proof.Proof.KIValue
import proofs.«423081_j13864154431993_3_alg».proof.Proof.RefRunP
import proofs.«423081_j13864154431993_3_alg».proof.Proof.RefReadP
import proofs.«423081_j13864154431993_3_alg».proof.Proof.RefValue
import proofs.«423081_j13864154431993_3_alg».proof.Proof.PreDecode
import proofs.«423081_j13864154431993_3_alg».proof.Proof.SpecMath
import Idealize.ShloMosaic.Adequacy
import Idealize.ShloMosaic.Init

noncomputable section

namespace Cert.Proof

open Idealize.ShloMosaic Idealize.ShloMosaic.TcCoe Idealize.SL.Sem

/-- The word-level kernel program runs to the end, faults nowhere, and leaves its four arguments as launched. -/
theorem frame_k : Cert.frame_Kernel (hKernel := Cert.Kernel.Gen.facts) (hPre_finite_inputs := Cert.Pre_finite_inputs.Gen.facts) :=
  fun m ρ _ => Cert.Kernel.Hand.frame m ρ

/-- The same program read over the extended reals. -/
theorem frame_ki : Cert.frame_KernelIdeal (hKernelIdeal := Cert.KernelIdeal.Gen.facts) (hPre_finite_inputs := Cert.Pre_finite_inputs.Gen.facts) :=
  fun m ρ _ => Cert.KernelIdeal.Hand.frame m ρ

/-- The reference is host operations only: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.ValueP.run (F := Ideal) m ρ)

/-- From memories that agree on the arguments and satisfy the precondition, both programs end with the real number
    `kerTotal` of the arguments in their result buffer: the kernel's by `kernel_value`, the reference's `refTotal`
    by `ref_value`, and the two totals are equal. -/
theorem algebraic : Cert.algebraic_KernelIdeal_ReferenceIdeal (hKernelIdeal := Cert.KernelIdeal.Gen.facts) (hReferenceIdeal := Cert.ReferenceIdeal.Gen.facts) (hPre_finite_inputs := Cert.Pre_finite_inputs.Gen.facts) := by
  intro m ρ m' ρ' hpre hagree
  have hg : ∀ c : Dev Cert.KernelIdeal.nD, SpanLoss.Good (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) :=
    fun c => Cert.Proof.Pre.good_of_pre _ _ _ _ (hpre c)
  refine ⟨fun c => fun _ => ((SpanLoss.kerTotal (SpanLoss.lg (m ((c.tc : Thread Cert.KernelIdeal.nD Cert.KernelIdeal.τ).loc Cert.KernelIdeal.main_arg0))) (SpanLoss.lg (m ((c.tc : Thread Cert.KernelIdeal.nD Cert.KernelIdeal.τ).loc Cert.KernelIdeal.main_arg1))) (SpanLoss.sp (m ((c.tc : Thread Cert.KernelIdeal.nD Cert.KernelIdeal.τ).loc Cert.KernelIdeal.main_arg2))) (SpanLoss.sp (m ((c.tc : Thread Cert.KernelIdeal.nD Cert.KernelIdeal.τ).loc Cert.KernelIdeal.main_arg3))) : ℝ) : EReal), ?_, ?_⟩
  · exact (θ_run Cert.KernelIdeal.defs _ _).mono (fun r h c => ⟨(h c).1.trans (Cert.KernelIdeal.Hand.kernel_value m c (hg c)), (h c).2⟩)
      (Cert.KernelIdeal.Hand.run_value m ρ)
  · refine (θ_run Cert.ReferenceIdeal.defs _ _).mono (fun r h c => ⟨(h c).1.trans ?_, (h c).2⟩)
      (Cert.ReferenceIdeal.ValueP.run (F := Ideal) m' ρ')
    rw [Cert.ReferenceIdeal.ReadP.val_main_v97_eq, (hagree c).1, (hagree c).2.1, (hagree c).2.2.1, (hagree c).2.2.2,
      Cert.ReferenceIdeal.RefValue.ref_value _ _ _ _ (hg c)]
    exact funext fun _ => congrArg (fun t : ℝ => (t : EReal))
      (SpanLoss.ker_eq_ref _ _ _ _ (fun b s => (hg c).sp2 b s) (fun b s => (hg c).sp3 b s)).symm

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
